-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x2 : Shape := ⟨2, ![2, 2]⟩
abbrev S2 : Shape := ⟨1, ![2]⟩
abbrev S64x2 : Shape := ⟨2, ![64, 2]⟩
abbrev S64 : Shape := ⟨1, ![64]⟩
abbrev S2x64 : Shape := ⟨2, ![2, 64]⟩
abbrev S2x16000000 : Shape := ⟨2, ![2, 16000000]⟩
abbrev S1000000 : Shape := ⟨1, ![1000000]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_

variable [Facts]

def fn_part3 {F : FTy → Type} [FloatOps F] (main_arg11 : FVec F S2 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S2 .f32) (main_arg8 : FVec F S64x2 .f32) (main_arg9 : FVec F S64 .f32) (main_arg10 : FVec F S2x64 .f32) (main_arg11 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S64x2 .f32 := Host.absf main_arg8
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_v48 main_v49 main_v50

def fn_part1 {F : FTy → Type} [FloatOps F] (main_arg4 : FVec F S2 .f32) (main_arg5 : FVec F S2 .f32) (main_arg6 : FVec F S2x2 .f32) (main_arg7 : FVec F S2 .f32) (main_arg8 : FVec F S64x2 .f32) (main_arg9 : FVec F S64 .f32) (main_arg10 : FVec F S2x64 .f32) (main_arg11 : FVec F S2 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x2 .f32 := Host.absf main_arg6
  let main_cst_10 : FVec F S_ .f32 := constant S_ .f32 0x7F800000#32
  let main_v30 : FVec F S2x2 .f32 := broadcastInDim S2x2 ![] bcast_S_S2x2 main_cst_10
  let main_v31 : IVec S2x2 1 := cmpf .olt main_v29 main_v30
  let main_c_11 : IVec S_ 1 := constantI S_ 1 1#1
  let main_v32 : IVec S_ 1 := (fun x v => Host.reduce IntOp.andi x v reducesTo_S2x2_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1000000x2 .f32) (main_arg1 : FVec F S2x2 .f32) (main_arg2 : FVec F S2 .f32) (main_arg3 : FVec F S2 .f32) (main_arg4 : FVec F S2 .f32) (main_arg5 : FVec F S2 .f32) (main_arg6 : FVec F S2x2 .f32) (main_arg7 : FVec F S2 .f32) (main_arg8 : FVec F S64x2 .f32) (main_arg9 : FVec F S64 .f32) (main_arg10 : FVec F S2x64 .f32) (main_arg11 : FVec F S2 .f32) (main_arg12 : IVec S2x16000000 32) (main_arg13 : IVec S1000000 32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_arg5 main_arg6 main_arg7 main_arg8 main_arg9 main_arg10 main_arg11 main_v13 main_v16
-- ==== Kernel.lean ====
abbrev S1000000x2 : Shape := ⟨2, ![1000000, 2]⟩
abbrev S2x2 : Shape := ⟨2, ![2, 2]⟩
abbrev S2 : Shape := ⟨1, ![2]⟩
abbrev S64x2 : Shape := ⟨2, ![64, 2]⟩
abbrev S64 : Shape := ⟨1, ![64]⟩
abbrev S2x64 : Shape := ⟨2, ![2, 64]⟩
abbrev S2x16000000 : Shape := ⟨2, ![2, 16000000]⟩
abbrev S1000000 : Shape := ⟨1, ![1000000]⟩
abbrev S1x16000000 : Shape := ⟨2, ![1, 16000000]⟩
abbrev S16000000 : Shape := ⟨1, ![16000000]⟩
abbrev S1x2 : Shape := ⟨2, ![1, 2]⟩
abbrev S8000x2 : Shape := ⟨2, ![8000, 2]⟩
abbrev S_ : Shape := ⟨0, ![]⟩
abbrev S16000000x1 : Shape := ⟨2, ![16000000, 1]⟩
abbrev S16000000x2 : Shape := ⟨2, ![16000000, 2]⟩
abbrev S1000000x1 : Shape := ⟨2, ![1000000, 1]⟩
abbrev S1024x2 : Shape := ⟨2, ![1024, 2]⟩
abbrev S2000x2 : Shape := ⟨2, ![2000, 2]⟩
abbrev S2000x1 : Shape := ⟨2, ![2000, 1]⟩
abbrev S1024x1 : Shape := ⟨2, ![1024, 1]⟩
abbrev S2000x64 : Shape := ⟨2, ![2000, 64]⟩
abbrev S1x64 : Shape := ⟨2, ![1, 64]⟩
abbrev S2000 : Shape := ⟨1, ![2000]⟩
abbrev S1024x2000 : Shape := ⟨2, ![1024, 2000]⟩
abbrev S1x2000 : Shape := ⟨2, ![1, 2000]⟩
abbrev S1024 : Shape := ⟨1, ![1024]⟩

abbrev nBuf : Space → Nat
  | .hbm => 77
  | .vmem => 35
  | .smem => 0
  | _ => 0

abbrev bufTy : (tb : Table) → Fin (tcTables nBuf tb) → BufTy
  | .hbm, ⟨0, _⟩ => ⟨S1000000x2, .f32⟩
  | .hbm, ⟨1, _⟩ => ⟨S2x2, .f32⟩
  | .hbm, ⟨2, _⟩ => ⟨S2, .f32⟩
  | .hbm, ⟨3, _⟩ => ⟨S2, .f32⟩
  | .hbm, ⟨4, _⟩ => ⟨S2, .f32⟩
  | .hbm, ⟨5, _⟩ => ⟨S2, .f32⟩
  | .hbm, ⟨6, _⟩ => ⟨S2x2, .f32⟩
  | .hbm, ⟨7, _⟩ => ⟨S2, .f32⟩
  | .hbm, ⟨8, _⟩ => ⟨S64x2, .f32⟩
  | .hbm, ⟨9, _⟩ => ⟨S64, .f32⟩
  | .hbm, ⟨10, _⟩ => ⟨S2x64, .f32⟩
  | .hbm, ⟨11, _⟩ => ⟨S2, .f32⟩
  | .hbm, ⟨12, _⟩ => ⟨S2x16000000, .i32⟩
  | .hbm, ⟨13, _⟩ => ⟨S1000000, .i32⟩
  | .hbm, ⟨14, _⟩ => ⟨S1x16000000, .i32⟩
  | .hbm, ⟨15, _⟩ => ⟨S16000000, .i32⟩
  | .hbm, ⟨16, _⟩ => ⟨S1x16000000, .i32⟩
  | .hbm, ⟨17, _⟩ => ⟨S16000000, .i32⟩
  | .hbm, ⟨18, _⟩ => ⟨S1x2, .f32⟩
  | .hbm, ⟨19, _⟩ => ⟨S1x2, .f32⟩
  | .hbm, ⟨20, _⟩ => ⟨S1000000x2, .f32⟩
  | .hbm, ⟨21, _⟩ => ⟨S1000000x2, .f32⟩
  | .hbm, ⟨22, _⟩ => ⟨S_, .f32⟩
  | .hbm, ⟨23, _⟩ => ⟨S16000000, .f32⟩
  | .hbm, ⟨24, _⟩ => ⟨S_, .f32⟩
  | .hbm, ⟨25, _⟩ => ⟨S1000000, .f32⟩
  | .hbm, ⟨26, _⟩ => ⟨S16000000x1, .i32⟩
  | .hbm, ⟨27, _⟩ => ⟨S1000000, .f32⟩
  | .hbm, ⟨28, _⟩ => ⟨S_, .f32⟩
  | .hbm, ⟨29, _⟩ => ⟨S1000000, .f32⟩
  | .hbm, ⟨30, _⟩ => ⟨S1000000, .f32⟩
  | .hbm, ⟨31, _⟩ => ⟨S1000000, .f32⟩
  | .hbm, ⟨32, _⟩ => ⟨S_, .i32⟩
  | .hbm, ⟨33, _⟩ => ⟨S16000000, .i32⟩
  | .hbm, ⟨34, _⟩ => ⟨S16000000, .i1⟩
  | .hbm, ⟨35, _⟩ => ⟨S_, .i32⟩
  | .hbm, ⟨36, _⟩ => ⟨S16000000, .i32⟩
  | .hbm, ⟨37, _⟩ => ⟨S16000000, .i32⟩
  | .hbm, ⟨38, _⟩ => ⟨S16000000, .i32⟩
  | .hbm, ⟨39, _⟩ => ⟨S16000000x1, .i32⟩
  | .hbm, ⟨40, _⟩ => ⟨S16000000, .f32⟩
  | .hbm, ⟨41, _⟩ => ⟨S_, .i32⟩
  | .hbm, ⟨42, _⟩ => ⟨S16000000, .i32⟩
  | .hbm, ⟨43, _⟩ => ⟨S16000000, .i1⟩
  | .hbm, ⟨44, _⟩ => ⟨S_, .i32⟩
  | .hbm, ⟨45, _⟩ => ⟨S16000000, .i32⟩
  | .hbm, ⟨46, _⟩ => ⟨S16000000, .i32⟩
  | .hbm, ⟨47, _⟩ => ⟨S16000000, .i32⟩
  | .hbm, ⟨48, _⟩ => ⟨S16000000x1, .i32⟩
  | .hbm, ⟨49, _⟩ => ⟨S16000000, .f32⟩
  | .hbm, ⟨50, _⟩ => ⟨S16000000, .f32⟩
  | .hbm, ⟨51, _⟩ => ⟨S16000000x1, .f32⟩
  | .hbm, ⟨52, _⟩ => ⟨S_, .i32⟩
  | .hbm, ⟨53, _⟩ => ⟨S16000000, .i32⟩
  | .hbm, ⟨54, _⟩ => ⟨S16000000, .i1⟩
  | .hbm, ⟨55, _⟩ => ⟨S_, .i32⟩
  | .hbm, ⟨56, _⟩ => ⟨S16000000, .i32⟩
  | .hbm, ⟨57, _⟩ => ⟨S16000000, .i32⟩
  | .hbm, ⟨58, _⟩ => ⟨S16000000, .i32⟩
  | .hbm, ⟨59, _⟩ => ⟨S16000000x1, .i32⟩
  | .hbm, ⟨60, _⟩ => ⟨S16000000x2, .f32⟩
  | .hbm, ⟨61, _⟩ => ⟨S16000000x2, .f32⟩
  | .hbm, ⟨62, _⟩ => ⟨S16000000x2, .f32⟩
  | .hbm, ⟨63, _⟩ => ⟨S_, .f32⟩
  | .hbm, ⟨64, _⟩ => ⟨S1000000x2, .f32⟩
  | .hbm, ⟨65, _⟩ => ⟨S16000000x1, .i32⟩
  | .hbm, ⟨66, _⟩ => ⟨S1000000x2, .f32⟩
  | .hbm, ⟨67, _⟩ => ⟨S1000000, .f32⟩
  | .hbm, ⟨68, _⟩ => ⟨S1000000x1, .f32⟩
  | .hbm, ⟨69, _⟩ => ⟨S1000000x2, .f32⟩
  | .hbm, ⟨70, _⟩ => ⟨S1000000x2, .f32⟩
  | .hbm, ⟨71, _⟩ => ⟨S1000000x2, .f32⟩
  | .hbm, ⟨72, _⟩ => ⟨S1x2, .f32⟩
  | .hbm, ⟨73, _⟩ => ⟨S1000000x2, .f32⟩
  | .hbm, ⟨74, _⟩ => ⟨S1000000x2, .f32⟩
  | .hbm, ⟨75, _⟩ => ⟨S1000000x1, .i32⟩
  | .hbm, ⟨76, _⟩ => ⟨S1024x2, .f32⟩
  | .local _ .vmem, ⟨0, _⟩ => ⟨S8000x2, .f32⟩
  | .local _ .vmem, ⟨1, _⟩ => ⟨S8000x2, .f32⟩
  | .local _ .vmem, ⟨2, _⟩ => ⟨S2x2, .f32⟩
  | .local _ .vmem, ⟨3, _⟩ => ⟨S2, .f32⟩
  | .local _ .vmem, ⟨4, _⟩ => ⟨S1x2, .f32⟩
  | .local _ .vmem, ⟨5, _⟩ => ⟨S1x2, .f32⟩
  | .local _ .vmem, ⟨6, _⟩ => ⟨S1x2, .f32⟩
  | .local _ .vmem, ⟨7, _⟩ => ⟨S1x2, .f32⟩
  | .local _ .vmem, ⟨8, _⟩ => ⟨S8000x2, .f32⟩
  | .local _ .vmem, ⟨9, _⟩ => ⟨S8000x2, .f32⟩
  | .local _ .vmem, ⟨10, _⟩ => ⟨S2x2, .f32⟩
  | .local _ .vmem, ⟨11, _⟩ => ⟨S2, .f32⟩
  | .local _ .vmem, ⟨12, _⟩ => ⟨S2, .f32⟩
  | .local _ .vmem, ⟨13, _⟩ => ⟨S2, .f32⟩
  | .local _ .vmem, ⟨14, _⟩ => ⟨S2, .f32⟩
  | .local _ .vmem, ⟨15, _⟩ => ⟨S2x2, .f32⟩
  | .local _ .vmem, ⟨16, _⟩ => ⟨S1x2, .f32⟩
  | .local _ .vmem, ⟨17, _⟩ => ⟨S1x2, .f32⟩
  | .local _ .vmem, ⟨18, _⟩ => ⟨S8000x2, .f32⟩
  | .local _ .vmem, ⟨19, _⟩ => ⟨S8000x2, .f32⟩
  | .local _ .vmem, ⟨20, _⟩ => ⟨S8000x2, .f32⟩
  | .local _ .vmem, ⟨21, _⟩ => ⟨S8000x2, .f32⟩
  | .local _ .vmem, ⟨22, _⟩ => ⟨S2000x2, .f32⟩
  | .local _ .vmem, ⟨23, _⟩ => ⟨S2000x2, .f32⟩
  | .local _ .vmem, ⟨24, _⟩ => ⟨S2000x2, .f32⟩
  | .local _ .vmem, ⟨25, _⟩ => ⟨S2000x2, .f32⟩
  | .local _ .vmem, ⟨26, _⟩ => ⟨S2000x1, .i32⟩
  | .local _ .vmem, ⟨27, _⟩ => ⟨S2000x1, .i32⟩
  | .local _ .vmem, ⟨28, _⟩ => ⟨S64x2, .f32⟩
  | .local _ .vmem, ⟨29, _⟩ => ⟨S64, .f32⟩
  | .local _ .vmem, ⟨30, _⟩ => ⟨S2x64, .f32⟩
  | .local _ .vmem, ⟨31, _⟩ => ⟨S2, .f32⟩
  | .local _ .vmem, ⟨32, _⟩ => ⟨S1024x2, .f32⟩
  | .local _ .vmem, ⟨33, _⟩ => ⟨S1024x2, .f32⟩
  | .local _ .vmem, ⟨34, _⟩ => ⟨S1024x1, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v5_0 : Ref sig .tc := ⟨.hbm, 20, rfl⟩
abbrev main_v5_1 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_scratch0 : Ref sig .tc := ⟨.vmem, 33, rfl⟩
abbrev cc2_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v26 : BitVec 1 := Scalar.cmpi .eq arg0 c124_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![500], ![false]⟩

def k2_cond2 (i : grid2.Coords) : BitVec 1 :=
  let arg0 : BitVec 32 := BitVec.ofNat 32 (i 0).val
  let c499_i32 : BitVec 32 := 499#32
  let v63 : BitVec 1 := Scalar.cmpi .eq arg0 c499_i32
  let v64 : BitVec 32 := Scalar.extui v63
  let c0_i32_28 : BitVec 32 := 0#32
  let v65 : BitVec 1 := Scalar.cmpi .ne v64 c0_i32_28
  v65

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  inb_S8000x2_S8000x2_0_0 : ∀ a, (![0, 0] : Fin 2 → Nat) a + S8000x2.size a ≤ S8000x2.size a
  h_S8000x2 : 0 < S8000x2.numel
  inb_S2x2_S2x2_0_0 : ∀ a, (![0, 0] : Fin 2 → Nat) a + S2x2.size a ≤ S2x2.size a
  h_S2x2 : 0 < S2x2.numel
  transposes_S2x2_p1_0_S2x2 : S2x2.Transposes [1, 0] S2x2
  inb_S2_S2_0 : ∀ a, (![0] : Fin 1 → Nat) a + S2.size a ≤ S2.size a
  h_S2 : 0 < S2.numel
  shapeCasts_S2_S1x2 : S2.ShapeCasts S1x2
  broadcasts_S1x2_S8000x2 : S1x2.Broadcasts S8000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  reduces_S8000x2_S2 : S8000x2.Reduces [0] S2
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S16000000x1_S16000000x2_0_1 : S16000000x1.BroadcastsInDim S16000000x2 (![0, 1] : Fin 2 → Fin S16000000x2.rank)
  bcast_S_S1000000x2 : S_.BroadcastsInDim S1000000x2 (![] : Fin 0 → Fin S1000000x2.rank)
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  shapeCasts_S1000000_S1000000x1 : S1000000.ShapeCasts S1000000x1
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S64x2_S64x2_0_0 : ∀ a, (![0, 0] : Fin 2 → Nat) a + S64x2.size a ≤ S64x2.size a
  h_S64x2 : 0 < S64x2.numel
  transposes_S64x2_p1_0_S2x64 : S64x2.Transposes [1, 0] S2x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  broadcasts_S1x2_S2000x2 : S1x2.Broadcasts S2000x2
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  iota_S1024x2000_d0_w32 : S1024x2000.Iotas .tc 32 [0]
  shapeCasts_S2000_S1x2000 : S2000.ShapeCasts S1x2000
  broadcasts_S1x2000_S1024x2000 : S1x2000.Broadcasts S1024x2000
  natLt_1_32 : 1 < 32
  reduces_S1024x2000_S1024 : S1024x2000.Reduces [1] S1024
  shapeCasts_S1024_S1024x1 : S1024.ShapeCasts S1024x1
  broadcasts_S1024x1_S1024x2 : S1024x1.Broadcasts S1024x2
  dot_S8000x2_S2x2_S8000x2_1_0_0_1_n_n_wf : DotDims.WF S8000x2 S2x2 S8000x2 [1] [0] [0] [1] [] []
  scatter_S1000000_S16000000x1_S16000000_n_0_0_1_wf : ScatterDims.WF S1000000 S16000000x1 S16000000 [] [0] [0] 1
  gather_S1000000_S16000000x1_S16000000_n_0_n_n_0_1_1_wf : GatherDims.WF S1000000 S16000000x1 S16000000 [] [0] [] [0] [] 1 ![1]
  gather_S1000000x2_S16000000x1_S16000000x2_1_0_n_n_0_1_12_wf : GatherDims.WF S1000000x2 S16000000x1 S16000000x2 [1] [0] [] [0] [] 1 ![1, 2]
  scatter_S1000000x2_S16000000x1_S16000000x2_1_0_0_1_wf : ScatterDims.WF S1000000x2 S16000000x1 S16000000x2 [1] [0] [0] 1
  dot_S2000x2_S2x64_S2000x64_1_0_0_1_n_n_wf : DotDims.WF S2000x2 S2x64 S2000x64 [1] [0] [0] [1] [] []
  dot_S2000x64_S64x2_S2000x2_1_0_0_1_n_n_wf : DotDims.WF S2000x64 S64x2 S2000x2 [1] [0] [0] [1] [] []
  dot_S1024x2000_S2000x2_S1024x2_1_0_0_1_n_n_wf : DotDims.WF S1024x2000 S2000x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S1000000x2.size a
  hwx0_0 : ∀ i : grid0.Coords, EltTy.bits .f32 = 32 ∨ (Rect.block (s := S1000000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x2.size a ≤ S1000000x2.size a
  hwx1_0 : ∀ i : grid1.Coords, EltTy.bits .f32 = 32 ∨ (Rect.block (s := S1000000x2) S8000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x2.size a ≤ S2x2.size a
  hwx1_1 : ∀ i : grid1.Coords, EltTy.bits .f32 = 32 ∨ (Rect.block (s := S2x2) S2x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2.size a ≤ S2.size a
  hwx1_2 : ∀ i : grid1.Coords, EltTy.bits .f32 = 32 ∨ (Rect.block (s := S2) S2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2.size a ≤ S2.size a
  hwx1_3 : ∀ i : grid1.Coords, EltTy.bits .f32 = 32 ∨ (Rect.block (s := S2) S2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2.size a ≤ S2.size a
  hwx1_4 : ∀ i : grid1.Coords, EltTy.bits .f32 = 32 ∨ (Rect.block (s := S2) S2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2.size a ≤ S2.size a
  hwx1_5 : ∀ i : grid1.Coords, EltTy.bits .f32 = 32 ∨ (Rect.block (s := S2) S2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x2.size a ≤ S2x2.size a
  hwx1_6 : ∀ i : grid1.Coords, EltTy.bits .f32 = 32 ∨ (Rect.block (s := S2x2) S2x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x2.size a ≤ S1000000x2.size a
  hwx1_9 : ∀ i : grid1.Coords, EltTy.bits .f32 = 32 ∨ (Rect.block (s := S1000000x2) S8000x2.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x2.size a ≤ S1000000x2.size a
  hwx1_10 : ∀ i : grid1.Coords, EltTy.bits .f32 = 32 ∨ (Rect.block (s := S1000000x2) S8000x2.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S1000000x2.size a
  hwx2_0 : ∀ i : grid2.Coords, EltTy.bits .f32 = 32 ∨ (Rect.block (s := S1000000x2) S2000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x2.size a ≤ S1000000x2.size a
  hwx2_1 : ∀ i : grid2.Coords, EltTy.bits .f32 = 32 ∨ (Rect.block (s := S1000000x2) S2000x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S1000000x1.size a
  hwx2_2 : ∀ i : grid2.Coords, EltTy.bits .i32 = 32 ∨ (Rect.block (s := S1000000x1) S2000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2x64.size a ≤ S2x64.size a
  hwx2_5 : ∀ i : grid2.Coords, EltTy.bits .f32 = 32 ∨ (Rect.block (s := S2x64) S2x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2.size a ≤ S2.size a
  hwx2_6 : ∀ i : grid2.Coords, EltTy.bits .f32 = 32 ∨ (Rect.block (s := S2) S2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024x2.size a ≤ S1024x2.size a
  hwx2_7 : ∀ i : grid2.Coords, EltTy.bits .f32 = 32 ∨ (Rect.block (s := S1024x2) S1024x2.size (cc2_transform_7 i) (hinb2_7 i)).WholeWords (EltTy.packing .f32)

variable [Facts₀]

def dot_S8000x2_S2x2_S8000x2_1_0_0_1_n_n : DotDims S8000x2 S2x2 S8000x2 where
  lhsContracting := [1]
  rhsContracting := [0]
  lhsNonContracting := [0]
  rhsNonContracting := [1]
  lhsBatch := []
  rhsBatch := []
  wf := dot_S8000x2_S2x2_S8000x2_1_0_0_1_n_n_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S1000000x2_S16000000x1_S16000000x2_1_0_n_n_0_1_12 : GatherDims S1000000x2 S16000000x1 S16000000x2 where
  offsetDims := [1]
  collapsedSliceDims := [0]
  operandBatchingDims := []
  startIndicesBatchingDims := []
  startIndexMap := [0]
  indexVectorDim := 1
  sliceSizes := ![1, 2]
  wf := gather_S1000000x2_S16000000x1_S16000000x2_1_0_n_n_0_1_12_wf
def scatter_S1000000x2_S16000000x1_S16000000x2_1_0_0_1 : ScatterDims S1000000x2 S16000000x1 S16000000x2 where
  updateWindowDims := [1]
  insertedWindowDims := [0]
  scatterDimsToOperandDims := [0]
  indexVectorDim := 1
  wf := scatter_S1000000x2_S16000000x1_S16000000x2_1_0_0_1_wf
def dot_S2000x2_S2x64_S2000x64_1_0_0_1_n_n : DotDims S2000x2 S2x64 S2000x64 where
  lhsContracting := [1]
  rhsContracting := [0]
  lhsNonContracting := [0]
  rhsNonContracting := [1]
  lhsBatch := []
  rhsBatch := []
  wf := dot_S2000x2_S2x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def dot_S1024x2000_S2000x2_S1024x2_1_0_0_1_n_n : DotDims S1024x2000 S2000x2 S1024x2 where
  lhsContracting := [1]
  rhsContracting := [0]
  lhsNonContracting := [0]
  rhsNonContracting := [1]
  lhsBatch := []
  rhsBatch := []
  wf := dot_S1024x2000_S2000x2_S1024x2_1_0_0_1_n_n_wf

abbrev win0_0 : Pipeline.Window sig grid0 :=
  Pipeline.Window.ofSpec (Memref.whole main_arg0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x2.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S8000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S2x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4_0) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4_1) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5_0) S8000x2.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v5_1) S8000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v48) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S2000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S2x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S1024x2.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S1000000x2 : Shape := ⟨2, ![1000000, 2]⟩
abbrev S2x2 : Shape := ⟨2, ![2, 2]⟩
abbrev S2 : Shape := ⟨1, ![2]⟩
abbrev S64x2 : Shape := ⟨2, ![64, 2]⟩
abbrev S64 : Shape := ⟨1, ![64]⟩
abbrev S2x64 : Shape := ⟨2, ![2, 64]⟩
abbrev S2x16000000 : Shape := ⟨2, ![2, 16000000]⟩
abbrev S1000000 : Shape := ⟨1, ![1000000]⟩
abbrev S1x2 : Shape := ⟨2, ![1, 2]⟩
abbrev S_ : Shape := ⟨0, ![]⟩
abbrev S1x16000000 : Shape := ⟨2, ![1, 16000000]⟩
abbrev S16000000 : Shape := ⟨1, ![16000000]⟩
abbrev S16000000x1 : Shape := ⟨2, ![16000000, 1]⟩
abbrev S16000000x2 : Shape := ⟨2, ![16000000, 2]⟩
abbrev S1000000x1 : Shape := ⟨2, ![1000000, 1]⟩
abbrev S1000000x64 : Shape := ⟨2, ![1000000, 64]⟩
abbrev S1x64 : Shape := ⟨2, ![1, 64]⟩
abbrev S1024x2 : Shape := ⟨2, ![1024, 2]⟩
abbrev S1024 : Shape := ⟨1, ![1024]⟩
abbrev S1024x1 : Shape := ⟨2, ![1024, 1]⟩

abbrev nBuf : Space → Nat
  | .hbm => 158
  | .vmem => 0
  | .smem => 0
  | _ => 0

abbrev hbmTy0_0 (i : Nat) : BufTy := match i % 128 with
  | 0 => ⟨S1000000x2, .f32⟩
  | 1 => ⟨S2x2, .f32⟩
  | 2 => ⟨S2, .f32⟩
  | 3 => ⟨S2, .f32⟩
  | 4 => ⟨S2, .f32⟩
  | 5 => ⟨S2, .f32⟩
  | 6 => ⟨S2x2, .f32⟩
  | 7 => ⟨S2, .f32⟩
  | 8 => ⟨S64x2, .f32⟩
  | 9 => ⟨S64, .f32⟩
  | 10 => ⟨S2x64, .f32⟩
  | 11 => ⟨S2, .f32⟩
  | 12 => ⟨S2x16000000, .i32⟩
  | 13 => ⟨S1000000, .i32⟩
  | 14 => ⟨S2x2, .f32⟩
  | 15 => ⟨S1000000x2, .f32⟩
  | 16 => ⟨S1x2, .f32⟩
  | 17 => ⟨S1000000x2, .f32⟩
  | 18 => ⟨S1000000x2, .f32⟩
  | 19 => ⟨S_, .f32⟩
  | 20 => ⟨S2, .f32⟩
  | 21 => ⟨S_, .f32⟩
  | 22 => ⟨S2, .f32⟩
  | 23 => ⟨S2, .f32⟩
  | 24 => ⟨S2, .f32⟩
  | 25 => ⟨S1x2, .f32⟩
  | 26 => ⟨S1000000x2, .f32⟩
  | 27 => ⟨S1000000x2, .f32⟩
  | 28 => ⟨S1000000x2, .f32⟩
  | 29 => ⟨S_, .f32⟩
  | 30 => ⟨S2, .f32⟩
  | 31 => ⟨S_, .f32⟩
  | 32 => ⟨S2, .f32⟩
  | 33 => ⟨S2, .f32⟩
  | 34 => ⟨S1x2, .f32⟩
  | 35 => ⟨S1000000x2, .f32⟩
  | 36 => ⟨S1000000x2, .f32⟩
  | 37 => ⟨S_, .f32⟩
  | 38 => ⟨S2, .f32⟩
  | 39 => ⟨S2, .f32⟩
  | 40 => ⟨S2, .f32⟩
  | 41 => ⟨S1x2, .f32⟩
  | 42 => ⟨S1000000x2, .f32⟩
  | 43 => ⟨S1000000x2, .f32⟩
  | 44 => ⟨S1x2, .f32⟩
  | 45 => ⟨S1000000x2, .f32⟩
  | 46 => ⟨S1000000x2, .f32⟩
  | 47 => ⟨S_, .f32⟩
  | 48 => ⟨S1000000x2, .f32⟩
  | 49 => ⟨S1000000x2, .f32⟩
  | 50 => ⟨S1x16000000, .i32⟩
  | 51 => ⟨S16000000, .i32⟩
  | 52 => ⟨S1x16000000, .i32⟩
  | 53 => ⟨S16000000, .i32⟩
  | 54 => ⟨S_, .f32⟩
  | 55 => ⟨S16000000, .f32⟩
  | 56 => ⟨S_, .f32⟩
  | 57 => ⟨S1000000, .f32⟩
  | 58 => ⟨S16000000x1, .i32⟩
  | 59 => ⟨S1000000, .f32⟩
  | 60 => ⟨S_, .f32⟩
  | 61 => ⟨S1000000, .f32⟩
  | 62 => ⟨S1000000, .f32⟩
  | 63 => ⟨S1000000, .f32⟩
  | 64 => ⟨S2x2, .f32⟩
  | 65 => ⟨S1000000x2, .f32⟩
  | 66 => ⟨S_, .i32⟩
  | 67 => ⟨S16000000, .i32⟩
  | 68 => ⟨S16000000, .i1⟩
  | 69 => ⟨S_, .i32⟩
  | 70 => ⟨S16000000, .i32⟩
  | 71 => ⟨S16000000, .i32⟩
  | 72 => ⟨S16000000, .i32⟩
  | 73 => ⟨S16000000x1, .i32⟩
  | 74 => ⟨S16000000, .f32⟩
  | 75 => ⟨S_, .i32⟩
  | 76 => ⟨S16000000, .i32⟩
  | 77 => ⟨S16000000, .i1⟩
  | 78 => ⟨S_, .i32⟩
  | 79 => ⟨S16000000, .i32⟩
  | 80 => ⟨S16000000, .i32⟩
  | 81 => ⟨S16000000, .i32⟩
  | 82 => ⟨S16000000x1, .i32⟩
  | 83 => ⟨S16000000, .f32⟩
  | 84 => ⟨S16000000, .f32⟩
  | 85 => ⟨S16000000x1, .f32⟩
  | 86 => ⟨S_, .i32⟩
  | 87 => ⟨S16000000, .i32⟩
  | 88 => ⟨S16000000, .i1⟩
  | 89 => ⟨S_, .i32⟩
  | 90 => ⟨S16000000, .i32⟩
  | 91 => ⟨S16000000, .i32⟩
  | 92 => ⟨S16000000, .i32⟩
  | 93 => ⟨S16000000x1, .i32⟩
  | 94 => ⟨S16000000x2, .f32⟩
  | 95 => ⟨S16000000x2, .f32⟩
  | 96 => ⟨S16000000x2, .f32⟩
  | 97 => ⟨S_, .f32⟩
  | 98 => ⟨S1000000x2, .f32⟩
  | 99 => ⟨S16000000x1, .i32⟩
  | 100 => ⟨S1000000x2, .f32⟩
  | 101 => ⟨S1000000x1, .f32⟩
  | 102 => ⟨S1000000x2, .f32⟩
  | 103 => ⟨S1000000x2, .f32⟩
  | 104 => ⟨S1000000x2, .f32⟩
  | 105 => ⟨S1x2, .f32⟩
  | 106 => ⟨S1000000x2, .f32⟩
  | 107 => ⟨S1000000x2, .f32⟩
  | 108 => ⟨S1000000x2, .f32⟩
  | 109 => ⟨S2x64, .f32⟩
  | 110 => ⟨S1000000x64, .f32⟩
  | 111 => ⟨S1x64, .f32⟩
  | 112 => ⟨S1000000x64, .f32⟩
  | 113 => ⟨S1000000x64, .f32⟩
  | 114 => ⟨S_, .f32⟩
  | 115 => ⟨S1000000, .f32⟩
  | 116 => ⟨S1000000x1, .f32⟩
  | 117 => ⟨S_, .f32⟩
  | 118 => ⟨S1000000x1, .f32⟩
  | 119 => ⟨S1000000x1, .f32⟩
  | 120 => ⟨S1000000x64, .f32⟩
  | 121 => ⟨S1000000x64, .f32⟩
  | 122 => ⟨S1000000x64, .f32⟩
  | 123 => ⟨S_, .f32⟩
  | 124 => ⟨S1000000, .f32⟩
  | 125 => ⟨S1000000x1, .f32⟩
  | 126 => ⟨S_, .f32⟩
  | 127 => ⟨S1000000x1, .f32⟩
  | _ => ⟨S1000000x2, .f32⟩

abbrev hbmTy0_1 (i : Nat) : BufTy := match i % 128 with
  | 0 => ⟨S1000000x1, .f32⟩
  | 1 => ⟨S1000000x64, .f32⟩
  | 2 => ⟨S1000000x64, .f32⟩
  | 3 => ⟨S_, .f32⟩
  | 4 => ⟨S1000000x1, .f32⟩
  | 5 => ⟨S1000000x1, .f32⟩
  | 6 => ⟨S1000000x1, .f32⟩
  | 7 => ⟨S1000000x64, .f32⟩
  | 8 => ⟨S1000000x64, .f32⟩
  | 9 => ⟨S64x2, .f32⟩
  | 10 => ⟨S1000000x2, .f32⟩
  | 11 => ⟨S1x2, .f32⟩
  | 12 => ⟨S1000000x2, .f32⟩
  | 13 => ⟨S1000000x2, .f32⟩
  | 14 => ⟨S_, .f32⟩
  | 15 => ⟨S1024x2, .f32⟩
  | 16 => ⟨S1000000x1, .i32⟩
  | 17 => ⟨S1024x2, .f32⟩
  | 18 => ⟨S_, .f32⟩
  | 19 => ⟨S1000000, .f32⟩
  | 20 => ⟨S_, .f32⟩
  | 21 => ⟨S1024, .f32⟩
  | 22 => ⟨S1000000x1, .i32⟩
  | 23 => ⟨S1024, .f32⟩
  | 24 => ⟨S_, .f32⟩
  | 25 => ⟨S1024, .f32⟩
  | 26 => ⟨S1024, .f32⟩
  | 27 => ⟨S1024x1, .f32⟩
  | 28 => ⟨S1024x2, .f32⟩
  | 29 => ⟨S1024x2, .f32⟩
  | _ => ⟨S1000000x2, .f32⟩

abbrev hbmTy (i : Nat) : BufTy := match i / 128 with
  | 0 => hbmTy0_0 i
  | 1 => hbmTy0_1 i
  | _ => ⟨S1000000x2, .f32⟩

abbrev bufTy : (tb : Table) → Fin (tcTables nBuf tb) → BufTy
  | .hbm, ⟨i, _⟩ => hbmTy i
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_cst_14 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_18 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_19 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩

abbrev nD : Nat := 1
abbrev τ : Topo := Topo.v7x

variable {F : FTy → Type} [FloatOps F]

class Facts₀ : Prop where
  transposes_S2x2_S2x2_1_0 : S2x2.Transposes [1, 0] S2x2
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  reducesTo_S1000000x2_S2_d0 : S1000000x2.ReducesTo [0] S2
  h_S_ : 0 < S_.numel
  bcast_S_S2 : S_.BroadcastsInDim S2 (![] : Fin 0 → Fin S2.rank)
  bcast_S_S1000000x2 : S_.BroadcastsInDim S1000000x2 (![] : Fin 0 → Fin S1000000x2.rank)
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S16000000x1_S16000000x2_0_1 : S16000000x1.BroadcastsInDim S16000000x2 (![0, 1] : Fin 2 → Fin S16000000x2.rank)
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  transposes_S64x2_S2x64_1_0 : S64x2.Transposes [1, 0] S2x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S1000000_d1 : S1000000x64.ReducesTo [1] S1000000
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  transposes_S2x64_S64x2_1_0 : S2x64.Transposes [1, 0] S64x2
  bcast_S_S1024x2 : S_.BroadcastsInDim S1024x2 (![] : Fin 0 → Fin S1024x2.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  dot_S1000000x2_S2x2_S1000000x2_1_0_0_1_n_n_wf : DotDims.WF S1000000x2 S2x2 S1000000x2 [1] [0] [0] [1] [] []
  scatter_S1000000_S16000000x1_S16000000_n_0_0_1_wf : ScatterDims.WF S1000000 S16000000x1 S16000000 [] [0] [0] 1
  gather_S1000000_S16000000x1_S16000000_n_0_n_n_0_1_1_wf : GatherDims.WF S1000000 S16000000x1 S16000000 [] [0] [] [0] [] 1 ![1]
  gather_S1000000x2_S16000000x1_S16000000x2_1_0_n_n_0_1_12_wf : GatherDims.WF S1000000x2 S16000000x1 S16000000x2 [1] [0] [] [0] [] 1 ![1, 2]
  scatter_S1000000x2_S16000000x1_S16000000x2_1_0_0_1_wf : ScatterDims.WF S1000000x2 S16000000x1 S16000000x2 [1] [0] [0] 1
  dot_S1000000x2_S2x64_S1000000x64_1_0_0_1_n_n_wf : DotDims.WF S1000000x2 S2x64 S1000000x64 [1] [0] [0] [1] [] []
  dot_S1000000x64_S64x2_S1000000x2_1_0_0_1_n_n_wf : DotDims.WF S1000000x64 S64x2 S1000000x2 [1] [0] [0] [1] [] []
  scatter_S1024x2_S1000000x1_S1000000x2_1_0_0_1_wf : ScatterDims.WF S1024x2 S1000000x1 S1000000x2 [1] [0] [0] 1
  scatter_S1024_S1000000x1_S1000000_n_0_0_1_wf : ScatterDims.WF S1024 S1000000x1 S1000000 [] [0] [0] 1

variable [Facts₀]

def dot_S1000000x2_S2x2_S1000000x2_1_0_0_1_n_n : DotDims S1000000x2 S2x2 S1000000x2 where
  lhsContracting := [1]
  rhsContracting := [0]
  lhsNonContracting := [0]
  rhsNonContracting := [1]
  lhsBatch := []
  rhsBatch := []
  wf := dot_S1000000x2_S2x2_S1000000x2_1_0_0_1_n_n_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S1000000x2_S16000000x1_S16000000x2_1_0_n_n_0_1_12 : GatherDims S1000000x2 S16000000x1 S16000000x2 where
  offsetDims := [1]
  collapsedSliceDims := [0]
  operandBatchingDims := []
  startIndicesBatchingDims := []
  startIndexMap := [0]
  indexVectorDim := 1
  sliceSizes := ![1, 2]
  wf := gather_S1000000x2_S16000000x1_S16000000x2_1_0_n_n_0_1_12_wf
def scatter_S1000000x2_S16000000x1_S16000000x2_1_0_0_1 : ScatterDims S1000000x2 S16000000x1 S16000000x2 where
  updateWindowDims := [1]
  insertedWindowDims := [0]
  scatterDimsToOperandDims := [0]
  indexVectorDim := 1
  wf := scatter_S1000000x2_S16000000x1_S16000000x2_1_0_0_1_wf
def dot_S1000000x2_S2x64_S1000000x64_1_0_0_1_n_n : DotDims S1000000x2 S2x64 S1000000x64 where
  lhsContracting := [1]
  rhsContracting := [0]
  lhsNonContracting := [0]
  rhsNonContracting := [1]
  lhsBatch := []
  rhsBatch := []
  wf := dot_S1000000x2_S2x64_S1000000x64_1_0_0_1_n_n_wf
def dot_S1000000x64_S64x2_S1000000x2_1_0_0_1_n_n : DotDims S1000000x64 S64x2 S1000000x2 where
  lhsContracting := [1]
  rhsContracting := [0]
  lhsNonContracting := [0]
  rhsNonContracting := [1]
  lhsBatch := []
  rhsBatch := []
  wf := dot_S1000000x64_S64x2_S1000000x2_1_0_0_1_n_n_wf
def scatter_S1024x2_S1000000x1_S1000000x2_1_0_0_1 : ScatterDims S1024x2 S1000000x1 S1000000x2 where
  updateWindowDims := [1]
  insertedWindowDims := [0]
  scatterDimsToOperandDims := [0]
  indexVectorDim := 1
  wf := scatter_S1024x2_S1000000x1_S1000000x2_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf

class Facts : Prop extends Facts₀ where

variable [Facts]
-- ==== Proof.K.Cases.lean ====
/-
  The tile tests of the two accumulating kernels, decided over their grids.
-/
import proofs.«407804_j50861002719257_4_alg».proof.Proof.Gen.Kernel.Launch
import proofs.«407804_j50861002719257_4_alg».proof.Proof.Gen.Kernel.Skeleton
import proofs.«407804_j50861002719257_4_alg».proof.Proof.Gen.Kernel.Points
import Idealize.ShloMosaic.Lib.Pipeline.FrameBody
import Idealize.ShloMosaic.Lib.Tactic
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the two accumulating kernels branch

The statistics kernel (125 tiles of 8000 rows) and the pooling kernel (500 tiles of 2000 rows) each
reset their accumulators at their first tile and write their result at their last. Both tests are
scalar comparisons of the tile number; here they are decided once over the whole grid. -/

/-- The statistics kernel resets its two accumulators: the tile number is 0. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The statistics kernel writes the two sums out: the tile number is 124. -/
abbrev cond0_1 (i : grid0.Coords) : Prop := k0_cond2 i = 1#1
theorem hcond0_1 : ∀ t : Fin cfg0.N, cond0_1 (grid0.coords t) ↔ t.val = 124 :=
  (by decide +kernel : ∀ t : Fin grid0.N, cond0_1 (grid0.coords t) ↔ t.val = 124)

/-- The pooling kernel resets its two accumulators: the tile number is 0. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The pooling kernel writes the pooled means out: the tile number is 499. -/
abbrev cond2_1 (i : grid2.Coords) : Prop := k2_cond2 i = 1#1
theorem hcond2_1 : ∀ t : Fin cfg2.N, cond2_1 (grid2.coords t) ↔ t.val = 499 :=
  (by decide +kernel : ∀ t : Fin grid2.N, cond2_1 (grid2.coords t) ↔ t.val = 499)

/-! ## Where the result windows are idle, and where they are written back -/

theorem idle0_3 : ∀ t : Fin cfg0.N, ¬cond0_1 (grid0.coords t) → cfg0.idle 3 (grid0.coords t) = true := by decide +kernel
theorem idle0_4 : ∀ t : Fin cfg0.N, ¬cond0_1 (grid0.coords t) → cfg0.idle 4 (grid0.coords t) = true := by decide +kernel
theorem live0_3 : ∀ t : Fin cfg0.N, cond0_1 (grid0.coords t) → cfg0.idle 3 (grid0.coords t) = false := by decide +kernel
theorem live0_4 : ∀ t : Fin cfg0.N, cond0_1 (grid0.coords t) → cfg0.idle 4 (grid0.coords t) = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem idle2_7 : ∀ t : Fin cfg2.N, ¬cond2_1 (grid2.coords t) → cfg2.idle 7 (grid2.coords t) = true := by decide +kernel
theorem live2_7 : ∀ t : Fin cfg2.N, cond2_1 (grid2.coords t) → cfg2.idle 7 (grid2.coords t) = false := by decide +kernel
theorem noFlush2_7 : ∀ t : Fin cfg2.N, ¬cond2_1 (grid2.coords t) → (cfg2.win 7).flush t = false := by decide +kernel

end Cert.Kernel.Gen

end
-- ==== Proof.K.Run0.lean ====
/-
  The statistics kernel (column sums of h = x·Wᵀ + b and of h² over 125 tiles of 8000 rows), run once
  per control case: the first tile zeroes the two accumulators before adding to them, every tile adds
  its own column sums, and the last tile also copies the accumulators into the two result blocks.
-/
import proofs.«407804_j50861002719257_4_alg».proof.Proof.K.Cases
import Idealize.ShloMosaic.Lib.Pipeline.Value
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the bodies load and store through start at offset zero on every axis. -/
theorem hz2 : ((![0, 0] : Fin 2 → Nat)) = fun _ => 0 := by funext a; fin_cases a <;> rfl
theorem hz1 : ((![0] : Fin 1 → Nat)) = fun _ => 0 := by funext a; fin_cases a; rfl

/-! ## The statistics kernel at a tile that neither resets nor writes out -/

set_option maxHeartbeats 1000000 in
/-- On whole buffers — the tile of `x`, the weight, the bias, the two result blocks and the two
    accumulators — the body adds the tile's column sums of `h = x·Wᵀ + b` to the first accumulator
    and the column sums of `h²` to the second, and touches nothing else. -/
theorem run0_mid (c : Dev nD) (i : grid0.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x2 .f32) (harg6 : arg6.IsWhole)
    (arg7 : Memref sig .tc .vmem S1x2 .f32) (harg7 : arg7.IsWhole) (hc0 : ¬cond0_0 i) (hc1 : ¬cond0_1 i)
    (x0 : Vec F S8000x2 .f32) (w0 : Vec F S2x2 .f32) (b0 : Vec F S2 .f32) (o3 o4 s0 s1 : Vec F S1x2 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare o3 ∗ owns (c : Thread nD τ) arg5 fullShare o4
        ∗ owns (c : Thread nD τ) arg6 fullShare s0 ∗ owns (c : Thread nD τ) arg7 fullShare s1
        ∗ (iprop(owns (c : Thread nD τ) arg1 fullShare x0 ∗ owns (c : Thread nD τ) arg2 fullShare w0 ∗ owns (c : Thread nD τ) arg3 fullShare b0
            ∗ owns (c : Thread nD τ) arg4 fullShare o3 ∗ owns (c : Thread nD τ) arg5 fullShare o4
            ∗ owns (c : Thread nD τ) arg6 fullShare (k0_pay4 x0 w0 b0 s0) ∗ owns (c : Thread nD τ) arg7 fullShare (k0_pay5 x0 w0 b0 s1)) -∗ K ⟨⟩))
      ⊢ wp frame (wpE (defs₀ (F := F)) Variants.none c none) E
          (cc0__node_stats_kernel i arg1 harg1 arg2 harg2 arg3 harg3 arg4 harg4 arg5 harg5 arg6 harg6 arg7 harg7) K := by
  simp only [cc0__node_stats_kernel_eq_skeleton]; unfold cc0__node_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro
    rw [View.read_writes_eq_canon _ _ _ (fun y => ⟨_, List.mem_singleton_self _, View.mem_set_unit_zero hz2 inb_S1x2_S1x2_0_0 y⟩),
      View.canon_unit_zero hz2]
    simp only [View.readAt_eq_ld, harg1.read_unread, harg2.read_unread, harg3.read_unread, harg6.read_unread,
      View.ld_unit_zero (S := S8000x2) hz2, View.ld_unit_zero (S := S2x2) hz2, View.ld_unit_zero (S := S2) hz1,
      View.ld_unit_zero (S := S1x2) hz2]
  · iexists _; isplitr; swap; · iexact H7
    ipureintro
    rw [View.read_writes_eq_canon _ _ _ (fun y => ⟨_, List.mem_singleton_self _, View.mem_set_unit_zero hz2 inb_S1x2_S1x2_0_0 y⟩),
      View.canon_unit_zero hz2]
    simp only [View.readAt_eq_ld, harg1.read_unread, harg2.read_unread, harg3.read_unread, harg7.read_unread,
      View.ld_unit_zero (S := S8000x2) hz2, View.ld_unit_zero (S := S2x2) hz2, View.ld_unit_zero (S := S2) hz1,
      View.ld_unit_zero (S := S1x2) hz2]

set_option maxHeartbeats 1000000 in
/-- At the first tile the body first zeroes both accumulators (whatever they held) and then adds the
    tile's column sums of `h` and of `h²` to them; the result blocks are left as they were. -/
theorem run0_first (c : Dev nD) (i : grid0.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x2 .f32) (harg6 : arg6.IsWhole)
    (arg7 : Memref sig .tc .vmem S1x2 .f32) (harg7 : arg7.IsWhole) (hc0 : cond0_0 i) (hc1 : ¬cond0_1 i)
    (x0 : Vec F S8000x2 .f32) (w0 : Vec F S2x2 .f32) (b0 : Vec F S2 .f32) (o3 o4 : Vec F S1x2 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare o3 ∗ owns (c : Thread nD τ) arg5 fullShare o4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w0 ∗ owns (c : Thread nD τ) arg3 fullShare b0
            ∗ owns (c : Thread nD τ) arg4 fullShare o3 ∗ owns (c : Thread nD τ) arg5 fullShare o4
            ∗ owns (c : Thread nD τ) arg6 fullShare (k0_pay4 x0 w0 b0 k0_pay2) ∗ owns (c : Thread nD τ) arg7 fullShare (k0_pay5 x0 w0 b0 k0_pay3)) -∗ K ⟨⟩))
      ⊢ wp frame (wpE (defs₀ (F := F)) Variants.none c none) E
          (cc0__node_stats_kernel i arg1 harg1 arg2 harg2 arg3 harg3 arg4 harg4 arg5 harg5 arg6 harg6 arg7 harg7) K := by
  simp only [cc0__node_stats_kernel_eq_skeleton]; unfold cc0__node_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro
    sl_unfold_words
    rw [View.read_writes_eq_canon _ _ _ (fun y => ⟨_, List.mem_cons_self, View.mem_set_unit_zero hz2 inb_S1x2_S1x2_0_0 y⟩), View.canon_cons_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]
  · iexists _; isplitr; swap; · iexact H7
    ipureintro
    sl_unfold_words
    rw [View.read_writes_eq_canon _ _ _ (fun y => ⟨_, List.mem_cons_self, View.mem_set_unit_zero hz2 inb_S1x2_S1x2_0_0 y⟩), View.canon_cons_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]

set_option maxHeartbeats 1000000 in
/-- At the last tile the body updates both accumulators as at every tile and then copies them into
    the two result blocks. -/
theorem run0_last (c : Dev nD) (i : grid0.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x2 .f32) (harg6 : arg6.IsWhole)
    (arg7 : Memref sig .tc .vmem S1x2 .f32) (harg7 : arg7.IsWhole) (hc0 : ¬cond0_0 i) (hc1 : cond0_1 i)
    (x0 : Vec F S8000x2 .f32) (w0 : Vec F S2x2 .f32) (b0 : Vec F S2 .f32) (s0 s1 : Vec F S1x2 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare w0 ∗ owns (c : Thread nD τ) arg3 fullShare b0
            ∗ owns (c : Thread nD τ) arg4 fullShare (k0_pay4 x0 w0 b0 s0) ∗ owns (c : Thread nD τ) arg5 fullShare (k0_pay5 x0 w0 b0 s1)
            ∗ owns (c : Thread nD τ) arg6 fullShare (k0_pay4 x0 w0 b0 s0) ∗ owns (c : Thread nD τ) arg7 fullShare (k0_pay5 x0 w0 b0 s1)) -∗ K ⟨⟩))
      ⊢ wp frame (wpE (defs₀ (F := F)) Variants.none c none) E
          (cc0__node_stats_kernel i arg1 harg1 arg2 harg2 arg3 harg3 arg4 harg4 arg5 harg5 arg6 harg6 arg7 harg7) K := by
  simp only [cc0__node_stats_kernel_eq_skeleton]; unfold cc0__node_stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]
  isplitl [H5]
  · iexists _; isplitr; swap; · iexact H5
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]
  isplitl [H6]
  · iexists _; isplitr; swap; · iexact H6
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2]
  · iexists _; isplitr; swap; · iexact H7
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2]

end Cert.Kernel.Gen

end
-- ==== Proof.K.Data0.lean ====
/-
  The statistics kernel as a pipeline: what its two accumulators hold after each tile, the invariant
  that carries them from tile to tile, and the body obligation at every tile.

  Tile t reads rows 8000·t … 8000·t + 7999 of x. Writing h = x·Wᵀ + b, the first accumulator holds the
  column sums of h over the tiles run so far and the second the column sums of h². Both are zeroed at
  tile 0 and copied into the two one-row results at tile 124, the only tile that writes them back.
-/
import proofs.«407804_j50861002719257_4_alg».proof.Proof.K.Run0
import Idealize.ShloMosaic.Lib.Pipeline.Frame
import Idealize.ShloMosaic.Lib.Pipeline.FrameBody
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the unscoped buffers' contents when the statistics kernel is entered
variable (V : (c : Dev nD) → (b : Ref sig .tc) → Buf (Elt F) ((c : Thread nD τ).loc b))

/-! ## The tiles -/

/-- Window `w`'s block at tile `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulators after tile `n`: both start from zero at tile 0, and every tile adds its column sums
    of h and of h² to what the tile before left. -/
def accs0 (c : Dev nD) : (n : ℕ) → n < cfg0.N → Vec F S1x2 .f32 × Vec F S1x2 .f32
  | 0, hn => (k0_pay4 (iblk0 V c 0 ⟨0, hn⟩) (iblk0 V c 1 ⟨0, hn⟩) (iblk0 V c 2 ⟨0, hn⟩) k0_pay2,
              k0_pay5 (iblk0 V c 0 ⟨0, hn⟩) (iblk0 V c 1 ⟨0, hn⟩) (iblk0 V c 2 ⟨0, hn⟩) k0_pay3)
  | n + 1, hn =>
    (k0_pay4 (iblk0 V c 0 ⟨n + 1, hn⟩) (iblk0 V c 1 ⟨n + 1, hn⟩) (iblk0 V c 2 ⟨n + 1, hn⟩) (accs0 c n (Nat.lt_of_succ_lt hn)).1,
     k0_pay5 (iblk0 V c 0 ⟨n + 1, hn⟩) (iblk0 V c 1 ⟨n + 1, hn⟩) (iblk0 V c 2 ⟨n + 1, hn⟩) (accs0 c n (Nat.lt_of_succ_lt hn)).2)

theorem accs0_zero (c : Dev nD) (t : Fin cfg0.N) (h : t.val = 0) :
    accs0 V c t.val t.isLt = (k0_pay4 (iblk0 V c 0 t) (iblk0 V c 1 t) (iblk0 V c 2 t) k0_pay2,
      k0_pay5 (iblk0 V c 0 t) (iblk0 V c 1 t) (iblk0 V c 2 t) k0_pay3) := by
  obtain ⟨n, hn⟩ := t
  cases n with
  | zero => rfl
  | succ n => exact absurd h (Nat.succ_ne_zero n)

theorem accs0_pos (c : Dev nD) (t : Fin cfg0.N) (h : t.val ≠ 0) :
    accs0 V c t.val t.isLt
      = (k0_pay4 (iblk0 V c 0 t) (iblk0 V c 1 t) (iblk0 V c 2 t) (accs0 V c (t.val - 1) (Nat.lt_of_le_of_lt (Nat.sub_le _ _) t.isLt)).1,
         k0_pay5 (iblk0 V c 0 t) (iblk0 V c 1 t) (iblk0 V c 2 t) (accs0 V c (t.val - 1) (Nat.lt_of_le_of_lt (Nat.sub_le _ _) t.isLt)).2) := by
  obtain ⟨n, hn⟩ := t
  cases n with
  | zero => exact absurd rfl h
  | succ n => rfl

/-! ## The invariant between tiles -/

/-- The two accumulators as memrefs. -/
abbrev scM0_0 : Memref sig .tc .vmem S1x2 .f32 := Memref.whole cc0_scratch0
abbrev scM0_1 : Memref sig .tc .vmem S1x2 .f32 := Memref.whole cc0_scratch1

/-- The scoped buffers that are neither a staging buffer nor an accumulator of this kernel: what the
    body never touches. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- Before tile 0 the accumulators hold anything; before tile n + 1 they hold what tile n left. -/
def Phi0 (c : Dev nD) : (n : ℕ) → n ≤ cfg0.N → sProp 𝕄
  | 0, _ => iprop(iprop(iprop((∃ d, owns (c : Thread nD τ) scM0_0 fullShare d) ∗ (∃ d, owns (c : Thread nD τ) scM0_1 fullShare d)) ∗ rest0 c) ∗ ∃ r, prngReg c r)
  | n + 1, hn => iprop(iprop(iprop(owns (c : Thread nD τ) scM0_0 fullShare (accs0 V c n hn).1 ∗ owns (c : Thread nD τ) scM0_1 fullShare (accs0 V c n hn).2) ∗ rest0 c) ∗ ∃ r, prngReg c r)

theorem Phi0_zero (c : Dev nD) (n : ℕ) (h : n ≤ cfg0.N) (hz : n = 0) :
    Phi0 V c n h = iprop(iprop(iprop((∃ d, owns (c : Thread nD τ) scM0_0 fullShare d) ∗ (∃ d, owns (c : Thread nD τ) scM0_1 fullShare d)) ∗ rest0 c) ∗ ∃ r, prngReg c r) := by
  subst hz; rfl
theorem Phi0_succ (c : Dev nD) (n : ℕ) (hn : n < cfg0.N) :
    Phi0 V c (n + 1) hn = iprop(iprop(iprop(owns (c : Thread nD τ) scM0_0 fullShare (accs0 V c n hn).1 ∗ owns (c : Thread nD τ) scM0_1 fullShare (accs0 V c n hn).2) ∗ rest0 c) ∗ ∃ r, prngReg c r) := rfl
theorem Phi0_pos (c : Dev nD) (n : ℕ) (h : n ≤ cfg0.N) (hz : n ≠ 0) :
    Phi0 V c n h = iprop(iprop(iprop(owns (c : Thread nD τ) scM0_0 fullShare (accs0 V c (n - 1) (by omega)).1 ∗ owns (c : Thread nD τ) scM0_1 fullShare (accs0 V c (n - 1) (by omega)).2) ∗ rest0 c) ∗ ∃ r, prngReg c r) := by
  cases n with
  | zero => exact absurd rfl hz
  | succ n => rfl

/-- The class invariant (every scoped buffer the windows do not stage at anything, the generator
    register at some state) is the invariant before tile 0. -/
theorem PhiA0_eq (c : Dev nD) :
    (Pipeline.ΦA spec0 c : sProp 𝕄) = iprop(iprop(iprop((∃ d, owns (c : Thread nD τ) scM0_0 fullShare d) ∗ (∃ d, owns (c : Thread nD τ) scM0_1 fullShare d)) ∗ rest0 c) ∗ ∃ r, prngReg c r) := by
  unfold Pipeline.ΦA; rw [scopedRest0_split]; simp only [scM0_0, scM0_1, owns_whole]; try rfl

/-! ## The proof data -/

/-- The arrays as the kernel finds them; after tile t each input's buffer at its block and the two
    result blocks at the accumulators; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accs0 V c t.val t.isLt).1
    | ⟨4, _⟩ => (accs0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (accs0 V c t.val t.isLt).1 := by dsimp only [dat0]
theorem after0_4 (c : Dev nD) (t : Fin cfg0.N) : (dat0 V c).after 4 t = (accs0 V c t.val t.isLt).2 := by dsimp only [dat0]

/-- Each input's current staging buffer holds its block at every tile, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

end Region0

end Cert.Kernel.Gen

end
-- ==== Proof.K.Body0.lean ====
/-
  The statistics kernel's body obligation: at each tile the matching case of the body's run is handed
  the tile's blocks and the accumulators the invariant carries, and gives them back one tile further.
-/
import proofs.«407804_j50861002719257_4_alg».proof.Proof.K.Data0
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  have hN : t.val < 125 := lt_of_lt_of_eq t.isLt (show cfg0.N = 125 from N_0)
  rw [show (dat0 V c).leavesExact 0 t = owns (c : Thread nD τ) (st0_0 t) fullShare ((dat0 V c).after 0 t) from by
    unfold Dat.leavesExact; rw [show cfg0.idle 0 (cfg0.grid.coords t) = false from rfl], after0_0]
  rw [show (dat0 V c).leavesExact 1 t = owns (c : Thread nD τ) (st0_1 t) fullShare ((dat0 V c).after 1 t) from by
    unfold Dat.leavesExact; rw [show cfg0.idle 1 (cfg0.grid.coords t) = false from rfl], after0_1]
  rw [show (dat0 V c).leavesExact 2 t = owns (c : Thread nD τ) (st0_2 t) fullShare ((dat0 V c).after 2 t) from by
    unfold Dat.leavesExact; rw [show cfg0.idle 2 (cfg0.grid.coords t) = false from rfl], after0_2]
  by_cases h1 : t.val = 124
  · -- the last tile: both result blocks are stored
    have hc0 : ¬cond0_0 (grid0.coords t) := fun h => by have := (hcond0_0 t).mp h; omega
    have hc1 : cond0_1 (grid0.coords t) := (hcond0_1 t).mpr h1
    have hz : t.val ≠ 0 := by omega
    rw [show (dat0 V c).leavesExact 3 t = owns (c : Thread nD τ) (st0_3 t) fullShare ((dat0 V c).after 3 t) from by
      unfold Dat.leavesExact; rw [live0_3 t hc1], after0_3]
    rw [show (dat0 V c).leavesExact 4 t = owns (c : Thread nD τ) (st0_4 t) fullShare ((dat0 V c).after 4 t) from by
      unfold Dat.leavesExact; rw [live0_4 t hc1], after0_4]
    rw [accs0_pos V c t hz]; dsimp only
    rw [Phi0_castSucc V c t, Phi0_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ _ _ hc0 hc1 (iblk0 V c 0 t) (iblk0 V c 1 t) (iblk0 V c 2 t) _ _ Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 V c) 3 t (idle0_3 t hc1) (noFlush0_3 t hc1),
      Dat.leavesExact_idle (dat0 V c) 4 t (idle0_4 t hc1) (noFlush0_4 t hc1)]
    by_cases hz : t.val = 0
    · -- the first tile: the accumulators are zeroed, then added to
      have hc0 : cond0_0 (grid0.coords t) := (hcond0_0 t).mpr hz
      rw [accs0_zero V c t hz]; dsimp only
      rw [Phi0_castSucc V c t, Phi0_zero V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_first c (grid0.coords t) _ _ _ _ _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4
    · -- a tile in between: the accumulators are added to
      have hc0 : ¬cond0_0 (grid0.coords t) := fun h => hz ((hcond0_0 t).mp h)
      rw [accs0_pos V c t hz]; dsimp only
      rw [Phi0_castSucc V c t, Phi0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ _ _ hc0 hc1 (iblk0 V c 0 t) (iblk0 V c 1 t) (iblk0 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The body obligation, at every tile. -/
theorem body_obligation0 (c : Dev nD) : BodyObligation (dat0 (F := F) V c) (defs₀ (F := F)) Variants.none () Set.univ := fun t => by
  rw [bigSep_W0, bigSep_W0]
  exact sound_body0 V c t

/-- What the kernel is entered with (the class invariant) is the invariant before tile 0. -/
theorem hin0 (c : Dev nD) : Pipeline.ΦA spec0 c ⊢ (dat0 V c).Φ 0 := by
  rw [show (dat0 V c).Φ 0 = Phi0 V c 0 (Nat.zero_le _) from rfl, Phi0_zero V c 0 _ rfl, PhiA0_eq]
  try exact Idealize.SL.BI.Entails.refl _

/-- After the last tile the invariant gives the class invariant back: what the accumulators hold is forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 125 := N_0; omega), PhiA0_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Region0

end Cert.Kernel.Gen

end
-- ==== Proof.K.Run1.lean ====
/-
  The normalize kernel (h = x·Wᵀ + b, normalized per column from the global column sums and sums of
  squares, rectified, and multiplied by the next layer's weight), run once: the body reads its tile of
  x, the parameters and the two column statistics, and writes the rectified normalized tile into one
  result block and its product with the transposed weight into the other.
-/
import proofs.«407804_j50861002719257_4_alg».proof.Proof.K.Run0
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The normalize kernel on whole buffers -/

set_option maxHeartbeats 1000000 in
/-- On whole buffers — the tile of `x`, the linear layer's weight and bias, the normalization's
    weight, bias and mean scale, the next layer's weight, the column sums and sums of squares, and
    the two result blocks (whatever they held) — the body writes the rectified normalized tile into
    the first result block and its product with the transposed next weight into the second, and
    leaves every input as it was. -/
theorem run1 (c : Dev nD) (i : grid1.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S2 .f32) (harg4 : arg4.IsWhole)
    (arg5 : Memref sig .tc .vmem S2 .f32) (harg5 : arg5.IsWhole) (arg6 : Memref sig .tc .vmem S2 .f32) (harg6 : arg6.IsWhole)
    (arg7 : Memref sig .tc .vmem S2x2 .f32) (harg7 : arg7.IsWhole) (arg8 : Memref sig .tc .vmem S1x2 .f32) (harg8 : arg8.IsWhole)
    (arg9 : Memref sig .tc .vmem S1x2 .f32) (harg9 : arg9.IsWhole) (arg10 : Memref sig .tc .vmem S8000x2 .f32) (harg10 : arg10.IsWhole)
    (arg11 : Memref sig .tc .vmem S8000x2 .f32) (harg11 : arg11.IsWhole)
    (x0 : Vec F S8000x2 .f32) (w1 : Vec F S2x2 .f32) (b1 gw gb gs : Vec F S2 .f32) (w2 : Vec F S2x2 .f32)
    (su sq : Vec F S1x2 .f32)
    (E : Set ℕ) (K : PUnit → sProp 𝕄) :
    iprop(owns (c : Thread nD τ) arg1 fullShare x0 ∗ owns (c : Thread nD τ) arg2 fullShare w1 ∗ owns (c : Thread nD τ) arg3 fullShare b1
        ∗ owns (c : Thread nD τ) arg4 fullShare gw ∗ owns (c : Thread nD τ) arg5 fullShare gb ∗ owns (c : Thread nD τ) arg6 fullShare gs
        ∗ owns (c : Thread nD τ) arg7 fullShare w2 ∗ owns (c : Thread nD τ) arg8 fullShare su ∗ owns (c : Thread nD τ) arg9 fullShare sq
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare w1 ∗ owns (c : Thread nD τ) arg3 fullShare b1
            ∗ owns (c : Thread nD τ) arg4 fullShare gw ∗ owns (c : Thread nD τ) arg5 fullShare gb ∗ owns (c : Thread nD τ) arg6 fullShare gs
            ∗ owns (c : Thread nD τ) arg7 fullShare w2 ∗ owns (c : Thread nD τ) arg8 fullShare su ∗ owns (c : Thread nD τ) arg9 fullShare sq
            ∗ owns (c : Thread nD τ) arg10 fullShare (k1_pay1 (k1_pay3 x0 w1 b1 su sq gs gw gb))
            ∗ owns (c : Thread nD τ) arg11 fullShare (k1_pay2 (k1_pay3 x0 w1 b1 su sq gs gw gb) w2)) -∗ K ⟨⟩))
      ⊢ wp frame (wpE (defs₀ (F := F)) Variants.none c none) E
          (cc1__node_normalize_kernel i arg1 harg1 arg2 harg2 arg3 harg3 arg4 harg4 arg5 harg5 arg6 harg6 arg7 harg7 arg8 harg8 arg9 harg9 arg10 harg10 arg11 harg11) K := by
  simp only [cc1__node_normalize_kernel_eq_skeleton]; unfold cc1__node_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro
    sl_unfold_words
    rw [View.read_writes_eq_canon _ _ _ (fun y => ⟨_, List.mem_singleton_self _, View.mem_set_unit_zero hz2 inb_S8000x2_S8000x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread,
      View.ld_unit_zero (S := S8000x2) hz2, View.ld_unit_zero (S := S2x2) hz2, View.ld_unit_zero (S := S2) hz1,
      View.ld_unit_zero (S := S1x2) hz2, View.readCov_unit_zero (S := S8000x2) _ hz2]
  · iexists _; isplitr; swap; · iexact H11
    ipureintro
    sl_unfold_words
    rw [View.read_writes_eq_canon _ _ _ (fun y => ⟨_, List.mem_singleton_self _, View.mem_set_unit_zero hz2 inb_S8000x2_S8000x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread,
      View.ld_unit_zero (S := S8000x2) hz2, View.ld_unit_zero (S := S2x2) hz2, View.ld_unit_zero (S := S2) hz1,
      View.ld_unit_zero (S := S1x2) hz2, View.readCov_unit_zero (S := S8000x2) _ hz2]

end Cert.Kernel.Gen

end
-- ==== Proof.K.Data1.lean ====
/-
  The normalize kernel as a pipeline: no accumulator and no branch. Tile t reads rows 8000·t … 8000·t + 7999
  of x together with the parameters and the two column statistics (whole at every tile), and writes the
  rectified normalized tile of h into one result block and its product with the next layer's transposed
  weight into the other; both result blocks are written back at every tile.
-/
import proofs.«407804_j50861002719257_4_alg».proof.Proof.K.Run1
import Idealize.ShloMosaic.Lib.Pipeline.Frame
import Idealize.ShloMosaic.Lib.Pipeline.FrameBody
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the unscoped buffers' contents when the normalize kernel is entered
variable (V : (c : Dev nD) → (b : Ref sig .tc) → Buf (Elt F) ((c : Thread nD τ).loc b))

/-! ## The tiles -/

/-- Window `w`'s block at tile `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The arrays as the kernel finds them; after tile t each input's buffer at its block, the first result
    block at the rectified normalized tile and the second at its product with the transposed next weight;
    the class invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay1 (k1_pay3 (iblk1 V c 0 t) (iblk1 V c 1 t) (iblk1 V c 2 t) (iblk1 V c 7 t) (iblk1 V c 8 t) (iblk1 V c 5 t) (iblk1 V c 3 t) (iblk1 V c 4 t))
    | ⟨10, _⟩ => k1_pay2 (k1_pay3 (iblk1 V c 0 t) (iblk1 V c 1 t) (iblk1 V c 2 t) (iblk1 V c 7 t) (iblk1 V c 8 t) (iblk1 V c 5 t) (iblk1 V c 3 t) (iblk1 V c 4 t)) (iblk1 V c 6 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = k1_pay1 (k1_pay3 (iblk1 V c 0 t) (iblk1 V c 1 t) (iblk1 V c 2 t) (iblk1 V c 7 t) (iblk1 V c 8 t) (iblk1 V c 5 t) (iblk1 V c 3 t) (iblk1 V c 4 t)) := by dsimp only [dat1]
theorem after1_10 (c : Dev nD) (t : Fin cfg1.N) : (dat1 V c).after 10 t = k1_pay2 (k1_pay3 (iblk1 V c 0 t) (iblk1 V c 1 t) (iblk1 V c 2 t) (iblk1 V c 7 t) (iblk1 V c 8 t) (iblk1 V c 5 t) (iblk1 V c 3 t) (iblk1 V c 4 t)) (iblk1 V c 6 t) := by dsimp only [dat1]

/-- Each input's current staging buffer holds its block at every tile, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

/-! ## The body obligation -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 4000000 in
/-- At every tile the one run of the body is handed the tile's blocks and gives back the two result blocks;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [show cfg1.idle 0 (cfg1.grid.coords t) = false from rfl], after1_0]
  rw [show (dat1 V c).leavesExact 1 t = owns (c : Thread nD τ) (st1_1 t) fullShare ((dat1 V c).after 1 t) from by
    unfold Dat.leavesExact; rw [show cfg1.idle 1 (cfg1.grid.coords t) = false from rfl], after1_1]
  rw [show (dat1 V c).leavesExact 2 t = owns (c : Thread nD τ) (st1_2 t) fullShare ((dat1 V c).after 2 t) from by
    unfold Dat.leavesExact; rw [show cfg1.idle 2 (cfg1.grid.coords t) = false from rfl], after1_2]
  rw [show (dat1 V c).leavesExact 3 t = owns (c : Thread nD τ) (st1_3 t) fullShare ((dat1 V c).after 3 t) from by
    unfold Dat.leavesExact; rw [show cfg1.idle 3 (cfg1.grid.coords t) = false from rfl], after1_3]
  rw [show (dat1 V c).leavesExact 4 t = owns (c : Thread nD τ) (st1_4 t) fullShare ((dat1 V c).after 4 t) from by
    unfold Dat.leavesExact; rw [show cfg1.idle 4 (cfg1.grid.coords t) = false from rfl], after1_4]
  rw [show (dat1 V c).leavesExact 5 t = owns (c : Thread nD τ) (st1_5 t) fullShare ((dat1 V c).after 5 t) from by
    unfold Dat.leavesExact; rw [show cfg1.idle 5 (cfg1.grid.coords t) = false from rfl], after1_5]
  rw [show (dat1 V c).leavesExact 6 t = owns (c : Thread nD τ) (st1_6 t) fullShare ((dat1 V c).after 6 t) from by
    unfold Dat.leavesExact; rw [show cfg1.idle 6 (cfg1.grid.coords t) = false from rfl], after1_6]
  rw [show (dat1 V c).leavesExact 7 t = owns (c : Thread nD τ) (st1_7 t) fullShare ((dat1 V c).after 7 t) from by
    unfold Dat.leavesExact; rw [show cfg1.idle 7 (cfg1.grid.coords t) = false from rfl], after1_7]
  rw [show (dat1 V c).leavesExact 8 t = owns (c : Thread nD τ) (st1_8 t) fullShare ((dat1 V c).after 8 t) from by
    unfold Dat.leavesExact; rw [show cfg1.idle 8 (cfg1.grid.coords t) = false from rfl], after1_8]
  rw [show (dat1 V c).leavesExact 9 t = owns (c : Thread nD τ) (st1_9 t) fullShare ((dat1 V c).after 9 t) from by
    unfold Dat.leavesExact; rw [show cfg1.idle 9 (cfg1.grid.coords t) = false from rfl], after1_9]
  rw [show (dat1 V c).leavesExact 10 t = owns (c : Thread nD τ) (st1_10 t) fullShare ((dat1 V c).after 10 t) from by
    unfold Dat.leavesExact; rw [show cfg1.idle 10 (cfg1.grid.coords t) = false from rfl], after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run1 c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every tile. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.K.Run2.lean ====
/-
  The pooling kernel (segment sums and counts of the per-node output over 500 tiles of 2000 rows, and
  the pooled means at the end), run once per control case: the first tile zeroes the sum and count
  accumulators before adding to them, every tile adds its one-hot-weighted sums and its counts, and the
  last tile also writes the quotient of sums by counts (counts clamped below by one) into the result.
-/
import proofs.«407804_j50861002719257_4_alg».proof.Proof.K.Run0
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pooling kernel at a tile that neither resets nor writes out -/

set_option maxHeartbeats 1000000 in
/-- On whole buffers the body adds to the sum accumulator the tile's one-hot-weighted sums of the
    per-node output (the second linear layer's product plus its bias) and to the count accumulator
    the tile's row counts per segment, and touches nothing else. -/
theorem run2_mid (c : Dev nD) (i : grid2.Coords)
    (arg1 : Memref sig .tc .vmem S2000x2 .f32) (harg1 : arg1.IsWhole) (arg2 : Memref sig .tc .vmem S2000x2 .f32) (harg2 : arg2.IsWhole)
    (arg3 : Memref sig .tc .vmem S2000x1 .i32) (harg3 : arg3.IsWhole) (arg4 : Memref sig .tc .vmem S64x2 .f32) (harg4 : arg4.IsWhole)
    (arg5 : Memref sig .tc .vmem S64 .f32) (harg5 : arg5.IsWhole) (arg6 : Memref sig .tc .vmem S2x64 .f32) (harg6 : arg6.IsWhole)
    (arg7 : Memref sig .tc .vmem S2 .f32) (harg7 : arg7.IsWhole) (arg8 : Memref sig .tc .vmem S1024x2 .f32) (harg8 : arg8.IsWhole)
    (arg9 : Memref sig .tc .vmem S1024x2 .f32) (harg9 : arg9.IsWhole) (arg10 : Memref sig .tc .vmem S1024x1 .f32) (harg10 : arg10.IsWhole) (hc0 : ¬cond2_0 i) (hc1 : ¬cond2_1 i)
    (x1 x2 : Vec F S2000x2 .f32) (bt : Vec F S2000x1 .i32) (w3 : Vec F S64x2 .f32) (b3 : Vec F S64 .f32)
    (w4 : Vec F S2x64 .f32) (b4 : Vec F S2 .f32) (o8 s9 : Vec F S1024x2 .f32) (s10 : Vec F S1024x1 .f32)
    (E : Set ℕ) (K : PUnit → sProp 𝕄) :
    iprop(owns (c : Thread nD τ) arg1 fullShare x1 ∗ owns (c : Thread nD τ) arg2 fullShare x2 ∗ owns (c : Thread nD τ) arg3 fullShare bt
        ∗ owns (c : Thread nD τ) arg4 fullShare w3 ∗ owns (c : Thread nD τ) arg5 fullShare b3 ∗ owns (c : Thread nD τ) arg6 fullShare w4 ∗ owns (c : Thread nD τ) arg7 fullShare b4
        ∗ owns (c : Thread nD τ) arg8 fullShare o8 ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare bt
            ∗ owns (c : Thread nD τ) arg4 fullShare w3 ∗ owns (c : Thread nD τ) arg5 fullShare b3 ∗ owns (c : Thread nD τ) arg6 fullShare w4 ∗ owns (c : Thread nD τ) arg7 fullShare b4
            ∗ owns (c : Thread nD τ) arg8 fullShare o8 ∗ owns (c : Thread nD τ) arg9 fullShare (k2_pay2 (k2_pay7 x1 x2 w3 b3 w4) b4 bt s9)
            ∗ owns (c : Thread nD τ) arg10 fullShare (k2_pay3 bt s10)) -∗ K ⟨⟩))
      ⊢ wp frame (wpE (defs₀ (F := F)) Variants.none c none) E
          (cc2__node_post_pool_kernel i arg1 harg1 arg2 harg2 arg3 harg3 arg4 harg4 arg5 harg5 arg6 harg6 arg7 harg7 arg8 harg8 arg9 harg9 arg10 harg10) K := by
  simp only [cc2__node_post_pool_kernel_eq_skeleton]; unfold cc2__node_post_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    sl_unfold_words
    rw [View.read_writes_eq_canon _ _ _ (fun y => ⟨_, List.mem_singleton_self _, View.mem_set_unit_zero hz2 inb_S1024x2_S1024x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2]
  · iexists _; isplitr; swap; · iexact H10
    ipureintro
    sl_unfold_words
    rw [View.read_writes_eq_canon _ _ _ (fun y => ⟨_, List.mem_singleton_self _, View.mem_set_unit_zero hz2 inb_S1024x1_S1024x1_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2]

/-! ## The first tile -/

set_option maxHeartbeats 1000000 in
/-- At the first tile the body first zeroes both accumulators (whatever they held) and then adds the
    tile's weighted sums and counts to them; the result block is left as it was. -/
theorem run2_first (c : Dev nD) (i : grid2.Coords)
    (arg1 : Memref sig .tc .vmem S2000x2 .f32) (harg1 : arg1.IsWhole) (arg2 : Memref sig .tc .vmem S2000x2 .f32) (harg2 : arg2.IsWhole)
    (arg3 : Memref sig .tc .vmem S2000x1 .i32) (harg3 : arg3.IsWhole) (arg4 : Memref sig .tc .vmem S64x2 .f32) (harg4 : arg4.IsWhole)
    (arg5 : Memref sig .tc .vmem S64 .f32) (harg5 : arg5.IsWhole) (arg6 : Memref sig .tc .vmem S2x64 .f32) (harg6 : arg6.IsWhole)
    (arg7 : Memref sig .tc .vmem S2 .f32) (harg7 : arg7.IsWhole) (arg8 : Memref sig .tc .vmem S1024x2 .f32) (harg8 : arg8.IsWhole)
    (arg9 : Memref sig .tc .vmem S1024x2 .f32) (harg9 : arg9.IsWhole) (arg10 : Memref sig .tc .vmem S1024x1 .f32) (harg10 : arg10.IsWhole) (hc0 : cond2_0 i) (hc1 : ¬cond2_1 i)
    (x1 x2 : Vec F S2000x2 .f32) (bt : Vec F S2000x1 .i32) (w3 : Vec F S64x2 .f32) (b3 : Vec F S64 .f32)
    (w4 : Vec F S2x64 .f32) (b4 : Vec F S2 .f32) (o8 : Vec F S1024x2 .f32)
    (E : Set ℕ) (K : PUnit → sProp 𝕄) :
    iprop(owns (c : Thread nD τ) arg1 fullShare x1 ∗ owns (c : Thread nD τ) arg2 fullShare x2 ∗ owns (c : Thread nD τ) arg3 fullShare bt
        ∗ owns (c : Thread nD τ) arg4 fullShare w3 ∗ owns (c : Thread nD τ) arg5 fullShare b3 ∗ owns (c : Thread nD τ) arg6 fullShare w4 ∗ owns (c : Thread nD τ) arg7 fullShare b4
        ∗ owns (c : Thread nD τ) arg8 fullShare o8 ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare bt
            ∗ owns (c : Thread nD τ) arg4 fullShare w3 ∗ owns (c : Thread nD τ) arg5 fullShare b3 ∗ owns (c : Thread nD τ) arg6 fullShare w4 ∗ owns (c : Thread nD τ) arg7 fullShare b4
            ∗ owns (c : Thread nD τ) arg8 fullShare o8 ∗ owns (c : Thread nD τ) arg9 fullShare (k2_pay2 (k2_pay7 x1 x2 w3 b3 w4) b4 bt k2_pay5)
            ∗ owns (c : Thread nD τ) arg10 fullShare (k2_pay3 bt k2_pay6)) -∗ K ⟨⟩))
      ⊢ wp frame (wpE (defs₀ (F := F)) Variants.none c none) E
          (cc2__node_post_pool_kernel i arg1 harg1 arg2 harg2 arg3 harg3 arg4 harg4 arg5 harg5 arg6 harg6 arg7 harg7 arg8 harg8 arg9 harg9 arg10 harg10) K := by
  simp only [cc2__node_post_pool_kernel_eq_skeleton]; unfold cc2__node_post_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    sl_unfold_words
    rw [View.read_writes_eq_canon _ _ _ (fun y => ⟨_, List.mem_cons_self, View.mem_set_unit_zero hz2 inb_S1024x2_S1024x2_0_0 y⟩),
      View.canon_cons_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]
  · iexists _; isplitr; swap; · iexact H10
    ipureintro
    sl_unfold_words
    rw [View.read_writes_eq_canon _ _ _ (fun y => ⟨_, List.mem_cons_self, View.mem_set_unit_zero hz2 inb_S1024x1_S1024x1_0_0 y⟩),
      View.canon_cons_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]

/-! ## The last tile -/

set_option maxHeartbeats 1000000 in
/-- At the last tile the body updates both accumulators as at every tile and then writes into the
    result block the updated sums divided by the updated counts, the counts clamped below by one. -/
theorem run2_last (c : Dev nD) (i : grid2.Coords)
    (arg1 : Memref sig .tc .vmem S2000x2 .f32) (harg1 : arg1.IsWhole) (arg2 : Memref sig .tc .vmem S2000x2 .f32) (harg2 : arg2.IsWhole)
    (arg3 : Memref sig .tc .vmem S2000x1 .i32) (harg3 : arg3.IsWhole) (arg4 : Memref sig .tc .vmem S64x2 .f32) (harg4 : arg4.IsWhole)
    (arg5 : Memref sig .tc .vmem S64 .f32) (harg5 : arg5.IsWhole) (arg6 : Memref sig .tc .vmem S2x64 .f32) (harg6 : arg6.IsWhole)
    (arg7 : Memref sig .tc .vmem S2 .f32) (harg7 : arg7.IsWhole) (arg8 : Memref sig .tc .vmem S1024x2 .f32) (harg8 : arg8.IsWhole)
    (arg9 : Memref sig .tc .vmem S1024x2 .f32) (harg9 : arg9.IsWhole) (arg10 : Memref sig .tc .vmem S1024x1 .f32) (harg10 : arg10.IsWhole) (hc0 : ¬cond2_0 i) (hc1 : cond2_1 i)
    (x1 x2 : Vec F S2000x2 .f32) (bt : Vec F S2000x1 .i32) (w3 : Vec F S64x2 .f32) (b3 : Vec F S64 .f32)
    (w4 : Vec F S2x64 .f32) (b4 : Vec F S2 .f32) (s9 : Vec F S1024x2 .f32) (s10 : Vec F S1024x1 .f32)
    (E : Set ℕ) (K : PUnit → sProp 𝕄) :
    iprop(owns (c : Thread nD τ) arg1 fullShare x1 ∗ owns (c : Thread nD τ) arg2 fullShare x2 ∗ owns (c : Thread nD τ) arg3 fullShare bt
        ∗ owns (c : Thread nD τ) arg4 fullShare w3 ∗ owns (c : Thread nD τ) arg5 fullShare b3 ∗ owns (c : Thread nD τ) arg6 fullShare w4 ∗ owns (c : Thread nD τ) arg7 fullShare b4
        ∗ (∃ d, owns (c : Thread nD τ) arg8 fullShare d) ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare bt
            ∗ owns (c : Thread nD τ) arg4 fullShare w3 ∗ owns (c : Thread nD τ) arg5 fullShare b3 ∗ owns (c : Thread nD τ) arg6 fullShare w4 ∗ owns (c : Thread nD τ) arg7 fullShare b4
            ∗ owns (c : Thread nD τ) arg8 fullShare (k2_pay4 (k2_pay2 (k2_pay7 x1 x2 w3 b3 w4) b4 bt s9) (k2_pay3 bt s10))
            ∗ owns (c : Thread nD τ) arg9 fullShare (k2_pay2 (k2_pay7 x1 x2 w3 b3 w4) b4 bt s9)
            ∗ owns (c : Thread nD τ) arg10 fullShare (k2_pay3 bt s10)) -∗ K ⟨⟩))
      ⊢ wp frame (wpE (defs₀ (F := F)) Variants.none c none) E
          (cc2__node_post_pool_kernel i arg1 harg1 arg2 harg2 arg3 harg3 arg4 harg4 arg5 harg5 arg6 harg6 arg7 harg7 arg8 harg8 arg9 harg9 arg10 harg10) K := by
  simp only [cc2__node_post_pool_kernel_eq_skeleton]; unfold cc2__node_post_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hf9; obtain rfl := harg10.eq_unread hf10
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro
    sl_unfold_words
    rw [View.read_writes_eq_canon _ _ _ (fun y => ⟨_, List.mem_singleton_self _, View.mem_set_unit_zero hz2 inb_S1024x2_S1024x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]
  isplitl [H9]
  · iexists _; isplitr; swap; · iexact H9
    ipureintro
    sl_unfold_words
    rw [View.read_writes_eq_canon _ _ _ (fun y => ⟨_, List.mem_singleton_self _, View.mem_set_unit_zero hz2 inb_S1024x2_S1024x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]
  · iexists _; isplitr; swap; · iexact H10
    ipureintro
    sl_unfold_words
    rw [View.read_writes_eq_canon _ _ _ (fun y => ⟨_, List.mem_singleton_self _, View.mem_set_unit_zero hz2 inb_S1024x1_S1024x1_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]

end Cert.Kernel.Gen

end
-- ==== Proof.K.Data2.lean ====
/-
  The pooling kernel as a pipeline: what its two accumulators hold after each tile, the invariant that
  carries them from tile to tile, and the proof data.

  Tile t reads rows 2000·t … 2000·t + 1999 of the two node features and of the segment ids. Writing y for
  the per-node output (the two linear layers around a per-row normalization, plus the last bias), the
  first accumulator holds, per segment, the sums of y over the rows seen so far and the second the row
  counts. Both are zeroed at tile 0; at tile 499, the only tile that writes the result back, the result
  block receives the sums divided by the counts clamped below by one.
-/
import proofs.«407804_j50861002719257_4_alg».proof.Proof.K.Run2
import Idealize.ShloMosaic.Lib.Pipeline.Frame
import Idealize.ShloMosaic.Lib.Pipeline.FrameBody
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the unscoped buffers' contents when the pooling kernel is entered
variable (V : (c : Dev nD) → (b : Ref sig .tc) → Buf (Elt F) ((c : Thread nD τ).loc b))

/-! ## The tiles -/

/-- Window `w`'s block at tile `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulators after tile `n`: both start from zero at tile 0, and every tile adds its per-segment
    sums of the per-node output and its per-segment row counts to what the tile before left. -/
def accs2 (c : Dev nD) : (n : ℕ) → n < cfg2.N → Vec F S1024x2 .f32 × Vec F S1024x1 .f32
  | 0, hn => (k2_pay2 (k2_pay7 (iblk2 V c 0 ⟨0, hn⟩) (iblk2 V c 1 ⟨0, hn⟩) (iblk2 V c 3 ⟨0, hn⟩) (iblk2 V c 4 ⟨0, hn⟩) (iblk2 V c 5 ⟨0, hn⟩)) (iblk2 V c 6 ⟨0, hn⟩) (iblk2 V c 2 ⟨0, hn⟩) k2_pay5,
              k2_pay3 (iblk2 V c 2 ⟨0, hn⟩) k2_pay6)
  | n + 1, hn =>
    (k2_pay2 (k2_pay7 (iblk2 V c 0 ⟨n + 1, hn⟩) (iblk2 V c 1 ⟨n + 1, hn⟩) (iblk2 V c 3 ⟨n + 1, hn⟩) (iblk2 V c 4 ⟨n + 1, hn⟩) (iblk2 V c 5 ⟨n + 1, hn⟩)) (iblk2 V c 6 ⟨n + 1, hn⟩) (iblk2 V c 2 ⟨n + 1, hn⟩) (accs2 c n (Nat.lt_of_succ_lt hn)).1,
     k2_pay3 (iblk2 V c 2 ⟨n + 1, hn⟩) (accs2 c n (Nat.lt_of_succ_lt hn)).2)

theorem accs2_zero (c : Dev nD) (t : Fin cfg2.N) (h : t.val = 0) :
    accs2 V c t.val t.isLt = (k2_pay2 (k2_pay7 (iblk2 V c 0 t) (iblk2 V c 1 t) (iblk2 V c 3 t) (iblk2 V c 4 t) (iblk2 V c 5 t)) (iblk2 V c 6 t) (iblk2 V c 2 t) k2_pay5,
      k2_pay3 (iblk2 V c 2 t) k2_pay6) := by
  obtain ⟨n, hn⟩ := t
  cases n with
  | zero => rfl
  | succ n => exact absurd h (Nat.succ_ne_zero n)

theorem accs2_pos (c : Dev nD) (t : Fin cfg2.N) (h : t.val ≠ 0) :
    accs2 V c t.val t.isLt
      = (k2_pay2 (k2_pay7 (iblk2 V c 0 t) (iblk2 V c 1 t) (iblk2 V c 3 t) (iblk2 V c 4 t) (iblk2 V c 5 t)) (iblk2 V c 6 t) (iblk2 V c 2 t) (accs2 V c (t.val - 1) (Nat.lt_of_le_of_lt (Nat.sub_le _ _) t.isLt)).1,
         k2_pay3 (iblk2 V c 2 t) (accs2 V c (t.val - 1) (Nat.lt_of_le_of_lt (Nat.sub_le _ _) t.isLt)).2) := by
  obtain ⟨n, hn⟩ := t
  cases n with
  | zero => exact absurd rfl h
  | succ n => rfl

/-! ## The invariant between tiles -/

/-- The two accumulators as memrefs. -/
abbrev scM2_0 : Memref sig .tc .vmem S1024x2 .f32 := Memref.whole cc2_scratch0
abbrev scM2_1 : Memref sig .tc .vmem S1024x1 .f32 := Memref.whole cc2_scratch1

/-- The scoped buffers that are neither a staging buffer nor an accumulator of this kernel: what the
    body never touches. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- Before tile 0 the accumulators hold anything; before tile n + 1 they hold what tile n left. -/
def Phi2 (c : Dev nD) : (n : ℕ) → n ≤ cfg2.N → sProp 𝕄
  | 0, _ => iprop(iprop(iprop((∃ d, owns (c : Thread nD τ) scM2_0 fullShare d) ∗ (∃ d, owns (c : Thread nD τ) scM2_1 fullShare d)) ∗ rest2 c) ∗ ∃ r, prngReg c r)
  | n + 1, hn => iprop(iprop(iprop(owns (c : Thread nD τ) scM2_0 fullShare (accs2 V c n hn).1 ∗ owns (c : Thread nD τ) scM2_1 fullShare (accs2 V c n hn).2) ∗ rest2 c) ∗ ∃ r, prngReg c r)

theorem Phi2_zero (c : Dev nD) (n : ℕ) (h : n ≤ cfg2.N) (hz : n = 0) :
    Phi2 V c n h = iprop(iprop(iprop((∃ d, owns (c : Thread nD τ) scM2_0 fullShare d) ∗ (∃ d, owns (c : Thread nD τ) scM2_1 fullShare d)) ∗ rest2 c) ∗ ∃ r, prngReg c r) := by
  subst hz; rfl
theorem Phi2_succ (c : Dev nD) (n : ℕ) (hn : n < cfg2.N) :
    Phi2 V c (n + 1) hn = iprop(iprop(iprop(owns (c : Thread nD τ) scM2_0 fullShare (accs2 V c n hn).1 ∗ owns (c : Thread nD τ) scM2_1 fullShare (accs2 V c n hn).2) ∗ rest2 c) ∗ ∃ r, prngReg c r) := rfl
theorem Phi2_pos (c : Dev nD) (n : ℕ) (h : n ≤ cfg2.N) (hz : n ≠ 0) :
    Phi2 V c n h = iprop(iprop(iprop(owns (c : Thread nD τ) scM2_0 fullShare (accs2 V c (n - 1) (by omega)).1 ∗ owns (c : Thread nD τ) scM2_1 fullShare (accs2 V c (n - 1) (by omega)).2) ∗ rest2 c) ∗ ∃ r, prngReg c r) := by
  cases n with
  | zero => exact absurd rfl hz
  | succ n => rfl

/-- The class invariant (every scoped buffer the windows do not stage at anything, the generator
    register at some state) is the invariant before tile 0. -/
theorem PhiA2_eq (c : Dev nD) :
    (Pipeline.ΦA spec2 c : sProp 𝕄) = iprop(iprop(iprop((∃ d, owns (c : Thread nD τ) scM2_0 fullShare d) ∗ (∃ d, owns (c : Thread nD τ) scM2_1 fullShare d)) ∗ rest2 c) ∗ ∃ r, prngReg c r) := by
  unfold Pipeline.ΦA
  rw [Pipeline.scopedRest_split_of_list spec2 c [cc2_scratch0, cc2_scratch1] (by decide) (by decide)]
  simp only [scM2_0, scM2_1, owns_whole]; try rfl

/-! ## The proof data -/

/-- The arrays as the kernel finds them; after tile t each input's buffer at its block and the result
    block at the quotient of the accumulated sums by the clamped accumulated counts; the invariant
    above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay4 (accs2 V c t.val t.isLt).1 (accs2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem Phi2_castSucc (c : Dev nD) (t : Fin cfg2.N) : (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = k2_pay4 (accs2 V c t.val t.isLt).1 (accs2 V c t.val t.isLt).2 := by dsimp only [dat2]

/-- Each input's current staging buffer holds its block at every tile, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

end Region2

end Cert.Kernel.Gen

end
-- ==== Proof.K.Body2.lean ====
/-
  The pooling kernel's body obligation: at each tile the matching case of the body's run is handed the
  tile's blocks and the accumulators the invariant carries, and gives them back one tile further.
-/
import proofs.«407804_j50861002719257_4_alg».proof.Proof.K.Data2
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = Phi2 V c (t.val + 1) t.isLt from rfl, Phi2_succ]
  have hN : t.val < 500 := lt_of_lt_of_eq t.isLt (show cfg2.N = 500 from N_2)
  rw [show (dat2 V c).leavesExact 0 t = owns (c : Thread nD τ) (st2_0 t) fullShare ((dat2 V c).after 0 t) from by
    unfold Dat.leavesExact; rw [show cfg2.idle 0 (cfg2.grid.coords t) = false from rfl], after2_0]
  rw [show (dat2 V c).leavesExact 1 t = owns (c : Thread nD τ) (st2_1 t) fullShare ((dat2 V c).after 1 t) from by
    unfold Dat.leavesExact; rw [show cfg2.idle 1 (cfg2.grid.coords t) = false from rfl], after2_1]
  rw [show (dat2 V c).leavesExact 2 t = owns (c : Thread nD τ) (st2_2 t) fullShare ((dat2 V c).after 2 t) from by
    unfold Dat.leavesExact; rw [show cfg2.idle 2 (cfg2.grid.coords t) = false from rfl], after2_2]
  rw [show (dat2 V c).leavesExact 3 t = owns (c : Thread nD τ) (st2_3 t) fullShare ((dat2 V c).after 3 t) from by
    unfold Dat.leavesExact; rw [show cfg2.idle 3 (cfg2.grid.coords t) = false from rfl], after2_3]
  rw [show (dat2 V c).leavesExact 4 t = owns (c : Thread nD τ) (st2_4 t) fullShare ((dat2 V c).after 4 t) from by
    unfold Dat.leavesExact; rw [show cfg2.idle 4 (cfg2.grid.coords t) = false from rfl], after2_4]
  rw [show (dat2 V c).leavesExact 5 t = owns (c : Thread nD τ) (st2_5 t) fullShare ((dat2 V c).after 5 t) from by
    unfold Dat.leavesExact; rw [show cfg2.idle 5 (cfg2.grid.coords t) = false from rfl], after2_5]
  rw [show (dat2 V c).leavesExact 6 t = owns (c : Thread nD τ) (st2_6 t) fullShare ((dat2 V c).after 6 t) from by
    unfold Dat.leavesExact; rw [show cfg2.idle 6 (cfg2.grid.coords t) = false from rfl], after2_6]
  by_cases h1 : t.val = 499
  · -- the last tile: the result block is stored
    have hc0 : ¬cond2_0 (grid2.coords t) := fun h => by have := (hcond2_0 t).mp h; omega
    have hc1 : cond2_1 (grid2.coords t) := (hcond2_1 t).mpr h1
    have hz : t.val ≠ 0 := by omega
    rw [show (dat2 V c).leavesExact 7 t = owns (c : Thread nD τ) (st2_7 t) fullShare ((dat2 V c).after 7 t) from by
      unfold Dat.leavesExact; rw [live2_7 t hc1], after2_7]
    rw [accs2_pos V c t hz]; dsimp only
    rw [Phi2_castSucc V c t, Phi2_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_last c (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond2_1 (grid2.coords t) := fun h => h1 ((hcond2_1 t).mp h)
    rw [Dat.leavesExact_idle (dat2 V c) 7 t (idle2_7 t hc1) (noFlush2_7 t hc1)]
    by_cases hz : t.val = 0
    · -- the first tile: the accumulators are zeroed, then added to
      have hc0 : cond2_0 (grid2.coords t) := (hcond2_0 t).mpr hz
      rw [accs2_zero V c t hz]; dsimp only
      rw [Phi2_castSucc V c t, Phi2_zero V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_first c (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a tile in between: the accumulators are added to
      have hc0 : ¬cond2_0 (grid2.coords t) := fun h => hz ((hcond2_0 t).mp h)
      rw [accs2_pos V c t hz]; dsimp only
      rw [Phi2_castSucc V c t, Phi2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_mid c (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every tile. -/
theorem body_obligation2 (c : Dev nD) : BodyObligation (dat2 (F := F) V c) (defs₀ (F := F)) Variants.none () Set.univ := fun t => by
  rw [bigSep_W2, bigSep_W2]
  exact sound_body2 V c t

/-- What the kernel is entered with (the class invariant) is the invariant before tile 0. -/
theorem hin2 (c : Dev nD) : Pipeline.ΦA spec2 c ⊢ (dat2 V c).Φ 0 := by
  rw [show (dat2 V c).Φ 0 = Phi2 V c 0 (Nat.zero_le _) from rfl, Phi2_zero V c 0 _ rfl, PhiA2_eq]
  try exact Idealize.SL.BI.Entails.refl _

/-- After the last tile the invariant gives the class invariant back: what the accumulators hold is forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 500 := N_2; omega), PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Region2

end Cert.Kernel.Gen

end
-- ==== Proof.K.FrameDefs.lean ====
/-
  What each kernel leaves in its result arrays, stage by stage, and the valuations between the
  program's items.

  The statistics kernel's arrays are computed from the valuation after the first host stretch; the
  normalize kernel's from that with the statistics in place; the pooling kernel's from that with the
  normalize kernel's results in place and the aggregation's host stretch applied. `outs` reads them
  off at the item after each kernel.
-/
import proofs.«407804_j50861002719257_4_alg».proof.Proof.K.Body0
import proofs.«407804_j50861002719257_4_alg».proof.Proof.K.Data1
import proofs.«407804_j50861002719257_4_alg».proof.Proof.K.Body2
import proofs.«407804_j50861002719257_4_alg».proof.Proof.Gen.Kernel.Regions
import Idealize.ShloMosaic.Lib.Pipeline.FrameSuffix
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the kernels leave -/

/-- After the statistics kernel: its arrays at what its pipeline leaves, every other buffer as entered. -/
def o2 (r : Ref sig .tc) (c : Dev nD) : Buf (Elt F) ((c : Thread nD τ).loc r) :=
  Pipeline.withArrays spec0 c (V1 m c) (fun w => (dat0 (fun c b => V1 m c b) c).arrAt w cfg0.N) (Proc.devRef .tc r)
abbrev outsA : Outs (F := F) := fun _ r c => o2 m r c
/-- After the normalize kernel. -/
def o3 (r : Ref sig .tc) (c : Dev nD) : Buf (Elt F) ((c : Thread nD τ).loc r) :=
  Pipeline.withArrays spec1 c (V2 m (outsA m) c) (fun w => (dat1 (fun c b => V2 m (outsA m) c b) c).arrAt w cfg1.N) (Proc.devRef .tc r)
abbrev outsB : Outs (F := F) := fun n r c => match n with | 2 => o2 m r c | _ => o3 m r c
/-- After the pooling kernel. -/
def o5 (r : Ref sig .tc) (c : Dev nD) : Buf (Elt F) ((c : Thread nD τ).loc r) :=
  Pipeline.withArrays spec2 c (V4 m (outsB m) c) (fun w => (dat2 (fun c b => V4 m (outsB m) c b) c).arrAt w cfg2.N) (Proc.devRef .tc r)
/-- What each kernel leaves in the buffers it may change, read at the item after it. -/
def outs : Outs (F := F) := fun n r c => match n with | 2 => o2 m r c | 3 => o3 m r c | _ => o5 m r c

/-! ## The valuations between the items do not depend on what later kernels leave -/

theorem V2_outs (c : Dev nD) : V2 m (outs m) c = V2 m (outsA m) c := rfl
theorem V2_outsB (c : Dev nD) : V2 m (outsB m) c = V2 m (outsA m) c := rfl
theorem V3_outs (c : Dev nD) : V3 m (outs m) c = V3 m (outsB m) c := by
  have h2 : V2 m (outs m) c = V2 m (outsB m) c := (V2_outs m c).trans (V2_outsB m c).symm
  show Function.update (Function.update (V2 m (outs m) c) (Proc.devRef .tc main_v5_0) (o3 m main_v5_0 c)) (Proc.devRef .tc main_v5_1) (o3 m main_v5_1 c)
    = Function.update (Function.update (V2 m (outsB m) c) (Proc.devRef .tc main_v5_0) (o3 m main_v5_0 c)) (Proc.devRef .tc main_v5_1) (o3 m main_v5_1 c)
  rw [h2]
theorem V4_outs (c : Dev nD) : V4 m (outs m) c = V4 m (outsB m) c :=
  congrArg (StableHlo.after hostOps2) (V3_outs m c)

/-- The proof data of the normalize and pooling kernels, stated at the valuations the program's thread
    states name, are those the results above were computed from. -/
theorem dat1_outs (c : Dev nD) : dat1 (fun c b => V2 m (outs m) c b) c = dat1 (fun c b => V2 m (outsA m) c b) c := rfl
theorem dat2_outs (c : Dev nD) : dat2 (fun c b => V4 m (outs m) c b) c = dat2 (fun c b => V4 m (outsB m) c b) c :=
  congrArg (fun V => dat2 V c) (funext fun c' => funext fun b => congrFun (V4_outs m c') (Proc.devRef .tc b))

/-! ## Each kernel's arrays at its exit -/

theorem o2_arr (c : Dev nD) (w : Fin cfg0.W) : o2 m (Pipeline.arrRef spec0 w) c = (dat0 (fun c b => V1 m c b) c).arrAt w cfg0.N :=
  Pipeline.withArrays_arr spec0 launch0.win.arr_inj c _ _ w
theorem o3_arr (c : Dev nD) (w : Fin cfg1.W) : o3 m (Pipeline.arrRef spec1 w) c = (dat1 (fun c b => V2 m (outs m) c b) c).arrAt w cfg1.N :=
  (Pipeline.withArrays_arr spec1 launch1.win.arr_inj c _ _ w).trans (by rw [dat1_outs])
theorem o5_arr (c : Dev nD) (w : Fin cfg2.W) : o5 m (Pipeline.arrRef spec2 w) c = (dat2 (fun c b => V4 m (outs m) c b) c).arrAt w cfg2.N :=
  (Pipeline.withArrays_arr spec2 launch2.win.arr_inj c _ _ w).trans (by rw [dat2_outs])

theorem V2_v4_0 (c : Dev nD) : V2 m (outs m) c main_v4_0 = o2 m main_v4_0 c := by
  show Function.update (Function.update (V1 m c) (Proc.devRef .tc main_v4_0) (o2 m main_v4_0 c)) (Proc.devRef .tc main_v4_1) (o2 m main_v4_1 c) (Proc.devRef .tc main_v4_0) = _
  rw [Function.update_of_ne (StableHlo.devRef_ne_of_ne (by decide : main_v4_0 ≠ main_v4_1)), Function.update_self]
theorem V2_v4_1 (c : Dev nD) : V2 m (outs m) c main_v4_1 = o2 m main_v4_1 c := by
  show Function.update (Function.update (V1 m c) (Proc.devRef .tc main_v4_0) (o2 m main_v4_0 c)) (Proc.devRef .tc main_v4_1) (o2 m main_v4_1 c) (Proc.devRef .tc main_v4_1) = _
  rw [Function.update_self]
theorem V3_v5_0 (c : Dev nD) : V3 m (outs m) c main_v5_0 = o3 m main_v5_0 c := by
  show Function.update (Function.update (V2 m (outs m) c) (Proc.devRef .tc main_v5_0) (o3 m main_v5_0 c)) (Proc.devRef .tc main_v5_1) (o3 m main_v5_1 c) (Proc.devRef .tc main_v5_0) = _
  rw [Function.update_of_ne (StableHlo.devRef_ne_of_ne (by decide : main_v5_0 ≠ main_v5_1)), Function.update_self]
theorem V3_v5_1 (c : Dev nD) : V3 m (outs m) c main_v5_1 = o3 m main_v5_1 c := by
  show Function.update (Function.update (V2 m (outs m) c) (Proc.devRef .tc main_v5_0) (o3 m main_v5_0 c)) (Proc.devRef .tc main_v5_1) (o3 m main_v5_1 c) (Proc.devRef .tc main_v5_1) = _
  rw [Function.update_self]
theorem V5_v50 (c : Dev nD) : V5 m (outs m) c main_v50 = o5 m main_v50 c := by
  show Function.update (V4 m (outs m) c) (Proc.devRef .tc main_v50) (o5 m main_v50 c) (Proc.devRef .tc main_v50) = _
  rw [Function.update_self]

end Cert.Kernel.Gen

end
-- ==== Proof.K.FrameExit.lean ====
/-
  The proof data of the three pipelines, each at its kernel's entry valuation, and what the exit of
  each kernel needs: its arrays hold what the next valuation says, and every other buffer is as entered.
-/
import proofs.«407804_j50861002719257_4_alg».proof.Proof.K.FrameDefs
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its kernel's entry contents. -/
def pdats : (p : Fin 3) → (c : Dev nD) → Dat τ (Elt F) Unit ℕ (UR sig nD τ) ℕ (cfgs p) c
  | ⟨0, _⟩ => fun c => dat0 (fun c b => V1 m c b) c
  | ⟨1, _⟩ => fun c => dat1 (fun c b => V2 m (outs m) c b) c
  | ⟨2, _⟩ => fun c => dat2 (fun c b => V4 m (outs m) c b) c

/-! ## The statistics kernel's exit -/
theorem hF0_0 (c : Dev nD) : (pdats m 0 c).arrAt 0 cfg0.N = V2 m (outs m) c (Pipeline.arrRef spec0 0) :=
  (((dat0 (fun c b => V1 m c b) c).arrAt_in 0 rfl _).trans (A_eq0 (fun c b => V1 m c b) c 0)).trans (V2_of m (outs m) c main_arg0 (by decide)).symm
theorem hF0_1 (c : Dev nD) : (pdats m 0 c).arrAt 1 cfg0.N = V2 m (outs m) c (Pipeline.arrRef spec0 1) :=
  (((dat0 (fun c b => V1 m c b) c).arrAt_in 1 rfl _).trans (A_eq0 (fun c b => V1 m c b) c 1)).trans (V2_of m (outs m) c main_arg1 (by decide)).symm
theorem hF0_2 (c : Dev nD) : (pdats m 0 c).arrAt 2 cfg0.N = V2 m (outs m) c (Pipeline.arrRef spec0 2) :=
  (((dat0 (fun c b => V1 m c b) c).arrAt_in 2 rfl _).trans (A_eq0 (fun c b => V1 m c b) c 2)).trans (V2_of m (outs m) c main_arg2 (by decide)).symm
theorem hF0_3 (c : Dev nD) : (pdats m 0 c).arrAt 3 cfg0.N = V2 m (outs m) c (Pipeline.arrRef spec0 3) :=
  (o2_arr m c 3).symm.trans (V2_v4_0 m c).symm
theorem hF0_4 (c : Dev nD) : (pdats m 0 c).arrAt 4 cfg0.N = V2 m (outs m) c (Pipeline.arrRef spec0 4) :=
  (o2_arr m c 4).symm.trans (V2_v4_1 m c).symm
theorem hF0 (c : Dev nD) (w : Fin cfg0.W) : (pdats m 0 c).arrAt w cfg0.N = V2 m (outs m) c (Pipeline.arrRef spec0 w) := by
  obtain ⟨w, hw⟩ := w
  have hw' : w < 5 := hw
  have hcases : w = 0 ∨ w = 1 ∨ w = 2 ∨ w = 3 ∨ w = 4 := by omega
  rcases hcases with rfl | rfl | rfl | rfl | rfl
  · exact hF0_0 m c
  · exact hF0_1 m c
  · exact hF0_2 m c
  · exact hF0_3 m c
  · exact hF0_4 m c
theorem hrest0 (c : Dev nD) : ∀ b, b ∉ Finset.univ.image (Pipeline.arrRef spec0) → V2 m (outs m) c b = V1 m c b :=
  fun b hb => V2_of m (outs m) c b fun hmem => by
    rcases List.mem_cons.mp hmem with rfl | hmem
    · exact hb (Finset.mem_image.mpr ⟨3, Finset.mem_univ _, rfl⟩)
    rcases List.mem_cons.mp hmem with rfl | hmem
    · exact hb (Finset.mem_image.mpr ⟨4, Finset.mem_univ _, rfl⟩)
    · exact absurd hmem List.not_mem_nil

/-! ## The normalize kernel's exit -/
theorem hF1_0 (c : Dev nD) : (pdats m 1 c).arrAt 0 cfg1.N = V3 m (outs m) c (Pipeline.arrRef spec1 0) :=
  (((dat1 (fun c b => V2 m (outs m) c b) c).arrAt_in 0 rfl _).trans (A_eq1 (fun c b => V2 m (outs m) c b) c 0)).trans (V3_of m (outs m) c main_arg0 (by decide)).symm
theorem hF1_1 (c : Dev nD) : (pdats m 1 c).arrAt 1 cfg1.N = V3 m (outs m) c (Pipeline.arrRef spec1 1) :=
  (((dat1 (fun c b => V2 m (outs m) c b) c).arrAt_in 1 rfl _).trans (A_eq1 (fun c b => V2 m (outs m) c b) c 1)).trans (V3_of m (outs m) c main_arg1 (by decide)).symm
theorem hF1_2 (c : Dev nD) : (pdats m 1 c).arrAt 2 cfg1.N = V3 m (outs m) c (Pipeline.arrRef spec1 2) :=
  (((dat1 (fun c b => V2 m (outs m) c b) c).arrAt_in 2 rfl _).trans (A_eq1 (fun c b => V2 m (outs m) c b) c 2)).trans (V3_of m (outs m) c main_arg2 (by decide)).symm
theorem hF1_3 (c : Dev nD) : (pdats m 1 c).arrAt 3 cfg1.N = V3 m (outs m) c (Pipeline.arrRef spec1 3) :=
  (((dat1 (fun c b => V2 m (outs m) c b) c).arrAt_in 3 rfl _).trans (A_eq1 (fun c b => V2 m (outs m) c b) c 3)).trans (V3_of m (outs m) c main_arg3 (by decide)).symm
theorem hF1_4 (c : Dev nD) : (pdats m 1 c).arrAt 4 cfg1.N = V3 m (outs m) c (Pipeline.arrRef spec1 4) :=
  (((dat1 (fun c b => V2 m (outs m) c b) c).arrAt_in 4 rfl _).trans (A_eq1 (fun c b => V2 m (outs m) c b) c 4)).trans (V3_of m (outs m) c main_arg4 (by decide)).symm
theorem hF1_5 (c : Dev nD) : (pdats m 1 c).arrAt 5 cfg1.N = V3 m (outs m) c (Pipeline.arrRef spec1 5) :=
  (((dat1 (fun c b => V2 m (outs m) c b) c).arrAt_in 5 rfl _).trans (A_eq1 (fun c b => V2 m (outs m) c b) c 5)).trans (V3_of m (outs m) c main_arg5 (by decide)).symm
theorem hF1_6 (c : Dev nD) : (pdats m 1 c).arrAt 6 cfg1.N = V3 m (outs m) c (Pipeline.arrRef spec1 6) :=
  (((dat1 (fun c b => V2 m (outs m) c b) c).arrAt_in 6 rfl _).trans (A_eq1 (fun c b => V2 m (outs m) c b) c 6)).trans (V3_of m (outs m) c main_arg6 (by decide)).symm
theorem hF1_7 (c : Dev nD) : (pdats m 1 c).arrAt 7 cfg1.N = V3 m (outs m) c (Pipeline.arrRef spec1 7) :=
  (((dat1 (fun c b => V2 m (outs m) c b) c).arrAt_in 7 rfl _).trans (A_eq1 (fun c b => V2 m (outs m) c b) c 7)).trans (V3_of m (outs m) c main_v4_0 (by decide)).symm
theorem hF1_8 (c : Dev nD) : (pdats m 1 c).arrAt 8 cfg1.N = V3 m (outs m) c (Pipeline.arrRef spec1 8) :=
  (((dat1 (fun c b => V2 m (outs m) c b) c).arrAt_in 8 rfl _).trans (A_eq1 (fun c b => V2 m (outs m) c b) c 8)).trans (V3_of m (outs m) c main_v4_1 (by decide)).symm
theorem hF1_9 (c : Dev nD) : (pdats m 1 c).arrAt 9 cfg1.N = V3 m (outs m) c (Pipeline.arrRef spec1 9) :=
  (o3_arr m c 9).symm.trans (V3_v5_0 m c).symm
theorem hF1_10 (c : Dev nD) : (pdats m 1 c).arrAt 10 cfg1.N = V3 m (outs m) c (Pipeline.arrRef spec1 10) :=
  (o3_arr m c 10).symm.trans (V3_v5_1 m c).symm
theorem hF1 (c : Dev nD) (w : Fin cfg1.W) : (pdats m 1 c).arrAt w cfg1.N = V3 m (outs m) c (Pipeline.arrRef spec1 w) := by
  obtain ⟨w, hw⟩ := w
  have hw' : w < 11 := hw
  have hcases : w = 0 ∨ w = 1 ∨ w = 2 ∨ w = 3 ∨ w = 4 ∨ w = 5 ∨ w = 6 ∨ w = 7 ∨ w = 8 ∨ w = 9 ∨ w = 10 := by omega
  rcases hcases with rfl | rfl | rfl | rfl | rfl | rfl | rfl | rfl | rfl | rfl | rfl
  · exact hF1_0 m c
  · exact hF1_1 m c
  · exact hF1_2 m c
  · exact hF1_3 m c
  · exact hF1_4 m c
  · exact hF1_5 m c
  · exact hF1_6 m c
  · exact hF1_7 m c
  · exact hF1_8 m c
  · exact hF1_9 m c
  · exact hF1_10 m c
theorem hrest1 (c : Dev nD) : ∀ b, b ∉ Finset.univ.image (Pipeline.arrRef spec1) → V3 m (outs m) c b = V2 m (outs m) c b :=
  fun b hb => V3_of m (outs m) c b fun hmem => by
    rcases List.mem_cons.mp hmem with rfl | hmem
    · exact hb (Finset.mem_image.mpr ⟨9, Finset.mem_univ _, rfl⟩)
    rcases List.mem_cons.mp hmem with rfl | hmem
    · exact hb (Finset.mem_image.mpr ⟨10, Finset.mem_univ _, rfl⟩)
    · exact absurd hmem List.not_mem_nil

/-! ## The pooling kernel's exit -/
theorem hF2_0 (c : Dev nD) : (pdats m 2 c).arrAt 0 cfg2.N = V5 m (outs m) c (Pipeline.arrRef spec2 0) :=
  (((dat2 (fun c b => V4 m (outs m) c b) c).arrAt_in 0 rfl _).trans (A_eq2 (fun c b => V4 m (outs m) c b) c 0)).trans (V5_of m (outs m) c main_v48 (by decide)).symm
theorem hF2_1 (c : Dev nD) : (pdats m 2 c).arrAt 1 cfg2.N = V5 m (outs m) c (Pipeline.arrRef spec2 1) :=
  (((dat2 (fun c b => V4 m (outs m) c b) c).arrAt_in 1 rfl _).trans (A_eq2 (fun c b => V4 m (outs m) c b) c 1)).trans (V5_of m (outs m) c main_v5_0 (by decide)).symm
theorem hF2_2 (c : Dev nD) : (pdats m 2 c).arrAt 2 cfg2.N = V5 m (outs m) c (Pipeline.arrRef spec2 2) :=
  (((dat2 (fun c b => V4 m (outs m) c b) c).arrAt_in 2 rfl _).trans (A_eq2 (fun c b => V4 m (outs m) c b) c 2)).trans (V5_of m (outs m) c main_v49 (by decide)).symm
theorem hF2_3 (c : Dev nD) : (pdats m 2 c).arrAt 3 cfg2.N = V5 m (outs m) c (Pipeline.arrRef spec2 3) :=
  (((dat2 (fun c b => V4 m (outs m) c b) c).arrAt_in 3 rfl _).trans (A_eq2 (fun c b => V4 m (outs m) c b) c 3)).trans (V5_of m (outs m) c main_arg8 (by decide)).symm
theorem hF2_4 (c : Dev nD) : (pdats m 2 c).arrAt 4 cfg2.N = V5 m (outs m) c (Pipeline.arrRef spec2 4) :=
  (((dat2 (fun c b => V4 m (outs m) c b) c).arrAt_in 4 rfl _).trans (A_eq2 (fun c b => V4 m (outs m) c b) c 4)).trans (V5_of m (outs m) c main_arg9 (by decide)).symm
theorem hF2_5 (c : Dev nD) : (pdats m 2 c).arrAt 5 cfg2.N = V5 m (outs m) c (Pipeline.arrRef spec2 5) :=
  (((dat2 (fun c b => V4 m (outs m) c b) c).arrAt_in 5 rfl _).trans (A_eq2 (fun c b => V4 m (outs m) c b) c 5)).trans (V5_of m (outs m) c main_arg10 (by decide)).symm
theorem hF2_6 (c : Dev nD) : (pdats m 2 c).arrAt 6 cfg2.N = V5 m (outs m) c (Pipeline.arrRef spec2 6) :=
  (((dat2 (fun c b => V4 m (outs m) c b) c).arrAt_in 6 rfl _).trans (A_eq2 (fun c b => V4 m (outs m) c b) c 6)).trans (V5_of m (outs m) c main_arg11 (by decide)).symm
theorem hF2_7 (c : Dev nD) : (pdats m 2 c).arrAt 7 cfg2.N = V5 m (outs m) c (Pipeline.arrRef spec2 7) :=
  (o5_arr m c 7).symm.trans (V5_v50 m c).symm
theorem hF2 (c : Dev nD) (w : Fin cfg2.W) : (pdats m 2 c).arrAt w cfg2.N = V5 m (outs m) c (Pipeline.arrRef spec2 w) := by
  obtain ⟨w, hw⟩ := w
  have hw' : w < 8 := hw
  have hcases : w = 0 ∨ w = 1 ∨ w = 2 ∨ w = 3 ∨ w = 4 ∨ w = 5 ∨ w = 6 ∨ w = 7 := by omega
  rcases hcases with rfl | rfl | rfl | rfl | rfl | rfl | rfl | rfl
  · exact hF2_0 m c
  · exact hF2_1 m c
  · exact hF2_2 m c
  · exact hF2_3 m c
  · exact hF2_4 m c
  · exact hF2_5 m c
  · exact hF2_6 m c
  · exact hF2_7 m c
theorem hrest2 (c : Dev nD) : ∀ b, b ∉ Finset.univ.image (Pipeline.arrRef spec2) → V5 m (outs m) c b = V4 m (outs m) c b :=
  fun b hb => V5_of m (outs m) c b fun hmem => by
    rcases List.mem_cons.mp hmem with rfl | hmem
    · exact hb (Finset.mem_image.mpr ⟨7, Finset.mem_univ _, rfl⟩)
    · exact absurd hmem List.not_mem_nil

end Cert.Kernel.Gen

end
-- ==== Proof.K.Frame.lean ====
/-
  The three kernels as segments of the program, and the program's frame.

  Between two items of the program a core holds every unscoped buffer at a known valuation. Each kernel
  is entered from the valuation before it and left at the one after it: its arrays are split out of the
  unscoped buffers on entry and put back, at what its pipeline leaves, on exit; nothing is owed, no kernel
  has a semaphore of its own, and the generator register rides along untouched.
-/
import proofs.«407804_j50861002719257_4_alg».proof.Proof.K.FrameExit
import Idealize.ShloMosaic.Lib.Pipeline.Regions
import Idealize.ShloMosaic.Lib.Pipeline.RegionsLoop
import Idealize.ShloMosaic.Lib.Pipeline.Kit
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0
/-- What rides beside the buffers through every item: the generator register at some state and the
    core owing nothing. -/
abbrev R (c : Dev nD) : sProp 𝕄 := iprop((∃ r, prngReg c r) ∗ ∃ W, owes (c : Thread nD τ) (0 : CellTallies nD τ sig Unit) W)

theorem hin1 (V : (c : Dev nD) → (b : Ref sig .tc) → Buf (Elt F) ((c : Thread nD τ).loc b)) (c : Dev nD) :
    Pipeline.ΦA spec1 c ⊢ (dat1 V c).Φ 0 := Idealize.SL.BI.Entails.refl _
theorem hout1 (V : (c : Dev nD) → (b : Ref sig .tc) → Buf (Elt F) ((c : Thread nD τ).loc b)) (c : Dev nD) :
    (dat1 V c).Φ (Fin.last cfg1.N) ⊢ Pipeline.ΦA spec1 c := Idealize.SL.BI.Entails.refl _

/-! ## The kernels as segments -/

set_option backward.isDefEq.respectTransparency.types false in
/-- Region 0 over the thread states: its arrays are split out of the unscoped buffers on entry and put
    back at what the pipeline leaves on exit; the generator register enters the invariant and comes back;
    every other unscoped buffer passes by untouched; nothing is owed and the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (fun c b => V1 m c b) c)
    unfold Pipeline.ΦA
    iintro ⟨Hp, -, Hr⟩
    isplitl [Hr]; · iexact Hr
    iexact Hp
  hout c := by
    rw [Pipeline.ownSems0_none]
    refine BIBase.Entails.trans (hout0 (fun c b => V1 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: its arrays are split out of the unscoped buffers on entry and put
    back at what the pipeline leaves on exit; the generator register enters the invariant and comes back;
    every other unscoped buffer passes by untouched; nothing is owed and the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (fun c b => V2 m (outs m) c b) c)
    unfold Pipeline.ΦA
    iintro ⟨Hp, -, Hr⟩
    isplitl [Hr]; · iexact Hr
    iexact Hp
  hout c := by
    rw [Pipeline.ownSems0_none]
    refine BIBase.Entails.trans (hout1 (fun c b => V2 m (outs m) c b) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread states: its arrays are split out of the unscoped buffers on entry and put
    back at what the pipeline leaves on exit; the generator register enters the invariant and comes back;
    every other unscoped buffer passes by untouched; nothing is owed and the kernel has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V4 m (outs m) c b) c).loose
  hwaits := Pipeline.hwaits_of_owed_zero _ _ _ _ L lv 2 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V4 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (fun c b => V4 m (outs m) c b) c)
    unfold Pipeline.ΦA
    iintro ⟨Hp, -, Hr⟩
    isplitl [Hr]; · iexact Hr
    iexact Hp
  hout c := by
    rw [Pipeline.ownSems0_none]
    refine BIBase.Entails.trans (hout2 (fun c b => V4 m (outs m) c b) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V4 m (outs m) c b) (fun b => V5 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element: the pipelines' cells and launch tokens. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core is what rides along from the first item on. -/
theorem hE0 (ρ : Dev nD → PrngReg) :
    iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

set_option backward.isDefEq.respectTransparency.types false in
/-- Every weakly fair execution of the program terminates, nothing faulting, with every argument array
    as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L lv (fun _ _ => rfl) ρ (outs m) (pdats m) (fun _ => 0) (fun _ => (BI.emp : sProp 𝕄)) (u₀ : UR sig nD τ) hu₀
    (fun _ c => R c) (hE0 ρ) (fun c => by iintro ⟨-, HO⟩; iexact HO)
    (reg0 m) (fun _ => .rfl) (fun _ => .rfl) (reg1 m) (fun _ => .rfl) (fun _ => .rfl) (reg2 m) (fun _ => .rfl) (fun _ => .rfl)

end Cert.Kernel.Gen

end
-- ==== Proof.KI.Cases.lean ====
/-
  The tile tests of the two accumulating kernels, decided over their grids.
-/
import proofs.«407804_j50861002719257_4_alg».proof.Proof.Gen.KernelIdeal.Launch
import proofs.«407804_j50861002719257_4_alg».proof.Proof.Gen.KernelIdeal.Skeleton
import proofs.«407804_j50861002719257_4_alg».proof.Proof.Gen.KernelIdeal.Points
import Idealize.ShloMosaic.Lib.Pipeline.FrameBody
import Idealize.ShloMosaic.Lib.Tactic
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the two accumulating kernels branch

The statistics kernel (125 tiles of 8000 rows) and the pooling kernel (500 tiles of 2000 rows) each
reset their accumulators at their first tile and write their result at their last. Both tests are
scalar comparisons of the tile number; here they are decided once over the whole grid. -/

/-- The statistics kernel resets its two accumulators: the tile number is 0. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The statistics kernel writes the two sums out: the tile number is 124. -/
abbrev cond0_1 (i : grid0.Coords) : Prop := k0_cond2 i = 1#1
theorem hcond0_1 : ∀ t : Fin cfg0.N, cond0_1 (grid0.coords t) ↔ t.val = 124 :=
  (by decide +kernel : ∀ t : Fin grid0.N, cond0_1 (grid0.coords t) ↔ t.val = 124)

/-- The pooling kernel resets its two accumulators: the tile number is 0. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The pooling kernel writes the pooled means out: the tile number is 499. -/
abbrev cond2_1 (i : grid2.Coords) : Prop := k2_cond2 i = 1#1
theorem hcond2_1 : ∀ t : Fin cfg2.N, cond2_1 (grid2.coords t) ↔ t.val = 499 :=
  (by decide +kernel : ∀ t : Fin grid2.N, cond2_1 (grid2.coords t) ↔ t.val = 499)

/-! ## Where the result windows are idle, and where they are written back -/

theorem idle0_3 : ∀ t : Fin cfg0.N, ¬cond0_1 (grid0.coords t) → cfg0.idle 3 (grid0.coords t) = true := by decide +kernel
theorem idle0_4 : ∀ t : Fin cfg0.N, ¬cond0_1 (grid0.coords t) → cfg0.idle 4 (grid0.coords t) = true := by decide +kernel
theorem live0_3 : ∀ t : Fin cfg0.N, cond0_1 (grid0.coords t) → cfg0.idle 3 (grid0.coords t) = false := by decide +kernel
theorem live0_4 : ∀ t : Fin cfg0.N, cond0_1 (grid0.coords t) → cfg0.idle 4 (grid0.coords t) = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem idle2_7 : ∀ t : Fin cfg2.N, ¬cond2_1 (grid2.coords t) → cfg2.idle 7 (grid2.coords t) = true := by decide +kernel
theorem live2_7 : ∀ t : Fin cfg2.N, cond2_1 (grid2.coords t) → cfg2.idle 7 (grid2.coords t) = false := by decide +kernel
theorem noFlush2_7 : ∀ t : Fin cfg2.N, ¬cond2_1 (grid2.coords t) → (cfg2.win 7).flush t = false := by decide +kernel

end Cert.KernelIdeal.Gen

end
-- ==== Proof.KI.Run0.lean ====
/-
  The statistics kernel (column sums of h = x·Wᵀ + b and of h² over 125 tiles of 8000 rows), run once
  per control case: the first tile zeroes the two accumulators before adding to them, every tile adds
  its own column sums, and the last tile also copies the accumulators into the two result blocks.
-/
import proofs.«407804_j50861002719257_4_alg».proof.Proof.KI.Cases
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the bodies load and store through start at offset zero on every axis. -/
theorem hz2 : ((![0, 0] : Fin 2 → Nat)) = fun _ => 0 := by funext a; fin_cases a <;> rfl
theorem hz1 : ((![0] : Fin 1 → Nat)) = fun _ => 0 := by funext a; fin_cases a; rfl

/-! ## The statistics kernel at a tile that neither resets nor writes out -/

set_option maxHeartbeats 1000000 in
/-- On whole buffers — the tile of `x`, the weight, the bias, the two result blocks and the two
    accumulators — the body adds the tile's column sums of `h = x·Wᵀ + b` to the first accumulator
    and the column sums of `h²` to the second, and touches nothing else. -/
theorem run0_mid (c : Dev nD) (i : grid0.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x2 .f32) (harg6 : arg6.IsWhole)
    (arg7 : Memref sig .tc .vmem S1x2 .f32) (harg7 : arg7.IsWhole) (hc0 : ¬cond0_0 i) (hc1 : ¬cond0_1 i)
    (x0 : Vec F S8000x2 .f32) (w0 : Vec F S2x2 .f32) (b0 : Vec F S2 .f32) (o3 o4 s0 s1 : Vec F S1x2 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare o3 ∗ owns (c : Thread nD τ) arg5 fullShare o4
        ∗ owns (c : Thread nD τ) arg6 fullShare s0 ∗ owns (c : Thread nD τ) arg7 fullShare s1
        ∗ (iprop(owns (c : Thread nD τ) arg1 fullShare x0 ∗ owns (c : Thread nD τ) arg2 fullShare w0 ∗ owns (c : Thread nD τ) arg3 fullShare b0
            ∗ owns (c : Thread nD τ) arg4 fullShare o3 ∗ owns (c : Thread nD τ) arg5 fullShare o4
            ∗ owns (c : Thread nD τ) arg6 fullShare (k0_pay4 x0 w0 b0 s0) ∗ owns (c : Thread nD τ) arg7 fullShare (k0_pay5 x0 w0 b0 s1)) -∗ K ⟨⟩))
      ⊢ wp frame (wpE (defs₀ (F := F)) Variants.none c none) E
          (cc0__node_stats_kernel i arg1 harg1 arg2 harg2 arg3 harg3 arg4 harg4 arg5 harg5 arg6 harg6 arg7 harg7) K := by
  simp only [cc0__node_stats_kernel_eq_skeleton]; unfold cc0__node_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro
    rw [View.read_writes_eq_canon _ _ _ (fun y => ⟨_, List.mem_singleton_self _, View.mem_set_unit_zero hz2 inb_S1x2_S1x2_0_0 y⟩),
      View.canon_unit_zero hz2]
    simp only [View.readAt_eq_ld, harg1.read_unread, harg2.read_unread, harg3.read_unread, harg6.read_unread,
      View.ld_unit_zero (S := S8000x2) hz2, View.ld_unit_zero (S := S2x2) hz2, View.ld_unit_zero (S := S2) hz1,
      View.ld_unit_zero (S := S1x2) hz2]
  · iexists _; isplitr; swap; · iexact H7
    ipureintro
    rw [View.read_writes_eq_canon _ _ _ (fun y => ⟨_, List.mem_singleton_self _, View.mem_set_unit_zero hz2 inb_S1x2_S1x2_0_0 y⟩),
      View.canon_unit_zero hz2]
    simp only [View.readAt_eq_ld, harg1.read_unread, harg2.read_unread, harg3.read_unread, harg7.read_unread,
      View.ld_unit_zero (S := S8000x2) hz2, View.ld_unit_zero (S := S2x2) hz2, View.ld_unit_zero (S := S2) hz1,
      View.ld_unit_zero (S := S1x2) hz2]

set_option maxHeartbeats 1000000 in
/-- At the first tile the body first zeroes both accumulators (whatever they held) and then adds the
    tile's column sums of `h` and of `h²` to them; the result blocks are left as they were. -/
theorem run0_first (c : Dev nD) (i : grid0.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x2 .f32) (harg6 : arg6.IsWhole)
    (arg7 : Memref sig .tc .vmem S1x2 .f32) (harg7 : arg7.IsWhole) (hc0 : cond0_0 i) (hc1 : ¬cond0_1 i)
    (x0 : Vec F S8000x2 .f32) (w0 : Vec F S2x2 .f32) (b0 : Vec F S2 .f32) (o3 o4 : Vec F S1x2 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare o3 ∗ owns (c : Thread nD τ) arg5 fullShare o4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w0 ∗ owns (c : Thread nD τ) arg3 fullShare b0
            ∗ owns (c : Thread nD τ) arg4 fullShare o3 ∗ owns (c : Thread nD τ) arg5 fullShare o4
            ∗ owns (c : Thread nD τ) arg6 fullShare (k0_pay4 x0 w0 b0 k0_pay2) ∗ owns (c : Thread nD τ) arg7 fullShare (k0_pay5 x0 w0 b0 k0_pay3)) -∗ K ⟨⟩))
      ⊢ wp frame (wpE (defs₀ (F := F)) Variants.none c none) E
          (cc0__node_stats_kernel i arg1 harg1 arg2 harg2 arg3 harg3 arg4 harg4 arg5 harg5 arg6 harg6 arg7 harg7) K := by
  simp only [cc0__node_stats_kernel_eq_skeleton]; unfold cc0__node_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro
    sl_unfold_words
    rw [View.read_writes_eq_canon _ _ _ (fun y => ⟨_, List.mem_cons_self, View.mem_set_unit_zero hz2 inb_S1x2_S1x2_0_0 y⟩), View.canon_cons_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]
  · iexists _; isplitr; swap; · iexact H7
    ipureintro
    sl_unfold_words
    rw [View.read_writes_eq_canon _ _ _ (fun y => ⟨_, List.mem_cons_self, View.mem_set_unit_zero hz2 inb_S1x2_S1x2_0_0 y⟩), View.canon_cons_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]

set_option maxHeartbeats 1000000 in
/-- At the last tile the body updates both accumulators as at every tile and then copies them into
    the two result blocks. -/
theorem run0_last (c : Dev nD) (i : grid0.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S1x2 .f32) (harg4 : arg4.IsWhole)
    (arg5 : Memref sig .tc .vmem S1x2 .f32) (harg5 : arg5.IsWhole) (arg6 : Memref sig .tc .vmem S1x2 .f32) (harg6 : arg6.IsWhole)
    (arg7 : Memref sig .tc .vmem S1x2 .f32) (harg7 : arg7.IsWhole) (hc0 : ¬cond0_0 i) (hc1 : cond0_1 i)
    (x0 : Vec F S8000x2 .f32) (w0 : Vec F S2x2 .f32) (b0 : Vec F S2 .f32) (s0 s1 : Vec F S1x2 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare w0 ∗ owns (c : Thread nD τ) arg3 fullShare b0
            ∗ owns (c : Thread nD τ) arg4 fullShare (k0_pay4 x0 w0 b0 s0) ∗ owns (c : Thread nD τ) arg5 fullShare (k0_pay5 x0 w0 b0 s1)
            ∗ owns (c : Thread nD τ) arg6 fullShare (k0_pay4 x0 w0 b0 s0) ∗ owns (c : Thread nD τ) arg7 fullShare (k0_pay5 x0 w0 b0 s1)) -∗ K ⟨⟩))
      ⊢ wp frame (wpE (defs₀ (F := F)) Variants.none c none) E
          (cc0__node_stats_kernel i arg1 harg1 arg2 harg2 arg3 harg3 arg4 harg4 arg5 harg5 arg6 harg6 arg7 harg7) K := by
  simp only [cc0__node_stats_kernel_eq_skeleton]; unfold cc0__node_stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]
  isplitl [H5]
  · iexists _; isplitr; swap; · iexact H5
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2, View.readCov_unit_zero (S := S1x2) _ hz2]
  isplitl [H6]
  · iexists _; isplitr; swap; · iexact H6
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2]
  · iexists _; isplitr; swap; · iexact H7
    ipureintro
    sl_unfold_words
    rw [View.read_writes_eq_canon _ _ _ (fun y => ⟨_, List.mem_singleton_self _, View.mem_set_unit_zero hz2 inb_S1x2_S1x2_0_0 y⟩), View.canon_unit_zero hz2]
    simp only [View.readAt_eq_ld, harg1.read_unread, harg2.read_unread, harg3.read_unread, harg6.read_unread, harg7.read_unread,
      View.ld_unit_zero (S := S8000x2) hz2, View.ld_unit_zero (S := S2x2) hz2, View.ld_unit_zero (S := S2) hz1,
      View.ld_unit_zero (S := S1x2) hz2]

end Cert.KernelIdeal.Gen

end
-- ==== Proof.KI.Data0.lean ====
/-
  The statistics kernel as a pipeline: what its two accumulators hold after each tile, the invariant
  that carries them from tile to tile, and the body obligation at every tile.

  Tile t reads rows 8000·t … 8000·t + 7999 of x. Writing h = x·Wᵀ + b, the first accumulator holds the
  column sums of h over the tiles run so far and the second the column sums of h². Both are zeroed at
  tile 0 and copied into the two one-row results at tile 124, the only tile that writes them back.
-/
import proofs.«407804_j50861002719257_4_alg».proof.Proof.KI.Run0
import Idealize.ShloMosaic.Lib.Pipeline.Frame
import Idealize.ShloMosaic.Lib.Pipeline.FrameBody
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the unscoped buffers' contents when the statistics kernel is entered
variable (V : (c : Dev nD) → (b : Ref sig .tc) → Buf (Elt F) ((c : Thread nD τ).loc b))

/-! ## The tiles -/

/-- Window `w`'s block at tile `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulators after tile `n`: both start from zero at tile 0, and every tile adds its column sums
    of h and of h² to what the tile before left. -/
def accs0 (c : Dev nD) : (n : ℕ) → n < cfg0.N → Vec F S1x2 .f32 × Vec F S1x2 .f32
  | 0, hn => (k0_pay4 (iblk0 V c 0 ⟨0, hn⟩) (iblk0 V c 1 ⟨0, hn⟩) (iblk0 V c 2 ⟨0, hn⟩) k0_pay2,
              k0_pay5 (iblk0 V c 0 ⟨0, hn⟩) (iblk0 V c 1 ⟨0, hn⟩) (iblk0 V c 2 ⟨0, hn⟩) k0_pay3)
  | n + 1, hn =>
    (k0_pay4 (iblk0 V c 0 ⟨n + 1, hn⟩) (iblk0 V c 1 ⟨n + 1, hn⟩) (iblk0 V c 2 ⟨n + 1, hn⟩) (accs0 c n (Nat.lt_of_succ_lt hn)).1,
     k0_pay5 (iblk0 V c 0 ⟨n + 1, hn⟩) (iblk0 V c 1 ⟨n + 1, hn⟩) (iblk0 V c 2 ⟨n + 1, hn⟩) (accs0 c n (Nat.lt_of_succ_lt hn)).2)

theorem accs0_zero (c : Dev nD) (t : Fin cfg0.N) (h : t.val = 0) :
    accs0 V c t.val t.isLt = (k0_pay4 (iblk0 V c 0 t) (iblk0 V c 1 t) (iblk0 V c 2 t) k0_pay2,
      k0_pay5 (iblk0 V c 0 t) (iblk0 V c 1 t) (iblk0 V c 2 t) k0_pay3) := by
  obtain ⟨n, hn⟩ := t
  cases n with
  | zero => rfl
  | succ n => exact absurd h (Nat.succ_ne_zero n)

theorem accs0_pos (c : Dev nD) (t : Fin cfg0.N) (h : t.val ≠ 0) :
    accs0 V c t.val t.isLt
      = (k0_pay4 (iblk0 V c 0 t) (iblk0 V c 1 t) (iblk0 V c 2 t) (accs0 V c (t.val - 1) (Nat.lt_of_le_of_lt (Nat.sub_le _ _) t.isLt)).1,
         k0_pay5 (iblk0 V c 0 t) (iblk0 V c 1 t) (iblk0 V c 2 t) (accs0 V c (t.val - 1) (Nat.lt_of_le_of_lt (Nat.sub_le _ _) t.isLt)).2) := by
  obtain ⟨n, hn⟩ := t
  cases n with
  | zero => exact absurd rfl h
  | succ n => rfl

/-! ## The invariant between tiles -/

/-- The two accumulators as memrefs. -/
abbrev scM0_0 : Memref sig .tc .vmem S1x2 .f32 := Memref.whole cc0_scratch0
abbrev scM0_1 : Memref sig .tc .vmem S1x2 .f32 := Memref.whole cc0_scratch1

/-- The scoped buffers that are neither a staging buffer nor an accumulator of this kernel: what the
    body never touches. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- Before tile 0 the accumulators hold anything; before tile n + 1 they hold what tile n left. -/
def Phi0 (c : Dev nD) : (n : ℕ) → n ≤ cfg0.N → sProp 𝕄
  | 0, _ => iprop(iprop(iprop((∃ d, owns (c : Thread nD τ) scM0_0 fullShare d) ∗ (∃ d, owns (c : Thread nD τ) scM0_1 fullShare d)) ∗ rest0 c) ∗ ∃ r, prngReg c r)
  | n + 1, hn => iprop(iprop(iprop(owns (c : Thread nD τ) scM0_0 fullShare (accs0 V c n hn).1 ∗ owns (c : Thread nD τ) scM0_1 fullShare (accs0 V c n hn).2) ∗ rest0 c) ∗ ∃ r, prngReg c r)

theorem Phi0_zero (c : Dev nD) (n : ℕ) (h : n ≤ cfg0.N) (hz : n = 0) :
    Phi0 V c n h = iprop(iprop(iprop((∃ d, owns (c : Thread nD τ) scM0_0 fullShare d) ∗ (∃ d, owns (c : Thread nD τ) scM0_1 fullShare d)) ∗ rest0 c) ∗ ∃ r, prngReg c r) := by
  subst hz; rfl
theorem Phi0_succ (c : Dev nD) (n : ℕ) (hn : n < cfg0.N) :
    Phi0 V c (n + 1) hn = iprop(iprop(iprop(owns (c : Thread nD τ) scM0_0 fullShare (accs0 V c n hn).1 ∗ owns (c : Thread nD τ) scM0_1 fullShare (accs0 V c n hn).2) ∗ rest0 c) ∗ ∃ r, prngReg c r) := rfl
theorem Phi0_pos (c : Dev nD) (n : ℕ) (h : n ≤ cfg0.N) (hz : n ≠ 0) :
    Phi0 V c n h = iprop(iprop(iprop(owns (c : Thread nD τ) scM0_0 fullShare (accs0 V c (n - 1) (by omega)).1 ∗ owns (c : Thread nD τ) scM0_1 fullShare (accs0 V c (n - 1) (by omega)).2) ∗ rest0 c) ∗ ∃ r, prngReg c r) := by
  cases n with
  | zero => exact absurd rfl hz
  | succ n => rfl

/-- The class invariant (every scoped buffer the windows do not stage at anything, the generator
    register at some state) is the invariant before tile 0. -/
theorem PhiA0_eq (c : Dev nD) :
    (Pipeline.ΦA spec0 c : sProp 𝕄) = iprop(iprop(iprop((∃ d, owns (c : Thread nD τ) scM0_0 fullShare d) ∗ (∃ d, owns (c : Thread nD τ) scM0_1 fullShare d)) ∗ rest0 c) ∗ ∃ r, prngReg c r) := by
  unfold Pipeline.ΦA; rw [scopedRest0_split]; simp only [scM0_0, scM0_1, owns_whole]; try rfl

/-! ## The proof data -/

/-- The arrays as the kernel finds them; after tile t each input's buffer at its block and the two
    result blocks at the accumulators; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accs0 V c t.val t.isLt).1
    | ⟨4, _⟩ => (accs0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (accs0 V c t.val t.isLt).1 := by dsimp only [dat0]
theorem after0_4 (c : Dev nD) (t : Fin cfg0.N) : (dat0 V c).after 4 t = (accs0 V c t.val t.isLt).2 := by dsimp only [dat0]

/-- Each input's current staging buffer holds its block at every tile, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

end Region0

end Cert.KernelIdeal.Gen

end
-- ==== Proof.KI.Body0.lean ====
/-
  The statistics kernel's body obligation: at each tile the matching case of the body's run is handed
  the tile's blocks and the accumulators the invariant carries, and gives them back one tile further.
-/
import proofs.«407804_j50861002719257_4_alg».proof.Proof.KI.Data0
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  have hN : t.val < 125 := lt_of_lt_of_eq t.isLt (show cfg0.N = 125 from N_0)
  rw [show (dat0 V c).leavesExact 0 t = owns (c : Thread nD τ) (st0_0 t) fullShare ((dat0 V c).after 0 t) from by
    unfold Dat.leavesExact; rw [show cfg0.idle 0 (cfg0.grid.coords t) = false from rfl], after0_0]
  rw [show (dat0 V c).leavesExact 1 t = owns (c : Thread nD τ) (st0_1 t) fullShare ((dat0 V c).after 1 t) from by
    unfold Dat.leavesExact; rw [show cfg0.idle 1 (cfg0.grid.coords t) = false from rfl], after0_1]
  rw [show (dat0 V c).leavesExact 2 t = owns (c : Thread nD τ) (st0_2 t) fullShare ((dat0 V c).after 2 t) from by
    unfold Dat.leavesExact; rw [show cfg0.idle 2 (cfg0.grid.coords t) = false from rfl], after0_2]
  by_cases h1 : t.val = 124
  · -- the last tile: both result blocks are stored
    have hc0 : ¬cond0_0 (grid0.coords t) := fun h => by have := (hcond0_0 t).mp h; omega
    have hc1 : cond0_1 (grid0.coords t) := (hcond0_1 t).mpr h1
    have hz : t.val ≠ 0 := by omega
    rw [show (dat0 V c).leavesExact 3 t = owns (c : Thread nD τ) (st0_3 t) fullShare ((dat0 V c).after 3 t) from by
      unfold Dat.leavesExact; rw [live0_3 t hc1], after0_3]
    rw [show (dat0 V c).leavesExact 4 t = owns (c : Thread nD τ) (st0_4 t) fullShare ((dat0 V c).after 4 t) from by
      unfold Dat.leavesExact; rw [live0_4 t hc1], after0_4]
    rw [accs0_pos V c t hz]; dsimp only
    rw [Phi0_castSucc V c t, Phi0_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ _ _ hc0 hc1 (iblk0 V c 0 t) (iblk0 V c 1 t) (iblk0 V c 2 t) _ _ Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 V c) 3 t (idle0_3 t hc1) (noFlush0_3 t hc1),
      Dat.leavesExact_idle (dat0 V c) 4 t (idle0_4 t hc1) (noFlush0_4 t hc1)]
    by_cases hz : t.val = 0
    · -- the first tile: the accumulators are zeroed, then added to
      have hc0 : cond0_0 (grid0.coords t) := (hcond0_0 t).mpr hz
      rw [accs0_zero V c t hz]; dsimp only
      rw [Phi0_castSucc V c t, Phi0_zero V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_first c (grid0.coords t) _ _ _ _ _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4
    · -- a tile in between: the accumulators are added to
      have hc0 : ¬cond0_0 (grid0.coords t) := fun h => hz ((hcond0_0 t).mp h)
      rw [accs0_pos V c t hz]; dsimp only
      rw [Phi0_castSucc V c t, Phi0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ _ _ hc0 hc1 (iblk0 V c 0 t) (iblk0 V c 1 t) (iblk0 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The body obligation, at every tile. -/
theorem body_obligation0 (c : Dev nD) : BodyObligation (dat0 (F := F) V c) (defs₀ (F := F)) Variants.none () Set.univ := fun t => by
  rw [bigSep_W0, bigSep_W0]
  exact sound_body0 V c t

/-- What the kernel is entered with (the class invariant) is the invariant before tile 0. -/
theorem hin0 (c : Dev nD) : Pipeline.ΦA spec0 c ⊢ (dat0 V c).Φ 0 := by
  rw [show (dat0 V c).Φ 0 = Phi0 V c 0 (Nat.zero_le _) from rfl, Phi0_zero V c 0 _ rfl, PhiA0_eq]
  try exact Idealize.SL.BI.Entails.refl _

/-- After the last tile the invariant gives the class invariant back: what the accumulators hold is forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 125 := N_0; omega), PhiA0_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Region0

end Cert.KernelIdeal.Gen

end
-- ==== Proof.KI.Run1.lean ====
/-
  The normalize kernel (h = x·Wᵀ + b, normalized per column from the global column sums and sums of
  squares, rectified, and multiplied by the next layer's weight), run once: the body reads its tile of
  x, the parameters and the two column statistics, and writes the rectified normalized tile into one
  result block and its product with the transposed weight into the other.
-/
import proofs.«407804_j50861002719257_4_alg».proof.Proof.KI.Run0
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The normalize kernel on whole buffers -/

set_option maxHeartbeats 1000000 in
/-- On whole buffers — the tile of `x`, the linear layer's weight and bias, the normalization's
    weight, bias and mean scale, the next layer's weight, the column sums and sums of squares, and
    the two result blocks (whatever they held) — the body writes the rectified normalized tile into
    the first result block and its product with the transposed next weight into the second, and
    leaves every input as it was. -/
theorem run1 (c : Dev nD) (i : grid1.Coords)
    (arg1 : Memref sig .tc .vmem S8000x2 .f32) (harg1 : arg1.IsWhole) (arg2 : Memref sig .tc .vmem S2x2 .f32) (harg2 : arg2.IsWhole)
    (arg3 : Memref sig .tc .vmem S2 .f32) (harg3 : arg3.IsWhole) (arg4 : Memref sig .tc .vmem S2 .f32) (harg4 : arg4.IsWhole)
    (arg5 : Memref sig .tc .vmem S2 .f32) (harg5 : arg5.IsWhole) (arg6 : Memref sig .tc .vmem S2 .f32) (harg6 : arg6.IsWhole)
    (arg7 : Memref sig .tc .vmem S2x2 .f32) (harg7 : arg7.IsWhole) (arg8 : Memref sig .tc .vmem S1x2 .f32) (harg8 : arg8.IsWhole)
    (arg9 : Memref sig .tc .vmem S1x2 .f32) (harg9 : arg9.IsWhole) (arg10 : Memref sig .tc .vmem S8000x2 .f32) (harg10 : arg10.IsWhole)
    (arg11 : Memref sig .tc .vmem S8000x2 .f32) (harg11 : arg11.IsWhole)
    (x0 : Vec F S8000x2 .f32) (w1 : Vec F S2x2 .f32) (b1 gw gb gs : Vec F S2 .f32) (w2 : Vec F S2x2 .f32)
    (su sq : Vec F S1x2 .f32)
    (E : Set ℕ) (K : PUnit → sProp 𝕄) :
    iprop(owns (c : Thread nD τ) arg1 fullShare x0 ∗ owns (c : Thread nD τ) arg2 fullShare w1 ∗ owns (c : Thread nD τ) arg3 fullShare b1
        ∗ owns (c : Thread nD τ) arg4 fullShare gw ∗ owns (c : Thread nD τ) arg5 fullShare gb ∗ owns (c : Thread nD τ) arg6 fullShare gs
        ∗ owns (c : Thread nD τ) arg7 fullShare w2 ∗ owns (c : Thread nD τ) arg8 fullShare su ∗ owns (c : Thread nD τ) arg9 fullShare sq
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare w1 ∗ owns (c : Thread nD τ) arg3 fullShare b1
            ∗ owns (c : Thread nD τ) arg4 fullShare gw ∗ owns (c : Thread nD τ) arg5 fullShare gb ∗ owns (c : Thread nD τ) arg6 fullShare gs
            ∗ owns (c : Thread nD τ) arg7 fullShare w2 ∗ owns (c : Thread nD τ) arg8 fullShare su ∗ owns (c : Thread nD τ) arg9 fullShare sq
            ∗ owns (c : Thread nD τ) arg10 fullShare (k1_pay1 (k1_pay3 x0 w1 b1 su sq gs gw gb))
            ∗ owns (c : Thread nD τ) arg11 fullShare (k1_pay2 (k1_pay3 x0 w1 b1 su sq gs gw gb) w2)) -∗ K ⟨⟩))
      ⊢ wp frame (wpE (defs₀ (F := F)) Variants.none c none) E
          (cc1__node_normalize_kernel i arg1 harg1 arg2 harg2 arg3 harg3 arg4 harg4 arg5 harg5 arg6 harg6 arg7 harg7 arg8 harg8 arg9 harg9 arg10 harg10 arg11 harg11) K := by
  simp only [cc1__node_normalize_kernel_eq_skeleton]; unfold cc1__node_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro
    sl_unfold_words
    rw [View.read_writes_eq_canon _ _ _ (fun y => ⟨_, List.mem_singleton_self _, View.mem_set_unit_zero hz2 inb_S8000x2_S8000x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread,
      View.ld_unit_zero (S := S8000x2) hz2, View.ld_unit_zero (S := S2x2) hz2, View.ld_unit_zero (S := S2) hz1,
      View.ld_unit_zero (S := S1x2) hz2, View.readCov_unit_zero (S := S8000x2) _ hz2]
  · iexists _; isplitr; swap; · iexact H11
    ipureintro
    sl_unfold_words
    rw [View.read_writes_eq_canon _ _ _ (fun y => ⟨_, List.mem_singleton_self _, View.mem_set_unit_zero hz2 inb_S8000x2_S8000x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread,
      View.ld_unit_zero (S := S8000x2) hz2, View.ld_unit_zero (S := S2x2) hz2, View.ld_unit_zero (S := S2) hz1,
      View.ld_unit_zero (S := S1x2) hz2, View.readCov_unit_zero (S := S8000x2) _ hz2]

end Cert.KernelIdeal.Gen

end
-- ==== Proof.KI.Data1.lean ====
/-
  The normalize kernel as a pipeline: no accumulator and no branch. Tile t reads rows 8000·t … 8000·t + 7999
  of x together with the parameters and the two column statistics (whole at every tile), and writes the
  rectified normalized tile of h into one result block and its product with the next layer's transposed
  weight into the other; both result blocks are written back at every tile.
-/
import proofs.«407804_j50861002719257_4_alg».proof.Proof.KI.Run1
import Idealize.ShloMosaic.Lib.Pipeline.Frame
import Idealize.ShloMosaic.Lib.Pipeline.FrameBody
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the unscoped buffers' contents when the normalize kernel is entered
variable (V : (c : Dev nD) → (b : Ref sig .tc) → Buf (Elt F) ((c : Thread nD τ).loc b))

/-! ## The tiles -/

/-- Window `w`'s block at tile `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The arrays as the kernel finds them; after tile t each input's buffer at its block, the first result
    block at the rectified normalized tile and the second at its product with the transposed next weight;
    the class invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay1 (k1_pay3 (iblk1 V c 0 t) (iblk1 V c 1 t) (iblk1 V c 2 t) (iblk1 V c 7 t) (iblk1 V c 8 t) (iblk1 V c 5 t) (iblk1 V c 3 t) (iblk1 V c 4 t))
    | ⟨10, _⟩ => k1_pay2 (k1_pay3 (iblk1 V c 0 t) (iblk1 V c 1 t) (iblk1 V c 2 t) (iblk1 V c 7 t) (iblk1 V c 8 t) (iblk1 V c 5 t) (iblk1 V c 3 t) (iblk1 V c 4 t)) (iblk1 V c 6 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = k1_pay1 (k1_pay3 (iblk1 V c 0 t) (iblk1 V c 1 t) (iblk1 V c 2 t) (iblk1 V c 7 t) (iblk1 V c 8 t) (iblk1 V c 5 t) (iblk1 V c 3 t) (iblk1 V c 4 t)) := by dsimp only [dat1]
theorem after1_10 (c : Dev nD) (t : Fin cfg1.N) : (dat1 V c).after 10 t = k1_pay2 (k1_pay3 (iblk1 V c 0 t) (iblk1 V c 1 t) (iblk1 V c 2 t) (iblk1 V c 7 t) (iblk1 V c 8 t) (iblk1 V c 5 t) (iblk1 V c 3 t) (iblk1 V c 4 t)) (iblk1 V c 6 t) := by dsimp only [dat1]

/-- Each input's current staging buffer holds its block at every tile, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

/-! ## The body obligation -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 4000000 in
/-- At every tile the one run of the body is handed the tile's blocks and gives back the two result blocks;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [show cfg1.idle 0 (cfg1.grid.coords t) = false from rfl], after1_0]
  rw [show (dat1 V c).leavesExact 1 t = owns (c : Thread nD τ) (st1_1 t) fullShare ((dat1 V c).after 1 t) from by
    unfold Dat.leavesExact; rw [show cfg1.idle 1 (cfg1.grid.coords t) = false from rfl], after1_1]
  rw [show (dat1 V c).leavesExact 2 t = owns (c : Thread nD τ) (st1_2 t) fullShare ((dat1 V c).after 2 t) from by
    unfold Dat.leavesExact; rw [show cfg1.idle 2 (cfg1.grid.coords t) = false from rfl], after1_2]
  rw [show (dat1 V c).leavesExact 3 t = owns (c : Thread nD τ) (st1_3 t) fullShare ((dat1 V c).after 3 t) from by
    unfold Dat.leavesExact; rw [show cfg1.idle 3 (cfg1.grid.coords t) = false from rfl], after1_3]
  rw [show (dat1 V c).leavesExact 4 t = owns (c : Thread nD τ) (st1_4 t) fullShare ((dat1 V c).after 4 t) from by
    unfold Dat.leavesExact; rw [show cfg1.idle 4 (cfg1.grid.coords t) = false from rfl], after1_4]
  rw [show (dat1 V c).leavesExact 5 t = owns (c : Thread nD τ) (st1_5 t) fullShare ((dat1 V c).after 5 t) from by
    unfold Dat.leavesExact; rw [show cfg1.idle 5 (cfg1.grid.coords t) = false from rfl], after1_5]
  rw [show (dat1 V c).leavesExact 6 t = owns (c : Thread nD τ) (st1_6 t) fullShare ((dat1 V c).after 6 t) from by
    unfold Dat.leavesExact; rw [show cfg1.idle 6 (cfg1.grid.coords t) = false from rfl], after1_6]
  rw [show (dat1 V c).leavesExact 7 t = owns (c : Thread nD τ) (st1_7 t) fullShare ((dat1 V c).after 7 t) from by
    unfold Dat.leavesExact; rw [show cfg1.idle 7 (cfg1.grid.coords t) = false from rfl], after1_7]
  rw [show (dat1 V c).leavesExact 8 t = owns (c : Thread nD τ) (st1_8 t) fullShare ((dat1 V c).after 8 t) from by
    unfold Dat.leavesExact; rw [show cfg1.idle 8 (cfg1.grid.coords t) = false from rfl], after1_8]
  rw [show (dat1 V c).leavesExact 9 t = owns (c : Thread nD τ) (st1_9 t) fullShare ((dat1 V c).after 9 t) from by
    unfold Dat.leavesExact; rw [show cfg1.idle 9 (cfg1.grid.coords t) = false from rfl], after1_9]
  rw [show (dat1 V c).leavesExact 10 t = owns (c : Thread nD τ) (st1_10 t) fullShare ((dat1 V c).after 10 t) from by
    unfold Dat.leavesExact; rw [show cfg1.idle 10 (cfg1.grid.coords t) = false from rfl], after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run1 c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every tile. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.Run2.lean ====
/-
  The pooling kernel (segment sums and counts of the per-node output over 500 tiles of 2000 rows, and
  the pooled means at the end), run once per control case: the first tile zeroes the sum and count
  accumulators before adding to them, every tile adds its one-hot-weighted sums and its counts, and the
  last tile also writes the quotient of sums by counts (counts clamped below by one) into the result.
-/
import proofs.«407804_j50861002719257_4_alg».proof.Proof.KI.Run0
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pooling kernel at a tile that neither resets nor writes out -/

set_option maxHeartbeats 1000000 in
/-- On whole buffers the body adds to the sum accumulator the tile's one-hot-weighted sums of the
    per-node output (the second linear layer's product plus its bias) and to the count accumulator
    the tile's row counts per segment, and touches nothing else. -/
theorem run2_mid (c : Dev nD) (i : grid2.Coords)
    (arg1 : Memref sig .tc .vmem S2000x2 .f32) (harg1 : arg1.IsWhole) (arg2 : Memref sig .tc .vmem S2000x2 .f32) (harg2 : arg2.IsWhole)
    (arg3 : Memref sig .tc .vmem S2000x1 .i32) (harg3 : arg3.IsWhole) (arg4 : Memref sig .tc .vmem S64x2 .f32) (harg4 : arg4.IsWhole)
    (arg5 : Memref sig .tc .vmem S64 .f32) (harg5 : arg5.IsWhole) (arg6 : Memref sig .tc .vmem S2x64 .f32) (harg6 : arg6.IsWhole)
    (arg7 : Memref sig .tc .vmem S2 .f32) (harg7 : arg7.IsWhole) (arg8 : Memref sig .tc .vmem S1024x2 .f32) (harg8 : arg8.IsWhole)
    (arg9 : Memref sig .tc .vmem S1024x2 .f32) (harg9 : arg9.IsWhole) (arg10 : Memref sig .tc .vmem S1024x1 .f32) (harg10 : arg10.IsWhole) (hc0 : ¬cond2_0 i) (hc1 : ¬cond2_1 i)
    (x1 x2 : Vec F S2000x2 .f32) (bt : Vec F S2000x1 .i32) (w3 : Vec F S64x2 .f32) (b3 : Vec F S64 .f32)
    (w4 : Vec F S2x64 .f32) (b4 : Vec F S2 .f32) (o8 s9 : Vec F S1024x2 .f32) (s10 : Vec F S1024x1 .f32)
    (E : Set ℕ) (K : PUnit → sProp 𝕄) :
    iprop(owns (c : Thread nD τ) arg1 fullShare x1 ∗ owns (c : Thread nD τ) arg2 fullShare x2 ∗ owns (c : Thread nD τ) arg3 fullShare bt
        ∗ owns (c : Thread nD τ) arg4 fullShare w3 ∗ owns (c : Thread nD τ) arg5 fullShare b3 ∗ owns (c : Thread nD τ) arg6 fullShare w4 ∗ owns (c : Thread nD τ) arg7 fullShare b4
        ∗ owns (c : Thread nD τ) arg8 fullShare o8 ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare bt
            ∗ owns (c : Thread nD τ) arg4 fullShare w3 ∗ owns (c : Thread nD τ) arg5 fullShare b3 ∗ owns (c : Thread nD τ) arg6 fullShare w4 ∗ owns (c : Thread nD τ) arg7 fullShare b4
            ∗ owns (c : Thread nD τ) arg8 fullShare o8 ∗ owns (c : Thread nD τ) arg9 fullShare (k2_pay2 (k2_pay7 x1 x2 w3 b3 w4) b4 bt s9)
            ∗ owns (c : Thread nD τ) arg10 fullShare (k2_pay3 bt s10)) -∗ K ⟨⟩))
      ⊢ wp frame (wpE (defs₀ (F := F)) Variants.none c none) E
          (cc2__node_post_pool_kernel i arg1 harg1 arg2 harg2 arg3 harg3 arg4 harg4 arg5 harg5 arg6 harg6 arg7 harg7 arg8 harg8 arg9 harg9 arg10 harg10) K := by
  simp only [cc2__node_post_pool_kernel_eq_skeleton]; unfold cc2__node_post_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    sl_unfold_words
    rw [View.read_writes_eq_canon _ _ _ (fun y => ⟨_, List.mem_singleton_self _, View.mem_set_unit_zero hz2 inb_S1024x2_S1024x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2]
  · iexists _; isplitr; swap; · iexact H10
    ipureintro
    sl_unfold_words
    rw [View.read_writes_eq_canon _ _ _ (fun y => ⟨_, List.mem_singleton_self _, View.mem_set_unit_zero hz2 inb_S1024x1_S1024x1_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2]

/-! ## The first tile -/

set_option maxHeartbeats 1000000 in
/-- At the first tile the body first zeroes both accumulators (whatever they held) and then adds the
    tile's weighted sums and counts to them; the result block is left as it was. -/
theorem run2_first (c : Dev nD) (i : grid2.Coords)
    (arg1 : Memref sig .tc .vmem S2000x2 .f32) (harg1 : arg1.IsWhole) (arg2 : Memref sig .tc .vmem S2000x2 .f32) (harg2 : arg2.IsWhole)
    (arg3 : Memref sig .tc .vmem S2000x1 .i32) (harg3 : arg3.IsWhole) (arg4 : Memref sig .tc .vmem S64x2 .f32) (harg4 : arg4.IsWhole)
    (arg5 : Memref sig .tc .vmem S64 .f32) (harg5 : arg5.IsWhole) (arg6 : Memref sig .tc .vmem S2x64 .f32) (harg6 : arg6.IsWhole)
    (arg7 : Memref sig .tc .vmem S2 .f32) (harg7 : arg7.IsWhole) (arg8 : Memref sig .tc .vmem S1024x2 .f32) (harg8 : arg8.IsWhole)
    (arg9 : Memref sig .tc .vmem S1024x2 .f32) (harg9 : arg9.IsWhole) (arg10 : Memref sig .tc .vmem S1024x1 .f32) (harg10 : arg10.IsWhole) (hc0 : cond2_0 i) (hc1 : ¬cond2_1 i)
    (x1 x2 : Vec F S2000x2 .f32) (bt : Vec F S2000x1 .i32) (w3 : Vec F S64x2 .f32) (b3 : Vec F S64 .f32)
    (w4 : Vec F S2x64 .f32) (b4 : Vec F S2 .f32) (o8 : Vec F S1024x2 .f32)
    (E : Set ℕ) (K : PUnit → sProp 𝕄) :
    iprop(owns (c : Thread nD τ) arg1 fullShare x1 ∗ owns (c : Thread nD τ) arg2 fullShare x2 ∗ owns (c : Thread nD τ) arg3 fullShare bt
        ∗ owns (c : Thread nD τ) arg4 fullShare w3 ∗ owns (c : Thread nD τ) arg5 fullShare b3 ∗ owns (c : Thread nD τ) arg6 fullShare w4 ∗ owns (c : Thread nD τ) arg7 fullShare b4
        ∗ owns (c : Thread nD τ) arg8 fullShare o8 ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare bt
            ∗ owns (c : Thread nD τ) arg4 fullShare w3 ∗ owns (c : Thread nD τ) arg5 fullShare b3 ∗ owns (c : Thread nD τ) arg6 fullShare w4 ∗ owns (c : Thread nD τ) arg7 fullShare b4
            ∗ owns (c : Thread nD τ) arg8 fullShare o8 ∗ owns (c : Thread nD τ) arg9 fullShare (k2_pay2 (k2_pay7 x1 x2 w3 b3 w4) b4 bt k2_pay5)
            ∗ owns (c : Thread nD τ) arg10 fullShare (k2_pay3 bt k2_pay6)) -∗ K ⟨⟩))
      ⊢ wp frame (wpE (defs₀ (F := F)) Variants.none c none) E
          (cc2__node_post_pool_kernel i arg1 harg1 arg2 harg2 arg3 harg3 arg4 harg4 arg5 harg5 arg6 harg6 arg7 harg7 arg8 harg8 arg9 harg9 arg10 harg10) K := by
  simp only [cc2__node_post_pool_kernel_eq_skeleton]; unfold cc2__node_post_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    sl_unfold_words
    rw [View.read_writes_eq_canon _ _ _ (fun y => ⟨_, List.mem_cons_self, View.mem_set_unit_zero hz2 inb_S1024x2_S1024x2_0_0 y⟩),
      View.canon_cons_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]
  · iexists _; isplitr; swap; · iexact H10
    ipureintro
    sl_unfold_words
    rw [View.read_writes_eq_canon _ _ _ (fun y => ⟨_, List.mem_cons_self, View.mem_set_unit_zero hz2 inb_S1024x1_S1024x1_0_0 y⟩),
      View.canon_cons_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]

/-! ## The last tile -/

set_option maxHeartbeats 1000000 in
/-- At the last tile the body updates both accumulators as at every tile and then writes into the
    result block the updated sums divided by the updated counts, the counts clamped below by one. -/
theorem run2_last (c : Dev nD) (i : grid2.Coords)
    (arg1 : Memref sig .tc .vmem S2000x2 .f32) (harg1 : arg1.IsWhole) (arg2 : Memref sig .tc .vmem S2000x2 .f32) (harg2 : arg2.IsWhole)
    (arg3 : Memref sig .tc .vmem S2000x1 .i32) (harg3 : arg3.IsWhole) (arg4 : Memref sig .tc .vmem S64x2 .f32) (harg4 : arg4.IsWhole)
    (arg5 : Memref sig .tc .vmem S64 .f32) (harg5 : arg5.IsWhole) (arg6 : Memref sig .tc .vmem S2x64 .f32) (harg6 : arg6.IsWhole)
    (arg7 : Memref sig .tc .vmem S2 .f32) (harg7 : arg7.IsWhole) (arg8 : Memref sig .tc .vmem S1024x2 .f32) (harg8 : arg8.IsWhole)
    (arg9 : Memref sig .tc .vmem S1024x2 .f32) (harg9 : arg9.IsWhole) (arg10 : Memref sig .tc .vmem S1024x1 .f32) (harg10 : arg10.IsWhole) (hc0 : ¬cond2_0 i) (hc1 : cond2_1 i)
    (x1 x2 : Vec F S2000x2 .f32) (bt : Vec F S2000x1 .i32) (w3 : Vec F S64x2 .f32) (b3 : Vec F S64 .f32)
    (w4 : Vec F S2x64 .f32) (b4 : Vec F S2 .f32) (s9 : Vec F S1024x2 .f32) (s10 : Vec F S1024x1 .f32)
    (E : Set ℕ) (K : PUnit → sProp 𝕄) :
    iprop(owns (c : Thread nD τ) arg1 fullShare x1 ∗ owns (c : Thread nD τ) arg2 fullShare x2 ∗ owns (c : Thread nD τ) arg3 fullShare bt
        ∗ owns (c : Thread nD τ) arg4 fullShare w3 ∗ owns (c : Thread nD τ) arg5 fullShare b3 ∗ owns (c : Thread nD τ) arg6 fullShare w4 ∗ owns (c : Thread nD τ) arg7 fullShare b4
        ∗ (∃ d, owns (c : Thread nD τ) arg8 fullShare d) ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare bt
            ∗ owns (c : Thread nD τ) arg4 fullShare w3 ∗ owns (c : Thread nD τ) arg5 fullShare b3 ∗ owns (c : Thread nD τ) arg6 fullShare w4 ∗ owns (c : Thread nD τ) arg7 fullShare b4
            ∗ owns (c : Thread nD τ) arg8 fullShare (k2_pay4 (k2_pay2 (k2_pay7 x1 x2 w3 b3 w4) b4 bt s9) (k2_pay3 bt s10))
            ∗ owns (c : Thread nD τ) arg9 fullShare (k2_pay2 (k2_pay7 x1 x2 w3 b3 w4) b4 bt s9)
            ∗ owns (c : Thread nD τ) arg10 fullShare (k2_pay3 bt s10)) -∗ K ⟨⟩))
      ⊢ wp frame (wpE (defs₀ (F := F)) Variants.none c none) E
          (cc2__node_post_pool_kernel i arg1 harg1 arg2 harg2 arg3 harg3 arg4 harg4 arg5 harg5 arg6 harg6 arg7 harg7 arg8 harg8 arg9 harg9 arg10 harg10) K := by
  simp only [cc2__node_post_pool_kernel_eq_skeleton]; unfold cc2__node_post_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hf9; obtain rfl := harg10.eq_unread hf10
  sl_exec (disch := first | exact hc0 | exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro
    sl_unfold_words
    rw [View.read_writes_eq_canon _ _ _ (fun y => ⟨_, List.mem_singleton_self _, View.mem_set_unit_zero hz2 inb_S1024x2_S1024x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]
  isplitl [H9]
  · iexists _; isplitr; swap; · iexact H9
    ipureintro
    sl_unfold_words
    rw [View.read_writes_eq_canon _ _ _ (fun y => ⟨_, List.mem_singleton_self _, View.mem_set_unit_zero hz2 inb_S1024x2_S1024x2_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]
  · iexists _; isplitr; swap; · iexact H10
    ipureintro
    sl_unfold_words
    rw [View.read_writes_eq_canon _ _ _ (fun y => ⟨_, List.mem_singleton_self _, View.mem_set_unit_zero hz2 inb_S1024x1_S1024x1_0_0 y⟩),
      View.canon_unit_zero hz2]
    simp only [View.readAt_eq_ld, harg1.read_unread, harg2.read_unread, harg3.read_unread, harg4.read_unread, harg5.read_unread,
      harg6.read_unread, harg7.read_unread, harg8.read_unread, harg9.read_unread, harg10.read_unread,
      View.ld_unit_zero (S := S2000x2) hz2, View.ld_unit_zero (S := S2000x1) hz2, View.ld_unit_zero (S := S64x2) hz2,
      View.ld_unit_zero (S := S64) hz1, View.ld_unit_zero (S := S2x64) hz2, View.ld_unit_zero (S := S2) hz1,
      View.ld_unit_zero (S := S1024x2) hz2, View.ld_unit_zero (S := S1024x1) hz2,
      View.readCov_unit_zero (S := S1024x2) _ hz2, View.readCov_unit_zero (S := S1024x1) _ hz2]

end Cert.KernelIdeal.Gen

end
-- ==== Proof.KI.Data2.lean ====
/-
  The pooling kernel as a pipeline: what its two accumulators hold after each tile, the invariant that
  carries them from tile to tile, and the proof data.

  Tile t reads rows 2000·t … 2000·t + 1999 of the two node features and of the segment ids. Writing y for
  the per-node output (the two linear layers around a per-row normalization, plus the last bias), the
  first accumulator holds, per segment, the sums of y over the rows seen so far and the second the row
  counts. Both are zeroed at tile 0; at tile 499, the only tile that writes the result back, the result
  block receives the sums divided by the counts clamped below by one.
-/
import proofs.«407804_j50861002719257_4_alg».proof.Proof.KI.Run2
import Idealize.ShloMosaic.Lib.Pipeline.Frame
import Idealize.ShloMosaic.Lib.Pipeline.FrameBody
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the unscoped buffers' contents when the pooling kernel is entered
variable (V : (c : Dev nD) → (b : Ref sig .tc) → Buf (Elt F) ((c : Thread nD τ).loc b))

/-! ## The tiles -/

/-- Window `w`'s block at tile `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulators after tile `n`: both start from zero at tile 0, and every tile adds its per-segment
    sums of the per-node output and its per-segment row counts to what the tile before left. -/
def accs2 (c : Dev nD) : (n : ℕ) → n < cfg2.N → Vec F S1024x2 .f32 × Vec F S1024x1 .f32
  | 0, hn => (k2_pay2 (k2_pay7 (iblk2 V c 0 ⟨0, hn⟩) (iblk2 V c 1 ⟨0, hn⟩) (iblk2 V c 3 ⟨0, hn⟩) (iblk2 V c 4 ⟨0, hn⟩) (iblk2 V c 5 ⟨0, hn⟩)) (iblk2 V c 6 ⟨0, hn⟩) (iblk2 V c 2 ⟨0, hn⟩) k2_pay5,
              k2_pay3 (iblk2 V c 2 ⟨0, hn⟩) k2_pay6)
  | n + 1, hn =>
    (k2_pay2 (k2_pay7 (iblk2 V c 0 ⟨n + 1, hn⟩) (iblk2 V c 1 ⟨n + 1, hn⟩) (iblk2 V c 3 ⟨n + 1, hn⟩) (iblk2 V c 4 ⟨n + 1, hn⟩) (iblk2 V c 5 ⟨n + 1, hn⟩)) (iblk2 V c 6 ⟨n + 1, hn⟩) (iblk2 V c 2 ⟨n + 1, hn⟩) (accs2 c n (Nat.lt_of_succ_lt hn)).1,
     k2_pay3 (iblk2 V c 2 ⟨n + 1, hn⟩) (accs2 c n (Nat.lt_of_succ_lt hn)).2)

theorem accs2_zero (c : Dev nD) (t : Fin cfg2.N) (h : t.val = 0) :
    accs2 V c t.val t.isLt = (k2_pay2 (k2_pay7 (iblk2 V c 0 t) (iblk2 V c 1 t) (iblk2 V c 3 t) (iblk2 V c 4 t) (iblk2 V c 5 t)) (iblk2 V c 6 t) (iblk2 V c 2 t) k2_pay5,
      k2_pay3 (iblk2 V c 2 t) k2_pay6) := by
  obtain ⟨n, hn⟩ := t
  cases n with
  | zero => rfl
  | succ n => exact absurd h (Nat.succ_ne_zero n)

theorem accs2_pos (c : Dev nD) (t : Fin cfg2.N) (h : t.val ≠ 0) :
    accs2 V c t.val t.isLt
      = (k2_pay2 (k2_pay7 (iblk2 V c 0 t) (iblk2 V c 1 t) (iblk2 V c 3 t) (iblk2 V c 4 t) (iblk2 V c 5 t)) (iblk2 V c 6 t) (iblk2 V c 2 t) (accs2 V c (t.val - 1) (Nat.lt_of_le_of_lt (Nat.sub_le _ _) t.isLt)).1,
         k2_pay3 (iblk2 V c 2 t) (accs2 V c (t.val - 1) (Nat.lt_of_le_of_lt (Nat.sub_le _ _) t.isLt)).2) := by
  obtain ⟨n, hn⟩ := t
  cases n with
  | zero => exact absurd rfl h
  | succ n => rfl

/-! ## The invariant between tiles -/

/-- The two accumulators as memrefs. -/
abbrev scM2_0 : Memref sig .tc .vmem S1024x2 .f32 := Memref.whole cc2_scratch0
abbrev scM2_1 : Memref sig .tc .vmem S1024x1 .f32 := Memref.whole cc2_scratch1

/-- The scoped buffers that are neither a staging buffer nor an accumulator of this kernel: what the
    body never touches. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- Before tile 0 the accumulators hold anything; before tile n + 1 they hold what tile n left. -/
def Phi2 (c : Dev nD) : (n : ℕ) → n ≤ cfg2.N → sProp 𝕄
  | 0, _ => iprop(iprop(iprop((∃ d, owns (c : Thread nD τ) scM2_0 fullShare d) ∗ (∃ d, owns (c : Thread nD τ) scM2_1 fullShare d)) ∗ rest2 c) ∗ ∃ r, prngReg c r)
  | n + 1, hn => iprop(iprop(iprop(owns (c : Thread nD τ) scM2_0 fullShare (accs2 V c n hn).1 ∗ owns (c : Thread nD τ) scM2_1 fullShare (accs2 V c n hn).2) ∗ rest2 c) ∗ ∃ r, prngReg c r)

theorem Phi2_zero (c : Dev nD) (n : ℕ) (h : n ≤ cfg2.N) (hz : n = 0) :
    Phi2 V c n h = iprop(iprop(iprop((∃ d, owns (c : Thread nD τ) scM2_0 fullShare d) ∗ (∃ d, owns (c : Thread nD τ) scM2_1 fullShare d)) ∗ rest2 c) ∗ ∃ r, prngReg c r) := by
  subst hz; rfl
theorem Phi2_succ (c : Dev nD) (n : ℕ) (hn : n < cfg2.N) :
    Phi2 V c (n + 1) hn = iprop(iprop(iprop(owns (c : Thread nD τ) scM2_0 fullShare (accs2 V c n hn).1 ∗ owns (c : Thread nD τ) scM2_1 fullShare (accs2 V c n hn).2) ∗ rest2 c) ∗ ∃ r, prngReg c r) := rfl
theorem Phi2_pos (c : Dev nD) (n : ℕ) (h : n ≤ cfg2.N) (hz : n ≠ 0) :
    Phi2 V c n h = iprop(iprop(iprop(owns (c : Thread nD τ) scM2_0 fullShare (accs2 V c (n - 1) (by omega)).1 ∗ owns (c : Thread nD τ) scM2_1 fullShare (accs2 V c (n - 1) (by omega)).2) ∗ rest2 c) ∗ ∃ r, prngReg c r) := by
  cases n with
  | zero => exact absurd rfl hz
  | succ n => rfl

/-- The class invariant (every scoped buffer the windows do not stage at anything, the generator
    register at some state) is the invariant before tile 0. -/
theorem PhiA2_eq (c : Dev nD) :
    (Pipeline.ΦA spec2 c : sProp 𝕄) = iprop(iprop(iprop((∃ d, owns (c : Thread nD τ) scM2_0 fullShare d) ∗ (∃ d, owns (c : Thread nD τ) scM2_1 fullShare d)) ∗ rest2 c) ∗ ∃ r, prngReg c r) := by
  unfold Pipeline.ΦA
  rw [Pipeline.scopedRest_split_of_list spec2 c [cc2_scratch0, cc2_scratch1] (by decide) (by decide)]
  simp only [scM2_0, scM2_1, owns_whole]; try rfl

/-! ## The proof data -/

/-- The arrays as the kernel finds them; after tile t each input's buffer at its block and the result
    block at the quotient of the accumulated sums by the clamped accumulated counts; the invariant
    above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay4 (accs2 V c t.val t.isLt).1 (accs2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem Phi2_castSucc (c : Dev nD) (t : Fin cfg2.N) : (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = k2_pay4 (accs2 V c t.val t.isLt).1 (accs2 V c t.val t.isLt).2 := by dsimp only [dat2]

/-- Each input's current staging buffer holds its block at every tile, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

end Region2

end Cert.KernelIdeal.Gen

end
-- ==== Proof.KI.Body2.lean ====
/-
  The pooling kernel's body obligation: at each tile the matching case of the body's run is handed the
  tile's blocks and the accumulators the invariant carries, and gives them back one tile further.
-/
import proofs.«407804_j50861002719257_4_alg».proof.Proof.KI.Data2
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = Phi2 V c (t.val + 1) t.isLt from rfl, Phi2_succ]
  have hN : t.val < 500 := lt_of_lt_of_eq t.isLt (show cfg2.N = 500 from N_2)
  rw [show (dat2 V c).leavesExact 0 t = owns (c : Thread nD τ) (st2_0 t) fullShare ((dat2 V c).after 0 t) from by
    unfold Dat.leavesExact; rw [show cfg2.idle 0 (cfg2.grid.coords t) = false from rfl], after2_0]
  rw [show (dat2 V c).leavesExact 1 t = owns (c : Thread nD τ) (st2_1 t) fullShare ((dat2 V c).after 1 t) from by
    unfold Dat.leavesExact; rw [show cfg2.idle 1 (cfg2.grid.coords t) = false from rfl], after2_1]
  rw [show (dat2 V c).leavesExact 2 t = owns (c : Thread nD τ) (st2_2 t) fullShare ((dat2 V c).after 2 t) from by
    unfold Dat.leavesExact; rw [show cfg2.idle 2 (cfg2.grid.coords t) = false from rfl], after2_2]
  rw [show (dat2 V c).leavesExact 3 t = owns (c : Thread nD τ) (st2_3 t) fullShare ((dat2 V c).after 3 t) from by
    unfold Dat.leavesExact; rw [show cfg2.idle 3 (cfg2.grid.coords t) = false from rfl], after2_3]
  rw [show (dat2 V c).leavesExact 4 t = owns (c : Thread nD τ) (st2_4 t) fullShare ((dat2 V c).after 4 t) from by
    unfold Dat.leavesExact; rw [show cfg2.idle 4 (cfg2.grid.coords t) = false from rfl], after2_4]
  rw [show (dat2 V c).leavesExact 5 t = owns (c : Thread nD τ) (st2_5 t) fullShare ((dat2 V c).after 5 t) from by
    unfold Dat.leavesExact; rw [show cfg2.idle 5 (cfg2.grid.coords t) = false from rfl], after2_5]
  rw [show (dat2 V c).leavesExact 6 t = owns (c : Thread nD τ) (st2_6 t) fullShare ((dat2 V c).after 6 t) from by
    unfold Dat.leavesExact; rw [show cfg2.idle 6 (cfg2.grid.coords t) = false from rfl], after2_6]
  by_cases h1 : t.val = 499
  · -- the last tile: the result block is stored
    have hc0 : ¬cond2_0 (grid2.coords t) := fun h => by have := (hcond2_0 t).mp h; omega
    have hc1 : cond2_1 (grid2.coords t) := (hcond2_1 t).mpr h1
    have hz : t.val ≠ 0 := by omega
    rw [show (dat2 V c).leavesExact 7 t = owns (c : Thread nD τ) (st2_7 t) fullShare ((dat2 V c).after 7 t) from by
      unfold Dat.leavesExact; rw [live2_7 t hc1], after2_7]
    rw [accs2_pos V c t hz]; dsimp only
    rw [Phi2_castSucc V c t, Phi2_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_last c (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond2_1 (grid2.coords t) := fun h => h1 ((hcond2_1 t).mp h)
    rw [Dat.leavesExact_idle (dat2 V c) 7 t (idle2_7 t hc1) (noFlush2_7 t hc1)]
    by_cases hz : t.val = 0
    · -- the first tile: the accumulators are zeroed, then added to
      have hc0 : cond2_0 (grid2.coords t) := (hcond2_0 t).mpr hz
      rw [accs2_zero V c t hz]; dsimp only
      rw [Phi2_castSucc V c t, Phi2_zero V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_first c (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a tile in between: the accumulators are added to
      have hc0 : ¬cond2_0 (grid2.coords t) := fun h => hz ((hcond2_0 t).mp h)
      rw [accs2_pos V c t hz]; dsimp only
      rw [Phi2_castSucc V c t, Phi2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_mid c (grid2.coords t) _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every tile. -/
theorem body_obligation2 (c : Dev nD) : BodyObligation (dat2 (F := F) V c) (defs₀ (F := F)) Variants.none () Set.univ := fun t => by
  rw [bigSep_W2, bigSep_W2]
  exact sound_body2 V c t

/-- What the kernel is entered with (the class invariant) is the invariant before tile 0. -/
theorem hin2 (c : Dev nD) : Pipeline.ΦA spec2 c ⊢ (dat2 V c).Φ 0 := by
  rw [show (dat2 V c).Φ 0 = Phi2 V c 0 (Nat.zero_le _) from rfl, Phi2_zero V c 0 _ rfl, PhiA2_eq]
  try exact Idealize.SL.BI.Entails.refl _

/-- After the last tile the invariant gives the class invariant back: what the accumulators hold is forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 500 := N_2; omega), PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Region2

end Cert.KernelIdeal.Gen

end
-- ==== Proof.KI.FrameDefs.lean ====
/-
  What each kernel leaves in its result arrays, stage by stage, and the valuations between the
  program's items.

  The statistics kernel's arrays are computed from the valuation after the first host stretch; the
  normalize kernel's from that with the statistics in place; the pooling kernel's from that with the
  normalize kernel's results in place and the aggregation's host stretch applied. `outs` reads them
  off at the item after each kernel.
-/
import proofs.«407804_j50861002719257_4_alg».proof.Proof.KI.Body0
import proofs.«407804_j50861002719257_4_alg».proof.Proof.KI.Data1
import proofs.«407804_j50861002719257_4_alg».proof.Proof.KI.Body2
import proofs.«407804_j50861002719257_4_alg».proof.Proof.Gen.KernelIdeal.Regions
import Idealize.ShloMosaic.Lib.Pipeline.FrameSuffix
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the kernels leave -/

/-- After the statistics kernel: its arrays at what its pipeline leaves, every other buffer as entered. -/
def o2 (r : Ref sig .tc) (c : Dev nD) : Buf (Elt F) ((c : Thread nD τ).loc r) :=
  Pipeline.withArrays spec0 c (V1 m c) (fun w => (dat0 (fun c b => V1 m c b) c).arrAt w cfg0.N) (Proc.devRef .tc r)
abbrev outsA : Outs (F := F) := fun _ r c => o2 m r c
/-- After the normalize kernel. -/
def o3 (r : Ref sig .tc) (c : Dev nD) : Buf (Elt F) ((c : Thread nD τ).loc r) :=
  Pipeline.withArrays spec1 c (V2 m (outsA m) c) (fun w => (dat1 (fun c b => V2 m (outsA m) c b) c).arrAt w cfg1.N) (Proc.devRef .tc r)
abbrev outsB : Outs (F := F) := fun n r c => match n with | 2 => o2 m r c | _ => o3 m r c
/-- After the pooling kernel. -/
def o5 (r : Ref sig .tc) (c : Dev nD) : Buf (Elt F) ((c : Thread nD τ).loc r) :=
  Pipeline.withArrays spec2 c (V4 m (outsB m) c) (fun w => (dat2 (fun c b => V4 m (outsB m) c b) c).arrAt w cfg2.N) (Proc.devRef .tc r)
/-- What each kernel leaves in the buffers it may change, read at the item after it. -/
def outs : Outs (F := F) := fun n r c => match n with | 2 => o2 m r c | 3 => o3 m r c | _ => o5 m r c

/-! ## The valuations between the items do not depend on what later kernels leave -/

theorem V2_outs (c : Dev nD) : V2 m (outs m) c = V2 m (outsA m) c := rfl
theorem V2_outsB (c : Dev nD) : V2 m (outsB m) c = V2 m (outsA m) c := rfl
theorem V3_outs (c : Dev nD) : V3 m (outs m) c = V3 m (outsB m) c := by
  have h2 : V2 m (outs m) c = V2 m (outsB m) c := (V2_outs m c).trans (V2_outsB m c).symm
  show Function.update (Function.update (V2 m (outs m) c) (Proc.devRef .tc main_v5_0) (o3 m main_v5_0 c)) (Proc.devRef .tc main_v5_1) (o3 m main_v5_1 c)
    = Function.update (Function.update (V2 m (outsB m) c) (Proc.devRef .tc main_v5_0) (o3 m main_v5_0 c)) (Proc.devRef .tc main_v5_1) (o3 m main_v5_1 c)
  rw [h2]
theorem V4_outs (c : Dev nD) : V4 m (outs m) c = V4 m (outsB m) c :=
  congrArg (StableHlo.after hostOps2) (V3_outs m c)

/-- The proof data of the normalize and pooling kernels, stated at the valuations the program's thread
    states name, are those the results above were computed from. -/
theorem dat1_outs (c : Dev nD) : dat1 (fun c b => V2 m (outs m) c b) c = dat1 (fun c b => V2 m (outsA m) c b) c := rfl
theorem dat2_outs (c : Dev nD) : dat2 (fun c b => V4 m (outs m) c b) c = dat2 (fun c b => V4 m (outsB m) c b) c :=
  congrArg (fun V => dat2 V c) (funext fun c' => funext fun b => congrFun (V4_outs m c') (Proc.devRef .tc b))

/-! ## Each kernel's arrays at its exit -/

theorem o2_arr (c : Dev nD) (w : Fin cfg0.W) : o2 m (Pipeline.arrRef spec0 w) c = (dat0 (fun c b => V1 m c b) c).arrAt w cfg0.N :=
  Pipeline.withArrays_arr spec0 launch0.win.arr_inj c _ _ w
theorem o3_arr (c : Dev nD) (w : Fin cfg1.W) : o3 m (Pipeline.arrRef spec1 w) c = (dat1 (fun c b => V2 m (outs m) c b) c).arrAt w cfg1.N :=
  (Pipeline.withArrays_arr spec1 launch1.win.arr_inj c _ _ w).trans (by rw [dat1_outs])
theorem o5_arr (c : Dev nD) (w : Fin cfg2.W) : o5 m (Pipeline.arrRef spec2 w) c = (dat2 (fun c b => V4 m (outs m) c b) c).arrAt w cfg2.N :=
  (Pipeline.withArrays_arr spec2 launch2.win.arr_inj c _ _ w).trans (by rw [dat2_outs])

theorem V2_v4_0 (c : Dev nD) : V2 m (outs m) c main_v4_0 = o2 m main_v4_0 c := by
  show Function.update (Function.update (V1 m c) (Proc.devRef .tc main_v4_0) (o2 m main_v4_0 c)) (Proc.devRef .tc main_v4_1) (o2 m main_v4_1 c) (Proc.devRef .tc main_v4_0) = _
  rw [Function.update_of_ne (StableHlo.devRef_ne_of_ne (by decide : main_v4_0 ≠ main_v4_1)), Function.update_self]
theorem V2_v4_1 (c : Dev nD) : V2 m (outs m) c main_v4_1 = o2 m main_v4_1 c := by
  show Function.update (Function.update (V1 m c) (Proc.devRef .tc main_v4_0) (o2 m main_v4_0 c)) (Proc.devRef .tc main_v4_1) (o2 m main_v4_1 c) (Proc.devRef .tc main_v4_1) = _
  rw [Function.update_self]
theorem V3_v5_0 (c : Dev nD) : V3 m (outs m) c main_v5_0 = o3 m main_v5_0 c := by
  show Function.update (Function.update (V2 m (outs m) c) (Proc.devRef .tc main_v5_0) (o3 m main_v5_0 c)) (Proc.devRef .tc main_v5_1) (o3 m main_v5_1 c) (Proc.devRef .tc main_v5_0) = _
  rw [Function.update_of_ne (StableHlo.devRef_ne_of_ne (by decide : main_v5_0 ≠ main_v5_1)), Function.update_self]
theorem V3_v5_1 (c : Dev nD) : V3 m (outs m) c main_v5_1 = o3 m main_v5_1 c := by
  show Function.update (Function.update (V2 m (outs m) c) (Proc.devRef .tc main_v5_0) (o3 m main_v5_0 c)) (Proc.devRef .tc main_v5_1) (o3 m main_v5_1 c) (Proc.devRef .tc main_v5_1) = _
  rw [Function.update_self]
theorem V5_v50 (c : Dev nD) : V5 m (outs m) c main_v50 = o5 m main_v50 c := by
  show Function.update (V4 m (outs m) c) (Proc.devRef .tc main_v50) (o5 m main_v50 c) (Proc.devRef .tc main_v50) = _
  rw [Function.update_self]

end Cert.KernelIdeal.Gen

end
-- ==== Proof.KI.FrameExit.lean ====
/-
  The proof data of the three pipelines, each at its kernel's entry valuation, and what the exit of
  each kernel needs: its arrays hold what the next valuation says, and every other buffer is as entered.
-/
import proofs.«407804_j50861002719257_4_alg».proof.Proof.KI.FrameDefs
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its kernel's entry contents. -/
def pdats : (p : Fin 3) → (c : Dev nD) → Dat τ (Elt F) Unit ℕ (UR sig nD τ) ℕ (cfgs p) c
  | ⟨0, _⟩ => fun c => dat0 (fun c b => V1 m c b) c
  | ⟨1, _⟩ => fun c => dat1 (fun c b => V2 m (outs m) c b) c
  | ⟨2, _⟩ => fun c => dat2 (fun c b => V4 m (outs m) c b) c

/-! ## The statistics kernel's exit -/
theorem hF0_0 (c : Dev nD) : (pdats m 0 c).arrAt 0 cfg0.N = V2 m (outs m) c (Pipeline.arrRef spec0 0) :=
  (((dat0 (fun c b => V1 m c b) c).arrAt_in 0 rfl _).trans (A_eq0 (fun c b => V1 m c b) c 0)).trans (V2_of m (outs m) c main_arg0 (by decide)).symm
theorem hF0_1 (c : Dev nD) : (pdats m 0 c).arrAt 1 cfg0.N = V2 m (outs m) c (Pipeline.arrRef spec0 1) :=
  (((dat0 (fun c b => V1 m c b) c).arrAt_in 1 rfl _).trans (A_eq0 (fun c b => V1 m c b) c 1)).trans (V2_of m (outs m) c main_arg1 (by decide)).symm
theorem hF0_2 (c : Dev nD) : (pdats m 0 c).arrAt 2 cfg0.N = V2 m (outs m) c (Pipeline.arrRef spec0 2) :=
  (((dat0 (fun c b => V1 m c b) c).arrAt_in 2 rfl _).trans (A_eq0 (fun c b => V1 m c b) c 2)).trans (V2_of m (outs m) c main_arg2 (by decide)).symm
theorem hF0_3 (c : Dev nD) : (pdats m 0 c).arrAt 3 cfg0.N = V2 m (outs m) c (Pipeline.arrRef spec0 3) :=
  (o2_arr m c 3).symm.trans (V2_v4_0 m c).symm
theorem hF0_4 (c : Dev nD) : (pdats m 0 c).arrAt 4 cfg0.N = V2 m (outs m) c (Pipeline.arrRef spec0 4) :=
  (o2_arr m c 4).symm.trans (V2_v4_1 m c).symm
theorem hF0 (c : Dev nD) (w : Fin cfg0.W) : (pdats m 0 c).arrAt w cfg0.N = V2 m (outs m) c (Pipeline.arrRef spec0 w) := by
  obtain ⟨w, hw⟩ := w
  have hw' : w < 5 := hw
  have hcases : w = 0 ∨ w = 1 ∨ w = 2 ∨ w = 3 ∨ w = 4 := by omega
  rcases hcases with rfl | rfl | rfl | rfl | rfl
  · exact hF0_0 m c
  · exact hF0_1 m c
  · exact hF0_2 m c
  · exact hF0_3 m c
  · exact hF0_4 m c
theorem hrest0 (c : Dev nD) : ∀ b, b ∉ Finset.univ.image (Pipeline.arrRef spec0) → V2 m (outs m) c b = V1 m c b :=
  fun b hb => V2_of m (outs m) c b fun hmem => by
    rcases List.mem_cons.mp hmem with rfl | hmem
    · exact hb (Finset.mem_image.mpr ⟨3, Finset.mem_univ _, rfl⟩)
    rcases List.mem_cons.mp hmem with rfl | hmem
    · exact hb (Finset.mem_image.mpr ⟨4, Finset.mem_univ _, rfl⟩)
    · exact absurd hmem List.not_mem_nil

/-! ## The normalize kernel's exit -/
theorem hF1_0 (c : Dev nD) : (pdats m 1 c).arrAt 0 cfg1.N = V3 m (outs m) c (Pipeline.arrRef spec1 0) :=
  (((dat1 (fun c b => V2 m (outs m) c b) c).arrAt_in 0 rfl _).trans (A_eq1 (fun c b => V2 m (outs m) c b) c 0)).trans (V3_of m (outs m) c main_arg0 (by decide)).symm
theorem hF1_1 (c : Dev nD) : (pdats m 1 c).arrAt 1 cfg1.N = V3 m (outs m) c (Pipeline.arrRef spec1 1) :=
  (((dat1 (fun c b => V2 m (outs m) c b) c).arrAt_in 1 rfl _).trans (A_eq1 (fun c b => V2 m (outs m) c b) c 1)).trans (V3_of m (outs m) c main_arg1 (by decide)).symm
theorem hF1_2 (c : Dev nD) : (pdats m 1 c).arrAt 2 cfg1.N = V3 m (outs m) c (Pipeline.arrRef spec1 2) :=
  (((dat1 (fun c b => V2 m (outs m) c b) c).arrAt_in 2 rfl _).trans (A_eq1 (fun c b => V2 m (outs m) c b) c 2)).trans (V3_of m (outs m) c main_arg2 (by decide)).symm
theorem hF1_3 (c : Dev nD) : (pdats m 1 c).arrAt 3 cfg1.N = V3 m (outs m) c (Pipeline.arrRef spec1 3) :=
  (((dat1 (fun c b => V2 m (outs m) c b) c).arrAt_in 3 rfl _).trans (A_eq1 (fun c b => V2 m (outs m) c b) c 3)).trans (V3_of m (outs m) c main_arg3 (by decide)).symm
theorem hF1_4 (c : Dev nD) : (pdats m 1 c).arrAt 4 cfg1.N = V3 m (outs m) c (Pipeline.arrRef spec1 4) :=
  (((dat1 (fun c b => V2 m (outs m) c b) c).arrAt_in 4 rfl _).trans (A_eq1 (fun c b => V2 m (outs m) c b) c 4)).trans (V3_of m (outs m) c main_arg4 (by decide)).symm
theorem hF1_5 (c : Dev nD) : (pdats m 1 c).arrAt 5 cfg1.N = V3 m (outs m) c (Pipeline.arrRef spec1 5) :=
  (((dat1 (fun c b => V2 m (outs m) c b) c).arrAt_in 5 rfl _).trans (A_eq1 (fun c b => V2 m (outs m) c b) c 5)).trans (V3_of m (outs m) c main_arg5 (by decide)).symm
theorem hF1_6 (c : Dev nD) : (pdats m 1 c).arrAt 6 cfg1.N = V3 m (outs m) c (Pipeline.arrRef spec1 6) :=
  (((dat1 (fun c b => V2 m (outs m) c b) c).arrAt_in 6 rfl _).trans (A_eq1 (fun c b => V2 m (outs m) c b) c 6)).trans (V3_of m (outs m) c main_arg6 (by decide)).symm
theorem hF1_7 (c : Dev nD) : (pdats m 1 c).arrAt 7 cfg1.N = V3 m (outs m) c (Pipeline.arrRef spec1 7) :=
  (((dat1 (fun c b => V2 m (outs m) c b) c).arrAt_in 7 rfl _).trans (A_eq1 (fun c b => V2 m (outs m) c b) c 7)).trans (V3_of m (outs m) c main_v4_0 (by decide)).symm
theorem hF1_8 (c : Dev nD) : (pdats m 1 c).arrAt 8 cfg1.N = V3 m (outs m) c (Pipeline.arrRef spec1 8) :=
  (((dat1 (fun c b => V2 m (outs m) c b) c).arrAt_in 8 rfl _).trans (A_eq1 (fun c b => V2 m (outs m) c b) c 8)).trans (V3_of m (outs m) c main_v4_1 (by decide)).symm
theorem hF1_9 (c : Dev nD) : (pdats m 1 c).arrAt 9 cfg1.N = V3 m (outs m) c (Pipeline.arrRef spec1 9) :=
  (o3_arr m c 9).symm.trans (V3_v5_0 m c).symm
theorem hF1_10 (c : Dev nD) : (pdats m 1 c).arrAt 10 cfg1.N = V3 m (outs m) c (Pipeline.arrRef spec1 10) :=
  (o3_arr m c 10).symm.trans (V3_v5_1 m c).symm
theorem hF1 (c : Dev nD) (w : Fin cfg1.W) : (pdats m 1 c).arrAt w cfg1.N = V3 m (outs m) c (Pipeline.arrRef spec1 w) := by
  obtain ⟨w, hw⟩ := w
  have hw' : w < 11 := hw
  have hcases : w = 0 ∨ w = 1 ∨ w = 2 ∨ w = 3 ∨ w = 4 ∨ w = 5 ∨ w = 6 ∨ w = 7 ∨ w = 8 ∨ w = 9 ∨ w = 10 := by omega
  rcases hcases with rfl | rfl | rfl | rfl | rfl | rfl | rfl | rfl | rfl | rfl | rfl
  · exact hF1_0 m c
  · exact hF1_1 m c
  · exact hF1_2 m c
  · exact hF1_3 m c
  · exact hF1_4 m c
  · exact hF1_5 m c
  · exact hF1_6 m c
  · exact hF1_7 m c
  · exact hF1_8 m c
  · exact hF1_9 m c
  · exact hF1_10 m c
theorem hrest1 (c : Dev nD) : ∀ b, b ∉ Finset.univ.image (Pipeline.arrRef spec1) → V3 m (outs m) c b = V2 m (outs m) c b :=
  fun b hb => V3_of m (outs m) c b fun hmem => by
    rcases List.mem_cons.mp hmem with rfl | hmem
    · exact hb (Finset.mem_image.mpr ⟨9, Finset.mem_univ _, rfl⟩)
    rcases List.mem_cons.mp hmem with rfl | hmem
    · exact hb (Finset.mem_image.mpr ⟨10, Finset.mem_univ _, rfl⟩)
    · exact absurd hmem List.not_mem_nil

/-! ## The pooling kernel's exit -/
theorem hF2_0 (c : Dev nD) : (pdats m 2 c).arrAt 0 cfg2.N = V5 m (outs m) c (Pipeline.arrRef spec2 0) :=
  (((dat2 (fun c b => V4 m (outs m) c b) c).arrAt_in 0 rfl _).trans (A_eq2 (fun c b => V4 m (outs m) c b) c 0)).trans (V5_of m (outs m) c main_v48 (by decide)).symm
theorem hF2_1 (c : Dev nD) : (pdats m 2 c).arrAt 1 cfg2.N = V5 m (outs m) c (Pipeline.arrRef spec2 1) :=
  (((dat2 (fun c b => V4 m (outs m) c b) c).arrAt_in 1 rfl _).trans (A_eq2 (fun c b => V4 m (outs m) c b) c 1)).trans (V5_of m (outs m) c main_v5_0 (by decide)).symm
theorem hF2_2 (c : Dev nD) : (pdats m 2 c).arrAt 2 cfg2.N = V5 m (outs m) c (Pipeline.arrRef spec2 2) :=
  (((dat2 (fun c b => V4 m (outs m) c b) c).arrAt_in 2 rfl _).trans (A_eq2 (fun c b => V4 m (outs m) c b) c 2)).trans (V5_of m (outs m) c main_v49 (by decide)).symm
theorem hF2_3 (c : Dev nD) : (pdats m 2 c).arrAt 3 cfg2.N = V5 m (outs m) c (Pipeline.arrRef spec2 3) :=
  (((dat2 (fun c b => V4 m (outs m) c b) c).arrAt_in 3 rfl _).trans (A_eq2 (fun c b => V4 m (outs m) c b) c 3)).trans (V5_of m (outs m) c main_arg8 (by decide)).symm
theorem hF2_4 (c : Dev nD) : (pdats m 2 c).arrAt 4 cfg2.N = V5 m (outs m) c (Pipeline.arrRef spec2 4) :=
  (((dat2 (fun c b => V4 m (outs m) c b) c).arrAt_in 4 rfl _).trans (A_eq2 (fun c b => V4 m (outs m) c b) c 4)).trans (V5_of m (outs m) c main_arg9 (by decide)).symm
theorem hF2_5 (c : Dev nD) : (pdats m 2 c).arrAt 5 cfg2.N = V5 m (outs m) c (Pipeline.arrRef spec2 5) :=
  (((dat2 (fun c b => V4 m (outs m) c b) c).arrAt_in 5 rfl _).trans (A_eq2 (fun c b => V4 m (outs m) c b) c 5)).trans (V5_of m (outs m) c main_arg10 (by decide)).symm
theorem hF2_6 (c : Dev nD) : (pdats m 2 c).arrAt 6 cfg2.N = V5 m (outs m) c (Pipeline.arrRef spec2 6) :=
  (((dat2 (fun c b => V4 m (outs m) c b) c).arrAt_in 6 rfl _).trans (A_eq2 (fun c b => V4 m (outs m) c b) c 6)).trans (V5_of m (outs m) c main_arg11 (by decide)).symm
theorem hF2_7 (c : Dev nD) : (pdats m 2 c).arrAt 7 cfg2.N = V5 m (outs m) c (Pipeline.arrRef spec2 7) :=
  (o5_arr m c 7).symm.trans (V5_v50 m c).symm
theorem hF2 (c : Dev nD) (w : Fin cfg2.W) : (pdats m 2 c).arrAt w cfg2.N = V5 m (outs m) c (Pipeline.arrRef spec2 w) := by
  obtain ⟨w, hw⟩ := w
  have hw' : w < 8 := hw
  have hcases : w = 0 ∨ w = 1 ∨ w = 2 ∨ w = 3 ∨ w = 4 ∨ w = 5 ∨ w = 6 ∨ w = 7 := by omega
  rcases hcases with rfl | rfl | rfl | rfl | rfl | rfl | rfl | rfl
  · exact hF2_0 m c
  · exact hF2_1 m c
  · exact hF2_2 m c
  · exact hF2_3 m c
  · exact hF2_4 m c
  · exact hF2_5 m c
  · exact hF2_6 m c
  · exact hF2_7 m c
theorem hrest2 (c : Dev nD) : ∀ b, b ∉ Finset.univ.image (Pipeline.arrRef spec2) → V5 m (outs m) c b = V4 m (outs m) c b :=
  fun b hb => V5_of m (outs m) c b fun hmem => by
    rcases List.mem_cons.mp hmem with rfl | hmem
    · exact hb (Finset.mem_image.mpr ⟨7, Finset.mem_univ _, rfl⟩)
    · exact absurd hmem List.not_mem_nil

end Cert.KernelIdeal.Gen

end
-- ==== Proof.KI.Frame.lean ====
/-
  The three kernels as segments of the program, and the program's frame.

  Between two items of the program a core holds every unscoped buffer at a known valuation. Each kernel
  is entered from the valuation before it and left at the one after it: its arrays are split out of the
  unscoped buffers on entry and put back, at what its pipeline leaves, on exit; nothing is owed, no kernel
  has a semaphore of its own, and the generator register rides along untouched.
-/
import proofs.«407804_j50861002719257_4_alg».proof.Proof.KI.FrameExit
import Idealize.ShloMosaic.Lib.Pipeline.Regions
import Idealize.ShloMosaic.Lib.Pipeline.RegionsLoop
import Idealize.ShloMosaic.Lib.Pipeline.Kit
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0
/-- What rides beside the buffers through every item: the generator register at some state and the
    core owing nothing. -/
abbrev R (c : Dev nD) : sProp 𝕄 := iprop((∃ r, prngReg c r) ∗ ∃ W, owes (c : Thread nD τ) (0 : CellTallies nD τ sig Unit) W)

theorem hin1 (V : (c : Dev nD) → (b : Ref sig .tc) → Buf (Elt F) ((c : Thread nD τ).loc b)) (c : Dev nD) :
    Pipeline.ΦA spec1 c ⊢ (dat1 V c).Φ 0 := Idealize.SL.BI.Entails.refl _
theorem hout1 (V : (c : Dev nD) → (b : Ref sig .tc) → Buf (Elt F) ((c : Thread nD τ).loc b)) (c : Dev nD) :
    (dat1 V c).Φ (Fin.last cfg1.N) ⊢ Pipeline.ΦA spec1 c := Idealize.SL.BI.Entails.refl _

/-! ## The kernels as segments -/

set_option backward.isDefEq.respectTransparency.types false in
/-- Region 0 over the thread states: its arrays are split out of the unscoped buffers on entry and put
    back at what the pipeline leaves on exit; the generator register enters the invariant and comes back;
    every other unscoped buffer passes by untouched; nothing is owed and the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (fun c b => V1 m c b) c)
    unfold Pipeline.ΦA
    iintro ⟨Hp, -, Hr⟩
    isplitl [Hr]; · iexact Hr
    iexact Hp
  hout c := by
    rw [Pipeline.ownSems0_none]
    refine BIBase.Entails.trans (hout0 (fun c b => V1 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: its arrays are split out of the unscoped buffers on entry and put
    back at what the pipeline leaves on exit; the generator register enters the invariant and comes back;
    every other unscoped buffer passes by untouched; nothing is owed and the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (fun c b => V2 m (outs m) c b) c)
    unfold Pipeline.ΦA
    iintro ⟨Hp, -, Hr⟩
    isplitl [Hr]; · iexact Hr
    iexact Hp
  hout c := by
    rw [Pipeline.ownSems0_none]
    refine BIBase.Entails.trans (hout1 (fun c b => V2 m (outs m) c b) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread states: its arrays are split out of the unscoped buffers on entry and put
    back at what the pipeline leaves on exit; the generator register enters the invariant and comes back;
    every other unscoped buffer passes by untouched; nothing is owed and the kernel has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V4 m (outs m) c b) c).loose
  hwaits := Pipeline.hwaits_of_owed_zero _ _ _ _ L lv 2 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V4 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (fun c b => V4 m (outs m) c b) c)
    unfold Pipeline.ΦA
    iintro ⟨Hp, -, Hr⟩
    isplitl [Hr]; · iexact Hr
    iexact Hp
  hout c := by
    rw [Pipeline.ownSems0_none]
    refine BIBase.Entails.trans (hout2 (fun c b => V4 m (outs m) c b) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V4 m (outs m) c b) (fun b => V5 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element: the pipelines' cells and launch tokens. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core is what rides along from the first item on. -/
theorem hE0 (ρ : Dev nD → PrngReg) :
    iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

set_option backward.isDefEq.respectTransparency.types false in
/-- Every weakly fair execution of the program terminates, nothing faulting, with every argument array
    as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L lv (fun _ _ => rfl) ρ (outs m) (pdats m) (fun _ => 0) (fun _ => (BI.emp : sProp 𝕄)) (u₀ : UR sig nD τ) hu₀
    (fun _ c => R c) (hE0 ρ) (fun c => by iintro ⟨-, HO⟩; iexact HO)
    (reg0 m) (fun _ => .rfl) (fun _ => .rfl) (reg1 m) (fun _ => .rfl) (fun _ => .rfl) (reg2 m) (fun _ => .rfl) (fun _ => .rfl)

end Cert.KernelIdeal.Gen

end
-- ==== Proof.KI.RunRes.lean ====
/-
  The idealized kernel's run with its result: every weakly fair execution terminates, nothing faulting,
  the result array holding what the pooling kernel's pipeline leaves in it and every argument array as
  launched.
-/
import proofs.«407804_j50861002719257_4_alg».proof.Proof.KI.Frame
import proofs.«407804_j50861002719257_4_alg».proof.Proof.KI.FrameRes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_res (ρ : Dev nD → PrngReg) :
    θ_run defs (onTc (τ := τ) (main (F := F))) ⟨m, fun _ => 0, ρ⟩ (fun r => ∀ c : Dev nD,
      r.2.mem ((c.tc : Thread nD τ).loc main_v50) = V5 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond_res m emb₁ () Variants.none L lv (fun _ _ => rfl) ρ (outs m) (pdats m) (fun _ => 0) (fun _ => (BI.emp : sProp 𝕄)) (u₀ : UR sig nD τ) hu₀
    (fun _ c => R c) (hE0 ρ) (fun c => by iintro ⟨-, HO⟩; iexact HO)
    (reg0 m) (fun _ => .rfl) (fun _ => .rfl) (reg1 m) (fun _ => .rfl) (fun _ => .rfl) (reg2 m) (fun _ => .rfl) (fun _ => .rfl)

end Cert.KernelIdeal.Gen

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.Val.Stage1a.lean ====
/-
  The affine map h = x·Wᵀ + b read at one entry, on both sides.

  * A tile of the kernel: the entry (r, d) of the tile's h is ∑ₖ x(r, k)·W(d, k) + b(d).
  * The reference: the entry (n, d) of h over the whole array is the same expression of row n.
  * Hence the tile's entry (r, d) is the reference's entry (8000·t + r, d) when the tile holds rows
    8000·t … 8000·t + 7999 of x.
-/
import proofs.«407804_j50861002719257_4_alg».proof.Proof.LibPlainMatmul
import proofs.«407804_j50861002719257_4_alg».proof.Proof.Gen.KernelIdeal.Skeleton
import proofs.«407804_j50861002719257_4_alg».proof.Proof.Gen.ReferenceIdeal.Read
import Idealize.ShloMosaic.Lib.ValueLayout

noncomputable section

namespace Cert.Val.Stage1

open Idealize.ShloMosaic Idealize.ShloMosaic.ValueIdx

/-- The kernel's 8000×2 by 2×2 contraction is the plain matrix product. -/
theorem dot_eq : Cert.KernelIdeal.dot_S8000x2_S2x2_S8000x2_1_0_0_1_n_n = DotDims.plain 8000 2 2 := rfl

/-- Entry (r, d) of a tile's h: ∑ₖ x(r, k)·W(d, k) + b(d). -/
theorem pay1_apply (xb : Vec Ideal Cert.KernelIdeal.S8000x2 .f32) (w : Vec Ideal Cert.KernelIdeal.S2x2 .f32)
    (b : Vec Ideal Cert.KernelIdeal.S2 .f32) (r : Fin 8000) (d : Fin 2) :
    Cert.KernelIdeal.Gen.k0_pay1 xb w b (ix2 r d) = ∑ k : Fin 2, xb (ix2 r k) * w (ix2 d k) + b (ix1 d) := by
  unfold Cert.KernelIdeal.Gen.k0_pay1
  refine (addf_apply _ _ _).trans (congrArg₂ (· + ·) ?_ ?_)
  · refine (PlainMatmul.matmul_zero_apply_of_eq _ dot_eq none xb _ r d).trans ?_
    exact Finset.sum_congr rfl fun k _ => congrArg (xb (ix2 r k) * ·) (transpose_ix2_apply w _ k d)
  · exact (broadcastTo_1b_ab_apply _ _ r d).trans (shapeCast_a_1a_apply b _ 0 d)

/-- Entry (n, d) of the reference's h: ∑ₖ x(n, k)·W(d, k) + b(d). -/
theorem lin_apply (X : (⟨Cert.ReferenceIdeal.S1000000x2, .f32⟩ : BufTy).Contents (Elt Ideal))
    (w : (⟨Cert.ReferenceIdeal.S2x2, .f32⟩ : BufTy).Contents (Elt Ideal))
    (b : (⟨Cert.ReferenceIdeal.S2, .f32⟩ : BufTy).Contents (Elt Ideal)) (n : Fin 1000000) (d : Fin 2) :
    Cert.ReferenceIdeal.Read.val_main_v4 (F := Ideal) X w b (ix2 n d) = ∑ k : Fin 2, X (ix2 n k) * w (ix2 d k) + b (ix1 d) := by
  rw [Cert.ReferenceIdeal.Read.val_main_v4_apply, Cert.ReferenceIdeal.Read.val_main_v1_apply,
    Cert.ReferenceIdeal.Read.val_main_v3_apply, Cert.ReferenceIdeal.Read.val_main_v2_apply]
  show (∑ k, _) + _ = _
  refine congrArg₂ (· + ·) (Finset.sum_congr rfl fun k _ => ?_) ?_
  · rw [Cert.ReferenceIdeal.Read.val_main_v0_apply]
    have e1 : Cert.ReferenceIdeal.Read.lidx_main_v1 (ix2 n d) k = ix2 n k :=
      funext fun a => Fin.ext (by match a with | ⟨0, _⟩ => rfl | ⟨1, _⟩ => rfl)
    have e2 : Cert.ReferenceIdeal.Read.idx_main_v0 (Cert.ReferenceIdeal.Read.ridx_main_v1 (ix2 n d) k) = ix2 d k :=
      funext fun a => Fin.ext (by match a with | ⟨0, _⟩ => rfl | ⟨1, _⟩ => rfl)
    rw [e1, e2]
  · exact congrArg b (funext fun a => Fin.ext (by match a with | ⟨0, _⟩ => rfl))

/-- A tile holding rows 8000·t … of x has, at (r, d), the reference's h at row 8000·t + r. -/
theorem pay1_eq_lin (X : (⟨Cert.ReferenceIdeal.S1000000x2, .f32⟩ : BufTy).Contents (Elt Ideal))
    (w : (⟨Cert.ReferenceIdeal.S2x2, .f32⟩ : BufTy).Contents (Elt Ideal))
    (b : (⟨Cert.ReferenceIdeal.S2, .f32⟩ : BufTy).Contents (Elt Ideal))
    (t : ℕ) (ht : t < 125) (xb : Vec Ideal Cert.KernelIdeal.S8000x2 .f32)
    (hx : ∀ (r : Fin 8000) (k : Fin 2), xb (ix2 r k) = X (ix2 ⟨8000 * t + r.val, by omega⟩ k))
    (r : Fin 8000) (d : Fin 2) :
    Cert.KernelIdeal.Gen.k0_pay1 xb w b (ix2 r d)
      = Cert.ReferenceIdeal.Read.val_main_v4 (F := Ideal) X w b (ix2 ⟨8000 * t + r.val, by omega⟩ d) := by
  rw [pay1_apply, lin_apply]
  exact congrArg (· + b (ix1 d)) (Finset.sum_congr rfl fun k _ => congrArg (· * w (ix2 d k)) (hx r k))

end Cert.Val.Stage1

end
-- ==== Proof.Val.Stage1b.lean ====
/-
  The statistics kernel's two accumulators after the last tile: the column sums of h = x·Wᵀ + b and of h²
  over all the 10⁶ rows.

  Tile t adds to the first accumulator the column sums of the tile's h and to the second those of its
  squares; both start from zero at tile 0. After tile n they hold the sums over tiles 0 … n, and the
  10⁶ rows are the 125 tiles of 8000 rows each, row 8000·t + r being row r of tile t. Sums of extended
  reals reorder freely, so no finiteness is needed here.
-/
import proofs.«407804_j50861002719257_4_alg».proof.Proof.Val.Stage1a

noncomputable section

namespace Cert.Val.Stage1

open Idealize.ShloMosaic Idealize.ShloMosaic.ValueIdx

/-- The first accumulator's initial row is zero. -/
theorem pay2_apply (u : Fin 1) (d : Fin 2) : (Cert.KernelIdeal.Gen.k0_pay2 (F := Ideal)) (ix2 u d) = 0 := by
  unfold Cert.KernelIdeal.Gen.k0_pay2
  rw [shapeCast_self]
  exact Ideal.ofBits_zero_f32

/-- The second accumulator's initial row is zero. -/
theorem pay3_apply (u : Fin 1) (d : Fin 2) : (Cert.KernelIdeal.Gen.k0_pay3 (F := Ideal)) (ix2 u d) = 0 := by
  unfold Cert.KernelIdeal.Gen.k0_pay3
  rw [shapeCast_self]
  exact Ideal.ofBits_zero_f32

/-- A sum over the rows of a tile, read at column d. -/
theorem colsum_apply (v : FVec Ideal Cert.KernelIdeal.S8000x2 .f32)
    (h : Cert.KernelIdeal.S8000x2.Reduces [0] Cert.KernelIdeal.S2) (hφ : FKind.Formats .f32)
    (hacc : (0x00000000#32 : BitVec 32) = 0x00000000#32) (d : Fin 2) :
    multiReduction (F := Ideal) .add [0] Cert.KernelIdeal.S2 v 0x00000000#32 h hφ hacc (ix1 d) = ∑ r : Fin 8000, v (ix2 r d) := by
  refine (Ideal.multiReduction_add_single v 0x00000000#32 h hφ hacc (ix1 d)).trans ?_
  exact Finset.sum_congr rfl fun r _ => congrArg v (funext fun a => Fin.ext (by match a with | ⟨0, _⟩ => rfl | ⟨1, _⟩ => rfl))

/-- The first accumulator after a tile: its row before plus the column sums of the tile's h. -/
theorem pay4_apply (xb : Vec Ideal Cert.KernelIdeal.S8000x2 .f32) (w : Vec Ideal Cert.KernelIdeal.S2x2 .f32)
    (b : Vec Ideal Cert.KernelIdeal.S2 .f32) (s : Vec Ideal Cert.KernelIdeal.S1x2 .f32) (u : Fin 1) (d : Fin 2) :
    Cert.KernelIdeal.Gen.k0_pay4 xb w b s (ix2 u d) = s (ix2 u d) + ∑ r : Fin 8000, Cert.KernelIdeal.Gen.k0_pay1 xb w b (ix2 r d) := by
  unfold Cert.KernelIdeal.Gen.k0_pay4
  rw [shapeCast_self]
  refine (addf_apply _ _ _).trans (congrArg (s (ix2 u d) + ·) ?_)
  refine (shapeCast_a_1a_apply _ _ u d).trans ?_
  exact colsum_apply _ _ _ _ d

/-- The second accumulator after a tile: its row before plus the column sums of the squares of the tile's h. -/
theorem pay5_apply (xb : Vec Ideal Cert.KernelIdeal.S8000x2 .f32) (w : Vec Ideal Cert.KernelIdeal.S2x2 .f32)
    (b : Vec Ideal Cert.KernelIdeal.S2 .f32) (s : Vec Ideal Cert.KernelIdeal.S1x2 .f32) (u : Fin 1) (d : Fin 2) :
    Cert.KernelIdeal.Gen.k0_pay5 xb w b s (ix2 u d) = s (ix2 u d) + ∑ r : Fin 8000,
      Cert.KernelIdeal.Gen.k0_pay1 xb w b (ix2 r d) * Cert.KernelIdeal.Gen.k0_pay1 xb w b (ix2 r d) := by
  unfold Cert.KernelIdeal.Gen.k0_pay5
  rw [shapeCast_self]
  refine (addf_apply _ _ _).trans (congrArg (s (ix2 u d) + ·) ?_)
  refine (shapeCast_a_1a_apply _ _ u d).trans ?_
  exact colsum_apply _ _ _ _ d

/-- Row r of tile t among the 10⁶ rows. -/
def tileRow (t : Fin 125) (r : Fin 8000) : Fin 1000000 := ⟨8000 * t.val + r.val, by omega⟩

/-- A sum over the 10⁶ rows is the sum over the tiles of the sums over a tile's rows. -/
theorem sum_rows {M : Type} [AddCommMonoid M] (g : Fin 1000000 → M) :
    ∑ n, g n = ∑ t : Fin 125, ∑ r : Fin 8000, g (tileRow t r) := by
  rw [← Fintype.sum_prod_type']
  rw [← Equiv.sum_comp (finProdFinEquiv.trans (finCongr (by norm_num : 125 * 8000 = 1000000))) g]
  refine Finset.sum_congr rfl fun p _ => congrArg g (Fin.ext ?_)
  show p.2.val + 8000 * p.1.val = 8000 * p.1.val + p.2.val
  omega

section Stats
variable (w : (⟨Cert.ReferenceIdeal.S2x2, .f32⟩ : BufTy).Contents (Elt Ideal))
  (b : (⟨Cert.ReferenceIdeal.S2, .f32⟩ : BufTy).Contents (Elt Ideal))
  (xb : ℕ → Vec Ideal Cert.KernelIdeal.S8000x2 .f32)
  (acc : ℕ → Vec Ideal Cert.KernelIdeal.S1x2 .f32 × Vec Ideal Cert.KernelIdeal.S1x2 .f32)

/-- After tile n the two accumulators hold the column sums of h and of h² over tiles 0 … n. -/
theorem stats_partial
    (h0 : acc 0 = (Cert.KernelIdeal.Gen.k0_pay4 (xb 0) w b (Cert.KernelIdeal.Gen.k0_pay2 (F := Ideal)),
      Cert.KernelIdeal.Gen.k0_pay5 (xb 0) w b (Cert.KernelIdeal.Gen.k0_pay3 (F := Ideal))))
    (hs : ∀ n, n + 1 < 125 → acc (n + 1) = (Cert.KernelIdeal.Gen.k0_pay4 (xb (n + 1)) w b (acc n).1,
      Cert.KernelIdeal.Gen.k0_pay5 (xb (n + 1)) w b (acc n).2)) (d : Fin 2) :
    ∀ n, n < 125 →
      (acc n).1 (ix2 0 d) = ∑ t ∈ Finset.range (n + 1), ∑ r : Fin 8000, Cert.KernelIdeal.Gen.k0_pay1 (xb t) w b (ix2 r d)
      ∧ (acc n).2 (ix2 0 d) = ∑ t ∈ Finset.range (n + 1), ∑ r : Fin 8000,
          Cert.KernelIdeal.Gen.k0_pay1 (xb t) w b (ix2 r d) * Cert.KernelIdeal.Gen.k0_pay1 (xb t) w b (ix2 r d) := by
  intro n
  induction n with
  | zero =>
    intro _
    rw [h0, Finset.sum_range_one, Finset.sum_range_one]
    exact ⟨(pay4_apply _ _ _ _ 0 d).trans (by rw [pay2_apply, zero_add]),
      (pay5_apply _ _ _ _ 0 d).trans (by rw [pay3_apply, zero_add])⟩
  | succ n ih =>
    intro hn
    obtain ⟨i1, i2⟩ := ih (by omega)
    rw [hs n hn, Finset.sum_range_succ _ (n + 1), Finset.sum_range_succ _ (n + 1)]
    exact ⟨(pay4_apply _ _ _ _ 0 d).trans (by rw [i1]), (pay5_apply _ _ _ _ 0 d).trans (by rw [i2])⟩

end Stats

/-- After the last tile the accumulators hold the column sums of h and of h² over all rows. -/
theorem stats_total (X : (⟨Cert.ReferenceIdeal.S1000000x2, .f32⟩ : BufTy).Contents (Elt Ideal))
    (w : (⟨Cert.ReferenceIdeal.S2x2, .f32⟩ : BufTy).Contents (Elt Ideal))
    (b : (⟨Cert.ReferenceIdeal.S2, .f32⟩ : BufTy).Contents (Elt Ideal))
    (xb : ℕ → Vec Ideal Cert.KernelIdeal.S8000x2 .f32)
    (hx : ∀ t (ht : t < 125) (r : Fin 8000) (k : Fin 2),
      xb t (ix2 r k) = X (ix2 ⟨8000 * t + r.val, by omega⟩ k))
    (acc : ℕ → Vec Ideal Cert.KernelIdeal.S1x2 .f32 × Vec Ideal Cert.KernelIdeal.S1x2 .f32)
    (h0 : acc 0 = (Cert.KernelIdeal.Gen.k0_pay4 (xb 0) w b (Cert.KernelIdeal.Gen.k0_pay2 (F := Ideal)),
      Cert.KernelIdeal.Gen.k0_pay5 (xb 0) w b (Cert.KernelIdeal.Gen.k0_pay3 (F := Ideal))))
    (hs : ∀ n, n + 1 < 125 → acc (n + 1) = (Cert.KernelIdeal.Gen.k0_pay4 (xb (n + 1)) w b (acc n).1,
      Cert.KernelIdeal.Gen.k0_pay5 (xb (n + 1)) w b (acc n).2)) (d : Fin 2) :
    (acc 124).1 (ix2 0 d) = ∑ n : Fin 1000000, Cert.ReferenceIdeal.Read.val_main_v4 (F := Ideal) X w b (ix2 n d)
    ∧ (acc 124).2 (ix2 0 d) = ∑ n : Fin 1000000, Cert.ReferenceIdeal.Read.val_main_v4 (F := Ideal) X w b (ix2 n d)
        * Cert.ReferenceIdeal.Read.val_main_v4 (F := Ideal) X w b (ix2 n d) := by
  obtain ⟨e1, e2⟩ := stats_partial w b xb acc h0 hs d 124 (by omega)
  have hp : ∀ (t : Fin 125) (r : Fin 8000), Cert.KernelIdeal.Gen.k0_pay1 (xb t.val) w b (ix2 r d)
      = Cert.ReferenceIdeal.Read.val_main_v4 (F := Ideal) X w b (ix2 (tileRow t r) d) :=
    fun t r => pay1_eq_lin X w b t.val t.isLt (xb t.val) (hx t.val t.isLt) r d
  refine ⟨e1.trans ?_, e2.trans ?_⟩
  · rw [Finset.sum_range, sum_rows]
    exact Finset.sum_congr rfl fun t _ => Finset.sum_congr rfl fun r _ => hp t r
  · rw [Finset.sum_range, sum_rows]
    exact Finset.sum_congr rfl fun t _ => Finset.sum_congr rfl fun r _ => by rw [hp t r]

end Cert.Val.Stage1

end
-- ==== Proof.Val.Glue0.lean ====
/-
  The statistics kernel's two results as whole arrays, at the extended reals.

  The kernel walks x in 125 tiles of 8000 rows. Its two accumulators are zeroed at tile 0, take every
  tile's column sums of h = x·Wᵀ + b and of h², and are copied into the two [1,2] results at tile 124 only.
  Here: each input block read off its argument (tile t of x is rows 8000·t … 8000·t + 7999; the weight's
  and the bias's one block is the whole array), the two result arrays after the run as the accumulators
  after tile 124, and from the accumulators' recurrence the column sums over all 1000000 rows.
-/
import proofs.«407804_j50861002719257_4_alg».proof.Proof.KI.Data0
import proofs.«407804_j50861002719257_4_alg».proof.Proof.Gen.ReferenceIdeal.Read
import proofs.«407804_j50861002719257_4_alg».proof.Proof.Val.Stage1b
import Idealize.ShloMosaic.Lib.Pipeline.Value
import Idealize.ShloMosaic.Lib.ValueIdx
import Idealize.ShloMosaic.PureOps.Ideal

set_option maxRecDepth 16384

noncomputable section

open scoped BigOperators

namespace Cert.Val.Glue

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## The index maps of the statistics kernel, decided once over its 125 tiles

Tile `t` of x is block (t, 0); every other window's one block is its whole array. -/

theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem N0 : cfg0.N = 125 := N_0

/-! ## The input blocks, read off the arguments -/

/-- Tile `t` of x holds rows 8000·t … 8000·t + 7999. -/
theorem iblk0_x (c : Dev nD) (X : (⟨S1000000x2, .f32⟩ : BufTy).Contents (Elt Ideal))
    (hX : V c main_arg0 = X) (t : Fin cfg0.N) (r : Fin 8000) (k : Fin 2) (n : Fin 1000000)
    (hn : n.val = 8000 * t.val + r.val) :
    (iblk0 V c 0 t : Vec Ideal S8000x2 .f32) (ix2 r k) = X (ix2 n k) := by
  obtain ⟨e0, e1, -⟩ := idx0 t
  unfold iblk0
  rw [View.read_apply]
  show V c main_arg0 (((cfg0.win 0).blk t).view.emb (ix2 r k)) = X (ix2 n k)
  rw [hX]
  refine congrArg X ?_
  funext a
  apply Fin.ext
  match a with
  | ⟨0, _⟩ => show win0_0.index t (0 : Fin 2) * 8000 + 1 * r.val = n.val; rw [e0, hn]; omega
  | ⟨1, _⟩ => show win0_0.index t (1 : Fin 2) * 2 + 1 * k.val = k.val; rw [e1]; omega

/-- The weight's one block is the weight. -/
theorem iblk0_w (c : Dev nD) (w : (⟨S2x2, .f32⟩ : BufTy).Contents (Elt Ideal))
    (hw : V c main_arg1 = w) (t : Fin cfg0.N) :
    (iblk0 V c 1 t : Vec Ideal S2x2 .f32) = w := by
  obtain ⟨-, -, e2, e3, -⟩ := idx0 t
  unfold iblk0
  funext y
  rw [View.read_apply]
  show V c main_arg1 (((cfg0.win 1).blk t).view.emb y) = w y
  rw [hw]
  refine congrArg w ?_
  funext a
  apply Fin.ext
  match a with
  | ⟨0, _⟩ => show win0_1.index t (0 : Fin 2) * 2 + 1 * (y 0).val = (y 0).val; rw [e2]; omega
  | ⟨1, _⟩ => show win0_1.index t (1 : Fin 2) * 2 + 1 * (y 1).val = (y 1).val; rw [e3]; omega

/-- The bias's one block is the bias. -/
theorem iblk0_b (c : Dev nD) (b : (⟨S2, .f32⟩ : BufTy).Contents (Elt Ideal))
    (hb : V c main_arg2 = b) (t : Fin cfg0.N) :
    (iblk0 V c 2 t : Vec Ideal S2 .f32) = b := by
  obtain ⟨-, -, -, -, e4, -⟩ := idx0 t
  unfold iblk0
  funext y
  rw [View.read_apply]
  show V c main_arg2 (((cfg0.win 2).blk t).view.emb y) = b y
  rw [hb]
  refine congrArg b ?_
  funext a
  apply Fin.ext
  match a with
  | ⟨0, _⟩ => show win0_2.index t (0 : Fin 1) * 2 + 1 * (y 0).val = (y 0).val; rw [e4]; omega

/-! ## The two results after the run: what the last tile left in the accumulators -/

theorem lt0 : 0 < cfg0.N := by rw [N0]; decide
theorem lt124 : 124 < cfg0.N := by rw [N0]; decide

/-- The sums' array after the run is the first accumulator after tile 124: that tile alone writes the
    window back, and its one block is the whole [1,2] array. -/
theorem arrAt0_3 (c : Dev nD) : (dat0 V c).arrAt 3 cfg0.N = (accs0 V c 124 lt124).1 := by
  have hN := N0
  obtain ⟨-, -, -, -, -, e5, e6, -⟩ := idx0 ⟨124, lt124⟩
  refine (dat0 V c).arrAt_eq_of_cover 3 _ (fun t hf => ?_) (fun i => ?_)
  · have h1 : t.val = 124 := by have := (flush0_3 t).mp hf; have := t.isLt; omega
    obtain rfl : t = ⟨124, lt124⟩ := Fin.ext h1
    show (cfg0.win 3).cut (grid0.coords _) ((dat0 V c).after 3 _) = _
    rw [after0_3]
    have hz' : (fun a => win0_3.index ⟨124, lt124⟩ a * main_v4_0.ty.shape.size a) = fun _ => 0 :=
      funext fun a => by
        match a with
        | ⟨0, _⟩ => show win0_3.index ⟨124, lt124⟩ (0 : Fin 2) * 1 = 0; rw [e5]
        | ⟨1, _⟩ => show win0_3.index ⟨124, lt124⟩ (1 : Fin 2) * 2 = 0; rw [e6]
    exact (Memref.read_access_unit_zero (Elt Ideal) main_v4_0 hz' (fun a => by rw [congrFun hz' a]; simp) _).symm
  · refine ⟨⟨124, lt124⟩, (flush0_3 _).mpr (by decide), ?_⟩
    show i ∈ ((View.whole main_v4_0).slice (win0_3.rect ⟨124, lt124⟩)).set
    rw [View.set_slice_whole, Rect.mem_set_unit]
    intro a
    have h0 : (i 0 : Nat) < 1 := (i 0).isLt
    have h1 : (i 1 : Nat) < 2 := (i 1).isLt
    match a with
    | ⟨0, _⟩ => show win0_3.index ⟨124, lt124⟩ (0 : Fin 2) * 1 ≤ (i 0 : Nat) ∧ (i 0 : Nat) < win0_3.index ⟨124, lt124⟩ (0 : Fin 2) * 1 + 1; rw [e5]; omega
    | ⟨1, _⟩ => show win0_3.index ⟨124, lt124⟩ (1 : Fin 2) * 2 ≤ (i 1 : Nat) ∧ (i 1 : Nat) < win0_3.index ⟨124, lt124⟩ (1 : Fin 2) * 2 + 2; rw [e6]; omega

/-- The sums of squares' array after the run is the second accumulator after tile 124. -/
theorem arrAt0_4 (c : Dev nD) : (dat0 V c).arrAt 4 cfg0.N = (accs0 V c 124 lt124).2 := by
  have hN := N0
  obtain ⟨-, -, -, -, -, -, -, e7, e8⟩ := idx0 ⟨124, lt124⟩
  refine (dat0 V c).arrAt_eq_of_cover 4 _ (fun t hf => ?_) (fun i => ?_)
  · have h1 : t.val = 124 := by have := (flush0_4 t).mp hf; have := t.isLt; omega
    obtain rfl : t = ⟨124, lt124⟩ := Fin.ext h1
    show (cfg0.win 4).cut (grid0.coords _) ((dat0 V c).after 4 _) = _
    rw [after0_4]
    have hz' : (fun a => win0_4.index ⟨124, lt124⟩ a * main_v4_1.ty.shape.size a) = fun _ => 0 :=
      funext fun a => by
        match a with
        | ⟨0, _⟩ => show win0_4.index ⟨124, lt124⟩ (0 : Fin 2) * 1 = 0; rw [e7]
        | ⟨1, _⟩ => show win0_4.index ⟨124, lt124⟩ (1 : Fin 2) * 2 = 0; rw [e8]
    exact (Memref.read_access_unit_zero (Elt Ideal) main_v4_1 hz' (fun a => by rw [congrFun hz' a]; simp) _).symm
  · refine ⟨⟨124, lt124⟩, (flush0_4 _).mpr (by decide), ?_⟩
    show i ∈ ((View.whole main_v4_1).slice (win0_4.rect ⟨124, lt124⟩)).set
    rw [View.set_slice_whole, Rect.mem_set_unit]
    intro a
    have h0 : (i 0 : Nat) < 1 := (i 0).isLt
    have h1 : (i 1 : Nat) < 2 := (i 1).isLt
    match a with
    | ⟨0, _⟩ => show win0_4.index ⟨124, lt124⟩ (0 : Fin 2) * 1 ≤ (i 0 : Nat) ∧ (i 0 : Nat) < win0_4.index ⟨124, lt124⟩ (0 : Fin 2) * 1 + 1; rw [e7]; omega
    | ⟨1, _⟩ => show win0_4.index ⟨124, lt124⟩ (1 : Fin 2) * 2 ≤ (i 1 : Nat) ∧ (i 1 : Nat) < win0_4.index ⟨124, lt124⟩ (1 : Fin 2) * 2 + 2; rw [e8]; omega

/-! ## The tiles and the accumulators as sequences over the naturals -/

/-- Tile `t` of x for `t` below 125 (past the grid, tile 0 again: never read). -/
def xs0 (c : Dev nD) (t : ℕ) : Vec Ideal S8000x2 .f32 :=
  if h : t < cfg0.N then iblk0 V c 0 ⟨t, h⟩ else iblk0 V c 0 ⟨0, lt0⟩

/-- The accumulators after tile `n` for `n` below 125 (past the grid, after tile 0 again: never read). -/
def as0 (c : Dev nD) (n : ℕ) : Vec Ideal S1x2 .f32 × Vec Ideal S1x2 .f32 :=
  if h : n < cfg0.N then accs0 V c n h else accs0 V c 0 lt0

/-- The column sums of h = x·Wᵀ + b and of h², given that the accumulators' recurrence over the 125
    tiles sums them (`hstats`): the two result arrays of the statistics kernel after its run. -/
theorem stats_array_of
    (hstats : ∀ (X : (⟨S1000000x2, .f32⟩ : BufTy).Contents (Elt Ideal)) (w : (⟨S2x2, .f32⟩ : BufTy).Contents (Elt Ideal))
        (b : (⟨S2, .f32⟩ : BufTy).Contents (Elt Ideal)) (xb : ℕ → Vec Ideal S8000x2 .f32)
        (hx : ∀ t (ht : t < 125) (r : Fin 8000) (k : Fin 2), xb t (ix2 r k) = X (ix2 ⟨8000 * t + r.val, by omega⟩ k))
        (acc : ℕ → Vec Ideal S1x2 .f32 × Vec Ideal S1x2 .f32)
        (h0 : acc 0 = (k0_pay4 (xb 0) w b (k0_pay2 (F := Ideal)), k0_pay5 (xb 0) w b (k0_pay3 (F := Ideal))))
        (hs : ∀ n, n + 1 < 125 → acc (n + 1) = (k0_pay4 (xb (n + 1)) w b (acc n).1, k0_pay5 (xb (n + 1)) w b (acc n).2))
        (d : Fin 2),
        (acc 124).1 (ix2 0 d) = ∑ n : Fin 1000000, Cert.ReferenceIdeal.Read.val_main_v4 X w b (ix2 n d)
        ∧ (acc 124).2 (ix2 0 d) = ∑ n : Fin 1000000, Cert.ReferenceIdeal.Read.val_main_v4 X w b (ix2 n d) * Cert.ReferenceIdeal.Read.val_main_v4 X w b (ix2 n d))
    (c : Dev nD) (X : (⟨S1000000x2, .f32⟩ : BufTy).Contents (Elt Ideal)) (w : (⟨S2x2, .f32⟩ : BufTy).Contents (Elt Ideal))
    (b : (⟨S2, .f32⟩ : BufTy).Contents (Elt Ideal))
    (hX : V c main_arg0 = X) (hw : V c main_arg1 = w) (hb : V c main_arg2 = b) (d : Fin 2) :
    (dat0 V c).arrAt 3 cfg0.N (ix2 0 d) = ∑ n : Fin 1000000, Cert.ReferenceIdeal.Read.val_main_v4 X w b (ix2 n d)
    ∧ (dat0 V c).arrAt 4 cfg0.N (ix2 0 d) = ∑ n : Fin 1000000, Cert.ReferenceIdeal.Read.val_main_v4 X w b (ix2 n d) * Cert.ReferenceIdeal.Read.val_main_v4 X w b (ix2 n d) := by
  have hN := N0
  rw [arrAt0_3, arrAt0_4]
  have e : as0 V c 124 = accs0 V c 124 lt124 := dif_pos lt124
  rw [← e]
  refine hstats X w b (xs0 V c) (fun t ht r k => ?_) (as0 V c) ?_ (fun n hn => ?_) d
  · have h : t < cfg0.N := by omega
    unfold xs0
    rw [dif_pos h]
    exact iblk0_x V c X hX ⟨t, h⟩ r k _ rfl
  · simp only [as0, xs0, dif_pos lt0]
    rw [accs0_zero V c ⟨0, lt0⟩ rfl, iblk0_w V c w hw, iblk0_b V c b hb]
  · have h1 : n + 1 < cfg0.N := by omega
    have h2 : n < cfg0.N := by omega
    simp only [as0, xs0, dif_pos h1, dif_pos h2]
    rw [accs0_pos V c ⟨n + 1, h1⟩ (Nat.succ_ne_zero n), iblk0_w V c w hw, iblk0_b V c b hb]
    rfl

/-- The statistics kernel's results after its run: the column sums of h = x·Wᵀ + b over all rows, and of h². -/
theorem stats_array (c : Dev nD) (X : (⟨S1000000x2, .f32⟩ : BufTy).Contents (Elt Ideal)) (w : (⟨S2x2, .f32⟩ : BufTy).Contents (Elt Ideal))
    (b : (⟨S2, .f32⟩ : BufTy).Contents (Elt Ideal))
    (hX : V c main_arg0 = X) (hw : V c main_arg1 = w) (hb : V c main_arg2 = b) (d : Fin 2) :
    (dat0 V c).arrAt 3 cfg0.N (ix2 0 d) = ∑ n : Fin 1000000, Cert.ReferenceIdeal.Read.val_main_v4 X w b (ix2 n d)
    ∧ (dat0 V c).arrAt 4 cfg0.N (ix2 0 d) = ∑ n : Fin 1000000, Cert.ReferenceIdeal.Read.val_main_v4 X w b (ix2 n d) * Cert.ReferenceIdeal.Read.val_main_v4 X w b (ix2 n d) :=
  stats_array_of V (fun X w b xb hx acc h0 hs d => Cert.Val.Stage1.stats_total X w b xb hx acc h0 hs d) c X w b hX hw hb d

end Cert.Val.Glue

end
-- ==== Proof.Val.Stage1Var.lean ====
/-
  The variance identity behind the normalize kernel, free of any program.

  For finite h₁ … h_N (N = 10⁶), finite s and m = (∑ hₙ)/N:
      (∑ hₙ²)/N − m²·(2·s − s·s) = (∑ (hₙ − m·s)²)/N,
  by expanding the square: ∑ (hₙ − m·s)² = ∑ hₙ² − 2·m·s·∑ hₙ + N·m²·s², and ∑ hₙ = N·m.
  It is proved over the reals and carried to the extended reals, where the division by the word of
  10⁶ is the product with 1/10⁶ and the word of 2 is the real 2.
-/
import proofs.«407804_j50861002719257_4_alg».proof.Proof.LibPlainMatmul

noncomputable section

namespace Cert.Val.Stage1

open Idealize.ShloMosaic

/-- The f32 word 0x49742400 is 10⁶. -/
theorem ofBits_million : Ideal.ofBits .f32 0x49742400#32 = ((1000000 : ℝ) : EReal) := by
  simp [Ideal.ofBits, Ideal.ieee, -EReal.coe_mul]; norm_num

/-- The f32 word 0x40000000 is 2. -/
theorem ofBits_two : Ideal.ofBits .f32 0x40000000#32 = ((2 : ℝ) : EReal) := by
  simp [Ideal.ofBits, Ideal.ieee, -EReal.coe_mul]; norm_num

/-- The identity over the reals. -/
theorem var_real (f : Fin 1000000 → ℝ) (s : ℝ) :
    (∑ n, f n * f n) * (1 / 1000000) - ((∑ n, f n) * (1 / 1000000) * ((∑ n, f n) * (1 / 1000000))) * (2 * s - s * s)
      = (∑ n, (f n - (∑ n, f n) * (1 / 1000000) * s) * (f n - (∑ n, f n) * (1 / 1000000) * s)) * (1 / 1000000) := by
  generalize hS1 : ∑ n, f n = S1
  generalize hc : S1 * (1 / 1000000) * s = c
  have hexp : ∀ n, (f n - c) * (f n - c) = f n * f n - 2 * c * f n + c * c := fun n => by ring
  rw [Finset.sum_congr rfl fun n _ => hexp n, Finset.sum_add_distrib, Finset.sum_sub_distrib, ← Finset.mul_sum,
    Finset.sum_const, Finset.card_univ, Fintype.card_fin, nsmul_eq_mul, hS1, ← hc]
  push_cast
  ring

/-- The identity over the extended reals, for finite entries and a finite scale. -/
theorem var_law (L : Fin 1000000 → EReal) (hL : ∀ n, L n ≠ ⊤ ∧ L n ≠ ⊥) (s : EReal) (hs : s ≠ ⊤ ∧ s ≠ ⊥) :
    Ideal.div (∑ n, L n * L n) (Ideal.ofBits .f32 0x49742400#32)
        - (Ideal.div (∑ n, L n) (Ideal.ofBits .f32 0x49742400#32) * Ideal.div (∑ n, L n) (Ideal.ofBits .f32 0x49742400#32))
          * (Ideal.ofBits .f32 0x40000000#32 * s - s * s)
      = Ideal.div (∑ n, (L n - Ideal.div (∑ n, L n) (Ideal.ofBits .f32 0x49742400#32) * s)
          * (L n - Ideal.div (∑ n, L n) (Ideal.ofBits .f32 0x49742400#32) * s)) (Ideal.ofBits .f32 0x49742400#32) := by
  obtain ⟨f, rfl⟩ : ∃ f : Fin 1000000 → ℝ, L = fun n => ((f n : ℝ) : EReal) :=
    ⟨fun n => (L n).toReal, funext fun n => (EReal.coe_toReal (hL n).1 (hL n).2).symm⟩
  obtain ⟨s', rfl⟩ : ∃ s' : ℝ, s = (s' : EReal) := ⟨s.toReal, (EReal.coe_toReal hs.1 hs.2).symm⟩
  rw [ofBits_million, ofBits_two]
  simp only [Ideal.div_coe (by norm_num : (1000000 : ℝ) ≠ 0)]
  simp only [← EReal.coe_mul, ← PlainMatmul.coe_sum, ← EReal.coe_sub]
  exact congrArg _ (var_real f s')

end Cert.Val.Stage1

end
-- ==== Proof.Val.Stage1c.lean ====
/-
  The normalize kernel against the reference's rectified, normalized h and its product with the
  transposed 2×2 weight.

  With su and sq the column sums of h = x·Wᵀ + b and of h² over all 10⁶ rows, N the word of 10⁶,
  m = su/N and s the mean scale, the kernel's variance is sq/N − m²·(2·s − s·s) and the reference's is
  (∑ₙ (hₙ − m·s)²)/N; for finite x, W, b and s they are equal (the variance identity). Everything
  else — centring by m·s, the scale by the weight, the reciprocal square root of the variance plus
  the word of 2, the bias, the maximum with zero, the product with the transposed weight — is the same
  operation in the same order on both sides, read at the tile's entry (r, d) and at the array's entry
  (8000·t + r, d).
-/
import proofs.«407804_j50861002719257_4_alg».proof.Proof.Val.Stage1a
import proofs.«407804_j50861002719257_4_alg».proof.Proof.Val.Stage1Var

noncomputable section

namespace Cert.Val.Stage1

open Idealize.ShloMosaic Idealize.ShloMosaic.ValueIdx

/-! ## The normalize kernel's tile at an entry -/

/-- The reciprocal square root of a vector at an index. -/
theorem rsqrt_apply {s : Shape} {φ : FTy} (a : FVec Ideal s φ) (i : s.Idx) : rsqrt a i = Ideal.rsqrt (a i) := rfl

/-- Entry (r, d) of the normalized tile before the maximum with zero. -/
theorem k1_pay3_apply (xb : Vec Ideal Cert.KernelIdeal.S8000x2 .f32) (w : Vec Ideal Cert.KernelIdeal.S2x2 .f32)
    (b : Vec Ideal Cert.KernelIdeal.S2 .f32) (su sq : Vec Ideal Cert.KernelIdeal.S1x2 .f32)
    (gs gw gb : Vec Ideal Cert.KernelIdeal.S2 .f32) (r : Fin 8000) (d : Fin 2) :
    Cert.KernelIdeal.Gen.k1_pay3 xb w b su sq gs gw gb (ix2 r d)
      = gw (ix1 d) * (Cert.KernelIdeal.Gen.k0_pay1 xb w b (ix2 r d)
            - Ideal.div (su (ix2 0 d)) (Ideal.ofBits .f32 0x49742400#32) * gs (ix1 d))
          * Ideal.rsqrt (Ideal.div (sq (ix2 0 d)) (Ideal.ofBits .f32 0x49742400#32)
              - (Ideal.div (su (ix2 0 d)) (Ideal.ofBits .f32 0x49742400#32)
                  * Ideal.div (su (ix2 0 d)) (Ideal.ofBits .f32 0x49742400#32))
                * (Ideal.ofBits .f32 0x40000000#32 * gs (ix1 d) - gs (ix1 d) * gs (ix1 d))
              + Ideal.ofBits .f32 0x40000000#32)
        + gb (ix1 d) := by
  unfold Cert.KernelIdeal.Gen.k1_pay3 Cert.KernelIdeal.Gen.k0_pay1
  simp only [shapeCast_self]
  simp only [addf_apply, mulf_apply, subf_apply, divf_apply, rsqrt_apply, broadcast_apply, broadcastTo_1b_ab_apply,
    shapeCast_a_1a_apply, Ideal.ofBits_def]

/-! ## The reference's intermediate arrays at an entry -/

section Ref
variable (X : (⟨Cert.ReferenceIdeal.S1000000x2, .f32⟩ : BufTy).Contents (Elt Ideal))
  (w : (⟨Cert.ReferenceIdeal.S2x2, .f32⟩ : BufTy).Contents (Elt Ideal))
  (b gw gb gs : (⟨Cert.ReferenceIdeal.S2, .f32⟩ : BufTy).Contents (Elt Ideal))

/-- The column means: the column sums of h divided by the word of 10⁶. -/
theorem v7_apply (d : Fin 2) :
    Cert.ReferenceIdeal.Read.val_main_v7 (F := Ideal) X w b (ix1 d)
      = Ideal.div (∑ n : Fin 1000000, Cert.ReferenceIdeal.Read.val_main_v4 (F := Ideal) X w b (ix2 n d))
          (Ideal.ofBits .f32 0x49742400#32) := by
  rw [Cert.ReferenceIdeal.Read.val_main_v7_apply, Cert.ReferenceIdeal.Read.val_main_v5_apply,
    Cert.ReferenceIdeal.Read.val_main_v6_apply, Cert.ReferenceIdeal.Read.val_main_cst_0_apply,
    Cert.ReferenceIdeal.Read.val_main_cst_apply]
  show Ideal.div (Ideal.ofBits .f32 0x00000000#32 + _) _ = _
  rw [Ideal.ofBits_zero_f32, zero_add]
  have e : ∀ k, Cert.ReferenceIdeal.Read.idx_main_v5 (ix1 d) k = ix2 k d :=
    fun k => funext fun a => Fin.ext (by match a with | ⟨0, _⟩ => rfl | ⟨1, _⟩ => rfl)
  simp only [e]
  rfl

/-- The centred h: h minus the column mean times the mean scale. -/
theorem v11_apply (n : Fin 1000000) (d : Fin 2) :
    Cert.ReferenceIdeal.Read.val_main_v11 (F := Ideal) X w b gs (ix2 n d)
      = Cert.ReferenceIdeal.Read.val_main_v4 (F := Ideal) X w b (ix2 n d)
        - Cert.ReferenceIdeal.Read.val_main_v7 (F := Ideal) X w b (ix1 d) * gs (ix1 d) := by
  rw [Cert.ReferenceIdeal.Read.val_main_v11_apply, Cert.ReferenceIdeal.Read.val_main_v10_apply,
    Cert.ReferenceIdeal.Read.val_main_v9_apply, Cert.ReferenceIdeal.Read.val_main_v8_apply]
  have e : Cert.ReferenceIdeal.Read.idx_main_v9 (Cert.ReferenceIdeal.Read.idx_main_v10 (ix2 n d)) = ix1 d :=
    funext fun a => Fin.ext (by match a with | ⟨0, _⟩ => rfl)
  rw [e]
  rfl

/-- The variance: the column sums of the squares of the centred h divided by the word of 10⁶. -/
theorem v15_apply (d : Fin 2) :
    Cert.ReferenceIdeal.Read.val_main_v15 (F := Ideal) X w b gs (ix1 d)
      = Ideal.div (∑ n : Fin 1000000, Cert.ReferenceIdeal.Read.val_main_v11 (F := Ideal) X w b gs (ix2 n d)
            * Cert.ReferenceIdeal.Read.val_main_v11 (F := Ideal) X w b gs (ix2 n d))
          (Ideal.ofBits .f32 0x49742400#32) := by
  rw [Cert.ReferenceIdeal.Read.val_main_v15_apply, Cert.ReferenceIdeal.Read.val_main_v13_apply,
    Cert.ReferenceIdeal.Read.val_main_v14_apply, Cert.ReferenceIdeal.Read.val_main_cst_2_apply,
    Cert.ReferenceIdeal.Read.val_main_cst_1_apply]
  show Ideal.div (Ideal.ofBits .f32 0x00000000#32 + _) _ = _
  rw [Ideal.ofBits_zero_f32, zero_add]
  have e : ∀ k, Cert.ReferenceIdeal.Read.idx_main_v13 (ix1 d) k = ix2 k d :=
    fun k => funext fun a => Fin.ext (by match a with | ⟨0, _⟩ => rfl | ⟨1, _⟩ => rfl)
  simp only [e, Cert.ReferenceIdeal.Read.val_main_v12_apply]
  rfl

/-- The normalized h before the maximum with zero. -/
theorem v27_apply (n : Fin 1000000) (d : Fin 2) :
    Cert.ReferenceIdeal.Read.val_main_v27 (F := Ideal) X w b gw gb gs (ix2 n d)
      = gw (ix1 d) * Cert.ReferenceIdeal.Read.val_main_v11 (F := Ideal) X w b gs (ix2 n d)
          * Ideal.rsqrt (Cert.ReferenceIdeal.Read.val_main_v15 (F := Ideal) X w b gs (ix1 d) + Ideal.ofBits .f32 0x40000000#32)
        + gb (ix1 d) := by
  rw [Cert.ReferenceIdeal.Read.val_main_v27_apply, Cert.ReferenceIdeal.Read.val_main_v24_apply,
    Cert.ReferenceIdeal.Read.val_main_v26_apply, Cert.ReferenceIdeal.Read.val_main_v25_apply,
    Cert.ReferenceIdeal.Read.val_main_v18_apply, Cert.ReferenceIdeal.Read.val_main_v23_apply,
    Cert.ReferenceIdeal.Read.val_main_v22_apply, Cert.ReferenceIdeal.Read.val_main_v21_apply,
    Cert.ReferenceIdeal.Read.val_main_v20_apply, Cert.ReferenceIdeal.Read.val_main_v19_apply,
    Cert.ReferenceIdeal.Read.val_main_cst_3_apply,
    Cert.ReferenceIdeal.Read.val_main_v17_apply, Cert.ReferenceIdeal.Read.val_main_v16_apply]
  have e1 : Cert.ReferenceIdeal.Read.idx_main_v16 (Cert.ReferenceIdeal.Read.idx_main_v17 (ix2 n d)) = ix1 d :=
    funext fun a => Fin.ext (by match a with | ⟨0, _⟩ => rfl)
  have e2 : Cert.ReferenceIdeal.Read.idx_main_v22 (Cert.ReferenceIdeal.Read.idx_main_v23 (ix2 n d)) = ix1 d :=
    funext fun a => Fin.ext (by match a with | ⟨0, _⟩ => rfl)
  have e3 : Cert.ReferenceIdeal.Read.idx_main_v25 (Cert.ReferenceIdeal.Read.idx_main_v26 (ix2 n d)) = ix1 d :=
    funext fun a => Fin.ext (by match a with | ⟨0, _⟩ => rfl)
  rw [e1, e2, e3]
  rfl

end Ref

/-! ## The two sides meet -/

/-- The normalized tile at (r, d): the maximum of the tile before it there and zero. -/
theorem k1_pay1_apply (v : FVec Ideal Cert.KernelIdeal.S8000x2 .f32) (r : Fin 8000) (d : Fin 2) :
    Cert.KernelIdeal.Gen.k1_pay1 v (ix2 r d) = max (v (ix2 r d)) (Ideal.ofBits .f32 0x00000000#32) := rfl

/-- The tile times the transposed 2×2 weight at (r, d). -/
theorem k1_pay2_apply (v : FVec Ideal Cert.KernelIdeal.S8000x2 .f32) (g : Vec Ideal Cert.KernelIdeal.S2x2 .f32)
    (r : Fin 8000) (d : Fin 2) :
    Cert.KernelIdeal.Gen.k1_pay2 v g (ix2 r d) = ∑ k : Fin 2, Cert.KernelIdeal.Gen.k1_pay1 v (ix2 r k) * g (ix2 d k) := by
  unfold Cert.KernelIdeal.Gen.k1_pay2
  refine (PlainMatmul.matmul_zero_apply_of_eq _ dot_eq none _ _ r d).trans ?_
  exact Finset.sum_congr rfl fun k _ => congrArg (Cert.KernelIdeal.Gen.k1_pay1 v (ix2 r k) * ·) (transpose_ix2_apply g _ k d)

section Meet
variable (X : (⟨Cert.ReferenceIdeal.S1000000x2, .f32⟩ : BufTy).Contents (Elt Ideal))
  (w : (⟨Cert.ReferenceIdeal.S2x2, .f32⟩ : BufTy).Contents (Elt Ideal))
  (b gw gb gs : (⟨Cert.ReferenceIdeal.S2, .f32⟩ : BufTy).Contents (Elt Ideal))
  (gcnw : (⟨Cert.ReferenceIdeal.S2x2, .f32⟩ : BufTy).Contents (Elt Ideal))

/-- The reference's rectified h at (n, d): the maximum of the normalized h there and zero. -/
theorem v28_apply (n : Fin 1000000) (d : Fin 2) :
    Cert.ReferenceIdeal.Read.val_main_v28 (F := Ideal) X w b gw gb gs (ix2 n d)
      = max (Cert.ReferenceIdeal.Read.val_main_v27 (F := Ideal) X w b gw gb gs (ix2 n d)) (Ideal.ofBits .f32 0x00000000#32) := by
  rw [Cert.ReferenceIdeal.Read.val_main_v28_apply, Cert.ReferenceIdeal.Read.val_main_call0_v0_apply,
    Cert.ReferenceIdeal.Read.val_main_call0_cst_apply]
  rfl

/-- The reference's rectified h times the transposed 2×2 weight at (n, d). -/
theorem v41_apply (n : Fin 1000000) (d : Fin 2) :
    Cert.ReferenceIdeal.Read.val_main_v41 (F := Ideal) X w b gw gb gs gcnw (ix2 n d)
      = ∑ k : Fin 2, Cert.ReferenceIdeal.Read.val_main_v28 (F := Ideal) X w b gw gb gs (ix2 n k) * gcnw (ix2 d k) := by
  rw [Cert.ReferenceIdeal.Read.val_main_v41_apply]
  refine Finset.sum_congr rfl fun k _ => ?_
  rw [Cert.ReferenceIdeal.Read.val_main_v40_apply]
  have e1 : Cert.ReferenceIdeal.Read.lidx_main_v41 (ix2 n d) k = ix2 n k :=
    funext fun a => Fin.ext (by match a with | ⟨0, _⟩ => rfl | ⟨1, _⟩ => rfl)
  have e2 : Cert.ReferenceIdeal.Read.idx_main_v40 (Cert.ReferenceIdeal.Read.ridx_main_v41 (ix2 n d) k) = ix2 d k :=
    funext fun a => Fin.ext (by match a with | ⟨0, _⟩ => rfl | ⟨1, _⟩ => rfl)
  rw [e1, e2]

/-- For finite x, W and b every entry of h is finite. -/
theorem lin_finite (hX : ∀ i, X i ≠ ⊤ ∧ X i ≠ ⊥) (hw : ∀ i, w i ≠ ⊤ ∧ w i ≠ ⊥) (hb : ∀ i, b i ≠ ⊤ ∧ b i ≠ ⊥)
    (n : Fin 1000000) (d : Fin 2) :
    Cert.ReferenceIdeal.Read.val_main_v4 (F := Ideal) X w b (ix2 n d) ≠ ⊤
      ∧ Cert.ReferenceIdeal.Read.val_main_v4 (F := Ideal) X w b (ix2 n d) ≠ ⊥ := by
  have hXr : ∀ i, X i = (((X i).toReal : ℝ) : EReal) := fun i => (EReal.coe_toReal (hX i).1 (hX i).2).symm
  have hwr : ∀ i, w i = (((w i).toReal : ℝ) : EReal) := fun i => (EReal.coe_toReal (hw i).1 (hw i).2).symm
  have hbr : ∀ i, b i = (((b i).toReal : ℝ) : EReal) := fun i => (EReal.coe_toReal (hb i).1 (hb i).2).symm
  rw [lin_apply, hbr (ix1 d), Finset.sum_congr rfl fun k _ => by rw [hXr (ix2 n k), hwr (ix2 d k), ← EReal.coe_mul],
    ← PlainMatmul.coe_sum, ← EReal.coe_add]
  exact ⟨EReal.coe_ne_top _, EReal.coe_ne_bot _⟩

/-- The normalized tile before the maximum is the reference's normalized h at the tile's rows. -/
theorem norm_pre (hX : ∀ i, X i ≠ ⊤ ∧ X i ≠ ⊥) (hw : ∀ i, w i ≠ ⊤ ∧ w i ≠ ⊥) (hb : ∀ i, b i ≠ ⊤ ∧ b i ≠ ⊥)
    (hgs : ∀ i, gs i ≠ ⊤ ∧ gs i ≠ ⊥)
    (su sq : Vec Ideal Cert.KernelIdeal.S1x2 .f32)
    (hsu : ∀ d : Fin 2, su (ix2 0 d) = ∑ n : Fin 1000000, Cert.ReferenceIdeal.Read.val_main_v4 (F := Ideal) X w b (ix2 n d))
    (hsq : ∀ d : Fin 2, sq (ix2 0 d) = ∑ n : Fin 1000000, Cert.ReferenceIdeal.Read.val_main_v4 (F := Ideal) X w b (ix2 n d)
      * Cert.ReferenceIdeal.Read.val_main_v4 (F := Ideal) X w b (ix2 n d))
    (t : ℕ) (ht : t < 125) (xb : Vec Ideal Cert.KernelIdeal.S8000x2 .f32)
    (hx : ∀ (r : Fin 8000) (k : Fin 2), xb (ix2 r k) = X (ix2 ⟨8000 * t + r.val, by omega⟩ k))
    (r : Fin 8000) (d : Fin 2) :
    Cert.KernelIdeal.Gen.k1_pay3 xb w b su sq gs gw gb (ix2 r d)
      = Cert.ReferenceIdeal.Read.val_main_v27 (F := Ideal) X w b gw gb gs (ix2 ⟨8000 * t + r.val, by omega⟩ d) := by
  rw [k1_pay3_apply, v27_apply, v15_apply]
  simp only [v11_apply, v7_apply]
  rw [hsu d, hsq d, pay1_eq_lin X w b t ht xb hx r d,
    var_law (fun n => Cert.ReferenceIdeal.Read.val_main_v4 (F := Ideal) X w b (ix2 n d))
      (fun n => lin_finite X w b hX hw hb n d) (gs (ix1 d)) (hgs (ix1 d))]

/-- The normalize kernel's two tiles at (r, d) are the reference's rectified h and its product with the
    transposed weight at row 8000·t + r. -/
theorem norm_rows (hX : ∀ i, X i ≠ ⊤ ∧ X i ≠ ⊥) (hw : ∀ i, w i ≠ ⊤ ∧ w i ≠ ⊥) (hb : ∀ i, b i ≠ ⊤ ∧ b i ≠ ⊥)
    (hgs : ∀ i, gs i ≠ ⊤ ∧ gs i ≠ ⊥)
    (su sq : Vec Ideal Cert.KernelIdeal.S1x2 .f32)
    (hsu : ∀ d : Fin 2, su (ix2 0 d) = ∑ n : Fin 1000000, Cert.ReferenceIdeal.Read.val_main_v4 (F := Ideal) X w b (ix2 n d))
    (hsq : ∀ d : Fin 2, sq (ix2 0 d) = ∑ n : Fin 1000000, Cert.ReferenceIdeal.Read.val_main_v4 (F := Ideal) X w b (ix2 n d)
      * Cert.ReferenceIdeal.Read.val_main_v4 (F := Ideal) X w b (ix2 n d))
    (t : ℕ) (ht : t < 125) (xb : Vec Ideal Cert.KernelIdeal.S8000x2 .f32)
    (hx : ∀ (r : Fin 8000) (k : Fin 2), xb (ix2 r k) = X (ix2 ⟨8000 * t + r.val, by omega⟩ k))
    (r : Fin 8000) (d : Fin 2) :
    Cert.KernelIdeal.Gen.k1_pay1 (Cert.KernelIdeal.Gen.k1_pay3 xb w b su sq gs gw gb) (ix2 r d)
        = Cert.ReferenceIdeal.Read.val_main_v28 (F := Ideal) X w b gw gb gs (ix2 ⟨8000 * t + r.val, by omega⟩ d)
      ∧ Cert.KernelIdeal.Gen.k1_pay2 (Cert.KernelIdeal.Gen.k1_pay3 xb w b su sq gs gw gb) gcnw (ix2 r d)
        = Cert.ReferenceIdeal.Read.val_main_v41 (F := Ideal) X w b gw gb gs gcnw (ix2 ⟨8000 * t + r.val, by omega⟩ d) := by
  have hh : ∀ k : Fin 2, Cert.KernelIdeal.Gen.k1_pay1 (Cert.KernelIdeal.Gen.k1_pay3 xb w b su sq gs gw gb) (ix2 r k)
      = Cert.ReferenceIdeal.Read.val_main_v28 (F := Ideal) X w b gw gb gs (ix2 ⟨8000 * t + r.val, by omega⟩ k) := fun k => by
    rw [k1_pay1_apply, v28_apply, norm_pre X w b gw gb gs hX hw hb hgs su sq hsu hsq t ht xb hx r k]
  refine ⟨hh d, ?_⟩
  rw [k1_pay2_apply, v41_apply]
  exact Finset.sum_congr rfl fun k _ => by rw [hh k]

end Meet

end Cert.Val.Stage1

end
-- ==== Proof.Val.Glue1.lean ====
/-
  The normalize kernel's two results as whole arrays, at the extended reals.

  The kernel walks x in 125 tiles of 8000 rows and at every tile writes back a tile of the rectified
  normalized h and a tile of its product with the second weight. Here: each input block read off its
  array (tile t of x is rows 8000·t … 8000·t + 7999; every small array's one block is the whole array),
  what each tile writes back as that tile's rows of the reference's stage, and, the tiles covering all
  1000000 rows (row n lies in tile n / 8000), the two result arrays after the run as the reference's stages.
-/
import proofs.«407804_j50861002719257_4_alg».proof.Proof.KI.Data1
import proofs.«407804_j50861002719257_4_alg».proof.Proof.Gen.ReferenceIdeal.Read
import proofs.«407804_j50861002719257_4_alg».proof.Proof.Val.Stage1c
import Idealize.ShloMosaic.Lib.Pipeline.Value
import Idealize.ShloMosaic.Lib.ValueIdx
import Idealize.ShloMosaic.PureOps.Ideal

set_option maxRecDepth 16384

noncomputable section

open scoped BigOperators

namespace Cert.Val.Glue

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## The index maps of the normalize kernel, decided once over its 125 tiles

Tile `t` of x, of the rectified h and of its product with the second weight is block (t, 0); every other
window's one block is its whole array. -/

/-- The block index of every window at tile `t`, axis by axis. -/
structure Idx1 (t : Fin cfg1.N) : Prop where
  w0_0 : win1_0.index t (0 : Fin 2) = t.val
  w0_1 : win1_0.index t (1 : Fin 2) = 0
  w1_0 : win1_1.index t (0 : Fin 2) = 0
  w1_1 : win1_1.index t (1 : Fin 2) = 0
  w2_0 : win1_2.index t (0 : Fin 1) = 0
  w3_0 : win1_3.index t (0 : Fin 1) = 0
  w4_0 : win1_4.index t (0 : Fin 1) = 0
  w5_0 : win1_5.index t (0 : Fin 1) = 0
  w6_0 : win1_6.index t (0 : Fin 2) = 0
  w6_1 : win1_6.index t (1 : Fin 2) = 0
  w7_0 : win1_7.index t (0 : Fin 2) = 0
  w7_1 : win1_7.index t (1 : Fin 2) = 0
  w8_0 : win1_8.index t (0 : Fin 2) = 0
  w8_1 : win1_8.index t (1 : Fin 2) = 0
  w9_0 : win1_9.index t (0 : Fin 2) = t.val
  w9_1 : win1_9.index t (1 : Fin 2) = 0
  w10_0 : win1_10.index t (0 : Fin 2) = t.val
  w10_1 : win1_10.index t (1 : Fin 2) = 0

theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 1) = 0 ∧ win1_3.index t (0 : Fin 1) = 0
        ∧ win1_4.index t (0 : Fin 1) = 0 ∧ win1_5.index t (0 : Fin 1) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

theorem idx1s (t : Fin cfg1.N) : Idx1 t := by
  obtain ⟨⟨a0, a1⟩, ⟨b0, b1⟩, ⟨c2, c3, c4, c5⟩, ⟨d0, d1⟩, ⟨e0, e1⟩, ⟨f0, f1⟩, ⟨g0, g1⟩, ⟨h0, h1⟩⟩ := idx1 t
  exact ⟨a0, a1, b0, b1, c2, c3, c4, c5, d0, d1, e0, e1, f0, f1, g0, g1, h0, h1⟩

theorem N1 : cfg1.N = 125 := N_1

/-! ## The input blocks, read off their arrays -/

/-- Tile `t` of x holds rows 8000·t … 8000·t + 7999. -/
theorem iblk1_x (c : Dev nD) (X : (⟨S1000000x2, .f32⟩ : BufTy).Contents (Elt Ideal))
    (hX : V c main_arg0 = X) (t : Fin cfg1.N) (r : Fin 8000) (k : Fin 2) (n : Fin 1000000)
    (hn : n.val = 8000 * t.val + r.val) :
    (iblk1 V c 0 t : Vec Ideal S8000x2 .f32) (ix2 r k) = X (ix2 n k) := by
  have e := idx1s t
  unfold iblk1
  rw [View.read_apply]
  show V c main_arg0 (((cfg1.win 0).blk t).view.emb (ix2 r k)) = X (ix2 n k)
  rw [hX]
  refine congrArg X ?_
  funext a
  apply Fin.ext
  match a with
  | ⟨0, _⟩ => show win1_0.index t (0 : Fin 2) * 8000 + 1 * r.val = n.val; rw [e.w0_0, hn]; omega
  | ⟨1, _⟩ => show win1_0.index t (1 : Fin 2) * 2 + 1 * k.val = k.val; rw [e.w0_1]; omega

/-- The first weight's one block is the whole array. -/
theorem iblk1_w (c : Dev nD) (t : Fin cfg1.N) :
    (iblk1 V c 1 t : Vec Ideal S2x2 .f32) = V c main_arg1 := by
  have e := idx1s t
  unfold iblk1
  funext y
  rw [View.read_apply]
  show V c main_arg1 (((cfg1.win 1).blk t).view.emb y) = V c main_arg1 y
  refine congrArg (V c main_arg1) ?_
  funext a
  apply Fin.ext
  match a with
  | ⟨0, _⟩ => show win1_1.index t (0 : Fin 2) * 2 + 1 * (y 0).val = (y 0).val; rw [e.w1_0]; omega
  | ⟨1, _⟩ => show win1_1.index t (1 : Fin 2) * 2 + 1 * (y 1).val = (y 1).val; rw [e.w1_1]; omega

/-- The first bias's one block is the whole array. -/
theorem iblk1_b (c : Dev nD) (t : Fin cfg1.N) :
    (iblk1 V c 2 t : Vec Ideal S2 .f32) = V c main_arg2 := by
  have e := idx1s t
  unfold iblk1
  funext y
  rw [View.read_apply]
  show V c main_arg2 (((cfg1.win 2).blk t).view.emb y) = V c main_arg2 y
  refine congrArg (V c main_arg2) ?_
  funext a
  apply Fin.ext
  match a with
  | ⟨0, _⟩ => show win1_2.index t (0 : Fin 1) * 2 + 1 * (y 0).val = (y 0).val; rw [e.w2_0]; omega

/-- The norm's weight: its one block is the whole array. -/
theorem iblk1_gw (c : Dev nD) (t : Fin cfg1.N) :
    (iblk1 V c 3 t : Vec Ideal S2 .f32) = V c main_arg3 := by
  have e := idx1s t
  unfold iblk1
  funext y
  rw [View.read_apply]
  show V c main_arg3 (((cfg1.win 3).blk t).view.emb y) = V c main_arg3 y
  refine congrArg (V c main_arg3) ?_
  funext a
  apply Fin.ext
  match a with
  | ⟨0, _⟩ => show win1_3.index t (0 : Fin 1) * 2 + 1 * (y 0).val = (y 0).val; rw [e.w3_0]; omega

/-- The norm's bias: its one block is the whole array. -/
theorem iblk1_gb (c : Dev nD) (t : Fin cfg1.N) :
    (iblk1 V c 4 t : Vec Ideal S2 .f32) = V c main_arg4 := by
  have e := idx1s t
  unfold iblk1
  funext y
  rw [View.read_apply]
  show V c main_arg4 (((cfg1.win 4).blk t).view.emb y) = V c main_arg4 y
  refine congrArg (V c main_arg4) ?_
  funext a
  apply Fin.ext
  match a with
  | ⟨0, _⟩ => show win1_4.index t (0 : Fin 1) * 2 + 1 * (y 0).val = (y 0).val; rw [e.w4_0]; omega

/-- The norm's mean scale: its one block is the whole array. -/
theorem iblk1_gs (c : Dev nD) (t : Fin cfg1.N) :
    (iblk1 V c 5 t : Vec Ideal S2 .f32) = V c main_arg5 := by
  have e := idx1s t
  unfold iblk1
  funext y
  rw [View.read_apply]
  show V c main_arg5 (((cfg1.win 5).blk t).view.emb y) = V c main_arg5 y
  refine congrArg (V c main_arg5) ?_
  funext a
  apply Fin.ext
  match a with
  | ⟨0, _⟩ => show win1_5.index t (0 : Fin 1) * 2 + 1 * (y 0).val = (y 0).val; rw [e.w5_0]; omega

/-- The second weight's one block is the whole array. -/
theorem iblk1_gcnw (c : Dev nD) (t : Fin cfg1.N) :
    (iblk1 V c 6 t : Vec Ideal S2x2 .f32) = V c main_arg6 := by
  have e := idx1s t
  unfold iblk1
  funext y
  rw [View.read_apply]
  show V c main_arg6 (((cfg1.win 6).blk t).view.emb y) = V c main_arg6 y
  refine congrArg (V c main_arg6) ?_
  funext a
  apply Fin.ext
  match a with
  | ⟨0, _⟩ => show win1_6.index t (0 : Fin 2) * 2 + 1 * (y 0).val = (y 0).val; rw [e.w6_0]; omega
  | ⟨1, _⟩ => show win1_6.index t (1 : Fin 2) * 2 + 1 * (y 1).val = (y 1).val; rw [e.w6_1]; omega

/-- The column sums' one block is the whole array. -/
theorem iblk1_su (c : Dev nD) (t : Fin cfg1.N) :
    (iblk1 V c 7 t : Vec Ideal S1x2 .f32) = V c main_v4_0 := by
  have e := idx1s t
  unfold iblk1
  funext y
  rw [View.read_apply]
  show V c main_v4_0 (((cfg1.win 7).blk t).view.emb y) = V c main_v4_0 y
  refine congrArg (V c main_v4_0) ?_
  funext a
  apply Fin.ext
  match a with
  | ⟨0, _⟩ => show win1_7.index t (0 : Fin 2) * 1 + 1 * (y 0).val = (y 0).val; rw [e.w7_0]; omega
  | ⟨1, _⟩ => show win1_7.index t (1 : Fin 2) * 2 + 1 * (y 1).val = (y 1).val; rw [e.w7_1]; omega

/-- The column sums of squares' one block is the whole array. -/
theorem iblk1_sq (c : Dev nD) (t : Fin cfg1.N) :
    (iblk1 V c 8 t : Vec Ideal S1x2 .f32) = V c main_v4_1 := by
  have e := idx1s t
  unfold iblk1
  funext y
  rw [View.read_apply]
  show V c main_v4_1 (((cfg1.win 8).blk t).view.emb y) = V c main_v4_1 y
  refine congrArg (V c main_v4_1) ?_
  funext a
  apply Fin.ext
  match a with
  | ⟨0, _⟩ => show win1_8.index t (0 : Fin 2) * 1 + 1 * (y 0).val = (y 0).val; rw [e.w8_0]; omega
  | ⟨1, _⟩ => show win1_8.index t (1 : Fin 2) * 2 + 1 * (y 1).val = (y 1).val; rw [e.w8_1]; omega

/-! ## What every tile writes back, and the arrays after the run -/

section Arrays

variable (c : Dev nD)
  (X : (⟨S1000000x2, .f32⟩ : BufTy).Contents (Elt Ideal)) (w : (⟨S2x2, .f32⟩ : BufTy).Contents (Elt Ideal))
  (b gw gb gs : (⟨S2, .f32⟩ : BufTy).Contents (Elt Ideal)) (gcnw : (⟨S2x2, .f32⟩ : BufTy).Contents (Elt Ideal))

/-- Row `r` of tile `t` is row 8000·t + r of the array. -/
theorem row_lt (t : Fin cfg1.N) (r : Fin 8000) : 8000 * t.val + r.val < 1000000 := by
  have := t.isLt; have hN := N1; have := r.isLt; omega

/-- An element of tile `t` of the rectified h sits at row 8000·t + r of its array. -/
theorem emb1_9 (t : Fin cfg1.N) (r : Fin 8000) (d : Fin 2) :
    (((cfg1.win 9).blk t).view.emb (ix2 r d) : S1000000x2.Idx) = ix2 ⟨8000 * t.val + r.val, row_lt t r⟩ d := by
  have e := idx1s t
  funext a
  apply Fin.ext
  match a with
  | ⟨0, _⟩ => show win1_9.index t (0 : Fin 2) * 8000 + 1 * r.val = 8000 * t.val + r.val; rw [e.w9_0]; omega
  | ⟨1, _⟩ => show win1_9.index t (1 : Fin 2) * 2 + 1 * d.val = d.val; rw [e.w9_1]; omega

/-- An element of tile `t` of the product with the second weight sits at row 8000·t + r of its array. -/
theorem emb1_10 (t : Fin cfg1.N) (r : Fin 8000) (d : Fin 2) :
    (((cfg1.win 10).blk t).view.emb (ix2 r d) : S1000000x2.Idx) = ix2 ⟨8000 * t.val + r.val, row_lt t r⟩ d := by
  have e := idx1s t
  funext a
  apply Fin.ext
  match a with
  | ⟨0, _⟩ => show win1_10.index t (0 : Fin 2) * 8000 + 1 * r.val = 8000 * t.val + r.val; rw [e.w10_0]; omega
  | ⟨1, _⟩ => show win1_10.index t (1 : Fin 2) * 2 + 1 * d.val = d.val; rw [e.w10_1]; omega

/-- The per-row fact the two arrays rest on: on a tile whose x block holds rows 8000·t …, with the column
    sums and sums of squares of h at hand, the body's two results at row `r` are the reference's two stages
    at row 8000·t + r. -/
def RowsFact : Prop :=
  ∀ (su sq : Vec Ideal S1x2 .f32)
    (hsu : ∀ d : Fin 2, su (ix2 0 d) = ∑ n : Fin 1000000, Cert.ReferenceIdeal.Read.val_main_v4 X w b (ix2 n d))
    (hsq : ∀ d : Fin 2, sq (ix2 0 d) = ∑ n : Fin 1000000, Cert.ReferenceIdeal.Read.val_main_v4 X w b (ix2 n d) * Cert.ReferenceIdeal.Read.val_main_v4 X w b (ix2 n d))
    (t : ℕ) (ht : t < 125) (xb : Vec Ideal S8000x2 .f32)
    (hx : ∀ (r : Fin 8000) (k : Fin 2), xb (ix2 r k) = X (ix2 ⟨8000 * t + r.val, by omega⟩ k))
    (r : Fin 8000) (d : Fin 2),
    k1_pay1 (k1_pay3 xb w b su sq gs gw gb) (ix2 r d) = Cert.ReferenceIdeal.Read.val_main_v28 X w b gw gb gs (ix2 ⟨8000 * t + r.val, by omega⟩ d)
    ∧ k1_pay2 (k1_pay3 xb w b su sq gs gw gb) gcnw (ix2 r d) = Cert.ReferenceIdeal.Read.val_main_v41 X w b gw gb gs gcnw (ix2 ⟨8000 * t + r.val, by omega⟩ d)

variable (hX : V c main_arg0 = X) (hw : V c main_arg1 = w) (hb : V c main_arg2 = b)
  (hgw : V c main_arg3 = gw) (hgb : V c main_arg4 = gb) (hgs : V c main_arg5 = gs) (hgcnw : V c main_arg6 = gcnw)
  (hsu : ∀ d : Fin 2, V c main_v4_0 (ix2 0 d) = ∑ n : Fin 1000000, Cert.ReferenceIdeal.Read.val_main_v4 X w b (ix2 n d))
  (hsq : ∀ d : Fin 2, V c main_v4_1 (ix2 0 d) = ∑ n : Fin 1000000, Cert.ReferenceIdeal.Read.val_main_v4 X w b (ix2 n d) * Cert.ReferenceIdeal.Read.val_main_v4 X w b (ix2 n d))

include hX hw hb hgw hgb hgs hgcnw hsu hsq in
/-- The body's two results on tile `t` at row `r`, with every block read off its array. -/
theorem tile_rows (hrows : RowsFact X w b gw gb gs gcnw) (t : Fin cfg1.N) (r : Fin 8000) (d : Fin 2) :
    k1_pay1 (k1_pay3 (iblk1 V c 0 t) (iblk1 V c 1 t) (iblk1 V c 2 t) (iblk1 V c 7 t) (iblk1 V c 8 t) (iblk1 V c 5 t) (iblk1 V c 3 t) (iblk1 V c 4 t)) (ix2 r d)
      = Cert.ReferenceIdeal.Read.val_main_v28 X w b gw gb gs (ix2 ⟨8000 * t.val + r.val, row_lt t r⟩ d)
    ∧ k1_pay2 (k1_pay3 (iblk1 V c 0 t) (iblk1 V c 1 t) (iblk1 V c 2 t) (iblk1 V c 7 t) (iblk1 V c 8 t) (iblk1 V c 5 t) (iblk1 V c 3 t) (iblk1 V c 4 t)) (iblk1 V c 6 t) (ix2 r d)
      = Cert.ReferenceIdeal.Read.val_main_v41 X w b gw gb gs gcnw (ix2 ⟨8000 * t.val + r.val, row_lt t r⟩ d) := by
  have ht : t.val < 125 := by have := t.isLt; have hN := N1; omega
  rw [iblk1_w V c t, iblk1_b V c t, iblk1_gw V c t, iblk1_gb V c t, iblk1_gs V c t, iblk1_gcnw V c t,
    iblk1_su V c t, iblk1_sq V c t, hw, hb, hgw, hgb, hgs, hgcnw]
  exact hrows (V c main_v4_0) (V c main_v4_1) hsu hsq t.val ht (iblk1 V c 0 t)
    (fun r k => iblk1_x V c X hX t r k _ rfl) r d

include hX hw hb hgw hgb hgs hgcnw hsu hsq in
/-- Tile `t` writes back its rows of the reference's rectified normalized h. -/
theorem flushed1_9 (hrows : RowsFact X w b gw gb gs gcnw) (t : Fin cfg1.N) :
    (dat1 V c).flushed 9 t = ((cfg1.win 9).blk t).view.read (Elt Ideal) (Cert.ReferenceIdeal.Read.val_main_v28 X w b gw gb gs) := by
  show (cfg1.win 9).cut (grid1.coords t) ((dat1 V c).after 9 t) = _
  rw [after1_9]
  refine funext fun (y : S8000x2.Idx) => ?_
  obtain ⟨r, d, rfl⟩ : ∃ (r : Fin 8000) (d : Fin 2), y = ix2 r d := ⟨y 0, y 1, eq_ix2 y⟩
  rw [View.read_apply]
  show _ = Cert.ReferenceIdeal.Read.val_main_v28 X w b gw gb gs (((cfg1.win 9).blk t).view.emb (ix2 r d))
  rw [emb1_9 t r d]
  exact (tile_rows V c X w b gw gb gs gcnw hX hw hb hgw hgb hgs hgcnw hsu hsq hrows t r d).1

include hX hw hb hgw hgb hgs hgcnw hsu hsq in
/-- Tile `t` writes back its rows of the reference's product with the second weight. -/
theorem flushed1_10 (hrows : RowsFact X w b gw gb gs gcnw) (t : Fin cfg1.N) :
    (dat1 V c).flushed 10 t = ((cfg1.win 10).blk t).view.read (Elt Ideal) (Cert.ReferenceIdeal.Read.val_main_v41 X w b gw gb gs gcnw) := by
  show (cfg1.win 10).cut (grid1.coords t) ((dat1 V c).after 10 t) = _
  rw [after1_10]
  refine funext fun (y : S8000x2.Idx) => ?_
  obtain ⟨r, d, rfl⟩ : ∃ (r : Fin 8000) (d : Fin 2), y = ix2 r d := ⟨y 0, y 1, eq_ix2 y⟩
  rw [View.read_apply]
  show _ = Cert.ReferenceIdeal.Read.val_main_v41 X w b gw gb gs gcnw (((cfg1.win 10).blk t).view.emb (ix2 r d))
  rw [emb1_10 t r d]
  exact (tile_rows V c X w b gw gb gs gcnw hX hw hb hgw hgb hgs hgcnw hsu hsq hrows t r d).2

/-- Row n lies in tile n / 8000: the 125 tiles cover the array. -/
theorem cover1_9 (i : S1000000x2.Idx) :
    ∃ t : Fin cfg1.N, (cfg1.win 9).flush t = true ∧ i ∈ ((cfg1.win 9).blk t).view.set := by
  have hN := N1
  have h0 : (i 0 : Nat) < 1000000 := (i 0).isLt
  have h1 : (i 1 : Nat) < 2 := (i 1).isLt
  obtain ⟨t, ht⟩ : ∃ t : Fin cfg1.N, t.val = (i 0).val / 8000 := ⟨⟨(i 0).val / 8000, by omega⟩, rfl⟩
  have e := idx1s t
  refine ⟨t, flush1_9 t, ?_⟩
  show i ∈ ((View.whole main_v5_0).slice (win1_9.rect t)).set
  rw [View.set_slice_whole, Rect.mem_set_unit]
  intro a
  match a with
  | ⟨0, _⟩ => show win1_9.index t (0 : Fin 2) * 8000 ≤ (i 0 : Nat) ∧ (i 0 : Nat) < win1_9.index t (0 : Fin 2) * 8000 + 8000; rw [e.w9_0, ht]; omega
  | ⟨1, _⟩ => show win1_9.index t (1 : Fin 2) * 2 ≤ (i 1 : Nat) ∧ (i 1 : Nat) < win1_9.index t (1 : Fin 2) * 2 + 2; rw [e.w9_1]; omega

/-- Row n lies in tile n / 8000: the 125 tiles cover the array. -/
theorem cover1_10 (i : S1000000x2.Idx) :
    ∃ t : Fin cfg1.N, (cfg1.win 10).flush t = true ∧ i ∈ ((cfg1.win 10).blk t).view.set := by
  have hN := N1
  have h0 : (i 0 : Nat) < 1000000 := (i 0).isLt
  have h1 : (i 1 : Nat) < 2 := (i 1).isLt
  obtain ⟨t, ht⟩ : ∃ t : Fin cfg1.N, t.val = (i 0).val / 8000 := ⟨⟨(i 0).val / 8000, by omega⟩, rfl⟩
  have e := idx1s t
  refine ⟨t, flush1_10 t, ?_⟩
  show i ∈ ((View.whole main_v5_1).slice (win1_10.rect t)).set
  rw [View.set_slice_whole, Rect.mem_set_unit]
  intro a
  match a with
  | ⟨0, _⟩ => show win1_10.index t (0 : Fin 2) * 8000 ≤ (i 0 : Nat) ∧ (i 0 : Nat) < win1_10.index t (0 : Fin 2) * 8000 + 8000; rw [e.w10_0, ht]; omega
  | ⟨1, _⟩ => show win1_10.index t (1 : Fin 2) * 2 ≤ (i 1 : Nat) ∧ (i 1 : Nat) < win1_10.index t (1 : Fin 2) * 2 + 2; rw [e.w10_1]; omega

include hX hw hb hgw hgb hgs hgcnw hsu hsq in
/-- The normalize kernel's two result arrays after its run are the reference's two stages, given the
    per-row fact. -/
theorem norm_arrays_of (hrows : RowsFact X w b gw gb gs gcnw) :
    (dat1 V c).arrAt 9 cfg1.N = Cert.ReferenceIdeal.Read.val_main_v28 X w b gw gb gs
    ∧ (dat1 V c).arrAt 10 cfg1.N = Cert.ReferenceIdeal.Read.val_main_v41 X w b gw gb gs gcnw :=
  ⟨(dat1 V c).arrAt_eq_of_cover 9 _ (fun t _ => flushed1_9 V c X w b gw gb gs gcnw hX hw hb hgw hgb hgs hgcnw hsu hsq hrows t) cover1_9,
   (dat1 V c).arrAt_eq_of_cover 10 _ (fun t _ => flushed1_10 V c X w b gw gb gs gcnw hX hw hb hgw hgb hgs hgcnw hsu hsq hrows t) cover1_10⟩

end Arrays

/-- The normalize kernel's two result arrays after its run: the reference's rectified normalized h and its
    product with the second weight, for finite x, first weight, first bias and mean scale. -/
theorem norm_arrays (c : Dev nD)
    (X : (⟨S1000000x2, .f32⟩ : BufTy).Contents (Elt Ideal)) (w : (⟨S2x2, .f32⟩ : BufTy).Contents (Elt Ideal))
    (b gw gb gs : (⟨S2, .f32⟩ : BufTy).Contents (Elt Ideal)) (gcnw : (⟨S2x2, .f32⟩ : BufTy).Contents (Elt Ideal))
    (hX : V c main_arg0 = X) (hw : V c main_arg1 = w) (hb : V c main_arg2 = b)
    (hgw : V c main_arg3 = gw) (hgb : V c main_arg4 = gb) (hgs : V c main_arg5 = gs) (hgcnw : V c main_arg6 = gcnw)
    (hsu : ∀ d : Fin 2, V c main_v4_0 (ix2 0 d) = ∑ n : Fin 1000000, Cert.ReferenceIdeal.Read.val_main_v4 X w b (ix2 n d))
    (hsq : ∀ d : Fin 2, V c main_v4_1 (ix2 0 d) = ∑ n : Fin 1000000, Cert.ReferenceIdeal.Read.val_main_v4 X w b (ix2 n d) * Cert.ReferenceIdeal.Read.val_main_v4 X w b (ix2 n d))
    (hfX : ∀ i, X i ≠ ⊤ ∧ X i ≠ ⊥) (hfw : ∀ i, w i ≠ ⊤ ∧ w i ≠ ⊥) (hfb : ∀ i, b i ≠ ⊤ ∧ b i ≠ ⊥)
    (hfgs : ∀ i, gs i ≠ ⊤ ∧ gs i ≠ ⊥) :
    (dat1 V c).arrAt 9 cfg1.N = Cert.ReferenceIdeal.Read.val_main_v28 X w b gw gb gs
    ∧ (dat1 V c).arrAt 10 cfg1.N = Cert.ReferenceIdeal.Read.val_main_v41 X w b gw gb gs gcnw :=
  norm_arrays_of V c X w b gw gb gs gcnw hX hw hb hgw hgb hgs hgcnw hsu hsq
    (fun su sq hsu hsq t ht xb hx r d =>
      Cert.Val.Stage1.norm_rows X w b gw gb gs gcnw hfX hfw hfb hfgs su sq hsu hsq t ht xb hx r d)

end Cert.Val.Glue

end
-- ==== Proof.Val.Conv.lean ====
/-
  The graph-convolution stretch between the normalize kernel and the pooling kernel, at the exact instance.

  With row, col the two rows of the edge list and hw the normalized, transformed features, both programs form
    deg  = (number of edges ending at the node) + 1,
    dis  = 1 / √deg,
    agg  = Σ over edges e with col e = node of  dis[row e] · dis[col e] · hw[row e],
    conv = agg + (self-loop term) + bias.
  They differ in the self-loop term only: one program multiplies hw by dis · dis, the other divides hw by deg.
  The degree is the coercion of a real that is at least one, so (1/√deg)² = 1/deg, and a quotient by a nonzero
  real is the product with its reciprocal for every extended real: the two terms agree wherever hw is.
-/
import proofs.«407804_j50861002719257_4_alg».proof.Proof.Gen.KernelIdeal.Launch
import proofs.«407804_j50861002719257_4_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal.Laws
set_option maxRecDepth 16384

noncomputable section

namespace Cert.Val.Conv

open Idealize.ShloMosaic Idealize.ShloMosaic.TcCoe Idealize.SL.Sem Idealize.ShloMosaic.StableHlo
open Cert.ReferenceIdeal.Read

/-! ## Two float words -/

theorem bits_one : Ideal.ofBits .f32 0x3F800000#32 = ((1 : ℝ) : EReal) := by
  simp [Ideal.ofBits, Ideal.ieee, -EReal.coe_mul]; norm_num

theorem bits_zero : Ideal.ofBits .f32 0x00000000#32 = ((0 : ℝ) : EReal) := by
  simp [Ideal.ofBits, Ideal.ieee]

/-! ## The degree is a real number, at least one -/

/-- An accumulating scatter of ones into zeros holds a natural number everywhere: at each element, how many
    updates land on it. -/
theorem scatter_ones {s si su : Shape} (d : ScatterDims s si su) {w : Nat} (x : s.Idx → EReal) (idx : IVec si w)
    (upd : su.Idx → EReal) (hx : ∀ i, x i = ((0 : ℝ) : EReal)) (hu : ∀ j, upd j = ((1 : ℝ) : EReal)) (i : s.Idx) :
    ∃ n : ℕ, Ideal.hostScatterAdd d x idx upd i = ((n : ℝ) : EReal) := by
  unfold Ideal.hostScatterAdd
  rw [hx, Finset.sum_congr rfl (fun j _ => hu j), Finset.sum_const, ← EReal.coe_nsmul, ← EReal.coe_add, zero_add, nsmul_one]
  exact ⟨_, rfl⟩

/-- Zero, plus one for every update that lands on the element, plus one: the coercion of a real that is at
    least one. -/
theorem deg_gen {s si su : Shape} (d : ScatterDims s si su) {w : Nat} (x : FVec Ideal s .f32) (idx : IVec si w)
    (upd : FVec Ideal su .f32) (one : FVec Ideal s .f32)
    (hx : ∀ i, x i = ((0 : ℝ) : EReal)) (hu : ∀ j, upd j = ((1 : ℝ) : EReal)) (ho : ∀ i, one i = ((1 : ℝ) : EReal)) (i : s.Idx) :
    ∃ r : ℝ, 1 ≤ r ∧ addf (Host.scatterAdd d x idx upd) one i = (r : EReal) := by
  obtain ⟨n, hn⟩ := scatter_ones d x idx upd hx hu i
  refine ⟨(n : ℝ) + 1, by have : (0 : ℝ) ≤ (n : ℝ) := Nat.cast_nonneg n; linarith, ?_⟩
  show Ideal.hostScatterAdd d x idx upd i + one i = _
  rw [hn, ho, EReal.coe_add]
/-- The reciprocal square root of a real at least one, squared, is the real's reciprocal. -/
theorem rsqrt_mul_self {r : ℝ} (hr : 1 ≤ r) : Ideal.rsqrt (r : EReal) * Ideal.rsqrt (r : EReal) = ((1 / r : ℝ) : EReal) := by
  have h0 : (0 : ℝ) ≤ r := by linarith
  rw [Ideal.rsqrt_coe, if_neg (not_lt.2 h0), if_neg (by linarith : r ≠ 0), ← EReal.coe_mul, ← mul_inv,
    Real.mul_self_sqrt h0, one_div]

/-! ## The self-loop term -/

/-- A vector over the nodes, broadcast to a column and then to both feature columns, read at an index. -/
theorem bcast_rows_apply {α : Type} (y : Cert.ReferenceIdeal.S1000000.Idx → α) (i : Cert.ReferenceIdeal.S1000000x2.Idx) :
    broadcastInDim Cert.ReferenceIdeal.S1000000x2 ![0, 1] Cert.ReferenceIdeal.Gen.bcast_S1000000x1_S1000000x2_0_1
      (broadcastInDim Cert.ReferenceIdeal.S1000000x1 ![0] Cert.ReferenceIdeal.Gen.bcast_S1000000_S1000000x1_0 y) i
      = y (idx_main_v70 (idx_main_v71 i)) :=
  (broadcastInDim_apply _ Cert.ReferenceIdeal.Gen.bcast_S1000000x1_S1000000x2_0_1 _ i (idx_main_v71 i) (fun a => match a with
    | ⟨0, _⟩ => by show (i 0).val = if (1000000 : Nat) = 1 then 0 else (i 0).val; rw [if_neg (by decide)]
    | ⟨1, _⟩ => by show 0 = if (1 : Nat) = 1 then 0 else (i 1).val; rw [if_pos rfl])).trans
  (broadcastInDim_apply _ Cert.ReferenceIdeal.Gen.bcast_S1000000_S1000000x1_0 y (idx_main_v71 i) (idx_main_v70 (idx_main_v71 i)) (fun a => match a with
    | ⟨0, _⟩ => by show (i 0).val = if (1000000 : Nat) = 1 then 0 else (i 0).val; rw [if_neg (by decide)]))

/-- Multiplying by the squared reciprocal square root of a degree is dividing by the degree, whatever
    extended real is multiplied. -/
theorem selfloop_deg (hw : FVec Ideal Cert.ReferenceIdeal.S1000000x2 .f32) (deg : FVec Ideal Cert.ReferenceIdeal.S1000000 .f32)
    (hdeg : ∀ j, ∃ r : ℝ, 1 ≤ r ∧ deg j = (r : EReal)) :
    mulf hw (broadcastInDim Cert.ReferenceIdeal.S1000000x2 ![0, 1] Cert.ReferenceIdeal.Gen.bcast_S1000000x1_S1000000x2_0_1
      (broadcastInDim Cert.ReferenceIdeal.S1000000x1 ![0] Cert.ReferenceIdeal.Gen.bcast_S1000000_S1000000x1_0
        (mulf (Host.rsqrt deg) (Host.rsqrt deg))))
      = Host.divf hw (broadcastInDim Cert.ReferenceIdeal.S1000000x2 ![0, 1] Cert.ReferenceIdeal.Gen.bcast_S1000000x1_S1000000x2_0_1
          (broadcastInDim Cert.ReferenceIdeal.S1000000x1 ![0] Cert.ReferenceIdeal.Gen.bcast_S1000000_S1000000x1_0 deg)) := by
  funext i
  show FloatOps.mulf (hw i) _ = FloatOps.hostDivf (hw i) _
  rw [bcast_rows_apply, bcast_rows_apply]
  obtain ⟨r, hr, e⟩ := hdeg (idx_main_v70 (idx_main_v71 i))
  show hw i * (Ideal.rsqrt (deg _) * Ideal.rsqrt (deg _)) = Ideal.div (hw i) (deg _)
  rw [e, rsqrt_mul_self hr, Ideal.div_coe (by linarith)]

theorem zeros_apply (i : Cert.ReferenceIdeal.S1000000.Idx) : val_main_v34 (F := Ideal) i = ((0 : ℝ) : EReal) := by
  rw [val_main_v34_apply, val_main_cst_5_apply]; exact bits_zero

theorem ones_apply (j : Cert.ReferenceIdeal.S16000000.Idx) : val_main_v33 (F := Ideal) j = ((1 : ℝ) : EReal) := by
  rw [val_main_v33_apply, val_main_cst_4_apply]; exact bits_one

theorem ones_nodes_apply (i : Cert.ReferenceIdeal.S1000000.Idx) : val_main_v37 (F := Ideal) i = ((1 : ℝ) : EReal) := by
  rw [val_main_v37_apply, val_main_cst_6_apply]; exact bits_one

/-- The reference's degree vector is, entry by entry, a real that is at least one. -/
theorem deg_real (x12 : (⟨Cert.ReferenceIdeal.S2x16000000, .i32⟩ : BufTy).Contents (Elt Ideal)) :
    ∀ j : Cert.ReferenceIdeal.S1000000.Idx, ∃ r : ℝ, 1 ≤ r ∧ val_main_v38 (F := Ideal) x12 j = (r : EReal) :=
  deg_gen Cert.ReferenceIdeal.scatter_S1000000_S16000000x1_S16000000_n_0_0_1 (val_main_v34 (F := Ideal))
    (val_main_v35 (F := Ideal) x12) (val_main_v33 (F := Ideal)) (val_main_v37 (F := Ideal)) zeros_apply ones_apply ones_nodes_apply

/-! ## The stretch's result -/

/-- After the stretch, the convolution's result is the reference's, given that the normalize kernel left the
    reference's transformed features and that row and col are the reference's. -/
theorem conv_value (Vv : Valuation Cert.KernelIdeal.τ Cert.KernelIdeal.sig (Elt Ideal))
    (x0 : (⟨Cert.ReferenceIdeal.S1000000x2, .f32⟩ : BufTy).Contents (Elt Ideal))
    (x1 : (⟨Cert.ReferenceIdeal.S2x2, .f32⟩ : BufTy).Contents (Elt Ideal))
    (x2 x3 x4 x5 : (⟨Cert.ReferenceIdeal.S2, .f32⟩ : BufTy).Contents (Elt Ideal))
    (x6 : (⟨Cert.ReferenceIdeal.S2x2, .f32⟩ : BufTy).Contents (Elt Ideal))
    (x7 : (⟨Cert.ReferenceIdeal.S2, .f32⟩ : BufTy).Contents (Elt Ideal))
    (x12 : (⟨Cert.ReferenceIdeal.S2x16000000, .i32⟩ : BufTy).Contents (Elt Ideal))
    (h51 : Vv (Proc.devRef .tc Cert.KernelIdeal.main_v5_1) = Cert.ReferenceIdeal.Read.val_main_v41 x0 x1 x2 x3 x4 x5 x6)
    (h7 : Vv (Proc.devRef .tc Cert.KernelIdeal.main_arg7) = x7)
    (h12 : Vv (Proc.devRef .tc Cert.KernelIdeal.main_arg12) = x12)
    (h1 : Vv (Proc.devRef .tc Cert.KernelIdeal.main_v1) = Cert.ReferenceIdeal.Read.val_main_v30 x12)
    (h3 : Vv (Proc.devRef .tc Cert.KernelIdeal.main_v3) = Cert.ReferenceIdeal.Read.val_main_v32 x12) :
    StableHlo.after (Cert.KernelIdeal.Gen.hostOps2 (F := Ideal)) Vv (Proc.devRef .tc Cert.KernelIdeal.main_v48)
      = Cert.ReferenceIdeal.Read.val_main_v76 x0 x1 x2 x3 x4 x5 x6 x7 x12 := by
  after_results_simp
  rw [h51, h7, h1, h3]
  unfold val_main_v76 val_main_v73
  refine congrArg₂ addf (congrArg₂ addf ?_ ?_) ?_
  · rfl
  · unfold val_main_v72 val_main_v71 val_main_v70
    exact selfloop_deg _ (val_main_v38 (F := Ideal) x12) (deg_real x12)
  · rfl

/-- The first stretch leaves the edge list's two rows, as the reference slices them. -/
theorem rowcol_value (Vv0 : Valuation Cert.KernelIdeal.τ Cert.KernelIdeal.sig (Elt Ideal))
    (x12 : (⟨Cert.ReferenceIdeal.S2x16000000, .i32⟩ : BufTy).Contents (Elt Ideal))
    (h12 : Vv0 (Proc.devRef .tc Cert.KernelIdeal.main_arg12) = x12) :
    StableHlo.after (Cert.KernelIdeal.Gen.hostOps0 (F := Ideal)) Vv0 (Proc.devRef .tc Cert.KernelIdeal.main_v1) = val_main_v30 (F := Ideal) x12
    ∧ StableHlo.after (Cert.KernelIdeal.Gen.hostOps0 (F := Ideal)) Vv0 (Proc.devRef .tc Cert.KernelIdeal.main_v3) = val_main_v32 (F := Ideal) x12 := by
  constructor
  · after_results_simp
    rw [h12]
    rfl
  · after_results_simp
    rw [h12]
    rfl

/-- The graph assignment as a column: at (n, 0) it is the assignment of node n. -/
theorem batch2d_value (Vv : Valuation Cert.KernelIdeal.τ Cert.KernelIdeal.sig (Elt Ideal)) (n : Fin 1000000) :
    (StableHlo.after (Cert.KernelIdeal.Gen.hostOps2 (F := Ideal)) Vv (Proc.devRef .tc Cert.KernelIdeal.main_v49)
        : (⟨Cert.KernelIdeal.S1000000x1, .i32⟩ : BufTy).Contents (Elt Ideal)) (ValueIdx.ix2 n (0 : Fin 1))
      = (Vv (Proc.devRef .tc Cert.KernelIdeal.main_arg13) : (⟨Cert.KernelIdeal.S1000000, .i32⟩ : BufTy).Contents (Elt Ideal)) (ValueIdx.ix1 n) := by
  have e : StableHlo.after (Cert.KernelIdeal.Gen.hostOps2 (F := Ideal)) Vv (Proc.devRef .tc Cert.KernelIdeal.main_v49)
      = shapeCast Cert.KernelIdeal.S1000000x1
          (Vv (Proc.devRef .tc Cert.KernelIdeal.main_arg13) : (⟨Cert.KernelIdeal.S1000000, .i32⟩ : BufTy).Contents (Elt Ideal))
          Cert.KernelIdeal.Gen.shapeCasts_S1000000_S1000000x1 := by
    after_results_simp
    rfl
  rw [e]
  exact shapeCast_apply _ _ _ _ (by
    show (Cert.KernelIdeal.S1000000.rowMajor (ValueIdx.ix1 n)).val = (Cert.KernelIdeal.S1000000x1.rowMajor (ValueIdx.ix2 n (0 : Fin 1))).val
    rw [Shape.rowMajor_val_one, Shape.rowMajor_val_two]
    show n.val = n.val * 1 + 0
    omega)

end Cert.Val.Conv

end
-- ==== Proof.Val.Finite.lean ====
/-
  From the precondition to finiteness, at the extended reals.

  The precondition computes, for each of the twelve float arguments x, the conjunction over all entries of
  |x| < +∞ (the constant 0x7F800000 is +∞), and the conjunction of the twelve results; it is stated equal to 1.
  A conjunction of bits that is 1 has every bit 1, so |x i| < +∞ at every entry of every argument; and
  |x| = max x (−x) < ⊤ fails at ⊤ and at ⊥, so every entry is a real. The two integer arguments are not constrained.
-/
import proofs.«407804_j50861002719257_4_alg».proof.Defs
import proofs.«407804_j50861002719257_4_alg».proof.Proof.Gen.Pre_finite_inputs
import Idealize.ShloMosaic.Lib.ReduceAll
import Idealize.ShloMosaic.Lib.ValueIdx
import Idealize.ShloMosaic.PureOps.Ideal

noncomputable section

namespace Cert.Val.Finite

open Idealize.ShloMosaic Idealize.SL.Sem
open Cert.Pre_finite_inputs (S_)

/-- The rank-0 shape has one index. -/
instance : Subsingleton S_.Idx := ⟨fun a b => funext fun d => d.elim0⟩

/-- The f32 pattern 0x7F800000 denotes +∞. -/
theorem inf_eq_top : Ideal.ofBits .f32 0x7F800000#32 = (⊤ : EReal) := by
  simp [Ideal.ofBits, Ideal.ieee]

/-- |x| < +∞ holds of no infinity: x is a real. -/
theorem ne_of_abs_lt (x : EReal) (h : Ideal.cmp .olt (max x (-x)) ⊤ = 1#1) : x ≠ ⊤ ∧ x ≠ ⊥ := by
  unfold Ideal.cmp at h
  induction x using EReal.rec with
  | bot => simp at h
  | top => simp at h
  | coe r => exact ⟨EReal.coe_ne_top r, EReal.coe_ne_bot r⟩

/-- Every entry of `x` is a real: neither +∞ nor −∞. -/
abbrev AllReal {s : Shape} (x : FVec Ideal s .f32) : Prop := ∀ i, x i ≠ ⊤ ∧ x i ≠ ⊥

/-- One conjunct of the precondition read back: the conjunction over all entries of |x| < +∞ is 1,
    so every entry of x is a real. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) :
    AllReal x := by
  intro i
  have h1 := Host.reduce_andi_all _ _ hr hu ValueIdx.ix0 e i
  refine ne_of_abs_lt (x i) ?_
  rw [← inf_eq_top]
  exact h1

/-- The precondition read back: every entry of each of the twelve float arguments is a real. -/
theorem finite_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    AllReal (s := Cert.KernelIdeal.S1000000x2) (m ((c.tc : Thread Cert.KernelIdeal.nD Cert.KernelIdeal.τ).loc Cert.KernelIdeal.main_arg0)) ∧
    AllReal (s := Cert.KernelIdeal.S2x2) (m ((c.tc : Thread Cert.KernelIdeal.nD Cert.KernelIdeal.τ).loc Cert.KernelIdeal.main_arg1)) ∧
    AllReal (s := Cert.KernelIdeal.S2) (m ((c.tc : Thread Cert.KernelIdeal.nD Cert.KernelIdeal.τ).loc Cert.KernelIdeal.main_arg2)) ∧
    AllReal (s := Cert.KernelIdeal.S2) (m ((c.tc : Thread Cert.KernelIdeal.nD Cert.KernelIdeal.τ).loc Cert.KernelIdeal.main_arg3)) ∧
    AllReal (s := Cert.KernelIdeal.S2) (m ((c.tc : Thread Cert.KernelIdeal.nD Cert.KernelIdeal.τ).loc Cert.KernelIdeal.main_arg4)) ∧
    AllReal (s := Cert.KernelIdeal.S2) (m ((c.tc : Thread Cert.KernelIdeal.nD Cert.KernelIdeal.τ).loc Cert.KernelIdeal.main_arg5)) ∧
    AllReal (s := Cert.KernelIdeal.S2x2) (m ((c.tc : Thread Cert.KernelIdeal.nD Cert.KernelIdeal.τ).loc Cert.KernelIdeal.main_arg6)) ∧
    AllReal (s := Cert.KernelIdeal.S2) (m ((c.tc : Thread Cert.KernelIdeal.nD Cert.KernelIdeal.τ).loc Cert.KernelIdeal.main_arg7)) ∧
    AllReal (s := Cert.KernelIdeal.S64x2) (m ((c.tc : Thread Cert.KernelIdeal.nD Cert.KernelIdeal.τ).loc Cert.KernelIdeal.main_arg8)) ∧
    AllReal (s := Cert.KernelIdeal.S64) (m ((c.tc : Thread Cert.KernelIdeal.nD Cert.KernelIdeal.τ).loc Cert.KernelIdeal.main_arg9)) ∧
    AllReal (s := Cert.KernelIdeal.S2x64) (m ((c.tc : Thread Cert.KernelIdeal.nD Cert.KernelIdeal.τ).loc Cert.KernelIdeal.main_arg10)) ∧
    AllReal (s := Cert.KernelIdeal.S2) (m ((c.tc : Thread Cert.KernelIdeal.nD Cert.KernelIdeal.τ).loc Cert.KernelIdeal.main_arg11)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨finite_of_all _ _ _ _ e0, finite_of_all _ _ _ _ e1, finite_of_all _ _ _ _ e2, finite_of_all _ _ _ _ e3, finite_of_all _ _ _ _ e4, finite_of_all _ _ _ _ e5, finite_of_all _ _ _ _ e6, finite_of_all _ _ _ _ e7, finite_of_all _ _ _ _ e8, finite_of_all _ _ _ _ e9, finite_of_all _ _ _ _ e10, finite_of_all _ _ _ _ e11⟩

end Cert.Val.Finite
-- ==== Proof.Val.Pool.lean ====
/-
  The pooling kernel's scatter-mean against the reference's.

  The kernel runs over 500 tiles of 2000 rows. For a tile it builds the one-hot matrix E[g, r] = [g = batch r]
  (1024 × 2000, entries the extended reals 0 and 1) and adds E · (T + b) to a 1024 × 2 accumulator of sums and
  the row sums of E to a 1024 × 1 accumulator of counts; after the last tile it divides the sums by
  max(counts, 1). The reference scatters the million rows into 1024 zeros at the indices batch, scatters ones
  likewise, and divides the first by the second clamped below by 1.

  The law: Σ over rows n of [g = batch n] · out n is the sum of out n over the rows the scatter sends to g.
  On the extended reals 0 · x = 0 and 1 · x = x for every x, so no finiteness is needed; an index word equals
  the word of g in 0 … 1023 exactly when it reads g as a signed integer, and a row whose index reads outside
  0 … 1023 contributes to no graph on either side.
-/
import proofs.«407804_j50861002719257_4_alg».proof.Proof.Gen.KernelIdeal.Skeleton
import proofs.«407804_j50861002719257_4_alg».proof.Proof.Gen.ReferenceIdeal.Read
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

set_option Elab.async false

noncomputable section

namespace Cert.Val.Pool

open Idealize.ShloMosaic Idealize.ShloMosaic.ValueIdx Idealize.SL.Sem
open Cert.KernelIdeal.Gen

/-! ## Column forms of the layout operations -/

/-- An `[a, 1]` column cast to `[a]` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot matrix of a tile -/

/-- The word compare `eq` answers the bit 1 exactly on equal words. -/
theorem cmpi_eq_one_iff {w : Nat} (a b : BitVec w) : IntOp.cmpi .eq a b = 1#1 ↔ a = b := by
  unfold IntOp.cmpi
  by_cases h : a = b
  · subst h; simp
  · have hb : (a == b) = false := beq_eq_false_iff_ne.mpr h
    rw [hb]; simp [h]

/-- The one-hot entry at (g, r): 1 when row r's graph word is the word of g, else 0. -/
theorem onehot_apply (bt : Vec Ideal Cert.KernelIdeal.S2000x1 .i32) (g : Fin 1024) (r : Fin 2000) :
    k2_pay1 (F := Ideal) bt (ix2 g r)
      = if BitVec.ofNat 32 g.val = bt (ix2 r (0 : Fin 1)) then (1 : EReal) else 0 := by
  unfold k2_pay1
  rw [sitofp_apply, extui_apply]
  show FloatOps.sitofp (F := Ideal) .f32 ((IntOp.cmpi .eq _ _).setWidth 32) = _
  rw [iota_single_apply, broadcastTo_1b_ab_apply, shapeCast_a_1a_apply, shapeCast_a1_a_apply]
  show (((BitVec.setWidth 32 (IntOp.cmpi .eq (BitVec.ofNat 32 g.val) (bt (ix2 r (0 : Fin 1))))).toInt : ℝ) : EReal) = _
  by_cases h : BitVec.ofNat 32 g.val = bt (ix2 r (0 : Fin 1))
  · rw [if_pos h, (cmpi_eq_one_iff _ _).mpr h]
    norm_num
  · rw [if_neg h, eq_zero_of_ne_one (mt (cmpi_eq_one_iff _ _).mp h)]
    norm_num

theorem lhs_pool_0 (i : Cert.KernelIdeal.S1024x2.Idx) (q : Cert.KernelIdeal.dot_S1024x2000_S2000x2_S1024x2_1_0_0_1_n_n.contr.Idx) :
    (Cert.KernelIdeal.dot_S1024x2000_S2000x2_S1024x2_1_0_0_1_n_n.lhsIdx i q 0).val = (i 0).val := by
  unfold DotDims.lhsIdx
  rw [dif_neg (show ¬(0 : Fin Cert.KernelIdeal.S1024x2000.rank) ∈ Cert.KernelIdeal.dot_S1024x2000_S2000x2_S1024x2_1_0_0_1_n_n.lhsBatch by decide), dif_pos (show (0 : Fin Cert.KernelIdeal.S1024x2000.rank) ∈ Cert.KernelIdeal.dot_S1024x2000_S2000x2_S1024x2_1_0_0_1_n_n.lhsNonContracting by decide)]
  rfl
theorem lhs_pool_1 (i : Cert.KernelIdeal.S1024x2.Idx) (q : Cert.KernelIdeal.dot_S1024x2000_S2000x2_S1024x2_1_0_0_1_n_n.contr.Idx) :
    (Cert.KernelIdeal.dot_S1024x2000_S2000x2_S1024x2_1_0_0_1_n_n.lhsIdx i q 1).val = (q ⟨0, by decide⟩).val :=
  Cert.KernelIdeal.dot_S1024x2000_S2000x2_S1024x2_1_0_0_1_n_n.lhsIdx_val_of_single rfl i q
theorem rhs_pool_0 (i : Cert.KernelIdeal.S1024x2.Idx) (q : Cert.KernelIdeal.dot_S1024x2000_S2000x2_S1024x2_1_0_0_1_n_n.contr.Idx) :
    (Cert.KernelIdeal.dot_S1024x2000_S2000x2_S1024x2_1_0_0_1_n_n.rhsIdx i q 0).val = (q ⟨0, by decide⟩).val :=
  Cert.KernelIdeal.dot_S1024x2000_S2000x2_S1024x2_1_0_0_1_n_n.rhsIdx_val_of_single rfl i q
theorem rhs_pool_1 (i : Cert.KernelIdeal.S1024x2.Idx) (q : Cert.KernelIdeal.dot_S1024x2000_S2000x2_S1024x2_1_0_0_1_n_n.contr.Idx) :
    (Cert.KernelIdeal.dot_S1024x2000_S2000x2_S1024x2_1_0_0_1_n_n.rhsIdx i q 1).val = (i 1).val := by
  unfold DotDims.rhsIdx
  rw [dif_neg (show ¬(1 : Fin Cert.KernelIdeal.S2000x2.rank) ∈ Cert.KernelIdeal.dot_S1024x2000_S2000x2_S1024x2_1_0_0_1_n_n.rhsBatch by decide), dif_pos (show (1 : Fin Cert.KernelIdeal.S2000x2.rank) ∈ Cert.KernelIdeal.dot_S1024x2000_S2000x2_S1024x2_1_0_0_1_n_n.rhsNonContracting by decide)]
  rfl

/-- The product into the zero accumulator, read at (p, c): the sum over the 2000 contracted coordinates. -/
theorem pool_matmul_apply (A : FVec Ideal Cert.KernelIdeal.S1024x2000 .f32) (B : FVec Ideal Cert.KernelIdeal.S2000x2 .f32) (p : Fin 1024) (c : Fin 2) :
    matmul Cert.KernelIdeal.dot_S1024x2000_S2000x2_S1024x2_1_0_0_1_n_n none A B (constant (F := Ideal) Cert.KernelIdeal.S1024x2 .f32 0x00000000#32) (ix2 p c)
      = ∑ k : Fin 2000, A (ix2 p k) * B (ix2 k c) := by
  simp only [matmul]
  rw [Ideal.matmul_constant_zero_apply, ← Equiv.sum_comp (ValueIdx.contrEquiv1 Cert.KernelIdeal.dot_S1024x2000_S2000x2_S1024x2_1_0_0_1_n_n 2000 rfl rfl).symm]
  refine Finset.sum_congr rfl fun k _ => ?_
  have hk := ValueIdx.contrEquiv1_symm_val Cert.KernelIdeal.dot_S1024x2000_S2000x2_S1024x2_1_0_0_1_n_n 2000 rfl rfl k
  have el : Cert.KernelIdeal.dot_S1024x2000_S2000x2_S1024x2_1_0_0_1_n_n.lhsIdx (ix2 p c) ((ValueIdx.contrEquiv1 Cert.KernelIdeal.dot_S1024x2000_S2000x2_S1024x2_1_0_0_1_n_n 2000 rfl rfl).symm k) = ix2 p k := funext fun a => Fin.ext (by
    match a with
    | ⟨0, _⟩ => exact lhs_pool_0 _ _
    | ⟨1, _⟩ => exact (lhs_pool_1 _ _).trans hk)
  have er : Cert.KernelIdeal.dot_S1024x2000_S2000x2_S1024x2_1_0_0_1_n_n.rhsIdx (ix2 p c) ((ValueIdx.contrEquiv1 Cert.KernelIdeal.dot_S1024x2000_S2000x2_S1024x2_1_0_0_1_n_n 2000 rfl rfl).symm k) = ix2 k c := funext fun a => Fin.ext (by
    match a with
    | ⟨0, _⟩ => exact (rhs_pool_0 _ _).trans hk
    | ⟨1, _⟩ => exact rhs_pool_1 _ _)
  rw [el, er]

/-! ## One tile's step of the two accumulators -/

/-- The sums accumulator after a tile: what it held plus, per graph g, the one-hot row of g times the tile's
    biased rows. -/
theorem pay2_apply (T : FVec Ideal Cert.KernelIdeal.S2000x2 .f32) (b4 : Vec Ideal Cert.KernelIdeal.S2 .f32)
    (bt : Vec Ideal Cert.KernelIdeal.S2000x1 .i32) (s : Vec Ideal Cert.KernelIdeal.S1024x2 .f32) (g : Fin 1024) (d : Fin 2) :
    k2_pay2 (F := Ideal) T b4 bt s (ix2 g d)
      = s (ix2 g d) + ∑ r : Fin 2000, k2_pay1 (F := Ideal) bt (ix2 g r) * (T (ix2 r d) + b4 (ix1 d)) := by
  unfold k2_pay2
  rw [shapeCast_self, addf_apply, pool_matmul_apply]
  refine congrArg (s (ix2 g d) + ·) (Finset.sum_congr rfl fun r _ => ?_)
  rw [addf_apply, broadcastTo_1b_ab_apply, shapeCast_a_1a_apply]

/-- The counts accumulator after a tile: what it held plus, per graph g, the sum of the one-hot row of g. -/
theorem pay3_apply (bt : Vec Ideal Cert.KernelIdeal.S2000x1 .i32) (s : Vec Ideal Cert.KernelIdeal.S1024x1 .f32) (g : Fin 1024) (u : Fin 1) :
    k2_pay3 (F := Ideal) bt s (ix2 g u) = s (ix2 g u) + ∑ r : Fin 2000, k2_pay1 (F := Ideal) bt (ix2 g r) := by
  unfold k2_pay3
  rw [shapeCast_self, addf_apply, shapeCast_a_a1_apply]
  refine congrArg (s (ix2 g u) + ·) ?_
  refine (Ideal.multiReduction_add_single (k2_pay1 (F := Ideal) bt) 0x00000000#32 reduces_S1024x2000_S1024 _ _ (ix1 g)).trans ?_
  refine Finset.sum_congr rfl fun r _ => ?_
  exact congrArg _ (funext fun a => Fin.ext (by match a with | ⟨0, _⟩ => rfl | ⟨1, _⟩ => rfl))

/-- The zeroed sums accumulator. -/
theorem pay5_apply (i : Cert.KernelIdeal.S1024x2.Idx) : k2_pay5 (F := Ideal) i = 0 := by
  unfold k2_pay5
  rw [shapeCast_self]
  exact Ideal.ofBits_zero_f32

/-- The zeroed counts accumulator. -/
theorem pay6_apply (i : Cert.KernelIdeal.S1024x1.Idx) : k2_pay6 (F := Ideal) i = 0 := by
  unfold k2_pay6
  rw [shapeCast_self]
  exact Ideal.ofBits_zero_f32

/-! ## Where an update row lands

The sums scatter sends update element (n, c) to (batch n, c) when the index word of row n, read as a signed
integer, lies in 0 … 1023, and drops it otherwise; the counts scatter sends update n to batch n likewise. -/

/-- The start of update (n, c) on the graphs axis is row n's index word, read signed. -/
theorem sums_start0 (idx : IVec Cert.ReferenceIdeal.S1000000x1 32) (n : Fin 1000000) (c : Fin 2) :
    Cert.ReferenceIdeal.scatter_S1024x2_S1000000x1_S1000000x2_1_0_0_1.start (ix2 n c) idx 0 = (idx (ix2 n (0 : Fin 1))).toInt := by
  unfold ScatterDims.start
  rw [dif_pos (show (0 : Fin Cert.ReferenceIdeal.S1024x2.rank) ∈ Cert.ReferenceIdeal.scatter_S1024x2_S1000000x1_S1000000x2_1_0_0_1.scatterDimsToOperandDims by decide)]
  refine congrArg (fun j => (idx j).toInt) (funext fun b => Fin.ext ?_)
  match b with
  | ⟨0, _⟩ => rfl
  | ⟨1, _⟩ => rfl

theorem sums_start1 (idx : IVec Cert.ReferenceIdeal.S1000000x1 32) (n : Fin 1000000) (c : Fin 2) :
    Cert.ReferenceIdeal.scatter_S1024x2_S1000000x1_S1000000x2_1_0_0_1.start (ix2 n c) idx 1 = 0 := by
  unfold ScatterDims.start
  rw [dif_neg (show ¬(1 : Fin Cert.ReferenceIdeal.S1024x2.rank) ∈ Cert.ReferenceIdeal.scatter_S1024x2_S1000000x1_S1000000x2_1_0_0_1.scatterDimsToOperandDims by decide)]

theorem sums_window0 (n : Fin 1000000) (c : Fin 2) :
    Cert.ReferenceIdeal.scatter_S1024x2_S1000000x1_S1000000x2_1_0_0_1.window (ix2 n c) 0 = 0 := by
  unfold ScatterDims.window
  rw [dif_neg (show ¬(0 : Fin Cert.ReferenceIdeal.S1024x2.rank) ∈ Cert.ReferenceIdeal.scatter_S1024x2_S1000000x1_S1000000x2_1_0_0_1.sKept by decide)]

theorem sums_window1 (n : Fin 1000000) (c : Fin 2) :
    Cert.ReferenceIdeal.scatter_S1024x2_S1000000x1_S1000000x2_1_0_0_1.window (ix2 n c) 1 = c.val := by
  unfold ScatterDims.window
  rw [dif_pos (show (1 : Fin Cert.ReferenceIdeal.S1024x2.rank) ∈ Cert.ReferenceIdeal.scatter_S1024x2_S1000000x1_S1000000x2_1_0_0_1.sKept by decide)]
  rfl

/-- Update element (n, c) lands on (g, e) exactly when row n's index word reads g and c = e. -/
theorem sums_resultIdx_iff (idx : IVec Cert.ReferenceIdeal.S1000000x1 32) (n : Fin 1000000) (c : Fin 2) (g : Fin 1024) (e : Fin 2) :
    Cert.ReferenceIdeal.scatter_S1024x2_S1000000x1_S1000000x2_1_0_0_1.resultIdx? (ix2 n c) idx = some (ix2 g e)
      ↔ ((idx (ix2 n (0 : Fin 1))).toInt = (g.val : ℤ) ∧ c = e) := by
  unfold ScatterDims.resultIdx?
  constructor
  · intro h
    split at h
    · rename_i hh
      have h' := Option.some.inj h
      have e0 : (Cert.ReferenceIdeal.scatter_S1024x2_S1000000x1_S1000000x2_1_0_0_1.start (ix2 n c) idx 0 + Cert.ReferenceIdeal.scatter_S1024x2_S1000000x1_S1000000x2_1_0_0_1.window (ix2 n c) 0).toNat = g.val :=
        congrArg (fun f : Cert.ReferenceIdeal.S1024x2.Idx => (f 0).val) h'
      have e1 : (Cert.ReferenceIdeal.scatter_S1024x2_S1000000x1_S1000000x2_1_0_0_1.start (ix2 n c) idx 1 + Cert.ReferenceIdeal.scatter_S1024x2_S1000000x1_S1000000x2_1_0_0_1.window (ix2 n c) 1).toNat = e.val :=
        congrArg (fun f : Cert.ReferenceIdeal.S1024x2.Idx => (f 1).val) h'
      have h0 := (hh 0).1
      rw [sums_start0, sums_window0] at e0 h0
      rw [sums_start1, sums_window1] at e1
      exact ⟨by omega, Fin.ext (by omega)⟩
    · exact absurd h (by simp)
  · rintro ⟨h0, rfl⟩
    have hg := g.isLt
    have hc := c.isLt
    have hh : ∀ a, 0 ≤ Cert.ReferenceIdeal.scatter_S1024x2_S1000000x1_S1000000x2_1_0_0_1.start (ix2 n c) idx a + Cert.ReferenceIdeal.scatter_S1024x2_S1000000x1_S1000000x2_1_0_0_1.window (ix2 n c) a
        ∧ Cert.ReferenceIdeal.scatter_S1024x2_S1000000x1_S1000000x2_1_0_0_1.start (ix2 n c) idx a + Cert.ReferenceIdeal.scatter_S1024x2_S1000000x1_S1000000x2_1_0_0_1.window (ix2 n c) a < Cert.ReferenceIdeal.S1024x2.size a := by
      refine Fin.forall_fin_two.mpr ⟨?_, ?_⟩
      · rw [sums_start0, sums_window0, h0]
        exact ⟨by omega, by show (g.val : ℤ) + ((0 : ℕ) : ℤ) < ((1024 : ℕ) : ℤ); omega⟩
      · rw [sums_start1, sums_window1]
        exact ⟨by omega, by show (0 : ℤ) + ((c.val : ℕ) : ℤ) < ((2 : ℕ) : ℤ); omega⟩
    rw [dif_pos hh]
    refine congrArg some (Shape.idx_ext₂ ?_ ?_)
    · show (Cert.ReferenceIdeal.scatter_S1024x2_S1000000x1_S1000000x2_1_0_0_1.start (ix2 n c) idx 0 + Cert.ReferenceIdeal.scatter_S1024x2_S1000000x1_S1000000x2_1_0_0_1.window (ix2 n c) 0).toNat = g.val
      rw [sums_start0, sums_window0, h0]; omega
    · show (Cert.ReferenceIdeal.scatter_S1024x2_S1000000x1_S1000000x2_1_0_0_1.start (ix2 n c) idx 1 + Cert.ReferenceIdeal.scatter_S1024x2_S1000000x1_S1000000x2_1_0_0_1.window (ix2 n c) 1).toNat = c.val
      rw [sums_start1, sums_window1]; omega

/-- The sums scatter read at (g, e): what was there plus the rows whose index word reads g. -/
theorem sums_scatter_apply (z : FVec Ideal Cert.ReferenceIdeal.S1024x2 .f32) (idx : IVec Cert.ReferenceIdeal.S1000000x1 32)
    (out : FVec Ideal Cert.ReferenceIdeal.S1000000x2 .f32) (g : Fin 1024) (e : Fin 2) :
    Host.scatterAdd (F := Ideal) Cert.ReferenceIdeal.scatter_S1024x2_S1000000x1_S1000000x2_1_0_0_1 z idx out (ix2 g e)
      = z (ix2 g e) + ∑ n : Fin 1000000,
          if (idx (ix2 n (0 : Fin 1))).toInt = (g.val : ℤ) then out (ix2 n e) else 0 := by
  show Ideal.hostScatterAdd Cert.ReferenceIdeal.scatter_S1024x2_S1000000x1_S1000000x2_1_0_0_1 z idx out (ix2 g e) = _
  unfold Ideal.hostScatterAdd
  refine congrArg (z (ix2 g e) + ·) ?_
  rw [Finset.sum_filter, sum_idx2]
  refine Finset.sum_congr rfl fun n _ => ?_
  rw [Finset.sum_congr rfl (fun c _ => if_congr (sums_resultIdx_iff idx n c g e) rfl rfl)]
  by_cases hP : (idx (ix2 n (0 : Fin 1))).toInt = (g.val : ℤ)
  · simp [hP]
  · simp [hP]

theorem counts_start0 (idx : IVec Cert.ReferenceIdeal.S1000000x1 32) (n : Fin 1000000) :
    Cert.ReferenceIdeal.scatter_S1024_S1000000x1_S1000000_n_0_0_1.start (ix1 n) idx 0 = (idx (ix2 n (0 : Fin 1))).toInt := by
  unfold ScatterDims.start
  rw [dif_pos (show (0 : Fin Cert.ReferenceIdeal.S1024.rank) ∈ Cert.ReferenceIdeal.scatter_S1024_S1000000x1_S1000000_n_0_0_1.scatterDimsToOperandDims by decide)]
  refine congrArg (fun j => (idx j).toInt) (funext fun b => Fin.ext ?_)
  match b with
  | ⟨0, _⟩ => rfl
  | ⟨1, _⟩ => rfl

theorem counts_window0 (n : Fin 1000000) :
    Cert.ReferenceIdeal.scatter_S1024_S1000000x1_S1000000_n_0_0_1.window (ix1 n) 0 = 0 := by
  unfold ScatterDims.window
  rw [dif_neg (show ¬(0 : Fin Cert.ReferenceIdeal.S1024.rank) ∈ Cert.ReferenceIdeal.scatter_S1024_S1000000x1_S1000000_n_0_0_1.sKept by decide)]

/-- Update n of the counts lands on g exactly when row n's index word reads g. -/
theorem counts_resultIdx_iff (idx : IVec Cert.ReferenceIdeal.S1000000x1 32) (n : Fin 1000000) (g : Fin 1024) :
    Cert.ReferenceIdeal.scatter_S1024_S1000000x1_S1000000_n_0_0_1.resultIdx? (ix1 n) idx = some (ix1 g) ↔ (idx (ix2 n (0 : Fin 1))).toInt = (g.val : ℤ) := by
  unfold ScatterDims.resultIdx?
  constructor
  · intro h
    split at h
    · rename_i hh
      have h' := Option.some.inj h
      have e0 : (Cert.ReferenceIdeal.scatter_S1024_S1000000x1_S1000000_n_0_0_1.start (ix1 n) idx 0 + Cert.ReferenceIdeal.scatter_S1024_S1000000x1_S1000000_n_0_0_1.window (ix1 n) 0).toNat = g.val :=
        congrArg (fun f : Cert.ReferenceIdeal.S1024.Idx => (f 0).val) h'
      have h0 := (hh 0).1
      rw [counts_start0, counts_window0] at e0 h0
      omega
    · exact absurd h (by simp)
  · intro h0
    have hg := g.isLt
    have hh : ∀ a, 0 ≤ Cert.ReferenceIdeal.scatter_S1024_S1000000x1_S1000000_n_0_0_1.start (ix1 n) idx a + Cert.ReferenceIdeal.scatter_S1024_S1000000x1_S1000000_n_0_0_1.window (ix1 n) a
        ∧ Cert.ReferenceIdeal.scatter_S1024_S1000000x1_S1000000_n_0_0_1.start (ix1 n) idx a + Cert.ReferenceIdeal.scatter_S1024_S1000000x1_S1000000_n_0_0_1.window (ix1 n) a < Cert.ReferenceIdeal.S1024.size a := by
      intro a
      obtain rfl : a = 0 := Subsingleton.elim _ _
      rw [counts_start0, counts_window0, h0]
      exact ⟨by omega, by show (g.val : ℤ) + ((0 : ℕ) : ℤ) < ((1024 : ℕ) : ℤ); omega⟩
    rw [dif_pos hh]
    refine congrArg some (funext fun a => Fin.ext ?_)
    obtain rfl : a = 0 := Subsingleton.elim _ _
    show (Cert.ReferenceIdeal.scatter_S1024_S1000000x1_S1000000_n_0_0_1.start (ix1 n) idx 0 + Cert.ReferenceIdeal.scatter_S1024_S1000000x1_S1000000_n_0_0_1.window (ix1 n) 0).toNat = g.val
    rw [counts_start0, counts_window0, h0]; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The counts scatter read at g: what was there plus the updates of the rows whose index word reads g. -/
theorem counts_scatter_apply (z : FVec Ideal Cert.ReferenceIdeal.S1024 .f32) (idx : IVec Cert.ReferenceIdeal.S1000000x1 32)
    (upd : FVec Ideal Cert.ReferenceIdeal.S1000000 .f32) (g : Fin 1024) :
    Host.scatterAdd (F := Ideal) Cert.ReferenceIdeal.scatter_S1024_S1000000x1_S1000000_n_0_0_1 z idx upd (ix1 g)
      = z (ix1 g) + ∑ n : Fin 1000000,
          if (idx (ix2 n (0 : Fin 1))).toInt = (g.val : ℤ) then upd (ix1 n) else 0 := by
  show Ideal.hostScatterAdd Cert.ReferenceIdeal.scatter_S1024_S1000000x1_S1000000_n_0_0_1 z idx upd (ix1 g) = _
  unfold Ideal.hostScatterAdd
  refine congrArg (z (ix1 g) + ·) ?_
  rw [Finset.sum_filter, sum_idx1]
  exact Finset.sum_congr rfl fun n _ => if_congr (counts_resultIdx_iff idx n g) rfl rfl

/-! ## From 500 tiles of 2000 rows to the million rows -/

/-- A word equals the word of g < 1024 exactly when it reads g as a signed integer. -/
theorem word_eq_iff (g : Fin 1024) (w : BitVec 32) : BitVec.ofNat 32 g.val = w ↔ w.toInt = (g.val : ℤ) := by
  have hg := g.isLt
  have hs : (BitVec.ofNat 32 g.val).toInt = (g.val : ℤ) := by
    rw [BitVec.toInt_eq_msb_cond, BitVec.msb_eq_false_iff_two_mul_lt.mpr (by simp [BitVec.toNat_ofNat]; omega)]
    simp [BitVec.toNat_ofNat]; omega
  constructor
  · rintro rfl; exact hs
  · intro h; exact BitVec.toInt_inj.mp (hs.trans h.symm)

/-- Row 2000·t + r as t runs over the 500 tiles and r over a tile's 2000 rows runs over all the rows once. -/
theorem sum_tiles {M : Type*} [AddCommMonoid M] (f : Fin 1000000 → M) :
    ∑ t : Fin 500, ∑ r : Fin 2000, f ⟨2000 * t.val + r.val, by have := t.isLt; have := r.isLt; omega⟩
      = ∑ m : Fin 1000000, f m := by
  symm
  rw [← Equiv.sum_comp ((finProdFinEquiv (m := 500) (n := 2000)).trans (finCongr (by norm_num : 500 * 2000 = 1000000))) f,
    Fintype.sum_prod_type]
  refine Finset.sum_congr rfl fun t _ => Finset.sum_congr rfl fun r _ => congrArg f (Fin.ext ?_)
  show r.val + 2000 * t.val = 2000 * t.val + r.val
  omega

/-- The word of 1.0 is the extended real 1. -/
theorem ofBits_one_f32 : Ideal.ofBits .f32 0x3F800000#32 = 1 := by
  simp [Ideal.ofBits, Ideal.ieee, -EReal.coe_mul]; norm_num

/-- The host's division of two vectors reads elementwise. -/
theorem hostDivf_apply {s : Shape} {φ : FTy} (x y : FVec Ideal s φ) (i : s.Idx) :
    Host.divf x y i = Ideal.div (x i) (y i) := rfl

section Total

variable (out : (⟨Cert.ReferenceIdeal.S1000000x2, .f32⟩ : BufTy).Contents (Elt Ideal))
  (B : (⟨Cert.ReferenceIdeal.S1000000, .i32⟩ : BufTy).Contents (Elt Ideal))
  (T : ℕ → FVec Ideal Cert.KernelIdeal.S2000x2 .f32) (bt : ℕ → Vec Ideal Cert.KernelIdeal.S2000x1 .i32)
  (b4 : Vec Ideal Cert.KernelIdeal.S2 .f32)
  (acc : ℕ → Vec Ideal Cert.KernelIdeal.S1024x2 .f32 × Vec Ideal Cert.KernelIdeal.S1024x1 .f32)

/-- After tile n the two accumulators hold the tiles' contributions so far. -/
theorem acc_eq
    (h0 : acc 0 = (k2_pay2 (F := Ideal) (T 0) b4 (bt 0) (k2_pay5 (F := Ideal)), k2_pay3 (F := Ideal) (bt 0) (k2_pay6 (F := Ideal))))
    (hs : ∀ n, n + 1 < 500 → acc (n + 1)
      = (k2_pay2 (F := Ideal) (T (n + 1)) b4 (bt (n + 1)) (acc n).1, k2_pay3 (F := Ideal) (bt (n + 1)) (acc n).2))
    (g : Fin 1024) (d : Fin 2) (n : ℕ) (hn : n < 500) :
    (acc n).1 (ix2 g d)
        = ∑ t ∈ Finset.range (n + 1), ∑ r : Fin 2000, k2_pay1 (F := Ideal) (bt t) (ix2 g r) * (T t (ix2 r d) + b4 (ix1 d))
      ∧ (acc n).2 (ix2 g (0 : Fin 1))
        = ∑ t ∈ Finset.range (n + 1), ∑ r : Fin 2000, k2_pay1 (F := Ideal) (bt t) (ix2 g r) := by
  induction n with
  | zero =>
    rw [h0]
    refine ⟨?_, ?_⟩
    · show k2_pay2 (F := Ideal) (T 0) b4 (bt 0) (k2_pay5 (F := Ideal)) (ix2 g d) = _
      rw [pay2_apply, pay5_apply, zero_add, Finset.sum_range_one]
    · show k2_pay3 (F := Ideal) (bt 0) (k2_pay6 (F := Ideal)) (ix2 g (0 : Fin 1)) = _
      rw [pay3_apply, pay6_apply, zero_add, Finset.sum_range_one]
  | succ n ih =>
    have ih' := ih (by omega)
    rw [hs n hn]
    refine ⟨?_, ?_⟩
    · show k2_pay2 (F := Ideal) (T (n + 1)) b4 (bt (n + 1)) (acc n).1 (ix2 g d) = _
      rw [pay2_apply, ih'.1, Finset.sum_range_succ _ (n + 1)]
    · show k2_pay3 (F := Ideal) (bt (n + 1)) (acc n).2 (ix2 g (0 : Fin 1)) = _
      rw [pay3_apply, ih'.2, Finset.sum_range_succ _ (n + 1)]

/-- One tile's contribution to the sums of graph g: its rows whose index word reads g. -/
theorem tile_sums
    (hT : ∀ t (ht : t < 500) (r : Fin 2000) (d : Fin 2),
      T t (ix2 r d) + b4 (ix1 d) = out (ix2 (⟨2000 * t + r.val, by omega⟩ : Fin 1000000) d))
    (hb : ∀ t (ht : t < 500) (r : Fin 2000),
      bt t (ix2 r (0 : Fin 1)) = B (ix1 (⟨2000 * t + r.val, by omega⟩ : Fin 1000000)))
    (g : Fin 1024) (d : Fin 2) (t : Fin 500) (r : Fin 2000) :
    k2_pay1 (F := Ideal) (bt t.val) (ix2 g r) * (T t.val (ix2 r d) + b4 (ix1 d))
      = if (B (ix1 (⟨2000 * t.val + r.val, by have := t.isLt; have := r.isLt; omega⟩ : Fin 1000000))).toInt = (g.val : ℤ)
          then out (ix2 (⟨2000 * t.val + r.val, by have := t.isLt; have := r.isLt; omega⟩ : Fin 1000000) d) else 0 := by
  rw [onehot_apply, hb t.val t.isLt r, hT t.val t.isLt r d]
  by_cases hw : (B (ix1 (⟨2000 * t.val + r.val, by have := t.isLt; have := r.isLt; omega⟩ : Fin 1000000))).toInt = (g.val : ℤ)
  · rw [if_pos ((word_eq_iff g _).mpr hw), if_pos hw, one_mul]
  · rw [if_neg (mt (word_eq_iff g _).mp hw), if_neg hw, zero_mul]

/-- One tile's contribution to the count of graph g. -/
theorem tile_counts
    (hb : ∀ t (ht : t < 500) (r : Fin 2000),
      bt t (ix2 r (0 : Fin 1)) = B (ix1 (⟨2000 * t + r.val, by omega⟩ : Fin 1000000)))
    (g : Fin 1024) (t : Fin 500) (r : Fin 2000) :
    k2_pay1 (F := Ideal) (bt t.val) (ix2 g r)
      = if (B (ix1 (⟨2000 * t.val + r.val, by have := t.isLt; have := r.isLt; omega⟩ : Fin 1000000))).toInt = (g.val : ℤ)
          then (1 : EReal) else 0 := by
  rw [onehot_apply, hb t.val t.isLt r]
  exact if_congr (word_eq_iff g _) rfl rfl

/-- The reference's pooled mean at (g, d): the rows whose index word reads g, summed, over their number clamped
    below by the word of 1.0. -/
theorem ref_pool (g : Fin 1024) (d : Fin 2) :
    Host.divf (F := Ideal) (φ := .f32) (Host.scatterAdd (F := Ideal) (φ := .f32) Cert.ReferenceIdeal.scatter_S1024x2_S1000000x1_S1000000x2_1_0_0_1
          (Cert.ReferenceIdeal.Read.val_main_v106 (F := Ideal)) (Cert.ReferenceIdeal.Read.val_main_v107 (F := Ideal) B) out)
          (Cert.ReferenceIdeal.Read.val_main_v116 (F := Ideal) B) (ix2 g d)
      = Ideal.div (∑ m : Fin 1000000, if (B (ix1 m)).toInt = (g.val : ℤ) then out (ix2 m d) else 0)
          (max (∑ m : Fin 1000000, if (B (ix1 m)).toInt = (g.val : ℤ) then (1 : EReal) else 0)
            (Ideal.ofBits .f32 0x3F800000#32)) := by
  have e115 : Cert.ReferenceIdeal.Read.idx_main_v115 (Cert.ReferenceIdeal.Read.idx_main_v116 (ix2 g d)) = ix1 g :=
    funext fun a => Fin.ext (by match a with | ⟨0, _⟩ => rfl)
  have e107 : ∀ n : Fin 1000000, Cert.ReferenceIdeal.Read.idx_main_v107 (ix2 n (0 : Fin 1)) = ix1 n := fun n =>
    funext fun a => Fin.ext (by match a with | ⟨0, _⟩ => rfl)
  have e111 : ∀ n : Fin 1000000, Cert.ReferenceIdeal.Read.idx_main_v111 (ix2 n (0 : Fin 1)) = ix1 n := fun n =>
    funext fun a => Fin.ext (by match a with | ⟨0, _⟩ => rfl)
  rw [hostDivf_apply, sums_scatter_apply, Cert.ReferenceIdeal.Read.val_main_v116_apply, Cert.ReferenceIdeal.Read.val_main_v115_apply, Cert.ReferenceIdeal.Read.val_main_v114_apply, e115]
  unfold Cert.ReferenceIdeal.Read.val_main_v112
  rw [counts_scatter_apply]
  simp only [Cert.ReferenceIdeal.Read.val_main_v106_apply, Cert.ReferenceIdeal.Read.val_main_cst_18_apply, Cert.ReferenceIdeal.Read.val_main_v110_apply, Cert.ReferenceIdeal.Read.val_main_cst_20_apply,
    Cert.ReferenceIdeal.Read.val_main_v107_apply, Cert.ReferenceIdeal.Read.val_main_v111_apply, e107, e111, Cert.ReferenceIdeal.Read.val_main_v109_apply, Cert.ReferenceIdeal.Read.val_main_cst_19_apply,
    Cert.ReferenceIdeal.Read.val_main_v113_apply, Cert.ReferenceIdeal.Read.val_main_cst_21_apply,
    Ideal.ofBits_def, Ideal.ofBits_zero_f32, ofBits_one_f32, zero_add, Ideal.hostDivf_def, Ideal.maximumf_def]

/-- The kernel's division of the two accumulators, read at (g, d). -/
theorem pay4_apply (S : Vec Ideal Cert.KernelIdeal.S1024x2 .f32) (C : Vec Ideal Cert.KernelIdeal.S1024x1 .f32) (g : Fin 1024) (d : Fin 2) :
    k2_pay4 (F := Ideal) S C (ix2 g d)
      = Ideal.div (S (ix2 g d)) (max (C (ix2 g (0 : Fin 1))) (Ideal.ofBits .f32 0x3F800000#32)) := by
  unfold k2_pay4
  rw [divf_apply, broadcastTo_a1_ab_apply, maximumf_apply, broadcast_apply]
  rfl

/-- The pooled means: the kernel's two accumulators after the last tile, divided, are the reference's scatter of
    the rows into the graphs divided by the clamped counts. -/
theorem pool_total
    (hT : ∀ t (ht : t < 500) (r : Fin 2000) (d : Fin 2),
      T t (ix2 r d) + b4 (ix1 d) = out (ix2 (⟨2000 * t + r.val, by omega⟩ : Fin 1000000) d))
    (hb : ∀ t (ht : t < 500) (r : Fin 2000),
      bt t (ix2 r (0 : Fin 1)) = B (ix1 (⟨2000 * t + r.val, by omega⟩ : Fin 1000000)))
    (h0 : acc 0 = (k2_pay2 (F := Ideal) (T 0) b4 (bt 0) (k2_pay5 (F := Ideal)), k2_pay3 (F := Ideal) (bt 0) (k2_pay6 (F := Ideal))))
    (hs : ∀ n, n + 1 < 500 → acc (n + 1)
      = (k2_pay2 (F := Ideal) (T (n + 1)) b4 (bt (n + 1)) (acc n).1, k2_pay3 (F := Ideal) (bt (n + 1)) (acc n).2))
    (g : Fin 1024) (d : Fin 2) :
    k2_pay4 (F := Ideal) (acc 499).1 (acc 499).2 (ix2 g d)
      = Host.divf (Host.scatterAdd (F := Ideal) Cert.ReferenceIdeal.scatter_S1024x2_S1000000x1_S1000000x2_1_0_0_1
          (Cert.ReferenceIdeal.Read.val_main_v106 (F := Ideal)) (Cert.ReferenceIdeal.Read.val_main_v107 (F := Ideal) B) out)
          (Cert.ReferenceIdeal.Read.val_main_v116 (F := Ideal) B) (ix2 g d) := by
  obtain ⟨hS, hC⟩ := acc_eq T bt b4 acc h0 hs g d 499 (by omega)
  rw [show (499 + 1 : ℕ) = 500 from rfl, Finset.sum_range] at hS hC
  have hS' : (acc 499).1 (ix2 g d)
      = ∑ m : Fin 1000000, if (B (ix1 m)).toInt = (g.val : ℤ) then out (ix2 m d) else 0 :=
    (hS.trans (Finset.sum_congr rfl fun t _ => Finset.sum_congr rfl fun r _ => tile_sums out B T bt b4 hT hb g d t r)).trans
      (sum_tiles fun m : Fin 1000000 => if (B (ix1 m)).toInt = (g.val : ℤ) then out (ix2 m d) else 0)
  have hC' : (acc 499).2 (ix2 g (0 : Fin 1))
      = ∑ m : Fin 1000000, if (B (ix1 m)).toInt = (g.val : ℤ) then (1 : EReal) else 0 :=
    (hC.trans (Finset.sum_congr rfl fun t _ => Finset.sum_congr rfl fun r _ => tile_counts B bt hb g t r)).trans
      (sum_tiles fun m : Fin 1000000 => if (B (ix1 m)).toInt = (g.val : ℤ) then (1 : EReal) else 0)
  rw [pay4_apply, ref_pool, hS', hC']

end Total

end Cert.Val.Pool

end
-- ==== Proof.Val.PoolRows.lean ====
/-
  One tile of the pooling kernel against the reference's stages %77–%105, row by row.

  For a row with residual h₂ = conv + h (two features) both sides compute a = h₂ · W₃ᵀ + b₃ (64 features), the mean
  m = (Σ a) / 64, the variance v = (Σ (a − m)·(a − m)) / 64, the normalised row (a − m) · rsqrt(v + 64), and its
  product with W₄ᵀ, in the same order with the same operations; the reference adds b₄, and its two sums start from
  the zero word. Both sides are read at an index down to one function of the row of 64 features, and the tile's
  rows are rows 2000·t … 2000·t + 1999 of the reference.
-/
import proofs.«407804_j50861002719257_4_alg».proof.Proof.Gen.KernelIdeal.Skeleton
import proofs.«407804_j50861002719257_4_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option Elab.async false

noncomputable section

namespace Cert.Val.PoolRows

open Idealize.ShloMosaic Idealize.ShloMosaic.ValueIdx Idealize.SL.Sem
open Cert.KernelIdeal.Gen

/-! ## Column forms of the layout operations -/

/-- An `[a, 1]` column cast to `[a]` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_fc1_0 (i : Cert.KernelIdeal.S2000x64.Idx) (q : Cert.KernelIdeal.dot_S2000x2_S2x64_S2000x64_1_0_0_1_n_n.contr.Idx) :
    (Cert.KernelIdeal.dot_S2000x2_S2x64_S2000x64_1_0_0_1_n_n.lhsIdx i q 0).val = (i 0).val := by
  unfold DotDims.lhsIdx
  rw [dif_neg (show ¬(0 : Fin Cert.KernelIdeal.S2000x2.rank) ∈ Cert.KernelIdeal.dot_S2000x2_S2x64_S2000x64_1_0_0_1_n_n.lhsBatch by decide), dif_pos (show (0 : Fin Cert.KernelIdeal.S2000x2.rank) ∈ Cert.KernelIdeal.dot_S2000x2_S2x64_S2000x64_1_0_0_1_n_n.lhsNonContracting by decide)]
  rfl
theorem lhs_fc1_1 (i : Cert.KernelIdeal.S2000x64.Idx) (q : Cert.KernelIdeal.dot_S2000x2_S2x64_S2000x64_1_0_0_1_n_n.contr.Idx) :
    (Cert.KernelIdeal.dot_S2000x2_S2x64_S2000x64_1_0_0_1_n_n.lhsIdx i q 1).val = (q ⟨0, by decide⟩).val :=
  Cert.KernelIdeal.dot_S2000x2_S2x64_S2000x64_1_0_0_1_n_n.lhsIdx_val_of_single rfl i q
theorem rhs_fc1_0 (i : Cert.KernelIdeal.S2000x64.Idx) (q : Cert.KernelIdeal.dot_S2000x2_S2x64_S2000x64_1_0_0_1_n_n.contr.Idx) :
    (Cert.KernelIdeal.dot_S2000x2_S2x64_S2000x64_1_0_0_1_n_n.rhsIdx i q 0).val = (q ⟨0, by decide⟩).val :=
  Cert.KernelIdeal.dot_S2000x2_S2x64_S2000x64_1_0_0_1_n_n.rhsIdx_val_of_single rfl i q
theorem rhs_fc1_1 (i : Cert.KernelIdeal.S2000x64.Idx) (q : Cert.KernelIdeal.dot_S2000x2_S2x64_S2000x64_1_0_0_1_n_n.contr.Idx) :
    (Cert.KernelIdeal.dot_S2000x2_S2x64_S2000x64_1_0_0_1_n_n.rhsIdx i q 1).val = (i 1).val := by
  unfold DotDims.rhsIdx
  rw [dif_neg (show ¬(1 : Fin Cert.KernelIdeal.S2x64.rank) ∈ Cert.KernelIdeal.dot_S2000x2_S2x64_S2000x64_1_0_0_1_n_n.rhsBatch by decide), dif_pos (show (1 : Fin Cert.KernelIdeal.S2x64.rank) ∈ Cert.KernelIdeal.dot_S2000x2_S2x64_S2000x64_1_0_0_1_n_n.rhsNonContracting by decide)]
  rfl

/-- The product into the zero accumulator, read at (p, c): the sum over the 2 contracted coordinates. -/
theorem fc1_matmul_apply (A : FVec Ideal Cert.KernelIdeal.S2000x2 .f32) (B : FVec Ideal Cert.KernelIdeal.S2x64 .f32) (p : Fin 2000) (c : Fin 64) :
    matmul Cert.KernelIdeal.dot_S2000x2_S2x64_S2000x64_1_0_0_1_n_n none A B (constant (F := Ideal) Cert.KernelIdeal.S2000x64 .f32 0x00000000#32) (ix2 p c)
      = ∑ k : Fin 2, A (ix2 p k) * B (ix2 k c) := by
  simp only [matmul]
  rw [Ideal.matmul_constant_zero_apply, ← Equiv.sum_comp (ValueIdx.contrEquiv1 Cert.KernelIdeal.dot_S2000x2_S2x64_S2000x64_1_0_0_1_n_n 2 rfl rfl).symm]
  refine Finset.sum_congr rfl fun k _ => ?_
  have hk := ValueIdx.contrEquiv1_symm_val Cert.KernelIdeal.dot_S2000x2_S2x64_S2000x64_1_0_0_1_n_n 2 rfl rfl k
  have el : Cert.KernelIdeal.dot_S2000x2_S2x64_S2000x64_1_0_0_1_n_n.lhsIdx (ix2 p c) ((ValueIdx.contrEquiv1 Cert.KernelIdeal.dot_S2000x2_S2x64_S2000x64_1_0_0_1_n_n 2 rfl rfl).symm k) = ix2 p k := funext fun a => Fin.ext (by
    match a with
    | ⟨0, _⟩ => exact lhs_fc1_0 _ _
    | ⟨1, _⟩ => exact (lhs_fc1_1 _ _).trans hk)
  have er : Cert.KernelIdeal.dot_S2000x2_S2x64_S2000x64_1_0_0_1_n_n.rhsIdx (ix2 p c) ((ValueIdx.contrEquiv1 Cert.KernelIdeal.dot_S2000x2_S2x64_S2000x64_1_0_0_1_n_n 2 rfl rfl).symm k) = ix2 k c := funext fun a => Fin.ext (by
    match a with
    | ⟨0, _⟩ => exact (rhs_fc1_0 _ _).trans hk
    | ⟨1, _⟩ => exact rhs_fc1_1 _ _)
  rw [el, er]

theorem lhs_fc2_0 (i : Cert.KernelIdeal.S2000x2.Idx) (q : Cert.KernelIdeal.dot_S2000x64_S64x2_S2000x2_1_0_0_1_n_n.contr.Idx) :
    (Cert.KernelIdeal.dot_S2000x64_S64x2_S2000x2_1_0_0_1_n_n.lhsIdx i q 0).val = (i 0).val := by
  unfold DotDims.lhsIdx
  rw [dif_neg (show ¬(0 : Fin Cert.KernelIdeal.S2000x64.rank) ∈ Cert.KernelIdeal.dot_S2000x64_S64x2_S2000x2_1_0_0_1_n_n.lhsBatch by decide), dif_pos (show (0 : Fin Cert.KernelIdeal.S2000x64.rank) ∈ Cert.KernelIdeal.dot_S2000x64_S64x2_S2000x2_1_0_0_1_n_n.lhsNonContracting by decide)]
  rfl
theorem lhs_fc2_1 (i : Cert.KernelIdeal.S2000x2.Idx) (q : Cert.KernelIdeal.dot_S2000x64_S64x2_S2000x2_1_0_0_1_n_n.contr.Idx) :
    (Cert.KernelIdeal.dot_S2000x64_S64x2_S2000x2_1_0_0_1_n_n.lhsIdx i q 1).val = (q ⟨0, by decide⟩).val :=
  Cert.KernelIdeal.dot_S2000x64_S64x2_S2000x2_1_0_0_1_n_n.lhsIdx_val_of_single rfl i q
theorem rhs_fc2_0 (i : Cert.KernelIdeal.S2000x2.Idx) (q : Cert.KernelIdeal.dot_S2000x64_S64x2_S2000x2_1_0_0_1_n_n.contr.Idx) :
    (Cert.KernelIdeal.dot_S2000x64_S64x2_S2000x2_1_0_0_1_n_n.rhsIdx i q 0).val = (q ⟨0, by decide⟩).val :=
  Cert.KernelIdeal.dot_S2000x64_S64x2_S2000x2_1_0_0_1_n_n.rhsIdx_val_of_single rfl i q
theorem rhs_fc2_1 (i : Cert.KernelIdeal.S2000x2.Idx) (q : Cert.KernelIdeal.dot_S2000x64_S64x2_S2000x2_1_0_0_1_n_n.contr.Idx) :
    (Cert.KernelIdeal.dot_S2000x64_S64x2_S2000x2_1_0_0_1_n_n.rhsIdx i q 1).val = (i 1).val := by
  unfold DotDims.rhsIdx
  rw [dif_neg (show ¬(1 : Fin Cert.KernelIdeal.S64x2.rank) ∈ Cert.KernelIdeal.dot_S2000x64_S64x2_S2000x2_1_0_0_1_n_n.rhsBatch by decide), dif_pos (show (1 : Fin Cert.KernelIdeal.S64x2.rank) ∈ Cert.KernelIdeal.dot_S2000x64_S64x2_S2000x2_1_0_0_1_n_n.rhsNonContracting by decide)]
  rfl

/-- The product into the zero accumulator, read at (p, c): the sum over the 64 contracted coordinates. -/
theorem fc2_matmul_apply (A : FVec Ideal Cert.KernelIdeal.S2000x64 .f32) (B : FVec Ideal Cert.KernelIdeal.S64x2 .f32) (p : Fin 2000) (c : Fin 2) :
    matmul Cert.KernelIdeal.dot_S2000x64_S64x2_S2000x2_1_0_0_1_n_n none A B (constant (F := Ideal) Cert.KernelIdeal.S2000x2 .f32 0x00000000#32) (ix2 p c)
      = ∑ k : Fin 64, A (ix2 p k) * B (ix2 k c) := by
  simp only [matmul]
  rw [Ideal.matmul_constant_zero_apply, ← Equiv.sum_comp (ValueIdx.contrEquiv1 Cert.KernelIdeal.dot_S2000x64_S64x2_S2000x2_1_0_0_1_n_n 64 rfl rfl).symm]
  refine Finset.sum_congr rfl fun k _ => ?_
  have hk := ValueIdx.contrEquiv1_symm_val Cert.KernelIdeal.dot_S2000x64_S64x2_S2000x2_1_0_0_1_n_n 64 rfl rfl k
  have el : Cert.KernelIdeal.dot_S2000x64_S64x2_S2000x2_1_0_0_1_n_n.lhsIdx (ix2 p c) ((ValueIdx.contrEquiv1 Cert.KernelIdeal.dot_S2000x64_S64x2_S2000x2_1_0_0_1_n_n 64 rfl rfl).symm k) = ix2 p k := funext fun a => Fin.ext (by
    match a with
    | ⟨0, _⟩ => exact lhs_fc2_0 _ _
    | ⟨1, _⟩ => exact (lhs_fc2_1 _ _).trans hk)
  have er : Cert.KernelIdeal.dot_S2000x64_S64x2_S2000x2_1_0_0_1_n_n.rhsIdx (ix2 p c) ((ValueIdx.contrEquiv1 Cert.KernelIdeal.dot_S2000x64_S64x2_S2000x2_1_0_0_1_n_n 64 rfl rfl).symm k) = ix2 k c := funext fun a => Fin.ext (by
    match a with
    | ⟨0, _⟩ => exact (rhs_fc2_0 _ _).trans hk
    | ⟨1, _⟩ => exact rhs_fc2_1 _ _)
  rw [el, er]

/-! ## One row through fc1, the normalisation over the 64 features, and fc2 -/

/-- The reciprocal square root of a vector reads elementwise. -/
theorem rsqrt_apply {s : Shape} (v : FVec Ideal s .f32) (i : s.Idx) : rsqrt v i = Ideal.rsqrt (v i) := rfl

/-- The first weight matrix transposed: (j, k) reads (k, j). -/
theorem w3T_eq (w3 : Vec Ideal Cert.KernelIdeal.S64x2 .f32) :
    transpose Cert.KernelIdeal.S2x64 [1, 0] w3 transposes_S64x2_p1_0_S2x64
      = fun i => w3 (ix2 (⟨(i 1).val, (i 1).isLt⟩ : Fin 64) (⟨(i 0).val, (i 0).isLt⟩ : Fin 2)) := by
  funext i
  obtain ⟨j, k, rfl⟩ : ∃ (j : Fin 2) (k : Fin 64), i = ix2 j k := ⟨i 0, i 1, eq_ix2 i⟩
  exact transpose_ix2_apply w3 _ j k

/-- The second weight matrix transposed: (k, d) reads (d, k). -/
theorem w4T_eq (w4 : Vec Ideal Cert.KernelIdeal.S2x64 .f32) :
    transpose Cert.KernelIdeal.S64x2 [1, 0] w4 transposes_S2x64_p1_0_S64x2
      = fun i => w4 (ix2 (⟨(i 1).val, (i 1).isLt⟩ : Fin 2) (⟨(i 0).val, (i 0).isLt⟩ : Fin 64)) := by
  funext i
  obtain ⟨k, d, rfl⟩ : ∃ (k : Fin 64) (d : Fin 2), i = ix2 k d := ⟨i 0, i 1, eq_ix2 i⟩
  exact transpose_ix2_apply w4 _ k d

/-- The index (k, x) with its coordinates read back in the other order is (x, k). -/
theorem ix2_swap {a b : ℕ} (k : Fin a) (x : Fin b) (h1 : (ix2 k x 1).val < b) (h0 : (ix2 k x 0).val < a) :
    ix2 (⟨(ix2 k x 1).val, h1⟩ : Fin b) (⟨(ix2 k x 0).val, h0⟩ : Fin a) = ix2 x k := rfl

/-- The sum over the 64 features of row r. -/
theorem rowsum_apply (src : FVec Ideal Cert.KernelIdeal.S2000x64 .f32) (r : Fin 2000) :
    multiReduction .add [1] Cert.KernelIdeal.S2000 src 0x00000000#32 reduces_S2000x64_S2000 (.inl rfl) rfl (ix1 r)
      = ∑ k : Fin 64, src (ix2 r k) := by
  refine (Ideal.multiReduction_add_single src 0x00000000#32 reduces_S2000x64_S2000 _ _ (ix1 r)).trans ?_
  refine Finset.sum_congr rfl fun k _ => ?_
  exact congrArg _ (funext fun a => Fin.ext (by match a with | ⟨0, _⟩ => rfl | ⟨1, _⟩ => rfl))

/-- A row a of 64 features normalised (mean m = Σa/64, variance v = Σ(a−m)²/64, scale rsqrt(v + 64)) and
    contracted with a row w of the second weight matrix. The divisor and the epsilon are the word of 64.0. -/
def rowOut (a w : Fin 64 → EReal) : EReal :=
  ∑ k : Fin 64,
    ((a k - Ideal.div (∑ k' : Fin 64, a k') (Ideal.ofBits .f32 0x42800000#32))
      * Ideal.rsqrt (Ideal.div (∑ k' : Fin 64,
            (a k' - Ideal.div (∑ k'' : Fin 64, a k'') (Ideal.ofBits .f32 0x42800000#32))
              * (a k' - Ideal.div (∑ k'' : Fin 64, a k'') (Ideal.ofBits .f32 0x42800000#32)))
          (Ideal.ofBits .f32 0x42800000#32) + Ideal.ofBits .f32 0x42800000#32))
      * w k

/-- The kernel's tile of fc2 outputs before the bias, at row r and column d. -/
theorem pay7_apply (cb hb : Vec Ideal Cert.KernelIdeal.S2000x2 .f32) (w3 : Vec Ideal Cert.KernelIdeal.S64x2 .f32) (b3 : Vec Ideal Cert.KernelIdeal.S64 .f32)
    (w4 : Vec Ideal Cert.KernelIdeal.S2x64 .f32) (r : Fin 2000) (d : Fin 2) :
    k2_pay7 (F := Ideal) cb hb w3 b3 w4 (ix2 r d)
      = rowOut (fun k => (∑ j : Fin 2, (cb (ix2 r j) + hb (ix2 r j)) * w3 (ix2 k j)) + b3 (ix1 k))
          (fun k => w4 (ix2 d k)) := by
  unfold k2_pay7
  rw [w3T_eq, w4T_eq, fc2_matmul_apply]
  simp only [mulf_apply, subf_apply, addf_apply, divf_apply, broadcastTo_a1_ab_apply,
    broadcastTo_1b_ab_apply, shapeCast_a_a1_apply, shapeCast_a_1a_apply, shapeCast_self, rsqrt_apply, broadcast_apply,
    fc1_matmul_apply]
  rw [rowsum_apply]
  simp only [mulf_apply, subf_apply, addf_apply, divf_apply, broadcastTo_a1_ab_apply,
    broadcastTo_1b_ab_apply, shapeCast_a_a1_apply, shapeCast_a_1a_apply, shapeCast_self, rsqrt_apply, broadcast_apply,
    fc1_matmul_apply]
  rw [rowsum_apply]
  simp only [mulf_apply, subf_apply, addf_apply, divf_apply, broadcastTo_a1_ab_apply,
    broadcastTo_1b_ab_apply, shapeCast_a_a1_apply, shapeCast_a_1a_apply, shapeCast_self, rsqrt_apply, broadcast_apply,
    fc1_matmul_apply]
  rw [rowsum_apply]
  simp only [mulf_apply, subf_apply, addf_apply, divf_apply, broadcastTo_a1_ab_apply,
    broadcastTo_1b_ab_apply, shapeCast_a_a1_apply, shapeCast_a_1a_apply, shapeCast_self, rsqrt_apply, broadcast_apply,
    fc1_matmul_apply, Ideal.ofBits_def]
  simp only [rowOut, ix2_swap]

/-! ## The reference's stages %77–%105 at row n

The stages' composed index functions, at indices written by coordinates. -/

section Ref
open Cert.ReferenceIdeal.Read

theorem e102l (n : Fin 1000000) (d : Fin 2) (k : Fin 64) : lidx_main_v102 (ix2 n d) k = ix2 n k := funext fun a => Fin.ext (by match a with | ⟨0, _⟩ => rfl | ⟨1, _⟩ => rfl)
theorem e102r (n : Fin 1000000) (d : Fin 2) (k : Fin 64) : ridx_main_v102 (ix2 n d) k = ix2 k d := funext fun a => Fin.ext (by match a with | ⟨0, _⟩ => rfl | ⟨1, _⟩ => rfl)
theorem e101 (k : Fin 64) (d : Fin 2) : idx_main_v101 (ix2 k d) = ix2 d k := funext fun a => Fin.ext (by match a with | ⟨0, _⟩ => rfl | ⟨1, _⟩ => rfl)
theorem e99 (n : Fin 1000000) (k : Fin 64) : idx_main_v99 (ix2 n k) = ix2 n (0 : Fin 1) := funext fun a => Fin.ext (by match a with | ⟨0, _⟩ => rfl | ⟨1, _⟩ => rfl)
theorem e94 (n : Fin 1000000) (k : Fin 64) : idx_main_v94 (ix2 n k) = ix2 n (0 : Fin 1) := funext fun a => Fin.ext (by match a with | ⟨0, _⟩ => rfl | ⟨1, _⟩ => rfl)
theorem e87 (n : Fin 1000000) (k : Fin 64) : idx_main_v87 (ix2 n k) = ix2 n (0 : Fin 1) := funext fun a => Fin.ext (by match a with | ⟨0, _⟩ => rfl | ⟨1, _⟩ => rfl)
theorem e91 (n : Fin 1000000) : idx_main_v91 (ix2 n (0 : Fin 1)) = ix1 n := funext fun a => Fin.ext (by match a with | ⟨0, _⟩ => rfl)
theorem e84 (n : Fin 1000000) : idx_main_v84 (ix2 n (0 : Fin 1)) = ix1 n := funext fun a => Fin.ext (by match a with | ⟨0, _⟩ => rfl)
theorem e90 (n : Fin 1000000) (k : Fin 64) : idx_main_v90 (ix1 n) k = ix2 n k := funext fun a => Fin.ext (by match a with | ⟨0, _⟩ => rfl | ⟨1, _⟩ => rfl)
theorem e83 (n : Fin 1000000) (k : Fin 64) : idx_main_v83 (ix1 n) k = ix2 n k := funext fun a => Fin.ext (by match a with | ⟨0, _⟩ => rfl | ⟨1, _⟩ => rfl)
theorem e79l (n : Fin 1000000) (k : Fin 64) (j : Fin 2) : lidx_main_v79 (ix2 n k) j = ix2 n j := funext fun a => Fin.ext (by match a with | ⟨0, _⟩ => rfl | ⟨1, _⟩ => rfl)
theorem e79r (n : Fin 1000000) (k : Fin 64) (j : Fin 2) : ridx_main_v79 (ix2 n k) j = ix2 j k := funext fun a => Fin.ext (by match a with | ⟨0, _⟩ => rfl | ⟨1, _⟩ => rfl)
theorem e78 (j : Fin 2) (k : Fin 64) : idx_main_v78 (ix2 j k) = ix2 k j := funext fun a => Fin.ext (by match a with | ⟨0, _⟩ => rfl | ⟨1, _⟩ => rfl)
theorem e81 (n : Fin 1000000) (k : Fin 64) : idx_main_v81 (ix2 n k) = ix2 (0 : Fin 1) k := funext fun a => Fin.ext (by match a with | ⟨0, _⟩ => rfl | ⟨1, _⟩ => rfl)
theorem e80 (k : Fin 64) : idx_main_v80 (ix2 (0 : Fin 1) k) = ix1 k := funext fun a => Fin.ext (by match a with | ⟨0, _⟩ => rfl)
theorem e104 (n : Fin 1000000) (d : Fin 2) : idx_main_v104 (ix2 n d) = ix2 (0 : Fin 1) d := funext fun a => Fin.ext (by match a with | ⟨0, _⟩ => rfl | ⟨1, _⟩ => rfl)
theorem e103 (d : Fin 2) : idx_main_v103 (ix2 (0 : Fin 1) d) = ix1 d := funext fun a => Fin.ext (by match a with | ⟨0, _⟩ => rfl)

/-- The reference's fc1 row: stage %82 at (n, k). -/
theorem ref_fc1 (x0 : (⟨Cert.ReferenceIdeal.S1000000x2, .f32⟩ : BufTy).Contents (Elt Ideal)) (x1 : (⟨Cert.ReferenceIdeal.S2x2, .f32⟩ : BufTy).Contents (Elt Ideal)) (x2 x3 x4 x5 : (⟨Cert.ReferenceIdeal.S2, .f32⟩ : BufTy).Contents (Elt Ideal)) (x6 : (⟨Cert.ReferenceIdeal.S2x2, .f32⟩ : BufTy).Contents (Elt Ideal)) (x7 : (⟨Cert.ReferenceIdeal.S2, .f32⟩ : BufTy).Contents (Elt Ideal)) (x8 : (⟨Cert.ReferenceIdeal.S64x2, .f32⟩ : BufTy).Contents (Elt Ideal)) (x9 : (⟨Cert.ReferenceIdeal.S64, .f32⟩ : BufTy).Contents (Elt Ideal)) (x10 : (⟨Cert.ReferenceIdeal.S2x64, .f32⟩ : BufTy).Contents (Elt Ideal)) (x11 : (⟨Cert.ReferenceIdeal.S2, .f32⟩ : BufTy).Contents (Elt Ideal)) (x12 : (⟨Cert.ReferenceIdeal.S2x16000000, .i32⟩ : BufTy).Contents (Elt Ideal)) (n : Fin 1000000) (k : Fin 64) :
    val_main_v82 (F := Ideal) x0 x1 x2 x3 x4 x5 x6 x7 x8 x9 x12 (ix2 n k)
      = (∑ j : Fin 2, (val_main_v76 (F := Ideal) x0 x1 x2 x3 x4 x5 x6 x7 x12 (ix2 n j)
            + val_main_v28 (F := Ideal) x0 x1 x2 x3 x4 x5 (ix2 n j)) * x8 (ix2 k j)) + x9 (ix1 k) := by
  rw [val_main_v82_apply, val_main_v79_apply, val_main_v81_apply, val_main_v80_apply, e81, e80, Ideal.addf_def]
  refine congrArg (· + x9 (ix1 k)) (Finset.sum_congr rfl fun j _ => ?_)
  rw [e79l, e79r, val_main_v77_apply, val_main_v78_apply, e78, Ideal.addf_def]

/-- The reference's stages %83–%105 at row n as the row function of its fc1 row a. -/
theorem ref_norm (x0 : (⟨Cert.ReferenceIdeal.S1000000x2, .f32⟩ : BufTy).Contents (Elt Ideal)) (x1 : (⟨Cert.ReferenceIdeal.S2x2, .f32⟩ : BufTy).Contents (Elt Ideal)) (x2 x3 x4 x5 : (⟨Cert.ReferenceIdeal.S2, .f32⟩ : BufTy).Contents (Elt Ideal)) (x6 : (⟨Cert.ReferenceIdeal.S2x2, .f32⟩ : BufTy).Contents (Elt Ideal)) (x7 : (⟨Cert.ReferenceIdeal.S2, .f32⟩ : BufTy).Contents (Elt Ideal)) (x8 : (⟨Cert.ReferenceIdeal.S64x2, .f32⟩ : BufTy).Contents (Elt Ideal)) (x9 : (⟨Cert.ReferenceIdeal.S64, .f32⟩ : BufTy).Contents (Elt Ideal)) (x10 : (⟨Cert.ReferenceIdeal.S2x64, .f32⟩ : BufTy).Contents (Elt Ideal)) (x11 : (⟨Cert.ReferenceIdeal.S2, .f32⟩ : BufTy).Contents (Elt Ideal)) (x12 : (⟨Cert.ReferenceIdeal.S2x16000000, .i32⟩ : BufTy).Contents (Elt Ideal)) (n : Fin 1000000) (a : Fin 64 → EReal)
    (ha : ∀ k : Fin 64, val_main_v82 (F := Ideal) x0 x1 x2 x3 x4 x5 x6 x7 x8 x9 x12 (ix2 n k) = a k) (d : Fin 2) :
    val_main_v105 (F := Ideal) x0 x1 x2 x3 x4 x5 x6 x7 x8 x9 x10 x11 x12 (ix2 n d)
      = rowOut a (fun k => x10 (ix2 d k)) + x11 (ix1 d) := by
  -- the mean
  have h86 : val_main_v86 (F := Ideal) x0 x1 x2 x3 x4 x5 x6 x7 x8 x9 x12 (ix2 n (0 : Fin 1)) = Ideal.div (∑ k : Fin 64, a k) (Ideal.ofBits .f32 0x42800000#32) := by
    rw [val_main_v86_apply, val_main_v84_apply, val_main_v85_apply, val_main_cst_14_apply, e84, val_main_v83_apply,
      val_main_cst_13_apply, Ideal.hostDivf_def, Ideal.ofBits_def, Ideal.ofBits_def, Ideal.ofBits_zero_f32, zero_add]
    refine congrArg (fun s => Ideal.div s (Ideal.ofBits .f32 0x42800000#32)) (Finset.sum_congr rfl fun k _ => ?_)
    rw [e83, ha]
  have h88 : ∀ k : Fin 64, val_main_v88 (F := Ideal) x0 x1 x2 x3 x4 x5 x6 x7 x8 x9 x12 (ix2 n k) = a k - Ideal.div (∑ k : Fin 64, a k) (Ideal.ofBits .f32 0x42800000#32) := fun k => by
    rw [val_main_v88_apply, ha, val_main_v87_apply, e87, h86, Ideal.subf_def]
  have h95 : ∀ k : Fin 64, val_main_v95 (F := Ideal) x0 x1 x2 x3 x4 x5 x6 x7 x8 x9 x12 (ix2 n k) = a k - Ideal.div (∑ k : Fin 64, a k) (Ideal.ofBits .f32 0x42800000#32) := fun k => by
    rw [val_main_v95_apply, ha, val_main_v94_apply, e94, h86, Ideal.subf_def]
  -- the variance
  have h93 : val_main_v93 (F := Ideal) x0 x1 x2 x3 x4 x5 x6 x7 x8 x9 x12 (ix2 n (0 : Fin 1)) = Ideal.div (∑ k : Fin 64, (a k - Ideal.div (∑ k : Fin 64, a k) (Ideal.ofBits .f32 0x42800000#32)) * (a k - Ideal.div (∑ k : Fin 64, a k) (Ideal.ofBits .f32 0x42800000#32))) (Ideal.ofBits .f32 0x42800000#32) := by
    rw [val_main_v93_apply, val_main_v91_apply, val_main_v92_apply, val_main_cst_16_apply, e91, val_main_v90_apply,
      val_main_cst_15_apply, Ideal.hostDivf_def, Ideal.ofBits_def, Ideal.ofBits_def, Ideal.ofBits_zero_f32, zero_add]
    refine congrArg (fun s => Ideal.div s (Ideal.ofBits .f32 0x42800000#32)) (Finset.sum_congr rfl fun k _ => ?_)
    rw [e90, val_main_v89_apply, h88, Ideal.mulf_def]
  -- the scale
  have h98 : val_main_v98 (F := Ideal) x0 x1 x2 x3 x4 x5 x6 x7 x8 x9 x12 (ix2 n (0 : Fin 1)) = Ideal.rsqrt (Ideal.div (∑ k : Fin 64, (a k - Ideal.div (∑ k : Fin 64, a k) (Ideal.ofBits .f32 0x42800000#32)) * (a k - Ideal.div (∑ k : Fin 64, a k) (Ideal.ofBits .f32 0x42800000#32))) (Ideal.ofBits .f32 0x42800000#32) + Ideal.ofBits .f32 0x42800000#32) := by
    rw [val_main_v98_apply, val_main_v97_apply, h93, val_main_v96_apply, val_main_cst_17_apply,
      Ideal.hostUnary_rsqrt_def, Ideal.addf_def, Ideal.ofBits_def]
  have h100 : ∀ k : Fin 64, val_main_v100 (F := Ideal) x0 x1 x2 x3 x4 x5 x6 x7 x8 x9 x12 (ix2 n k)
      = (a k - Ideal.div (∑ k : Fin 64, a k) (Ideal.ofBits .f32 0x42800000#32)) * Ideal.rsqrt (Ideal.div (∑ k : Fin 64, (a k - Ideal.div (∑ k : Fin 64, a k) (Ideal.ofBits .f32 0x42800000#32)) * (a k - Ideal.div (∑ k : Fin 64, a k) (Ideal.ofBits .f32 0x42800000#32))) (Ideal.ofBits .f32 0x42800000#32) + Ideal.ofBits .f32 0x42800000#32) := fun k => by
    rw [val_main_v100_apply, h95, val_main_v99_apply, e99, h98, Ideal.mulf_def]
  rw [val_main_v105_apply, val_main_v102_apply, val_main_v104_apply, val_main_v103_apply, e104, e103, Ideal.addf_def]
  refine congrArg (· + x11 (ix1 d)) ?_
  unfold rowOut
  refine Finset.sum_congr rfl fun k _ => ?_
  rw [e102l, e102r, h100, val_main_v101_apply, e101]

/-- One tile of the pooling kernel against the reference, row by row: with the tile's conv and h blocks read as rows
    2000·t … 2000·t + 1999 of the reference's %76 and %28, the tile's fc2 output plus the bias is the reference's
    %105 at those rows. -/
theorem tile_rows (x0 : (⟨Cert.ReferenceIdeal.S1000000x2, .f32⟩ : BufTy).Contents (Elt Ideal)) (x1 : (⟨Cert.ReferenceIdeal.S2x2, .f32⟩ : BufTy).Contents (Elt Ideal)) (x2 x3 x4 x5 : (⟨Cert.ReferenceIdeal.S2, .f32⟩ : BufTy).Contents (Elt Ideal)) (x6 : (⟨Cert.ReferenceIdeal.S2x2, .f32⟩ : BufTy).Contents (Elt Ideal)) (x7 : (⟨Cert.ReferenceIdeal.S2, .f32⟩ : BufTy).Contents (Elt Ideal)) (x8 : (⟨Cert.ReferenceIdeal.S64x2, .f32⟩ : BufTy).Contents (Elt Ideal)) (x9 : (⟨Cert.ReferenceIdeal.S64, .f32⟩ : BufTy).Contents (Elt Ideal)) (x10 : (⟨Cert.ReferenceIdeal.S2x64, .f32⟩ : BufTy).Contents (Elt Ideal)) (x11 : (⟨Cert.ReferenceIdeal.S2, .f32⟩ : BufTy).Contents (Elt Ideal)) (x12 : (⟨Cert.ReferenceIdeal.S2x16000000, .i32⟩ : BufTy).Contents (Elt Ideal)) (t : ℕ) (ht : t < 500) (cb hb : Vec Ideal Cert.KernelIdeal.S2000x2 .f32)
    (hc : ∀ (r : Fin 2000) (k : Fin 2), cb (ix2 r k)
      = val_main_v76 (F := Ideal) x0 x1 x2 x3 x4 x5 x6 x7 x12 (ix2 (⟨2000 * t + r.val, by omega⟩ : Fin 1000000) k))
    (hh : ∀ (r : Fin 2000) (k : Fin 2), hb (ix2 r k)
      = val_main_v28 (F := Ideal) x0 x1 x2 x3 x4 x5 (ix2 (⟨2000 * t + r.val, by omega⟩ : Fin 1000000) k))
    (r : Fin 2000) (d : Fin 2) :
    k2_pay7 (F := Ideal) cb hb x8 x9 x10 (ix2 r d) + x11 (ix1 d)
      = val_main_v105 (F := Ideal) x0 x1 x2 x3 x4 x5 x6 x7 x8 x9 x10 x11 x12
          (ix2 (⟨2000 * t + r.val, by omega⟩ : Fin 1000000) d) := by
  rw [pay7_apply, ref_norm x0 x1 x2 x3 x4 x5 x6 x7 x8 x9 x10 x11 x12 _ _
    (fun k => ref_fc1 x0 x1 x2 x3 x4 x5 x6 x7 x8 x9 x10 x11 x12 _ k) d]
  refine congrArg (· + x11 (ix1 d)) (congrArg (fun a => rowOut a _) (funext fun k => ?_))
  refine congrArg (· + x9 (ix1 k)) (Finset.sum_congr rfl fun j _ => ?_)
  rw [hc, hh]

end Ref

end Cert.Val.PoolRows

end
-- ==== Proof.Val.Glue2.lean ====
/-
  The pooling kernel's result array against the reference's last stage.

  The result window has one block, the whole 1024×2 array, and the pipeline writes it back once, after
  tile 499; so the array ends holding what that tile stored: the accumulated per-segment sums divided by
  the accumulated per-segment counts clamped below by one. Tile t's blocks are rows 2000·t … 2000·t + 1999
  of the two node features and of the segment ids, and the four small parameters whole; so the
  accumulators after tile 499 are the fold over the 500 tiles that the reference's segment sum and
  segment count compute over all 10⁶ rows at once.
-/
import proofs.«407804_j50861002719257_4_alg».proof.Proof.KI.Data2
import proofs.«407804_j50861002719257_4_alg».proof.Proof.Val.Pool
import proofs.«407804_j50861002719257_4_alg».proof.Proof.Val.PoolRows
import proofs.«407804_j50861002719257_4_alg».proof.Proof.Gen.ReferenceIdeal.Read
import Idealize.ShloMosaic.Lib.Pipeline.Value
import Idealize.ShloMosaic.Lib.ValueLayout

set_option maxRecDepth 16384

noncomputable section

namespace Cert.Val.Glue2

open Idealize.ShloMosaic Idealize.ShloMosaic.TcCoe Idealize.ShloMosaic.ValueIdx Idealize.SL.Sem
open Idealize.ShloMosaic.Pipeline (Dat)
open Cert.KernelIdeal Cert.KernelIdeal.Gen

section Blocks

variable (V : (c : Dev nD) → (b : Ref sig .tc) → Buf (Elt Ideal) ((c : Thread nD τ).loc b)) (c : Dev nD)

/-! ## Where each window's block sits in its array -/

/-- The block indices, decided over the grid: the three tiled windows are at block t along the rows, the
    four parameters and the result at block 0. -/
theorem blockIdx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0 :=
  (by decide +kernel : ∀ t : Fin grid2.N, _)

/-- Tile t of the first node feature is rows 2000·t … of its array. -/
theorem blk0_read (t : Fin cfg2.N) (x : S2000x2.Idx) (i : S1000000x2.Idx)
    (h0 : (i 0).val = 2000 * t.val + (x 0).val) (h1 : (i 1).val = (x 1).val) :
    (iblk2 V c 0 t : Vec Ideal S2000x2 .f32) x = (V c main_v48 : S1000000x2.Idx → Elt Ideal .f32) i := by
  obtain ⟨e0, e1, -⟩ := blockIdx t
  unfold iblk2
  rw [View.read_apply]
  show V c main_v48 _ = V c main_v48 _
  congr 1
  funext a
  apply Fin.ext
  match a with
  | ⟨0, _⟩ => show win2_0.index t (0 : Fin 2) * 2000 + 1 * (x 0).val = (i 0).val; rw [e0, h0]; omega
  | ⟨1, _⟩ => show win2_0.index t (1 : Fin 2) * 2 + 1 * (x 1).val = (i 1).val; rw [e1, h1]; omega

/-- Tile t of the second node feature is rows 2000·t … of its array. -/
theorem blk1_read (t : Fin cfg2.N) (x : S2000x2.Idx) (i : S1000000x2.Idx)
    (h0 : (i 0).val = 2000 * t.val + (x 0).val) (h1 : (i 1).val = (x 1).val) :
    (iblk2 V c 1 t : Vec Ideal S2000x2 .f32) x = (V c main_v5_0 : S1000000x2.Idx → Elt Ideal .f32) i := by
  obtain ⟨-, -, e0, e1, -⟩ := blockIdx t
  unfold iblk2
  rw [View.read_apply]
  show V c main_v5_0 _ = V c main_v5_0 _
  congr 1
  funext a
  apply Fin.ext
  match a with
  | ⟨0, _⟩ => show win2_1.index t (0 : Fin 2) * 2000 + 1 * (x 0).val = (i 0).val; rw [e0, h0]; omega
  | ⟨1, _⟩ => show win2_1.index t (1 : Fin 2) * 2 + 1 * (x 1).val = (i 1).val; rw [e1, h1]; omega

/-- Tile t of the segment ids is rows 2000·t … of their one-column array. -/
theorem blk2_read (t : Fin cfg2.N) (x : S2000x1.Idx) (i : S1000000x1.Idx)
    (h0 : (i 0).val = 2000 * t.val + (x 0).val) (h1 : (i 1).val = (x 1).val) :
    (iblk2 V c 2 t : Vec Ideal S2000x1 .i32) x = (V c main_v49 : S1000000x1.Idx → Elt Ideal .i32) i := by
  obtain ⟨-, -, -, -, e0, e1, -⟩ := blockIdx t
  unfold iblk2
  rw [View.read_apply]
  show V c main_v49 _ = V c main_v49 _
  congr 1
  funext a
  apply Fin.ext
  match a with
  | ⟨0, _⟩ => show win2_2.index t (0 : Fin 2) * 2000 + 1 * (x 0).val = (i 0).val; rw [e0, h0]; omega
  | ⟨1, _⟩ => show win2_2.index t (1 : Fin 2) * 1 + 1 * (x 1).val = (i 1).val; rw [e1, h1]; omega

/-- Each of the four parameters is whole at every tile. -/
theorem blk3_eq (t : Fin cfg2.N) : (iblk2 V c 3 t : Vec Ideal S64x2 .f32) = (V c main_arg8 : S64x2.Idx → Elt Ideal .f32) := by
  obtain ⟨-, -, -, -, -, -, e0, e1, -⟩ := blockIdx t
  funext x
  unfold iblk2
  rw [View.read_apply]
  show V c main_arg8 _ = V c main_arg8 _
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 2 + 1 * (x 1).val = (x 1).val; rw [e1]; omega
theorem blk4_eq (t : Fin cfg2.N) : (iblk2 V c 4 t : Vec Ideal S64 .f32) = (V c main_arg9 : S64.Idx → Elt Ideal .f32) := by
  obtain ⟨-, -, -, -, -, -, -, -, e0, -⟩ := blockIdx t
  funext x
  unfold iblk2
  rw [View.read_apply]
  show V c main_arg9 _ = V c main_arg9 _
  congr 1
  funext a
  apply Fin.ext
  match a with
  | ⟨0, _⟩ => show win2_4.index t (0 : Fin 1) * 64 + 1 * (x 0).val = (x 0).val; rw [e0]; omega
theorem blk5_eq (t : Fin cfg2.N) : (iblk2 V c 5 t : Vec Ideal S2x64 .f32) = (V c main_arg10 : S2x64.Idx → Elt Ideal .f32) := by
  obtain ⟨-, -, -, -, -, -, -, -, -, e0, e1, -⟩ := blockIdx t
  funext x
  unfold iblk2
  rw [View.read_apply]
  show V c main_arg10 _ = V c main_arg10 _
  congr 1
  funext a
  apply Fin.ext
  match a with
  | ⟨0, _⟩ => show win2_5.index t (0 : Fin 2) * 2 + 1 * (x 0).val = (x 0).val; rw [e0]; omega
  | ⟨1, _⟩ => show win2_5.index t (1 : Fin 2) * 64 + 1 * (x 1).val = (x 1).val; rw [e1]; omega
theorem blk6_eq (t : Fin cfg2.N) : (iblk2 V c 6 t : Vec Ideal S2 .f32) = (V c main_arg11 : S2.Idx → Elt Ideal .f32) := by
  obtain ⟨-, -, -, -, -, -, -, -, -, -, -, e0, -⟩ := blockIdx t
  funext x
  unfold iblk2
  rw [View.read_apply]
  show V c main_arg11 _ = V c main_arg11 _
  congr 1
  funext a
  apply Fin.ext
  match a with
  | ⟨0, _⟩ => show win2_6.index t (0 : Fin 1) * 2 + 1 * (x 0).val = (x 0).val; rw [e0]; omega

/-! ## The result window: one block, written back once -/

/-- The last tile. -/
abbrev tLast : Fin cfg2.N := ⟨499, lt_of_lt_of_eq (by decide : 499 < 500) N_2.symm⟩

/-- An index of the result array is in tile t's block iff each coordinate is in the block's range. -/
theorem mem_blk7 (t : Fin cfg2.N) (i : S1024x2.Idx) :
    i ∈ ((cfg2.win 7).blk t).view.set ↔ ∀ a : Fin 2, win2_7.index t a * S1024x2.size a ≤ (i a).val ∧ (i a).val < win2_7.index t a * S1024x2.size a + S1024x2.size a := by
  show i ∈ ((View.whole main_v50).slice (win2_7.rect t)).set ↔ _
  rw [View.set_slice_whole, Rect.mem_set_unit]
  exact Iff.rfl

/-- Every index of the result array is in the block the last tile writes back. -/
theorem cover7 (i : S1024x2.Idx) : ∃ t : Fin cfg2.N, (cfg2.win 7).flush t = true ∧ i ∈ ((cfg2.win 7).blk t).view.set := by
  obtain ⟨-, -, -, -, -, -, -, -, -, -, -, -, e0, e1⟩ := blockIdx tLast
  refine ⟨tLast, (flush2_7 tLast).mpr rfl, ?_⟩
  rw [mem_blk7]
  have hi0 : (i 0).val < 1024 := (i 0).isLt
  have hi1 : (i 1).val < 2 := (i 1).isLt
  intro a
  match a with
  | ⟨0, _⟩ => show win2_7.index tLast (0 : Fin 2) * 1024 ≤ (i 0).val ∧ (i 0).val < win2_7.index tLast (0 : Fin 2) * 1024 + 1024; rw [e0]; omega
  | ⟨1, _⟩ => show win2_7.index tLast (1 : Fin 2) * 2 ≤ (i 1).val ∧ (i 1).val < win2_7.index tLast (1 : Fin 2) * 2 + 2; rw [e1]; omega

/-- Block 0 of the result array, read back, is the array. -/
theorem read_blk7 (t : Fin cfg2.N) (G : S1024x2.Idx → Elt Ideal .f32) :
    ((cfg2.win 7).blk t).view.read (Elt Ideal) G = G := by
  obtain ⟨-, -, -, -, -, -, -, -, -, -, -, -, e0, e1⟩ := blockIdx t
  funext j
  rw [View.read_apply]
  refine congrArg G (funext fun a => Fin.ext ?_)
  match a with
  | ⟨0, _⟩ => show win2_7.index t (0 : Fin 2) * 1024 + 1 * (j 0).val = (j 0).val; rw [e0]; omega
  | ⟨1, _⟩ => show win2_7.index t (1 : Fin 2) * 2 + 1 * (j 1).val = (j 1).val; rw [e1]; omega

/-! ## The tiles' values and the accumulators as sequences over the naturals -/

theorem pos2 : 0 < cfg2.N := lt_of_lt_of_eq (by decide : 0 < 500) N_2.symm

/-- Tile t's per-node output before its last bias (past the grid, tile 0's: never read). -/
def tileOut (t : ℕ) : FVec Ideal S2000x2 .f32 :=
  if h : t < cfg2.N then k2_pay7 (iblk2 V c 0 ⟨t, h⟩) (iblk2 V c 1 ⟨t, h⟩) (iblk2 V c 3 ⟨t, h⟩) (iblk2 V c 4 ⟨t, h⟩) (iblk2 V c 5 ⟨t, h⟩) else k2_pay7 (iblk2 V c 0 ⟨0, pos2⟩) (iblk2 V c 1 ⟨0, pos2⟩) (iblk2 V c 3 ⟨0, pos2⟩) (iblk2 V c 4 ⟨0, pos2⟩) (iblk2 V c 5 ⟨0, pos2⟩)
/-- Tile t's segment ids. -/
def tileIds (t : ℕ) : Vec Ideal S2000x1 .i32 :=
  if h : t < cfg2.N then iblk2 V c 2 ⟨t, h⟩ else iblk2 V c 2 ⟨0, pos2⟩
/-- The accumulators after tile n. -/
def accSeq (n : ℕ) : Vec Ideal S1024x2 .f32 × Vec Ideal S1024x1 .f32 :=
  if h : n < cfg2.N then accs2 V c n h else accs2 V c 0 pos2

theorem tileOut_of_lt (t : ℕ) (h : t < cfg2.N) : tileOut V c t = k2_pay7 (iblk2 V c 0 ⟨t, h⟩) (iblk2 V c 1 ⟨t, h⟩) (iblk2 V c 3 ⟨t, h⟩) (iblk2 V c 4 ⟨t, h⟩) (iblk2 V c 5 ⟨t, h⟩) := dif_pos h
theorem tileIds_of_lt (t : ℕ) (h : t < cfg2.N) : tileIds V c t = iblk2 V c 2 ⟨t, h⟩ := dif_pos h
theorem accSeq_of_lt (n : ℕ) (h : n < cfg2.N) : accSeq V c n = accs2 V c n h := dif_pos h

theorem accSeq_zero :
    accSeq V c 0 = (k2_pay2 (tileOut V c 0) (iblk2 V c 6 ⟨0, pos2⟩) (tileIds V c 0) (k2_pay5 (F := Ideal)), k2_pay3 (tileIds V c 0) (k2_pay6 (F := Ideal))) := by
  rw [accSeq_of_lt V c 0 pos2, tileOut_of_lt V c 0 pos2, tileIds_of_lt V c 0 pos2]; rfl

theorem accSeq_succ (n : ℕ) (h : n + 1 < cfg2.N) :
    accSeq V c (n + 1) = (k2_pay2 (tileOut V c (n + 1)) (iblk2 V c 6 ⟨n + 1, h⟩) (tileIds V c (n + 1)) (accSeq V c n).1,
      k2_pay3 (tileIds V c (n + 1)) (accSeq V c n).2) := by
  rw [accSeq_of_lt V c (n + 1) h, accSeq_of_lt V c n (Nat.lt_of_succ_lt h), tileOut_of_lt V c (n + 1) h, tileIds_of_lt V c (n + 1) h]; rfl

/-- The result window is never cut: what is written back is what the body left. -/
theorem cut7 (t : Fin cfg2.N) (f : Vec Ideal S1024x2 .f32) : (cfg2.win 7).cut (grid2.coords t) f = f := rfl

end Blocks

/-! ## The result array -/

section Result

variable (V : (c : Dev nD) → (b : Ref sig .tc) → Buf (Elt Ideal) ((c : Thread nD τ).loc b)) (c : Dev nD)
variable (x0 : (⟨Cert.ReferenceIdeal.S1000000x2, .f32⟩ : BufTy).Contents (Elt Ideal)) (x1 : (⟨Cert.ReferenceIdeal.S2x2, .f32⟩ : BufTy).Contents (Elt Ideal))
    (x2 x3 x4 x5 : (⟨Cert.ReferenceIdeal.S2, .f32⟩ : BufTy).Contents (Elt Ideal)) (x6 : (⟨Cert.ReferenceIdeal.S2x2, .f32⟩ : BufTy).Contents (Elt Ideal)) (x7 : (⟨Cert.ReferenceIdeal.S2, .f32⟩ : BufTy).Contents (Elt Ideal))
    (x8 : (⟨Cert.ReferenceIdeal.S64x2, .f32⟩ : BufTy).Contents (Elt Ideal)) (x9 : (⟨Cert.ReferenceIdeal.S64, .f32⟩ : BufTy).Contents (Elt Ideal)) (x10 : (⟨Cert.ReferenceIdeal.S2x64, .f32⟩ : BufTy).Contents (Elt Ideal))
    (x11 : (⟨Cert.ReferenceIdeal.S2, .f32⟩ : BufTy).Contents (Elt Ideal)) (x12 : (⟨Cert.ReferenceIdeal.S2x16000000, .i32⟩ : BufTy).Contents (Elt Ideal)) (x13 : (⟨Cert.ReferenceIdeal.S1000000, .i32⟩ : BufTy).Contents (Elt Ideal))

/-- A tile's per-node output with its last bias, from plain blocks and parameters equal to the
    reference's, given the same fact at the reference's own parameters. -/
theorem tile_glue
    (d1 : ∀ (t : ℕ) (ht : t < 500) (cb hb : Vec Ideal S2000x2 .f32)
      (hc : ∀ (r : Fin 2000) (k : Fin 2), cb (ix2 r k) = Cert.ReferenceIdeal.Read.val_main_v76 (F := Ideal) x0 x1 x2 x3 x4 x5 x6 x7 x12 (ix2 ⟨2000 * t + r.val, by omega⟩ k))
      (hh : ∀ (r : Fin 2000) (k : Fin 2), hb (ix2 r k) = Cert.ReferenceIdeal.Read.val_main_v28 (F := Ideal) x0 x1 x2 x3 x4 x5 (ix2 ⟨2000 * t + r.val, by omega⟩ k))
      (r : Fin 2000) (d : Fin 2),
      k2_pay7 cb hb x8 x9 x10 (ix2 r d) + x11 (ix1 d) = Cert.ReferenceIdeal.Read.val_main_v105 (F := Ideal) x0 x1 x2 x3 x4 x5 x6 x7 x8 x9 x10 x11 x12 (ix2 ⟨2000 * t + r.val, by omega⟩ d))
    (t : ℕ) (ht : t < 500) (cb hb : Vec Ideal S2000x2 .f32) (w3 : Vec Ideal S64x2 .f32) (b3 : Vec Ideal S64 .f32)
    (w4 : Vec Ideal S2x64 .f32)
    (hc : ∀ (r : Fin 2000) (k : Fin 2), cb (ix2 r k) = Cert.ReferenceIdeal.Read.val_main_v76 (F := Ideal) x0 x1 x2 x3 x4 x5 x6 x7 x12 (ix2 ⟨2000 * t + r.val, by omega⟩ k))
    (hh : ∀ (r : Fin 2000) (k : Fin 2), hb (ix2 r k) = Cert.ReferenceIdeal.Read.val_main_v28 (F := Ideal) x0 x1 x2 x3 x4 x5 (ix2 ⟨2000 * t + r.val, by omega⟩ k))
    (e3 : w3 = x8) (e4 : b3 = x9) (e5 : w4 = x10) (r : Fin 2000) (d : Fin 2) :
    k2_pay7 cb hb w3 b3 w4 (ix2 r d) + x11 (ix1 d) = Cert.ReferenceIdeal.Read.val_main_v105 (F := Ideal) x0 x1 x2 x3 x4 x5 x6 x7 x8 x9 x10 x11 x12 (ix2 ⟨2000 * t + r.val, by omega⟩ d) := by
  subst e3 e4 e5
  exact d1 t ht cb hb hc hh r d

/-- Tile t's first feature block is the reference's rows 2000·t …. -/
theorem rows0 (h48 : V c main_v48 = Cert.ReferenceIdeal.Read.val_main_v76 (F := Ideal) x0 x1 x2 x3 x4 x5 x6 x7 x12) (t : ℕ) (ht : t < 500) (h : t < cfg2.N) (r : Fin 2000) (k : Fin 2) :
    (iblk2 V c 0 ⟨t, h⟩ : Vec Ideal S2000x2 .f32) (ix2 r k) = Cert.ReferenceIdeal.Read.val_main_v76 (F := Ideal) x0 x1 x2 x3 x4 x5 x6 x7 x12 (ix2 ⟨2000 * t + r.val, by omega⟩ k) :=
  (blk0_read V c ⟨t, h⟩ (ix2 r k) (ix2 ⟨2000 * t + r.val, by omega⟩ k) rfl rfl).trans (congrFun h48 _)

/-- Tile t's second feature block is the reference's rows 2000·t …. -/
theorem rows1 (h50 : V c main_v5_0 = Cert.ReferenceIdeal.Read.val_main_v28 (F := Ideal) x0 x1 x2 x3 x4 x5) (t : ℕ) (ht : t < 500) (h : t < cfg2.N) (r : Fin 2000) (k : Fin 2) :
    (iblk2 V c 1 ⟨t, h⟩ : Vec Ideal S2000x2 .f32) (ix2 r k) = Cert.ReferenceIdeal.Read.val_main_v28 (F := Ideal) x0 x1 x2 x3 x4 x5 (ix2 ⟨2000 * t + r.val, by omega⟩ k) :=
  (blk1_read V c ⟨t, h⟩ (ix2 r k) (ix2 ⟨2000 * t + r.val, by omega⟩ k) rfl rfl).trans (congrFun h50 _)

/-- Tile t's segment ids are the reference's rows 2000·t …. -/
theorem ids_rows (h49 : ∀ n : Fin 1000000, V c main_v49 (ix2 n 0) = x13 (ix1 n)) (t : ℕ) (ht : t < 500) (r : Fin 2000) :
    tileIds V c t (ix2 r 0) = x13 (ix1 ⟨2000 * t + r.val, by omega⟩) := by
  have h : t < cfg2.N := lt_of_lt_of_eq ht N_2.symm
  rw [tileIds_of_lt V c t h]
  exact (blk2_read V c ⟨t, h⟩ (ix2 r 0) (ix2 ⟨2000 * t + r.val, by omega⟩ 0) rfl rfl).trans (h49 _)

/-- Tile t's per-node output with its last bias is the reference's rows 2000·t …, given the tile fact. -/
theorem out_rows (h48 : V c main_v48 = Cert.ReferenceIdeal.Read.val_main_v76 (F := Ideal) x0 x1 x2 x3 x4 x5 x6 x7 x12)
    (h50 : V c main_v5_0 = Cert.ReferenceIdeal.Read.val_main_v28 (F := Ideal) x0 x1 x2 x3 x4 x5)
    (h8 : V c main_arg8 = x8) (h9 : V c main_arg9 = x9) (h10 : V c main_arg10 = x10)
    (d1 : ∀ (t : ℕ) (ht : t < 500) (cb hb : Vec Ideal S2000x2 .f32)
      (hc : ∀ (r : Fin 2000) (k : Fin 2), cb (ix2 r k) = Cert.ReferenceIdeal.Read.val_main_v76 (F := Ideal) x0 x1 x2 x3 x4 x5 x6 x7 x12 (ix2 ⟨2000 * t + r.val, by omega⟩ k))
      (hh : ∀ (r : Fin 2000) (k : Fin 2), hb (ix2 r k) = Cert.ReferenceIdeal.Read.val_main_v28 (F := Ideal) x0 x1 x2 x3 x4 x5 (ix2 ⟨2000 * t + r.val, by omega⟩ k))
      (r : Fin 2000) (d : Fin 2),
      k2_pay7 cb hb x8 x9 x10 (ix2 r d) + x11 (ix1 d) = Cert.ReferenceIdeal.Read.val_main_v105 (F := Ideal) x0 x1 x2 x3 x4 x5 x6 x7 x8 x9 x10 x11 x12 (ix2 ⟨2000 * t + r.val, by omega⟩ d))
    (t : ℕ) (ht : t < 500) (r : Fin 2000) (d : Fin 2) :
    tileOut V c t (ix2 r d) + x11 (ix1 d) = Cert.ReferenceIdeal.Read.val_main_v105 (F := Ideal) x0 x1 x2 x3 x4 x5 x6 x7 x8 x9 x10 x11 x12 (ix2 ⟨2000 * t + r.val, by omega⟩ d) := by
  have h : t < cfg2.N := lt_of_lt_of_eq ht N_2.symm
  rw [tileOut_of_lt V c t h]
  exact tile_glue x0 x1 x2 x3 x4 x5 x6 x7 x8 x9 x10 x11 x12 d1 t ht (iblk2 V c 0 ⟨t, h⟩) (iblk2 V c 1 ⟨t, h⟩) (iblk2 V c 3 ⟨t, h⟩) (iblk2 V c 4 ⟨t, h⟩) (iblk2 V c 5 ⟨t, h⟩)
    (rows0 V c x0 x1 x2 x3 x4 x5 x6 x7 x12 h48 t ht h) (rows1 V c x0 x1 x2 x3 x4 x5 h50 t ht h)
    ((blk3_eq V c ⟨t, h⟩).trans h8) ((blk4_eq V c ⟨t, h⟩).trans h9) ((blk5_eq V c ⟨t, h⟩).trans h10) r d

/-- The accumulators' sequence starts from zero at tile 0, with the reference's last bias. -/
theorem acc_zero (h11 : V c main_arg11 = x11) :
    accSeq V c 0 = (k2_pay2 (tileOut V c 0) x11 (tileIds V c 0) (k2_pay5 (F := Ideal)), k2_pay3 (tileIds V c 0) (k2_pay6 (F := Ideal))) := by
  have e : (iblk2 V c 6 ⟨0, pos2⟩ : Vec Ideal S2 .f32) = x11 := (blk6_eq V c ⟨0, pos2⟩).trans h11
  rw [accSeq_zero V c, e]

/-- Every later tile adds to what the tile before left, with the reference's last bias. -/
theorem acc_succ (h11 : V c main_arg11 = x11) (n : ℕ) (hn : n + 1 < 500) :
    accSeq V c (n + 1) = (k2_pay2 (tileOut V c (n + 1)) x11 (tileIds V c (n + 1)) (accSeq V c n).1,
      k2_pay3 (tileIds V c (n + 1)) (accSeq V c n).2) := by
  have h : n + 1 < cfg2.N := lt_of_lt_of_eq hn N_2.symm
  have e : (iblk2 V c 6 ⟨n + 1, h⟩ : Vec Ideal S2 .f32) = x11 := (blk6_eq V c ⟨n + 1, h⟩).trans h11
  rw [accSeq_succ V c n h, e]

/-- What the last tile stores: the reference's segment sums divided by its clamped segment counts, given
    the tile fact (d1) and the fold fact (d2). -/
theorem last_value (h48 : V c main_v48 = Cert.ReferenceIdeal.Read.val_main_v76 (F := Ideal) x0 x1 x2 x3 x4 x5 x6 x7 x12)
    (h50 : V c main_v5_0 = Cert.ReferenceIdeal.Read.val_main_v28 (F := Ideal) x0 x1 x2 x3 x4 x5)
    (h49 : ∀ n : Fin 1000000, V c main_v49 (ix2 n 0) = x13 (ix1 n))
    (h8 : V c main_arg8 = x8) (h9 : V c main_arg9 = x9) (h10 : V c main_arg10 = x10) (h11 : V c main_arg11 = x11)
    (d1 : ∀ (t : ℕ) (ht : t < 500) (cb hb : Vec Ideal S2000x2 .f32)
      (hc : ∀ (r : Fin 2000) (k : Fin 2), cb (ix2 r k) = Cert.ReferenceIdeal.Read.val_main_v76 (F := Ideal) x0 x1 x2 x3 x4 x5 x6 x7 x12 (ix2 ⟨2000 * t + r.val, by omega⟩ k))
      (hh : ∀ (r : Fin 2000) (k : Fin 2), hb (ix2 r k) = Cert.ReferenceIdeal.Read.val_main_v28 (F := Ideal) x0 x1 x2 x3 x4 x5 (ix2 ⟨2000 * t + r.val, by omega⟩ k))
      (r : Fin 2000) (d : Fin 2),
      k2_pay7 cb hb x8 x9 x10 (ix2 r d) + x11 (ix1 d) = Cert.ReferenceIdeal.Read.val_main_v105 (F := Ideal) x0 x1 x2 x3 x4 x5 x6 x7 x8 x9 x10 x11 x12 (ix2 ⟨2000 * t + r.val, by omega⟩ d))
    (d2 : ∀ (out : (⟨Cert.ReferenceIdeal.S1000000x2, .f32⟩ : BufTy).Contents (Elt Ideal)) (B : (⟨Cert.ReferenceIdeal.S1000000, .i32⟩ : BufTy).Contents (Elt Ideal)) (b4 : Vec Ideal S2 .f32)
      (T : ℕ → FVec Ideal S2000x2 .f32) (bt : ℕ → Vec Ideal S2000x1 .i32)
      (hT : ∀ (t : ℕ) (ht : t < 500) (r : Fin 2000) (d : Fin 2), T t (ix2 r d) + b4 (ix1 d) = out (ix2 ⟨2000 * t + r.val, by omega⟩ d))
      (hb : ∀ (t : ℕ) (ht : t < 500) (r : Fin 2000), bt t (ix2 r 0) = B (ix1 ⟨2000 * t + r.val, by omega⟩))
      (acc : ℕ → Vec Ideal S1024x2 .f32 × Vec Ideal S1024x1 .f32)
      (h0 : acc 0 = (k2_pay2 (T 0) b4 (bt 0) (k2_pay5 (F := Ideal)), k2_pay3 (bt 0) (k2_pay6 (F := Ideal))))
      (hs : ∀ n, n + 1 < 500 → acc (n + 1) = (k2_pay2 (T (n + 1)) b4 (bt (n + 1)) (acc n).1, k2_pay3 (bt (n + 1)) (acc n).2))
      (g : Fin 1024) (d : Fin 2),
      k2_pay4 (acc 499).1 (acc 499).2 (ix2 g d) = Host.divf (F := Ideal) (φ := .f32) (Host.scatterAdd (F := Ideal) (φ := .f32) Cert.ReferenceIdeal.scatter_S1024x2_S1000000x1_S1000000x2_1_0_0_1 (Cert.ReferenceIdeal.Read.val_main_v106 (F := Ideal)) (Cert.ReferenceIdeal.Read.val_main_v107 (F := Ideal) B) out) (Cert.ReferenceIdeal.Read.val_main_v116 (F := Ideal) B) (ix2 g d)) :
    (k2_pay4 (accs2 V c 499 tLast.isLt).1 (accs2 V c 499 tLast.isLt).2 : Vec Ideal S1024x2 .f32)
      = Host.divf (F := Ideal) (φ := .f32) (Host.scatterAdd (F := Ideal) (φ := .f32) Cert.ReferenceIdeal.scatter_S1024x2_S1000000x1_S1000000x2_1_0_0_1 (Cert.ReferenceIdeal.Read.val_main_v106 (F := Ideal)) (Cert.ReferenceIdeal.Read.val_main_v107 (F := Ideal) x13) (Cert.ReferenceIdeal.Read.val_main_v105 (F := Ideal) x0 x1 x2 x3 x4 x5 x6 x7 x8 x9 x10 x11 x12)) (Cert.ReferenceIdeal.Read.val_main_v116 (F := Ideal) x13) := by
  funext j
  obtain ⟨g, d, rfl⟩ : ∃ (g : Fin 1024) (d : Fin 2), j = ix2 g d := ⟨j 0, j 1, eq_ix2 j⟩
  have key := d2 (Cert.ReferenceIdeal.Read.val_main_v105 (F := Ideal) x0 x1 x2 x3 x4 x5 x6 x7 x8 x9 x10 x11 x12) x13 x11 (tileOut V c) (tileIds V c)
    (out_rows V c x0 x1 x2 x3 x4 x5 x6 x7 x8 x9 x10 x11 x12 h48 h50 h8 h9 h10 d1)
    (ids_rows V c x13 h49)
    (accSeq V c) (acc_zero V c x11 h11) (acc_succ V c x11 h11) g d
  rw [accSeq_of_lt V c 499 tLast.isLt] at key
  exact key

/-- The reference's last stage is the quotient of its segment sums by its clamped segment counts. -/
theorem v117_eq : Cert.ReferenceIdeal.Read.val_main_v117 (F := Ideal) x0 x1 x2 x3 x4 x5 x6 x7 x8 x9 x10 x11 x12 x13 = Host.divf (F := Ideal) (φ := .f32) (Host.scatterAdd (F := Ideal) (φ := .f32) Cert.ReferenceIdeal.scatter_S1024x2_S1000000x1_S1000000x2_1_0_0_1 (Cert.ReferenceIdeal.Read.val_main_v106 (F := Ideal)) (Cert.ReferenceIdeal.Read.val_main_v107 (F := Ideal) x13) (Cert.ReferenceIdeal.Read.val_main_v105 (F := Ideal) x0 x1 x2 x3 x4 x5 x6 x7 x8 x9 x10 x11 x12)) (Cert.ReferenceIdeal.Read.val_main_v116 (F := Ideal) x13) := rfl

/-- The result array after the run is the reference's last stage, given the tile fact (d1) and the fold
    fact (d2). -/
theorem pool_array_of (h48 : V c main_v48 = Cert.ReferenceIdeal.Read.val_main_v76 (F := Ideal) x0 x1 x2 x3 x4 x5 x6 x7 x12)
    (h50 : V c main_v5_0 = Cert.ReferenceIdeal.Read.val_main_v28 (F := Ideal) x0 x1 x2 x3 x4 x5)
    (h49 : ∀ n : Fin 1000000, V c main_v49 (ix2 n 0) = x13 (ix1 n))
    (h8 : V c main_arg8 = x8) (h9 : V c main_arg9 = x9) (h10 : V c main_arg10 = x10) (h11 : V c main_arg11 = x11)
    (d1 : ∀ (t : ℕ) (ht : t < 500) (cb hb : Vec Ideal S2000x2 .f32)
      (hc : ∀ (r : Fin 2000) (k : Fin 2), cb (ix2 r k) = Cert.ReferenceIdeal.Read.val_main_v76 (F := Ideal) x0 x1 x2 x3 x4 x5 x6 x7 x12 (ix2 ⟨2000 * t + r.val, by omega⟩ k))
      (hh : ∀ (r : Fin 2000) (k : Fin 2), hb (ix2 r k) = Cert.ReferenceIdeal.Read.val_main_v28 (F := Ideal) x0 x1 x2 x3 x4 x5 (ix2 ⟨2000 * t + r.val, by omega⟩ k))
      (r : Fin 2000) (d : Fin 2),
      k2_pay7 cb hb x8 x9 x10 (ix2 r d) + x11 (ix1 d) = Cert.ReferenceIdeal.Read.val_main_v105 (F := Ideal) x0 x1 x2 x3 x4 x5 x6 x7 x8 x9 x10 x11 x12 (ix2 ⟨2000 * t + r.val, by omega⟩ d))
    (d2 : ∀ (out : (⟨Cert.ReferenceIdeal.S1000000x2, .f32⟩ : BufTy).Contents (Elt Ideal)) (B : (⟨Cert.ReferenceIdeal.S1000000, .i32⟩ : BufTy).Contents (Elt Ideal)) (b4 : Vec Ideal S2 .f32)
      (T : ℕ → FVec Ideal S2000x2 .f32) (bt : ℕ → Vec Ideal S2000x1 .i32)
      (hT : ∀ (t : ℕ) (ht : t < 500) (r : Fin 2000) (d : Fin 2), T t (ix2 r d) + b4 (ix1 d) = out (ix2 ⟨2000 * t + r.val, by omega⟩ d))
      (hb : ∀ (t : ℕ) (ht : t < 500) (r : Fin 2000), bt t (ix2 r 0) = B (ix1 ⟨2000 * t + r.val, by omega⟩))
      (acc : ℕ → Vec Ideal S1024x2 .f32 × Vec Ideal S1024x1 .f32)
      (h0 : acc 0 = (k2_pay2 (T 0) b4 (bt 0) (k2_pay5 (F := Ideal)), k2_pay3 (bt 0) (k2_pay6 (F := Ideal))))
      (hs : ∀ n, n + 1 < 500 → acc (n + 1) = (k2_pay2 (T (n + 1)) b4 (bt (n + 1)) (acc n).1, k2_pay3 (bt (n + 1)) (acc n).2))
      (g : Fin 1024) (d : Fin 2),
      k2_pay4 (acc 499).1 (acc 499).2 (ix2 g d) = Host.divf (F := Ideal) (φ := .f32) (Host.scatterAdd (F := Ideal) (φ := .f32) Cert.ReferenceIdeal.scatter_S1024x2_S1000000x1_S1000000x2_1_0_0_1 (Cert.ReferenceIdeal.Read.val_main_v106 (F := Ideal)) (Cert.ReferenceIdeal.Read.val_main_v107 (F := Ideal) B) out) (Cert.ReferenceIdeal.Read.val_main_v116 (F := Ideal) B) (ix2 g d)) :
    (dat2 V c).arrAt 7 cfg2.N = Cert.ReferenceIdeal.Read.val_main_v117 (F := Ideal) x0 x1 x2 x3 x4 x5 x6 x7 x8 x9 x10 x11 x12 x13 := by
  have hval := last_value V c x0 x1 x2 x3 x4 x5 x6 x7 x8 x9 x10 x11 x12 x13 h48 h50 h49 h8 h9 h10 h11 d1 d2
  rw [← v117_eq x0 x1 x2 x3 x4 x5 x6 x7 x8 x9 x10 x11 x12 x13] at hval
  generalize Cert.ReferenceIdeal.Read.val_main_v117 (F := Ideal) x0 x1 x2 x3 x4 x5 x6 x7 x8 x9 x10 x11 x12 x13 = G at hval ⊢
  refine (dat2 V c).arrAt_eq_of_cover 7 G (fun t hf => ?_) (fun i => cover7 i)
  have h499 : t.val = 499 := by
    have h1 := (flush2_7 t).mp hf
    have h2 : t.val < 500 := lt_of_lt_of_eq t.isLt N_2
    omega
  obtain rfl : t = tLast := Fin.ext h499
  show (cfg2.win 7).cut (grid2.coords tLast) ((dat2 V c).after 7 tLast) = _
  rw [after2_7, cut7]
  show (k2_pay4 (accs2 V c 499 tLast.isLt).1 (accs2 V c 499 tLast.isLt).2 : Vec Ideal S1024x2 .f32) = _
  rw [hval, read_blk7]

/-- The result array after the run is the reference's last stage, given the tile fact (d1) alone: the fold
    of the tiles' segment sums and counts over the 500 tiles is the reference's segment sum and count over
    all 10⁶ rows. -/
theorem pool_array_of_rows (h48 : V c main_v48 = Cert.ReferenceIdeal.Read.val_main_v76 (F := Ideal) x0 x1 x2 x3 x4 x5 x6 x7 x12)
    (h50 : V c main_v5_0 = Cert.ReferenceIdeal.Read.val_main_v28 (F := Ideal) x0 x1 x2 x3 x4 x5)
    (h49 : ∀ n : Fin 1000000, V c main_v49 (ix2 n 0) = x13 (ix1 n))
    (h8 : V c main_arg8 = x8) (h9 : V c main_arg9 = x9) (h10 : V c main_arg10 = x10) (h11 : V c main_arg11 = x11)
    (d1 : ∀ (t : ℕ) (ht : t < 500) (cb hb : Vec Ideal S2000x2 .f32)
      (hc : ∀ (r : Fin 2000) (k : Fin 2), cb (ix2 r k) = Cert.ReferenceIdeal.Read.val_main_v76 (F := Ideal) x0 x1 x2 x3 x4 x5 x6 x7 x12 (ix2 ⟨2000 * t + r.val, by omega⟩ k))
      (hh : ∀ (r : Fin 2000) (k : Fin 2), hb (ix2 r k) = Cert.ReferenceIdeal.Read.val_main_v28 (F := Ideal) x0 x1 x2 x3 x4 x5 (ix2 ⟨2000 * t + r.val, by omega⟩ k))
      (r : Fin 2000) (d : Fin 2),
      k2_pay7 cb hb x8 x9 x10 (ix2 r d) + x11 (ix1 d) = Cert.ReferenceIdeal.Read.val_main_v105 (F := Ideal) x0 x1 x2 x3 x4 x5 x6 x7 x8 x9 x10 x11 x12 (ix2 ⟨2000 * t + r.val, by omega⟩ d)) :
    (dat2 V c).arrAt 7 cfg2.N = Cert.ReferenceIdeal.Read.val_main_v117 (F := Ideal) x0 x1 x2 x3 x4 x5 x6 x7 x8 x9 x10 x11 x12 x13 :=
  pool_array_of V c x0 x1 x2 x3 x4 x5 x6 x7 x8 x9 x10 x11 x12 x13 h48 h50 h49 h8 h9 h10 h11 d1
    (fun out B b4 T bt hT hb acc h0 hs g d => Cert.Val.Pool.pool_total out B T bt b4 acc hT hb h0 hs g d)

/-- The pooling kernel's result array after the run is the reference's last stage: per segment, the sum of
    the per-node outputs of its rows divided by the number of its rows clamped below by one. -/
theorem pool_array (h48 : V c main_v48 = Cert.ReferenceIdeal.Read.val_main_v76 (F := Ideal) x0 x1 x2 x3 x4 x5 x6 x7 x12)
    (h50 : V c main_v5_0 = Cert.ReferenceIdeal.Read.val_main_v28 (F := Ideal) x0 x1 x2 x3 x4 x5)
    (h49 : ∀ n : Fin 1000000, V c main_v49 (ix2 n 0) = x13 (ix1 n))
    (h8 : V c main_arg8 = x8) (h9 : V c main_arg9 = x9) (h10 : V c main_arg10 = x10) (h11 : V c main_arg11 = x11) :
    (dat2 V c).arrAt 7 cfg2.N = Cert.ReferenceIdeal.Read.val_main_v117 (F := Ideal) x0 x1 x2 x3 x4 x5 x6 x7 x8 x9 x10 x11 x12 x13 :=
  pool_array_of_rows V c x0 x1 x2 x3 x4 x5 x6 x7 x8 x9 x10 x11 x12 x13 h48 h50 h49 h8 h9 h10 h11
    (Cert.Val.PoolRows.tile_rows x0 x1 x2 x3 x4 x5 x6 x7 x8 x9 x10 x11 x12)

end Result

end Cert.Val.Glue2

end
-- ==== Proof.Val.Final.lean ====
/-
  From the program's last valuation to the reference's result.

  The statistics kernel's two arrays are the column sums of h = x·Wᵀ + b and of h²; with them in place
  the normalize kernel's two arrays are the reference's rectified, normalized h and its product with
  the transposed weight; the host stretch between the kernels turns the latter into the aggregated
  messages and reshapes the graph ids; with those in place the pooling kernel's array is the reference's
  result. Each step reads the arrays it needs off the valuation before it: an argument is never written,
  so it is as launched at every item.
-/
import proofs.«407804_j50861002719257_4_alg».proof.Proof.KI.FrameDefs
import proofs.«407804_j50861002719257_4_alg».proof.Proof.Gen.ReferenceIdeal.Read
import proofs.«407804_j50861002719257_4_alg».proof.Proof.Val.Glue0
import proofs.«407804_j50861002719257_4_alg».proof.Proof.Val.Glue1
import proofs.«407804_j50861002719257_4_alg».proof.Proof.Val.Conv
import proofs.«407804_j50861002719257_4_alg».proof.Proof.Val.Finite
import proofs.«407804_j50861002719257_4_alg».proof.Proof.Val.Glue2

set_option maxRecDepth 16384

noncomputable section

open scoped BigOperators

namespace Cert.Val.Final

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ) (c : Dev nD)

/-! ## An array no item writes is as launched at every item -/

theorem V1_arg (r : Ref sig .tc) (h0 : r ∉ hostOps0_W) : V1 m c r = m ((c.tc : Thread nD τ).loc r) :=
  (V1_of m c r h0).trans rfl

theorem V2_arg (r : Ref sig .tc) (h0 : r ∉ hostOps0_W) (h1 : r ∉ ([main_v4_0, main_v4_1] : List (Ref sig .tc))) :
    V2 m (outs m) c r = m ((c.tc : Thread nD τ).loc r) :=
  (V2_of m (outs m) c r h1).trans (V1_arg m c r h0)

theorem V3_arg (r : Ref sig .tc) (h0 : r ∉ hostOps0_W) (h1 : r ∉ ([main_v4_0, main_v4_1] : List (Ref sig .tc)))
    (h2 : r ∉ ([main_v5_0, main_v5_1] : List (Ref sig .tc))) :
    V3 m (outs m) c r = m ((c.tc : Thread nD τ).loc r) :=
  (V3_of m (outs m) c r h2).trans (V2_arg m c r h0 h1)

theorem V4_arg (r : Ref sig .tc) (h0 : r ∉ hostOps0_W) (h1 : r ∉ ([main_v4_0, main_v4_1] : List (Ref sig .tc)))
    (h2 : r ∉ ([main_v5_0, main_v5_1] : List (Ref sig .tc))) (h3 : r ∉ hostOps2_W) :
    V4 m (outs m) c r = m ((c.tc : Thread nD τ).loc r) :=
  (V4_of m (outs m) c r h3).trans (V3_arg m c r h0 h1 h2)

/-! ## The statistics in place -/

/-- After the statistics kernel its two arrays hold the column sums of h and of h² over all rows. -/
theorem sums_eq (d : Fin 2) :
    V2 m (outs m) c main_v4_0 (ix2 0 d) = ∑ n : Fin 1000000, Cert.ReferenceIdeal.Read.val_main_v4 (F := Ideal) (m ((c.tc : Thread nD τ).loc main_arg0)) (m ((c.tc : Thread nD τ).loc main_arg1)) (m ((c.tc : Thread nD τ).loc main_arg2)) (ix2 n d)
    ∧ V2 m (outs m) c main_v4_1 (ix2 0 d) = ∑ n : Fin 1000000, Cert.ReferenceIdeal.Read.val_main_v4 (F := Ideal) (m ((c.tc : Thread nD τ).loc main_arg0)) (m ((c.tc : Thread nD τ).loc main_arg1)) (m ((c.tc : Thread nD τ).loc main_arg2)) (ix2 n d) * Cert.ReferenceIdeal.Read.val_main_v4 (F := Ideal) (m ((c.tc : Thread nD τ).loc main_arg0)) (m ((c.tc : Thread nD τ).loc main_arg1)) (m ((c.tc : Thread nD τ).loc main_arg2)) (ix2 n d) := by
  have hs := Cert.Val.Glue.stats_array (fun c b => V1 m c b) c _ _ _
    (V1_arg m c main_arg0 (by decide)) (V1_arg m c main_arg1 (by decide)) (V1_arg m c main_arg2 (by decide)) d
  rw [V2_v4_0, V2_v4_1]
  exact ⟨(congrFun (o2_arr m c 3) _).trans hs.1, (congrFun (o2_arr m c 4) _).trans hs.2⟩

/-! ## The chain -/

/-- The program's result is the reference's, given what the normalize kernel, the host stretch between
    the kernels and the pooling kernel compute from the arrays before them. -/
theorem result_eq_of
    (hnorm : (∀ d : Fin 2, V2 m (outs m) c main_v4_0 (ix2 0 d) = ∑ n : Fin 1000000, Cert.ReferenceIdeal.Read.val_main_v4 (F := Ideal) (m ((c.tc : Thread nD τ).loc main_arg0)) (m ((c.tc : Thread nD τ).loc main_arg1)) (m ((c.tc : Thread nD τ).loc main_arg2)) (ix2 n d)) →
      (∀ d : Fin 2, V2 m (outs m) c main_v4_1 (ix2 0 d) = ∑ n : Fin 1000000, Cert.ReferenceIdeal.Read.val_main_v4 (F := Ideal) (m ((c.tc : Thread nD τ).loc main_arg0)) (m ((c.tc : Thread nD τ).loc main_arg1)) (m ((c.tc : Thread nD τ).loc main_arg2)) (ix2 n d) * Cert.ReferenceIdeal.Read.val_main_v4 (F := Ideal) (m ((c.tc : Thread nD τ).loc main_arg0)) (m ((c.tc : Thread nD τ).loc main_arg1)) (m ((c.tc : Thread nD τ).loc main_arg2)) (ix2 n d)) →
      (dat1 (fun c b => V2 m (outs m) c b) c).arrAt 9 cfg1.N = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ (dat1 (fun c b => V2 m (outs m) c b) c).arrAt 10 cfg1.N = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (hrow : V1 m c main_v1 = Cert.ReferenceIdeal.Read.val_main_v30 (F := Ideal) (m ((c.tc : Thread nD τ).loc main_arg12)) ∧ V1 m c main_v3 = Cert.ReferenceIdeal.Read.val_main_v32 (F := Ideal) (m ((c.tc : Thread nD τ).loc main_arg12)))
    (hconv : V3 m (outs m) c main_v5_1 = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) →
      V3 m (outs m) c main_arg7 = (m ((c.tc : Thread nD τ).loc main_arg7)) → V3 m (outs m) c main_arg12 = (m ((c.tc : Thread nD τ).loc main_arg12)) →
      V3 m (outs m) c main_v1 = Cert.ReferenceIdeal.Read.val_main_v30 (F := Ideal) (m ((c.tc : Thread nD τ).loc main_arg12)) → V3 m (outs m) c main_v3 = Cert.ReferenceIdeal.Read.val_main_v32 (F := Ideal) (m ((c.tc : Thread nD τ).loc main_arg12)) →
      V4 m (outs m) c main_v48 = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)))
    (hb2d : ∀ n : Fin 1000000, V4 m (outs m) c main_v49 (ix2 n 0) = V3 m (outs m) c main_arg13 (ix1 n))
    (hpool : V4 m (outs m) c main_v48 = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) →
      V4 m (outs m) c main_v5_0 = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) →
      (∀ n : Fin 1000000, V4 m (outs m) c main_v49 (ix2 n 0) = (m ((c.tc : Thread nD τ).loc main_arg13)) (ix1 n)) →
      V4 m (outs m) c main_arg8 = (m ((c.tc : Thread nD τ).loc main_arg8)) → V4 m (outs m) c main_arg9 = (m ((c.tc : Thread nD τ).loc main_arg9)) →
      V4 m (outs m) c main_arg10 = (m ((c.tc : Thread nD τ).loc main_arg10)) → V4 m (outs m) c main_arg11 = (m ((c.tc : Thread nD τ).loc main_arg11)) →
      (dat2 (fun c b => V4 m (outs m) c b) c).arrAt 7 cfg2.N = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :
    V5 m (outs m) c main_v50 = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  -- the normalize kernel's two arrays
  obtain ⟨n9, n10⟩ := hnorm (fun d => (sums_eq m c d).1) (fun d => (sums_eq m c d).2)
  have h50 : V3 m (outs m) c main_v5_0 = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (V3_v5_0 m c).trans ((o3_arr m c 9).trans n9)
  have h51 : V3 m (outs m) c main_v5_1 = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    (V3_v5_1 m c).trans ((o3_arr m c 10).trans n10)
  -- the host stretch between the kernels
  have h1 : V3 m (outs m) c main_v1 = Cert.ReferenceIdeal.Read.val_main_v30 (F := Ideal) (m ((c.tc : Thread nD τ).loc main_arg12)) :=
    (V3_of m (outs m) c main_v1 (by decide)).trans ((V2_of m (outs m) c main_v1 (by decide)).trans hrow.1)
  have h3 : V3 m (outs m) c main_v3 = Cert.ReferenceIdeal.Read.val_main_v32 (F := Ideal) (m ((c.tc : Thread nD τ).loc main_arg12)) :=
    (V3_of m (outs m) c main_v3 (by decide)).trans ((V2_of m (outs m) c main_v3 (by decide)).trans hrow.2)
  have h48 := hconv h51 (V3_arg m c main_arg7 (by decide) (by decide) (by decide))
    (V3_arg m c main_arg12 (by decide) (by decide) (by decide)) h1 h3
  have h49 : ∀ n : Fin 1000000, V4 m (outs m) c main_v49 (ix2 n 0) = (m ((c.tc : Thread nD τ).loc main_arg13)) (ix1 n) := fun n =>
    (hb2d n).trans (congrFun (V3_arg m c main_arg13 (by decide) (by decide) (by decide)) (ix1 n))
  -- the pooling kernel's array
  have h7 := hpool h48 ((V4_of m (outs m) c main_v5_0 (by decide)).trans h50) h49
    (V4_arg m c main_arg8 (by decide) (by decide) (by decide) (by decide))
    (V4_arg m c main_arg9 (by decide) (by decide) (by decide) (by decide))
    (V4_arg m c main_arg10 (by decide) (by decide) (by decide) (by decide))
    (V4_arg m c main_arg11 (by decide) (by decide) (by decide) (by decide))
  exact (V5_v50 m c).trans ((o5_arr m c 7).trans h7)

/-- The program's result is the reference's, for finite float arguments, given what the pooling kernel
    computes from the arrays before it. -/
theorem result_eq_of_pool
    (hfin : Cert.Val.Finite.AllReal (s := Cert.KernelIdeal.S1000000x2) (m ((c.tc : Thread nD τ).loc main_arg0))
      ∧ Cert.Val.Finite.AllReal (s := Cert.KernelIdeal.S2x2) (m ((c.tc : Thread nD τ).loc main_arg1))
      ∧ Cert.Val.Finite.AllReal (s := Cert.KernelIdeal.S2) (m ((c.tc : Thread nD τ).loc main_arg2))
      ∧ Cert.Val.Finite.AllReal (s := Cert.KernelIdeal.S2) (m ((c.tc : Thread nD τ).loc main_arg3))
      ∧ Cert.Val.Finite.AllReal (s := Cert.KernelIdeal.S2) (m ((c.tc : Thread nD τ).loc main_arg4))
      ∧ Cert.Val.Finite.AllReal (s := Cert.KernelIdeal.S2) (m ((c.tc : Thread nD τ).loc main_arg5))
      ∧ Cert.Val.Finite.AllReal (s := Cert.KernelIdeal.S2x2) (m ((c.tc : Thread nD τ).loc main_arg6))
      ∧ Cert.Val.Finite.AllReal (s := Cert.KernelIdeal.S2) (m ((c.tc : Thread nD τ).loc main_arg7))
      ∧ Cert.Val.Finite.AllReal (s := Cert.KernelIdeal.S64x2) (m ((c.tc : Thread nD τ).loc main_arg8))
      ∧ Cert.Val.Finite.AllReal (s := Cert.KernelIdeal.S64) (m ((c.tc : Thread nD τ).loc main_arg9))
      ∧ Cert.Val.Finite.AllReal (s := Cert.KernelIdeal.S2x64) (m ((c.tc : Thread nD τ).loc main_arg10))
      ∧ Cert.Val.Finite.AllReal (s := Cert.KernelIdeal.S2) (m ((c.tc : Thread nD τ).loc main_arg11)))
    (hpool : V4 m (outs m) c main_v48 = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) →
      V4 m (outs m) c main_v5_0 = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) →
      (∀ n : Fin 1000000, V4 m (outs m) c main_v49 (ix2 n 0) = (m ((c.tc : Thread nD τ).loc main_arg13)) (ix1 n)) →
      V4 m (outs m) c main_arg8 = (m ((c.tc : Thread nD τ).loc main_arg8)) → V4 m (outs m) c main_arg9 = (m ((c.tc : Thread nD τ).loc main_arg9)) →
      V4 m (outs m) c main_arg10 = (m ((c.tc : Thread nD τ).loc main_arg10)) → V4 m (outs m) c main_arg11 = (m ((c.tc : Thread nD τ).loc main_arg11)) →
      (dat2 (fun c b => V4 m (outs m) c b) c).arrAt 7 cfg2.N = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :
    V5 m (outs m) c main_v50 = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  obtain ⟨f0, f1, f2, f3, f4, f5, f6, f7, f8, f9, f10, f11⟩ := hfin
  exact result_eq_of m c
    (fun hsu hsq => Cert.Val.Glue.norm_arrays (fun c b => V2 m (outs m) c b) c _ _ _ _ _ _ _
      (V2_arg m c main_arg0 (by decide) (by decide)) (V2_arg m c main_arg1 (by decide) (by decide))
      (V2_arg m c main_arg2 (by decide) (by decide)) (V2_arg m c main_arg3 (by decide) (by decide))
      (V2_arg m c main_arg4 (by decide) (by decide)) (V2_arg m c main_arg5 (by decide) (by decide))
      (V2_arg m c main_arg6 (by decide) (by decide)) hsu hsq f0 f1 f2 f5)
    (Cert.Val.Conv.rowcol_value (V0 m c) _ rfl)
    (fun h51 h7 h12 h1 h3 => Cert.Val.Conv.conv_value (V3 m (outs m) c) _ _ _ _ _ _ _ _ _ h51 h7 h12 h1 h3)
    (fun n => Cert.Val.Conv.batch2d_value (V3 m (outs m) c) n)
    hpool

/-- The program's result is the reference's, for finite float arguments. -/
theorem result_eq
    (hfin : Cert.Val.Finite.AllReal (s := Cert.KernelIdeal.S1000000x2) (m ((c.tc : Thread nD τ).loc main_arg0))
      ∧ Cert.Val.Finite.AllReal (s := Cert.KernelIdeal.S2x2) (m ((c.tc : Thread nD τ).loc main_arg1))
      ∧ Cert.Val.Finite.AllReal (s := Cert.KernelIdeal.S2) (m ((c.tc : Thread nD τ).loc main_arg2))
      ∧ Cert.Val.Finite.AllReal (s := Cert.KernelIdeal.S2) (m ((c.tc : Thread nD τ).loc main_arg3))
      ∧ Cert.Val.Finite.AllReal (s := Cert.KernelIdeal.S2) (m ((c.tc : Thread nD τ).loc main_arg4))
      ∧ Cert.Val.Finite.AllReal (s := Cert.KernelIdeal.S2) (m ((c.tc : Thread nD τ).loc main_arg5))
      ∧ Cert.Val.Finite.AllReal (s := Cert.KernelIdeal.S2x2) (m ((c.tc : Thread nD τ).loc main_arg6))
      ∧ Cert.Val.Finite.AllReal (s := Cert.KernelIdeal.S2) (m ((c.tc : Thread nD τ).loc main_arg7))
      ∧ Cert.Val.Finite.AllReal (s := Cert.KernelIdeal.S64x2) (m ((c.tc : Thread nD τ).loc main_arg8))
      ∧ Cert.Val.Finite.AllReal (s := Cert.KernelIdeal.S64) (m ((c.tc : Thread nD τ).loc main_arg9))
      ∧ Cert.Val.Finite.AllReal (s := Cert.KernelIdeal.S2x64) (m ((c.tc : Thread nD τ).loc main_arg10))
      ∧ Cert.Val.Finite.AllReal (s := Cert.KernelIdeal.S2) (m ((c.tc : Thread nD τ).loc main_arg11))) :
    V5 m (outs m) c main_v50 = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  result_eq_of_pool m c hfin (fun h48 h50 h49 h8 h9 h10 h11 =>
    Cert.Val.Glue2.pool_array (fun c b => V4 m (outs m) c b) c
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      h48 h50 h49 h8 h9 h10 h11)

end Cert.Val.Final

end
-- ==== Proof.RefImports.lean ====
/-
  The reference program's run and its read-at-an-index lemmas, gathered for the modules that
  compare the reference's result with the kernel's.
-/
import proofs.«407804_j50861002719257_4_alg».proof.Proof.Gen.ReferenceIdeal.Run
import proofs.«407804_j50861002719257_4_alg».proof.Proof.Gen.ReferenceIdeal.Read
-- ==== Proof.lean ====
/-
  The certificate of a three-kernel graph network against its plain reference.

  The program runs a statistics kernel (column sums of h = x·Wᵀ + b and of h² over 125 tiles), a
  normalize kernel (the graph normalisation with those sums, a rectifier, and the graph convolution's
  weight), a host stretch that aggregates over the edges (degree counts by scatter-add, two gathers,
  the message scatter-add, the self-loop term, the bias), and a pooling kernel (residual, two dense
  layers around a per-row normalisation, and a scatter-mean over the batch vector done as a one-hot
  matrix product accumulated over 500 tiles).

  Frames: each kernel is a segment of the program between known valuations of the unscoped buffers;
  the reference is a straight line of host operations. Values, on the extended reals: the kernel's
  variance meansq − mean²·(2s − s²) is the reference's mean of (h − mean·s)², by expanding the square
  (this uses that x, the first layer's weight and bias, and the mean scale are finite); the self-loop
  weight rsqrt(deg)² is 1/deg because deg is a count plus one; and the one-hot matrix product sums, for
  each graph, exactly the rows whose batch entry names it, which is what the scatter-add leaves.
-/
import proofs.«407804_j50861002719257_4_alg».proof.Defs
import proofs.«407804_j50861002719257_4_alg».proof.Proof.Gen.Kernel
import proofs.«407804_j50861002719257_4_alg».proof.Proof.Gen.KernelIdeal
import proofs.«407804_j50861002719257_4_alg».proof.Proof.Gen.ReferenceIdeal
import proofs.«407804_j50861002719257_4_alg».proof.Proof.Gen.Pre_finite_inputs
import proofs.«407804_j50861002719257_4_alg».proof.Proof.K.Frame
import proofs.«407804_j50861002719257_4_alg».proof.Proof.KI.RunRes
import proofs.«407804_j50861002719257_4_alg».proof.Proof.Val.Final
import proofs.«407804_j50861002719257_4_alg».proof.Proof.Val.Finite
import proofs.«407804_j50861002719257_4_alg».proof.Proof.RefImports
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result array ends at what the pooling kernel's pipeline leaves, the
    reference's at its last stage of arguments that agree: one array (`result_eq`). -/
theorem algebraic : Cert.algebraic_KernelIdeal_ReferenceIdeal := by
  intro m ρ m' ρ' hpre hagree
  refine ⟨fun c => Cert.KernelIdeal.Gen.V5 m (Cert.KernelIdeal.Gen.outs m) c Cert.KernelIdeal.main_v50,
    Cert.KernelIdeal.Gen.run_res m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v117_eq]
  obtain ⟨e0, e1, e2, e3, e4, e5, e6, e7, e8, e9, e10, e11, e12, e13⟩ := hagree c
  rw [e0, e1, e2, e3, e4, e5, e6, e7, e8, e9, e10, e11, e12, e13]
  exact (Cert.Val.Final.result_eq m c (Cert.Val.Finite.finite_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
